-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x256 : Shape := ⟨2, ![4096, 256]⟩
abbrev S256x256 : Shape := ⟨2, ![256, 256]⟩
abbrev S1x256 : Shape := ⟨2, ![1, 256]⟩
abbrev S512x256 : Shape := ⟨2, ![512, 256]⟩
abbrev S256x3 : Shape := ⟨2, ![256, 3]⟩
abbrev S1x3 : Shape := ⟨2, ![1, 3]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S512x256 : S_.BroadcastsInDim S512x256 (![] : Fin 0 → Fin S512x256.rank)
  reducesTo_S512x256_S_d0_1 : S512x256.ReducesTo [0, 1] S_
  bcast_S_S256x3 : S_.BroadcastsInDim S256x3 (![] : Fin 0 → Fin S256x3.rank)
  reducesTo_S256x3_S_d0_1 : S256x3.ReducesTo [0, 1] S_
  bcast_S_S1x3 : S_.BroadcastsInDim S1x3 (![] : Fin 0 → Fin S1x3.rank)
  reducesTo_S1x3_S_d0_1 : S1x3.ReducesTo [0, 1] S_

variable [Facts]

def fn_part2 {F : FTy → Type} [FloatOps F] (main_arg7 : FVec F S1x3 .f32) (main_v33 : IVec S_ 1) : IVec S_ 1 :=
  let main_v34 : FVec F S1x3 .f32 := Host.absf main_arg7
  let main_cst_12 : FVec F S_ .f32 := constant S_ .f32 0x7F800000#32
  let main_v35 : FVec F S1x3 .f32 := broadcastInDim S1x3 ![] bcast_S_S1x3 main_cst_12
  let main_v36 : IVec S1x3 1 := cmpf .olt main_v34 main_v35
  let main_c_13 : IVec S_ 1 := constantI S_ 1 1#1
  let main_v37 : IVec S_ 1 := (fun x v => Host.reduce IntOp.andi x v reducesTo_S1x3_S_d0_1 h_S_) main_v36 main_c_13
  let main_v38 : IVec S_ 1 := andi main_v33 main_v37
  main_v38

def fn_part1 {F : FTy → Type} [FloatOps F] (main_arg4 : FVec F S512x256 .f32) (main_arg5 : FVec F S1x256 .f32) (main_arg6 : FVec F S256x3 .f32) (main_arg7 : FVec F S1x3 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S1x256 .f32 := Host.absf main_arg5
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  let main_v29 : FVec F S256x3 .f32 := Host.absf main_arg6
  let main_cst_10 : FVec F S_ .f32 := constant S_ .f32 0x7F800000#32
  let main_v30 : FVec F S256x3 .f32 := broadcastInDim S256x3 ![] bcast_S_S256x3 main_cst_10
  let main_v31 : IVec S256x3 1 := cmpf .olt main_v29 main_v30
  let main_c_11 : IVec S_ 1 := constantI S_ 1 1#1
  let main_v32 : IVec S_ 1 := (fun x v => Host.reduce IntOp.andi x v reducesTo_S256x3_S_d0_1 h_S_) main_v31 main_c_11
  let main_v33 : IVec S_ 1 := andi main_v28 main_v32
  fn_part2 (F := F) main_arg7 main_v33

def fn {F : FTy → Type} [FloatOps F] (main_arg0 : FVec F S4096x4096 .f32) (main_arg1 : FVec F S4096x256 .f32) (main_arg2 : FVec F S256x256 .f32) (main_arg3 : FVec F S1x256 .f32) (main_arg4 : FVec F S512x256 .f32) (main_arg5 : FVec F S1x256 .f32) (main_arg6 : FVec F S256x3 .f32) (main_arg7 : FVec F S1x3 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg4 main_arg5 main_arg6 main_arg7 main_v13 main_v16
-- ==== Kernel.lean ====
abbrev S4096x4096 : Shape := ⟨2, ![4096, 4096]⟩
abbrev S4096x256 : Shape := ⟨2, ![4096, 256]⟩
abbrev S256x256 : Shape := ⟨2, ![256, 256]⟩
abbrev S1x256 : Shape := ⟨2, ![1, 256]⟩
abbrev S512x256 : Shape := ⟨2, ![512, 256]⟩
abbrev S256x3 : Shape := ⟨2, ![256, 3]⟩
abbrev S1x3 : Shape := ⟨2, ![1, 3]⟩
abbrev S_ : Shape := ⟨0, ![]⟩
abbrev S256x128 : Shape := ⟨2, ![256, 128]⟩
abbrev S1x128 : Shape := ⟨2, ![1, 128]⟩
abbrev S4096x128 : Shape := ⟨2, ![4096, 128]⟩
abbrev S4096x3 : Shape := ⟨2, ![4096, 3]⟩
abbrev S4096x1 : Shape := ⟨2, ![4096, 1]⟩
abbrev S4096 : Shape := ⟨1, ![4096]⟩

abbrev nBuf : Space → Nat
  | .hbm => 51
  | .vmem => 21
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S256x256, .f32⟩
  | .hbm, ⟨3, _⟩ => ⟨S1x256, .f32⟩
  | .hbm, ⟨4, _⟩ => ⟨S512x256, .f32⟩
  | .hbm, ⟨5, _⟩ => ⟨S1x256, .f32⟩
  | .hbm, ⟨6, _⟩ => ⟨S256x3, .f32⟩
  | .hbm, ⟨7, _⟩ => ⟨S1x3, .f32⟩
  | .hbm, ⟨8, _⟩ => ⟨S_, .i32⟩
  | .hbm, ⟨9, _⟩ => ⟨S_, .f32⟩
  | .hbm, ⟨10, _⟩ => ⟨S4096x4096, .f32⟩
  | .hbm, ⟨11, _⟩ => ⟨S_, .i32⟩
  | .hbm, ⟨12, _⟩ => ⟨S_, .f32⟩
  | .hbm, ⟨13, _⟩ => ⟨S4096x256, .f32⟩
  | .hbm, ⟨14, _⟩ => ⟨S_, .i32⟩
  | .hbm, ⟨15, _⟩ => ⟨S_, .f32⟩
  | .hbm, ⟨16, _⟩ => ⟨S256x256, .f32⟩
  | .hbm, ⟨17, _⟩ => ⟨S256x256, .bf16⟩
  | .hbm, ⟨18, _⟩ => ⟨S256x256, .f32⟩
  | .hbm, ⟨19, _⟩ => ⟨S_, .i32⟩
  | .hbm, ⟨20, _⟩ => ⟨S_, .f32⟩
  | .hbm, ⟨21, _⟩ => ⟨S256x256, .f32⟩
  | .hbm, ⟨22, _⟩ => ⟨S256x256, .bf16⟩
  | .hbm, ⟨23, _⟩ => ⟨S256x256, .f32⟩
  | .hbm, ⟨24, _⟩ => ⟨S_, .i32⟩
  | .hbm, ⟨25, _⟩ => ⟨S_, .f32⟩
  | .hbm, ⟨26, _⟩ => ⟨S256x256, .f32⟩
  | .hbm, ⟨27, _⟩ => ⟨S256x256, .bf16⟩
  | .hbm, ⟨28, _⟩ => ⟨S_, .i32⟩
  | .hbm, ⟨29, _⟩ => ⟨S_, .f32⟩
  | .hbm, ⟨30, _⟩ => ⟨S256x128, .f32⟩
  | .hbm, ⟨31, _⟩ => ⟨S256x128, .bf16⟩
  | .hbm, ⟨32, _⟩ => ⟨S_, .i32⟩
  | .hbm, ⟨33, _⟩ => ⟨S_, .f32⟩
  | .hbm, ⟨34, _⟩ => ⟨S1x256, .f32⟩
  | .hbm, ⟨35, _⟩ => ⟨S_, .i32⟩
  | .hbm, ⟨36, _⟩ => ⟨S_, .f32⟩
  | .hbm, ⟨37, _⟩ => ⟨S1x256, .f32⟩
  | .hbm, ⟨38, _⟩ => ⟨S_, .i32⟩
  | .hbm, ⟨39, _⟩ => ⟨S_, .f32⟩
  | .hbm, ⟨40, _⟩ => ⟨S1x128, .f32⟩
  | .hbm, ⟨41, _⟩ => ⟨S4096x256, .bf16⟩
  | .hbm, ⟨42, _⟩ => ⟨S4096x256, .f32⟩
  | .hbm, ⟨43, _⟩ => ⟨S4096x128, .f32⟩
  | .hbm, ⟨44, _⟩ => ⟨S4096x3, .f32⟩
  | .hbm, ⟨45, _⟩ => ⟨S4096x1, .f32⟩
  | .hbm, ⟨46, _⟩ => ⟨S4096, .f32⟩
  | .hbm, ⟨47, _⟩ => ⟨S4096x1, .f32⟩
  | .hbm, ⟨48, _⟩ => ⟨S4096, .f32⟩
  | .hbm, ⟨49, _⟩ => ⟨S4096x1, .f32⟩
  | .hbm, ⟨50, _⟩ => ⟨S4096, .f32⟩
  | .local _ .vmem, ⟨0, _⟩ => ⟨S256x256, .f32⟩
  | .local _ .vmem, ⟨1, _⟩ => ⟨S256x256, .f32⟩
  | .local _ .vmem, ⟨2, _⟩ => ⟨S4096x256, .f32⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S1x256, .f32⟩
  | .local _ .vmem, ⟨7, _⟩ => ⟨S256x256, .bf16⟩
  | .local _ .vmem, ⟨8, _⟩ => ⟨S256x256, .bf16⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S4096x256, .bf16⟩
  | .local _ .vmem, ⟨13, _⟩ => ⟨S1x256, .f32⟩
  | .local _ .vmem, ⟨14, _⟩ => ⟨S256x128, .bf16⟩
  | .local _ .vmem, ⟨15, _⟩ => ⟨S1x128, .f32⟩
  | .local _ .vmem, ⟨16, _⟩ => ⟨S256x256, .f32⟩
  | .local _ .vmem, ⟨17, _⟩ => ⟨S256x256, .f32⟩
  | .local _ .vmem, ⟨18, _⟩ => ⟨S256x128, .f32⟩
  | .local _ .vmem, ⟨19, _⟩ => ⟨S256x128, .f32⟩
  | .local _ .vmem, ⟨20, _⟩ => ⟨S256x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_call0_v0 : Ref sig .tc := ⟨.hbm, 9, rfl⟩
abbrev main_call0_v0 : Ref sig .tc := ⟨.hbm, 10, rfl⟩
abbrev main_call0_c_0 : Ref sig .tc := ⟨.hbm, 11, rfl⟩
abbrev main_call0_call1_v0 : Ref sig .tc := ⟨.hbm, 12, rfl⟩
abbrev main_call0_v1 : Ref sig .tc := ⟨.hbm, 13, rfl⟩
abbrev main_call0_c_1 : Ref sig .tc := ⟨.hbm, 14, rfl⟩
abbrev main_call0_call2_v0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_2 : Ref sig .tc := ⟨.hbm, 19, rfl⟩
abbrev main_call0_call3_v0 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_c_3 : Ref sig .tc := ⟨.hbm, 24, rfl⟩
abbrev main_call0_call4_v0 : Ref sig .tc := ⟨.hbm, 25, rfl⟩
abbrev main_call0_v8 : Ref sig .tc := ⟨.hbm, 26, rfl⟩
abbrev main_call0_v9 : Ref sig .tc := ⟨.hbm, 27, rfl⟩
abbrev main_call0_c_4 : Ref sig .tc := ⟨.hbm, 28, rfl⟩
abbrev main_call0_call5_v0 : Ref sig .tc := ⟨.hbm, 29, rfl⟩
abbrev main_call0_v10 : Ref sig .tc := ⟨.hbm, 30, rfl⟩
abbrev main_call0_v11 : Ref sig .tc := ⟨.hbm, 31, rfl⟩
abbrev main_call0_c_5 : Ref sig .tc := ⟨.hbm, 32, rfl⟩
abbrev main_call0_call6_v0 : Ref sig .tc := ⟨.hbm, 33, rfl⟩
abbrev main_call0_v12 : Ref sig .tc := ⟨.hbm, 34, rfl⟩
abbrev main_call0_c_6 : Ref sig .tc := ⟨.hbm, 35, rfl⟩
abbrev main_call0_call7_v0 : Ref sig .tc := ⟨.hbm, 36, rfl⟩
abbrev main_call0_v13 : Ref sig .tc := ⟨.hbm, 37, rfl⟩
abbrev main_call0_c_7 : Ref sig .tc := ⟨.hbm, 38, rfl⟩
abbrev main_call0_call8_v0 : Ref sig .tc := ⟨.hbm, 39, rfl⟩
abbrev main_call0_v14 : Ref sig .tc := ⟨.hbm, 40, rfl⟩
abbrev main_call0_v15 : Ref sig .tc := ⟨.hbm, 41, rfl⟩
abbrev main_v0_0 : Ref sig .tc := ⟨.hbm, 42, rfl⟩
abbrev main_call0_v16_1 : Ref sig .tc := ⟨.hbm, 43, rfl⟩
abbrev main_call0_v17 : Ref sig .tc := ⟨.hbm, 44, rfl⟩
abbrev main_call0_v18 : Ref sig .tc := ⟨.hbm, 45, rfl⟩
abbrev main_v0_1 : Ref sig .tc := ⟨.hbm, 46, rfl⟩
abbrev main_call0_v20 : Ref sig .tc := ⟨.hbm, 47, rfl⟩
abbrev main_v0_2 : Ref sig .tc := ⟨.hbm, 48, rfl⟩
abbrev main_call0_v22 : Ref sig .tc := ⟨.hbm, 49, rfl⟩
abbrev main_v0_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c256_i32 : BitVec 32 := 256#32
  let v6 : BitVec 32 := Scalar.muli arg1 c256_i32
  v6
def k0_off1 (i : grid0.Coords) : Fin 2 → Nat :=
  let arg1 : BitVec 32 := BitVec.ofNat 32 (i 1).val
  let c256_i32 : BitVec 32 := 256#32
  let v6 : BitVec 32 := Scalar.muli arg1 c256_i32
  let v7 : BitVec 32 := v6
  let v8 : Index := Scalar.indexCast v7
  let c0_2 : Index := 0#32
  ![v8.toNat, 0]
def k0_cond2 (i : grid0.Coords) : BitVec 1 :=
  let arg1 : BitVec 32 := BitVec.ofNat 32 (i 1).val
  let c15_i32 : BitVec 32 := 15#32
  let v18 : BitVec 1 := Scalar.cmpi .eq arg1 c15_i32
  let v19 : BitVec 32 := Scalar.extui v18
  let c0_i32_7 : BitVec 32 := 0#32
  let v20 : BitVec 1 := Scalar.cmpi .ne v19 c0_i32_7
  v20

def k0_mult2 (i : grid0.Coords) : BitVec 32 :=
  let arg0 : BitVec 32 := BitVec.ofNat 32 (i 0).val
  let c256_i32_17 : BitVec 32 := 256#32
  let v35 : BitVec 32 := Scalar.muli arg0 c256_i32_17
  v35
def k0_off2 (i : grid0.Coords) : Fin 2 → Nat :=
  let arg0 : BitVec 32 := BitVec.ofNat 32 (i 0).val
  let c256_i32_17 : BitVec 32 := 256#32
  let v35 : BitVec 32 := Scalar.muli arg0 c256_i32_17
  let v36 : BitVec 32 := v35
  let v37 : Index := Scalar.indexCast v36
  let c0_18 : Index := 0#32
  ![v37.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![16, 16], ![false, false]⟩

def k1_mult1 (i : grid1.Coords) : BitVec 32 :=
  let arg1 : BitVec 32 := BitVec.ofNat 32 (i 1).val
  let c256_i32 : BitVec 32 := 256#32
  let v6 : BitVec 32 := Scalar.muli arg1 c256_i32
  v6
def k1_off1 (i : grid1.Coords) : Fin 2 → Nat :=
  let arg1 : BitVec 32 := BitVec.ofNat 32 (i 1).val
  let c256_i32 : BitVec 32 := 256#32
  let v6 : BitVec 32 := Scalar.muli arg1 c256_i32
  let v7 : BitVec 32 := v6
  let v9 : Index := Scalar.indexCast v7
  let c0_4 : Index := 0#32
  ![v9.toNat, 0]
def k1_cond2 (i : grid1.Coords) : BitVec 1 :=
  let arg1 : BitVec 32 := BitVec.ofNat 32 (i 1).val
  let c15_i32 : BitVec 32 := 15#32
  let v17 : BitVec 1 := Scalar.cmpi .eq arg1 c15_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S256x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  pads_S4096x4096_S4096x4096_000_000 : S4096x4096.Pads (![0, 0] : Fin 2 → Nat) ![0, 0] ![0, 0] S4096x4096
  h_S_ : 0 < S_.numel
  pads_S4096x256_S4096x256_000_000 : S4096x256.Pads (![0, 0] : Fin 2 → Nat) ![0, 0] ![0, 0] S4096x256
  pads_S256x256_S256x256_000_000 : S256x256.Pads (![0, 0] : Fin 2 → Nat) ![0, 0] ![0, 0] S256x256
  bitsLt_bf16_f32 : FTy.bits .bf16 < FTy.bits .f32
  slices_S512x256_S256x256_0_0 : S512x256.Slices ![0, 0] S256x256
  slices_S512x256_S256x256_256_0 : S512x256.Slices ![256, 0] S256x256
  pads_S256x3_S256x128_000_01250 : S256x3.Pads (![0, 0] : Fin 2 → Nat) ![0, 125] ![0, 0] S256x128
  pads_S1x256_S1x256_000_000 : S1x256.Pads (![0, 0] : Fin 2 → Nat) ![0, 0] ![0, 0] S1x256
  pads_S1x3_S1x128_000_01250 : S1x3.Pads (![0, 0] : Fin 2 → Nat) ![0, 125] ![0, 0] S1x128
  slices_S4096x128_S4096x3_0_0 : S4096x128.Slices ![0, 0] S4096x3
  slices_S4096x3_S4096x1_0_0 : S4096x3.Slices ![0, 0] S4096x1
  shapeCasts_S4096x1_S4096 : S4096x1.ShapeCasts S4096
  slices_S4096x3_S4096x1_0_1 : S4096x3.Slices ![0, 1] S4096x1
  slices_S4096x3_S4096x1_0_2 : S4096x3.Slices ![0, 2] S4096x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  packedbf16_S256x256_S256x256_0_0 : (Rect.unit (s := S256x256) ![0, 0] S256x256.size inb_S256x256_S256x256_0_0).PackedRows (EltTy.packing .bf16)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  dot_S256x256_S256x256_S256x256_1_0_0_1_n_n_wf : DotDims.WF S256x256 S256x256 S256x256 [1] [0] [0] [1] [] []
  dot_S256x256_S256x128_S256x128_1_0_0_1_n_n_wf : DotDims.WF S256x256 S256x128 S256x128 [1] [0] [0] [1] [] []
  hrank0 : 0 < grid0.rank
  k0_mult1_dvd : ∀ i : grid0.Coords, 256 ∣ (k0_mult1 i).toNat
  k0_off1_inb : ∀ i : grid0.Coords, ∀ a, (k0_off1 i) a + S256x256.size a ≤ S4096x256.size a
  k0_mult2_dvd : ∀ i : grid0.Coords, ∀ (k0_h2 : k0_cond2 i = 1#1), 256 ∣ (k0_mult2 i).toNat
  k0_off2_inb : ∀ i : grid0.Coords, ∀ (k0_h2 : k0_cond2 i = 1#1), ∀ a, (k0_off2 i) a + S256x256.size a ≤ S4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x4096.size a
  hwx0_0 : ∀ i : grid0.Coords, EltTy.bits .f32 = 32 ∨ (Rect.block (s := S4096x4096) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S4096x256.size a
  hwx0_6 : ∀ i : grid0.Coords, EltTy.bits .bf16 = 32 ∨ (Rect.block (s := S4096x256) S256x256.size (cc0_transform_6 i) (hinb0_6 i)).WholeWords (EltTy.packing .bf16)
  hrank1 : 0 < grid1.rank
  k1_mult1_dvd : ∀ i : grid1.Coords, 256 ∣ (k1_mult1 i).toNat
  k1_off1_inb : ∀ i : grid1.Coords, ∀ a, (k1_off1 i) a + S256x256.size a ≤ S4096x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S4096x4096.size a
  hwx1_0 : ∀ i : grid1.Coords, EltTy.bits .f32 = 32 ∨ (Rect.block (s := S4096x4096) S256x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .bf16 = 32 ∨ (Rect.block (s := S4096x256) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S4096x256.size a
  hwx1_5 : ∀ i : grid1.Coords, EltTy.bits .f32 = 32 ∨ (Rect.block (s := S4096x256) S256x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x128.size a ≤ S4096x128.size a
  hwx1_6 : ∀ i : grid1.Coords, EltTy.bits .f32 = 32 ∨ (Rect.block (s := S4096x128) S256x128.size (cc1_transform_6 i) (hinb1_6 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf

abbrev win0_0 : Pipeline.Window sig grid0 :=
  Pipeline.Window.ofSpec (Memref.whole main_call0_v0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v9) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v12) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v15) S256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_call0_v0) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v15) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v13) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v11) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v14) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0_0) S256x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_call0_v16_1) S256x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x256 : Shape := ⟨2, ![4096, 256]⟩
abbrev S256x256 : Shape := ⟨2, ![256, 256]⟩
abbrev S1x256 : Shape := ⟨2, ![1, 256]⟩
abbrev S512x256 : Shape := ⟨2, ![512, 256]⟩
abbrev S256x3 : Shape := ⟨2, ![256, 3]⟩
abbrev S1x3 : Shape := ⟨2, ![1, 3]⟩
abbrev S_ : Shape := ⟨0, ![]⟩
abbrev S256x128 : Shape := ⟨2, ![256, 128]⟩
abbrev S1x128 : Shape := ⟨2, ![1, 128]⟩
abbrev S4096x128 : Shape := ⟨2, ![4096, 128]⟩
abbrev S4096x3 : Shape := ⟨2, ![4096, 3]⟩
abbrev S4096x1 : Shape := ⟨2, ![4096, 1]⟩
abbrev S4096 : Shape := ⟨1, ![4096]⟩

abbrev nBuf : Space → Nat
  | .hbm => 56
  | .vmem => 29
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S256x256, .f32⟩
  | .hbm, ⟨3, _⟩ => ⟨S1x256, .f32⟩
  | .hbm, ⟨4, _⟩ => ⟨S512x256, .f32⟩
  | .hbm, ⟨5, _⟩ => ⟨S1x256, .f32⟩
  | .hbm, ⟨6, _⟩ => ⟨S256x3, .f32⟩
  | .hbm, ⟨7, _⟩ => ⟨S1x3, .f32⟩
  | .hbm, ⟨8, _⟩ => ⟨S_, .i32⟩
  | .hbm, ⟨9, _⟩ => ⟨S_, .f32⟩
  | .hbm, ⟨10, _⟩ => ⟨S4096x4096, .f32⟩
  | .hbm, ⟨11, _⟩ => ⟨S4096x4096, .bf16⟩
  | .hbm, ⟨12, _⟩ => ⟨S_, .i32⟩
  | .hbm, ⟨13, _⟩ => ⟨S_, .f32⟩
  | .hbm, ⟨14, _⟩ => ⟨S4096x256, .f32⟩
  | .hbm, ⟨15, _⟩ => ⟨S4096x256, .bf16⟩
  | .hbm, ⟨16, _⟩ => ⟨S_, .i32⟩
  | .hbm, ⟨17, _⟩ => ⟨S_, .f32⟩
  | .hbm, ⟨18, _⟩ => ⟨S256x256, .f32⟩
  | .hbm, ⟨19, _⟩ => ⟨S256x256, .bf16⟩
  | .hbm, ⟨20, _⟩ => ⟨S256x256, .f32⟩
  | .hbm, ⟨21, _⟩ => ⟨S_, .i32⟩
  | .hbm, ⟨22, _⟩ => ⟨S_, .f32⟩
  | .hbm, ⟨23, _⟩ => ⟨S256x256, .f32⟩
  | .hbm, ⟨24, _⟩ => ⟨S256x256, .bf16⟩
  | .hbm, ⟨25, _⟩ => ⟨S256x256, .f32⟩
  | .hbm, ⟨26, _⟩ => ⟨S_, .i32⟩
  | .hbm, ⟨27, _⟩ => ⟨S_, .f32⟩
  | .hbm, ⟨28, _⟩ => ⟨S256x256, .f32⟩
  | .hbm, ⟨29, _⟩ => ⟨S256x256, .bf16⟩
  | .hbm, ⟨30, _⟩ => ⟨S_, .i32⟩
  | .hbm, ⟨31, _⟩ => ⟨S_, .f32⟩
  | .hbm, ⟨32, _⟩ => ⟨S256x128, .f32⟩
  | .hbm, ⟨33, _⟩ => ⟨S256x128, .bf16⟩
  | .hbm, ⟨34, _⟩ => ⟨S_, .i32⟩
  | .hbm, ⟨35, _⟩ => ⟨S_, .f32⟩
  | .hbm, ⟨36, _⟩ => ⟨S1x256, .f32⟩
  | .hbm, ⟨37, _⟩ => ⟨S_, .i32⟩
  | .hbm, ⟨38, _⟩ => ⟨S_, .f32⟩
  | .hbm, ⟨39, _⟩ => ⟨S1x256, .f32⟩
  | .hbm, ⟨40, _⟩ => ⟨S_, .i32⟩
  | .hbm, ⟨41, _⟩ => ⟨S_, .f32⟩
  | .hbm, ⟨42, _⟩ => ⟨S1x128, .f32⟩
  | .hbm, ⟨43, _⟩ => ⟨S4096x256, .bf16⟩
  | .hbm, ⟨44, _⟩ => ⟨S4096x256, .f32⟩
  | .hbm, ⟨45, _⟩ => ⟨S4096x256, .bf16⟩
  | .hbm, ⟨46, _⟩ => ⟨S4096x256, .bf16⟩
  | .hbm, ⟨47, _⟩ => ⟨S4096x128, .f32⟩
  | .hbm, ⟨48, _⟩ => ⟨S4096x256, .f32⟩
  | .hbm, ⟨49, _⟩ => ⟨S4096x3, .f32⟩
  | .hbm, ⟨50, _⟩ => ⟨S4096x1, .f32⟩
  | .hbm, ⟨51, _⟩ => ⟨S4096, .f32⟩
  | .hbm, ⟨52, _⟩ => ⟨S4096x1, .f32⟩
  | .hbm, ⟨53, _⟩ => ⟨S4096, .f32⟩
  | .hbm, ⟨54, _⟩ => ⟨S4096x1, .f32⟩
  | .hbm, ⟨55, _⟩ => ⟨S4096, .f32⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .f32⟩
  | .local _ .vmem, ⟨7, _⟩ => ⟨S256x256, .f32⟩
  | .local _ .vmem, ⟨8, _⟩ => ⟨S256x256, .bf16⟩
  | .local _ .vmem, ⟨9, _⟩ => ⟨S256x256, .bf16⟩
  | .local _ .vmem, ⟨10, _⟩ => ⟨S4096x256, .bf16⟩
  | .local _ .vmem, ⟨11, _⟩ => ⟨S1x256, .f32⟩
  | .local _ .vmem, ⟨12, _⟩ => ⟨S256x256, .f32⟩
  | .local _ .vmem, ⟨13, _⟩ => ⟨S256x256, .f32⟩
  | .local _ .vmem, ⟨14, _⟩ => ⟨S256x256, .bf16⟩
  | .local _ .vmem, ⟨15, _⟩ => ⟨S256x256, .bf16⟩
  | .local _ .vmem, ⟨16, _⟩ => ⟨S256x256, .bf16⟩
  | .local _ .vmem, ⟨17, _⟩ => ⟨S256x256, .f32⟩
  | .local _ .vmem, ⟨18, _⟩ => ⟨S256x256, .bf16⟩
  | .local _ .vmem, ⟨19, _⟩ => ⟨S256x256, .bf16⟩
  | .local _ .vmem, ⟨20, _⟩ => ⟨S4096x256, .bf16⟩
  | .local _ .vmem, ⟨21, _⟩ => ⟨S1x256, .f32⟩
  | .local _ .vmem, ⟨22, _⟩ => ⟨S256x128, .bf16⟩
  | .local _ .vmem, ⟨23, _⟩ => ⟨S1x128, .f32⟩
  | .local _ .vmem, ⟨24, _⟩ => ⟨S256x256, .bf16⟩
  | .local _ .vmem, ⟨25, _⟩ => ⟨S256x256, .bf16⟩
  | .local _ .vmem, ⟨26, _⟩ => ⟨S256x128, .f32⟩
  | .local _ .vmem, ⟨27, _⟩ => ⟨S256x128, .f32⟩
  | .local _ .vmem, ⟨28, _⟩ => ⟨S256x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_call0_v0 : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_call1_v0 : Ref sig .tc := ⟨.hbm, 13, rfl⟩
abbrev main_call0_v2 : Ref sig .tc := ⟨.hbm, 14, rfl⟩
abbrev main_call0_v3 : Ref sig .tc := ⟨.hbm, 15, rfl⟩
abbrev main_call0_c_1 : Ref sig .tc := ⟨.hbm, 16, rfl⟩
abbrev main_call0_call2_v0 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_call3_v0 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_c_3 : Ref sig .tc := ⟨.hbm, 26, rfl⟩
abbrev main_call0_call4_v0 : Ref sig .tc := ⟨.hbm, 27, rfl⟩
abbrev main_call0_v10 : Ref sig .tc := ⟨.hbm, 28, rfl⟩
abbrev main_call0_v11 : Ref sig .tc := ⟨.hbm, 29, rfl⟩
abbrev main_call0_c_4 : Ref sig .tc := ⟨.hbm, 30, rfl⟩
abbrev main_call0_call5_v0 : Ref sig .tc := ⟨.hbm, 31, rfl⟩
abbrev main_call0_v12 : Ref sig .tc := ⟨.hbm, 32, rfl⟩
abbrev main_call0_v13 : Ref sig .tc := ⟨.hbm, 33, rfl⟩
abbrev main_call0_c_5 : Ref sig .tc := ⟨.hbm, 34, rfl⟩
abbrev main_call0_call6_v0 : Ref sig .tc := ⟨.hbm, 35, rfl⟩
abbrev main_call0_v14 : Ref sig .tc := ⟨.hbm, 36, rfl⟩
abbrev main_call0_c_6 : Ref sig .tc := ⟨.hbm, 37, rfl⟩
abbrev main_call0_call7_v0 : Ref sig .tc := ⟨.hbm, 38, rfl⟩
abbrev main_call0_v15 : Ref sig .tc := ⟨.hbm, 39, rfl⟩
abbrev main_call0_c_7 : Ref sig .tc := ⟨.hbm, 40, rfl⟩
abbrev main_call0_call8_v0 : Ref sig .tc := ⟨.hbm, 41, rfl⟩
abbrev main_call0_v16 : Ref sig .tc := ⟨.hbm, 42, rfl⟩
abbrev main_call0_v17_0 : Ref sig .tc := ⟨.hbm, 43, rfl⟩
abbrev main_call0_v17_1 : Ref sig .tc := ⟨.hbm, 44, rfl⟩
abbrev main_call0_v18 : Ref sig .tc := ⟨.hbm, 45, rfl⟩
abbrev main_call0_v19_0 : Ref sig .tc := ⟨.hbm, 46, rfl⟩
abbrev main_call0_v19_1 : Ref sig .tc := ⟨.hbm, 47, rfl⟩
abbrev main_v0_0 : Ref sig .tc := ⟨.hbm, 48, rfl⟩
abbrev main_call0_v21 : Ref sig .tc := ⟨.hbm, 49, rfl⟩
abbrev main_call0_v22 : Ref sig .tc := ⟨.hbm, 50, rfl⟩
abbrev main_v0_1 : Ref sig .tc := ⟨.hbm, 51, rfl⟩
abbrev main_call0_v24 : Ref sig .tc := ⟨.hbm, 52, rfl⟩
abbrev main_v0_2 : Ref sig .tc := ⟨.hbm, 53, rfl⟩
abbrev main_call0_v26 : Ref sig .tc := ⟨.hbm, 54, rfl⟩
abbrev main_v0_3 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc2_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc2_sem6_0 : DmaSem sig := 25
abbrev cc2_sem6_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![16, 16], ![false, false]⟩

def k1_mult1 (i : grid1.Coords) : BitVec 32 :=
  let arg1 : BitVec 32 := BitVec.ofNat 32 (i 1).val
  let c256_i32 : BitVec 32 := 256#32
  let v3 : BitVec 32 := Scalar.muli arg1 c256_i32
  v3
def k1_off1 (i : grid1.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c15_i32 : BitVec 32 := 15#32
  let v16 : BitVec 1 := Scalar.cmpi .eq arg1 c15_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S256x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![16, 16], ![false, false]⟩

def k2_mult1 (i : grid2.Coords) : BitVec 32 :=
  let arg1 : BitVec 32 := BitVec.ofNat 32 (i 1).val
  let c256_i32 : BitVec 32 := 256#32
  let v3 : BitVec 32 := Scalar.muli arg1 c256_i32
  v3
def k2_off1 (i : grid2.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0 : Index := 0#32
  ![v5.toNat, 0]
def k2_cond2 (i : grid2.Coords) : BitVec 1 :=
  let arg1 : BitVec 32 := BitVec.ofNat 32 (i 1).val
  let c15_i32 : BitVec 32 := 15#32
  let v16 : BitVec 1 := Scalar.cmpi .eq arg1 c15_i32
  let v17 : BitVec 32 := Scalar.extui v16
  let c0_i32_7 : BitVec 32 := 0#32
  let v18 : BitVec 1 := Scalar.cmpi .ne v17 c0_i32_7
  v18

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S256x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S4096x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S256x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S256x256 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S256x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  pads_S4096x4096_S4096x4096_000_000 : S4096x4096.Pads (![0, 0] : Fin 2 → Nat) ![0, 0] ![0, 0] S4096x4096
  h_S_ : 0 < S_.numel
  bitsLt_bf16_f32 : FTy.bits .bf16 < FTy.bits .f32
  pads_S4096x256_S4096x256_000_000 : S4096x256.Pads (![0, 0] : Fin 2 → Nat) ![0, 0] ![0, 0] S4096x256
  pads_S256x256_S256x256_000_000 : S256x256.Pads (![0, 0] : Fin 2 → Nat) ![0, 0] ![0, 0] S256x256
  slices_S512x256_S256x256_0_0 : S512x256.Slices ![0, 0] S256x256
  slices_S512x256_S256x256_256_0 : S512x256.Slices ![256, 0] S256x256
  pads_S256x3_S256x128_000_01250 : S256x3.Pads (![0, 0] : Fin 2 → Nat) ![0, 125] ![0, 0] S256x128
  pads_S1x256_S1x256_000_000 : S1x256.Pads (![0, 0] : Fin 2 → Nat) ![0, 0] ![0, 0] S1x256
  pads_S1x3_S1x128_000_01250 : S1x3.Pads (![0, 0] : Fin 2 → Nat) ![0, 125] ![0, 0] S1x128
  slices_S4096x128_S4096x3_0_0 : S4096x128.Slices ![0, 0] S4096x3
  slices_S4096x3_S4096x1_0_0 : S4096x3.Slices ![0, 0] S4096x1
  shapeCasts_S4096x1_S4096 : S4096x1.ShapeCasts S4096
  slices_S4096x3_S4096x1_0_1 : S4096x3.Slices ![0, 1] S4096x1
  slices_S4096x3_S4096x1_0_2 : S4096x3.Slices ![0, 2] S4096x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S256x256_S256x256_0_0 : (Rect.unit (s := S256x256) ![0, 0] S256x256.size inb_S256x256_S256x256_0_0).PackedRows (EltTy.packing .bf16)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  dot_S256x256_S256x256_S256x256_1_0_0_1_n_n_wf : DotDims.WF S256x256 S256x256 S256x256 [1] [0] [0] [1] [] []
  dot_S256x256_S256x128_S256x128_1_0_0_1_n_n_wf : DotDims.WF S256x256 S256x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .bf16 = 32 ∨ (Rect.block (s := S4096x256) S256x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S4096x256.size a
  hwx0_3 : ∀ i : grid0.Coords, EltTy.bits .bf16 = 32 ∨ (Rect.block (s := S4096x256) S256x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S4096x256.size a
  hwx0_4 : ∀ i : grid0.Coords, EltTy.bits .f32 = 32 ∨ (Rect.block (s := S4096x256) S256x256.size (cc0_transform_4 i) (hinb0_4 i)).WholeWords (EltTy.packing .f32)
  hrank1 : 0 < grid1.rank
  k1_mult1_dvd : ∀ i : grid1.Coords, 256 ∣ (k1_mult1 i).toNat
  k1_off1_inb : ∀ i : grid1.Coords, ∀ a, (k1_off1 i) a + S256x256.size a ≤ S4096x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S4096x4096.size a
  hwx1_0 : ∀ i : grid1.Coords, EltTy.bits .bf16 = 32 ∨ (Rect.block (s := S4096x4096) S256x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .bf16 = 32 ∨ (Rect.block (s := S4096x256) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S4096x256.size a
  hwx1_3 : ∀ i : grid1.Coords, EltTy.bits .f32 = 32 ∨ (Rect.block (s := S4096x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S4096x256.size a
  hwx1_5 : ∀ i : grid1.Coords, EltTy.bits .bf16 = 32 ∨ (Rect.block (s := S4096x256) S256x256.size (cc1_transform_5 i) (hinb1_5 i)).WholeWords (EltTy.packing .bf16)
  hrank2 : 0 < grid2.rank
  k2_mult1_dvd : ∀ i : grid2.Coords, 256 ∣ (k2_mult1 i).toNat
  k2_off1_inb : ∀ i : grid2.Coords, ∀ a, (k2_off1 i) a + S256x256.size a ≤ S4096x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x256.size a ≤ S4096x4096.size a
  hwx2_0 : ∀ i : grid2.Coords, EltTy.bits .bf16 = 32 ∨ (Rect.block (s := S4096x4096) S256x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S4096x256.size a
  hwx2_1 : ∀ i : grid2.Coords, EltTy.bits .bf16 = 32 ∨ (Rect.block (s := S4096x256) S4096x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .bf16 = 32 ∨ (Rect.block (s := S256x128) S256x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S4096x256.size a
  hwx2_5 : ∀ i : grid2.Coords, EltTy.bits .bf16 = 32 ∨ (Rect.block (s := S4096x256) S256x256.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x128.size a ≤ S4096x128.size a
  hwx2_6 : ∀ i : grid2.Coords, EltTy.bits .f32 = 32 ∨ (Rect.block (s := S4096x128) S256x128.size (cc2_transform_6 i) (hinb2_6 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf

abbrev win0_0 : Pipeline.Window sig grid0 :=
  Pipeline.Window.ofSpec (Memref.whole main_call0_v3) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v8) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v17_0) S256x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v17_1) S256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_call0_v1) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v17_0) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v14) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v17_1) S256x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v11) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v18) S256x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_call0_v1) S256x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v18) S4096x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v15) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v13) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v16) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v19_0) S256x256.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_call0_v19_1) S256x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun i => !(k2_cond2 i == 1#1) | 6 => fun i => !(k2_cond2 i == 1#1) | ⟨_ + 7, h⟩ => absurd h (Nat.not_lt.2 (Nat.le_add_left _ _))

class Facts : Prop extends Facts₀ where

variable [Facts]
-- ==== Proof.Layer1RegionBits.lean ====
/-
  Region 0 of the kernel program, the first layer's pallas_call on its 16 × 16 grid: the proof data and the body obligation.
  The second grid coordinate is the reduction axis. At its first step the body zeroes the carried 256 × 256 accumulator; at
  every step it adds to the accumulator the product of the point's 256 × 256 block with the step's 256 rows of the resident
  4096 × 256 array; at its last step it forms the layer's output block from the finished accumulator and stores it into the
  output window, which is idle at every other step and written back at the last.
-/
import proofs.«180267_g2000104153886438_pallasbulk_1035_2_alg».proof.Proof.Gen.Kernel.Launch
import proofs.«180267_g2000104153886438_pallasbulk_1035_2_alg».proof.Proof.Gen.Kernel.Skeleton
import proofs.«180267_g2000104153886438_pallasbulk_1035_2_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The reduction axis: where the accumulator is reset and where the layer's output is formed -/

/-- The body's first conditional: the point is the first along the reduction axis (coordinate 1 is 0). -/
abbrev firstK (i : grid0.Coords) : Prop := (Scalar.cmpi .ne (Scalar.extui (Scalar.cmpi .eq (BitVec.ofNat 32 (i 1).val) 0#32)) 0#32) = 1#1
/-- The body's second conditional: the point is the last along the reduction axis (coordinate 1 is 15). -/
abbrev lastK (i : grid0.Coords) : Prop := k0_cond2 i = 1#1

/-- The first conditional holds exactly at the points ≡ 0 (mod 16). -/
theorem firstK_iff : ∀ t : Fin cfg0.N, firstK (grid0.coords t) ↔ t.val % 16 = 0 :=
  (by decide +kernel : ∀ t : Fin grid0.N, firstK (grid0.coords t) ↔ t.val % 16 = 0)
/-- The second conditional holds exactly at the points ≡ 15 (mod 16). -/
theorem lastK_iff : ∀ t : Fin cfg0.N, lastK (grid0.coords t) ↔ t.val % 16 = 15 :=
  (by decide +kernel : ∀ t : Fin grid0.N, lastK (grid0.coords t) ↔ t.val % 16 = 15)

/-! ## The rectangles the body reads and writes through -/

/-- A whole 256 × 256 buffer. -/
abbrev rW : Rect S256x256 := Rect.unit (s := S256x256) ![0, 0] S256x256.size inb_S256x256_S256x256_0_0
/-- The whole 1 × 256 bias row. -/
abbrev rRow : Rect S1x256 := Rect.unit (s := S1x256) ![0, 0] S1x256.size inb_S1x256_S1x256_0_0
/-- The 256 rows of the resident 4096 × 256 array that the reduction step multiplies by: rows 256·k …, k the second coordinate. -/
abbrev rK (i : grid0.Coords) : Rect S4096x256 := Rect.unit (s := S4096x256) (k0_off1 i) S256x256.size (k0_off1_inb i)
/-- The 256 rows of the same array that belong to the output block: rows 256·i …, i the first coordinate (read at the last step only). -/
abbrev rI (i : grid0.Coords) (h : lastK i) : Rect S4096x256 := Rect.unit (s := S4096x256) (k0_off2 i) S256x256.size (k0_off2_inb i h)

/-- The zero offsets, as the function the library's whole-rectangle lemmas ask for. -/
theorem zero_off0 : (![0, 0] : Fin 2 → Nat) = fun _ => 0 := funext fun a => by fin_cases a <;> rfl

/-- Every index of a 256 × 256 buffer lies in the whole-buffer rectangle. -/
theorem mem_rW (y : S256x256.Idx) : y ∈ rW.set :=
  View.mem_set_unit_zero zero_off0 inb_S256x256_S256x256_0_0 y

/-- A list of stores whose last is a whole-buffer store covers a 256 × 256 buffer, whatever its element type and payloads. -/
theorem coverW {Val : EltTy → Type} {e : EltTy} (p0 : rW.shape.Idx → Val e) (L : List (View.Piece Val S256x256 e)) (y : S256x256.Idx) :
    ∃ pc ∈ ((⟨rW, p0⟩ : View.Piece Val S256x256 e) :: L), y ∈ pc.1.set :=
  ⟨_, List.mem_cons_self, mem_rW y⟩

/-! ## What the body leaves in the accumulator and in the output block -/

/-- The accumulator after the reset: the zero fill. -/
def accZero : Vec F S256x256 .f32 := View.canon [⟨rW, k0_pay1 (F := F)⟩]

/-- The accumulator after one reduction step at coordinates `i`: the step's sum over what it held (`acc`), from the
    256 × 256 block `xA` and the resident array `xX`. -/
def accStep (xA : Vec F S256x256 .f32) (xX : Vec F S4096x256 .f32) (i : grid0.Coords) (acc : Vec F S256x256 .f32) : Vec F S256x256 .f32 :=
  View.canon [⟨rW, k0_pay2 (View.ld xA rW) (View.ld xX (rK i)) (View.ld acc rW)⟩]

/-- The output block the last reduction step stores, from the finished accumulator `acc`, the resident array `xX`, the three
    weight matrices and the bias row. -/
def out0_6 (acc : Vec F S256x256 .f32) (xX : Vec F S4096x256 .f32) (xW1 xW2 xW3 : Vec F S256x256 .bf16) (xb : Vec F S1x256 .f32)
    (i : grid0.Coords) (h : lastK i) : Vec F S256x256 .bf16 :=
  View.canon [⟨rW, k0_pay3 (View.ld acc rW) (View.ld xW1 rW) (View.ld xb rRow) (View.ld xX (rI i h)) (View.ld xW2 rW) (View.ld xW3 rW)⟩]

/-- The zero fill is the reset's payload; -/
theorem accZero_eq : accZero (F := F) = k0_pay1 (F := F) := by
  unfold accZero; rw [View.canon_unit_zero zero_off0]

/-- one reduction step is the update's payload at the block, the step's 256 rows and the accumulator; -/
theorem accStep_eq (xA : Vec F S256x256 .f32) (xX : Vec F S4096x256 .f32) (i : grid0.Coords) (acc : Vec F S256x256 .f32) :
    accStep xA xX i acc = k0_pay2 xA (View.ld xX (rK i)) acc := by
  unfold accStep
  rw [View.canon_unit_zero zero_off0,
    View.ld_unit_zero (Val := Elt F) (S := S256x256) (e := .f32) zero_off0 inb_S256x256_S256x256_0_0 xA,
    View.ld_unit_zero (Val := Elt F) (S := S256x256) (e := .f32) zero_off0 inb_S256x256_S256x256_0_0 acc]

/-- the output block is the tail's payload at the accumulator, the weights, the bias row and the output block's 256 rows. -/
theorem out0_6_eq (acc : Vec F S256x256 .f32) (xX : Vec F S4096x256 .f32) (xW1 xW2 xW3 : Vec F S256x256 .bf16) (xb : Vec F S1x256 .f32)
    (i : grid0.Coords) (h : lastK i) :
    out0_6 acc xX xW1 xW2 xW3 xb i h = k0_pay3 acc xW1 xb (View.ld xX (rI i h)) xW2 xW3 := by
  unfold out0_6
  rw [View.canon_unit_zero zero_off0,
    View.ld_unit_zero (Val := Elt F) (S := S256x256) (e := .f32) zero_off0 inb_S256x256_S256x256_0_0 acc,
    View.ld_unit_zero (Val := Elt F) (S := S256x256) (e := .bf16) zero_off0 inb_S256x256_S256x256_0_0 xW1,
    View.ld_unit_zero (Val := Elt F) (S := S256x256) (e := .bf16) zero_off0 inb_S256x256_S256x256_0_0 xW2,
    View.ld_unit_zero (Val := Elt F) (S := S256x256) (e := .bf16) zero_off0 inb_S256x256_S256x256_0_0 xW3,
    View.ld_unit_zero (Val := Elt F) (S := S1x256) (e := .f32) zero_off0 inb_S1x256_S1x256_0_0 xb]

/-! ## The body's triple, case by case -/

set_option maxHeartbeats 1000000 in
/-- At a first reduction step (not the last): the accumulator, whatever it held, is left at one step over the zero fill. -/
theorem run0_first (c : Dev nD) (E : Set ℕ) (i : grid0.Coords) (arg2 : Memref sig .tc .vmem S256x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .f32) (harg9 : arg9.IsWhole)
    (hc0 : firstK i) (hc1 : ¬lastK i)
    (x0 : Vec F S256x256 .f32) (x1 : Vec F S4096x256 .f32) (K : PUnit → sProp 𝕄) :
    iprop(owns (c : Thread nD τ) arg2 fullShare x0 ∗ owns (c : Thread nD τ) arg3 fullShare x1 ∗ (∃ d, owns (c : Thread nD τ) arg9 fullShare d)
        ∗ (iprop(owns (c : Thread nD τ) arg2 fullShare x0 ∗ owns (c : Thread nD τ) arg3 fullShare x1
            ∗ owns (c : Thread nD τ) arg9 fullShare (accStep x0 x1 i accZero)) -∗ K ⟨⟩))
      ⊢ wp frame (wpE (defs₀ (F := F)) Variants.none c none) E (cc0__layer1_body i arg2 harg2 arg3 harg3 arg4 harg4 arg5 harg5 arg6 harg6 arg7 harg7 arg8 harg8 arg9 harg9) K := by
  simp only [cc0__layer1_body_eq_skeleton]; unfold cc0__layer1_body_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  iexists _; isplitr
  swap; · iexact HS
  ipureintro
  have e : arg9.view.readCov [⟨rW, k0_pay1 (F := F)⟩] rW.toLoadRect = View.ld (accZero (F := F)) rW :=
    View.readCov_eq_canon_ld _ _ _ (coverW _ _)
  rw [e, View.read_writes_eq_canon _ _ _ (coverW _ _)]
  unfold accStep
  rw [View.canon_cons_unit_zero (S := S256x256) zero_off0 inb_S256x256_S256x256_0_0 _ [_], View.canon_unit_zero (S := S256x256) zero_off0]
  rfl

set_option maxHeartbeats 1000000 in
/-- At a middle reduction step: the accumulator is left at one step over what it held. -/
theorem run0_mid (c : Dev nD) (E : Set ℕ) (i : grid0.Coords) (arg2 : Memref sig .tc .vmem S256x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .f32) (harg9 : arg9.IsWhole)
    (hc0 : ¬firstK i) (hc1 : ¬lastK i)
    (x0 : Vec F S256x256 .f32) (x1 : Vec F S4096x256 .f32) (xs : Vec F S256x256 .f32) (K : PUnit → sProp 𝕄) :
    iprop(owns (c : Thread nD τ) arg2 fullShare x0 ∗ owns (c : Thread nD τ) arg3 fullShare x1 ∗ owns (c : Thread nD τ) arg9 fullShare xs
        ∗ (iprop(owns (c : Thread nD τ) arg2 fullShare x0 ∗ owns (c : Thread nD τ) arg3 fullShare x1
            ∗ owns (c : Thread nD τ) arg9 fullShare (accStep x0 x1 i xs)) -∗ K ⟨⟩))
      ⊢ wp frame (wpE (defs₀ (F := F)) Variants.none c none) E (cc0__layer1_body i arg2 harg2 arg3 harg3 arg4 harg4 arg5 harg5 arg6 harg6 arg7 harg7 arg8 harg8 arg9 harg9) K := by
  simp only [cc0__layer1_body_eq_skeleton]; unfold cc0__layer1_body_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.readAt_eq_ld, View.readAt_eq_ld, View.readAt_eq_ld]
  unfold accStep
  exact View.read_writes_eq_canon _ _ _ (coverW _ _)

set_option maxHeartbeats 1000000 in
/-- At the last reduction step: the accumulator is left at one step over what it held, and the output block at what the
    layer computes from the finished accumulator. -/
theorem run0_last (c : Dev nD) (E : Set ℕ) (i : grid0.Coords) (arg2 : Memref sig .tc .vmem S256x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .f32) (harg9 : arg9.IsWhole)
    (hc0 : ¬firstK i) (hc1 : lastK i)
    (x0 : Vec F S256x256 .f32) (x1 : Vec F S4096x256 .f32) (x2 x3 x4 : Vec F S256x256 .bf16) (x5 : Vec F S1x256 .f32)
    (xs : Vec F S256x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out0_6 (accStep x0 x1 i xs) x1 x2 x3 x4 x5 i hc1)
            ∗ owns (c : Thread nD τ) arg9 fullShare (accStep x0 x1 i xs)) -∗ K ⟨⟩))
      ⊢ wp frame (wpE (defs₀ (F := F)) Variants.none c none) E (cc0__layer1_body i arg2 harg2 arg3 harg3 arg4 harg4 arg5 harg5 arg6 harg6 arg7 harg7 arg8 harg8 arg9 harg9) K := by
  simp only [cc0__layer1_body_eq_skeleton]; unfold cc0__layer1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf0; subst hf1; subst hf2; subst hf3; subst hf4; subst hf5; subst hfs
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    have e : arg9.view.readCov [⟨rW, k0_pay2 (View.readAt (Elt F) arg2.view rW.toLoadRect f0) (View.readAt (Elt F) arg3.view (rK i).toLoadRect f1) (View.readAt (Elt F) arg9.view rW.toLoadRect fs)⟩] rW.toLoadRect
        = View.ld (accStep (arg2.view.read (Elt F) f0) (arg3.view.read (Elt F) f1) i (arg9.view.read (Elt F) fs)) rW :=
      View.readCov_eq_canon_ld _ _ _ (coverW _ _)
    rw [e, View.readAt_eq_ld, View.readAt_eq_ld, View.readAt_eq_ld, View.readAt_eq_ld, View.readAt_eq_ld]
    unfold out0_6
    exact View.read_writes_eq_canon _ _ _ (coverW _ _)
  iexists _; isplitr
  swap; · iexact HS
  ipureintro
  rw [View.readAt_eq_ld, View.readAt_eq_ld, View.readAt_eq_ld]
  unfold accStep
  exact View.read_writes_eq_canon _ _ _ (coverW _ _)

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data whose
    array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data whose
    array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data whose
    array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data whose
    array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data whose
    array is the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof data whose
    array is the entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator, point by point -/

/-- What the carried accumulator holds after the body at point `n`: at a first reduction step (`n` ≡ 0 mod 16) one step
    over the zero fill, elsewhere one step over what the point before left. -/
def scr0 (c : Dev nD) : (n : ℕ) → n < cfg0.N → Vec F S256x256 .f32
  | 0, hn => accStep (iblk0 V c 0 ⟨0, hn⟩) (iblk0 V c 1 ⟨0, hn⟩) (grid0.coords ⟨0, hn⟩) accZero
  | n + 1, hn =>
    if (n + 1) % 16 = 0 then
      accStep (iblk0 V c 0 ⟨n + 1, hn⟩) (iblk0 V c 1 ⟨n + 1, hn⟩) (grid0.coords ⟨n + 1, hn⟩) accZero
    else
      accStep (iblk0 V c 0 ⟨n + 1, hn⟩) (iblk0 V c 1 ⟨n + 1, hn⟩) (grid0.coords ⟨n + 1, hn⟩) (scr0 c n (Nat.lt_of_succ_lt hn))

/-- At a first reduction step the accumulator is one step over the zero fill. -/
theorem scr0_reset (c : Dev nD) (t : Fin cfg0.N) (h : t.val % 16 = 0) :
    scr0 V c t.val t.isLt = accStep (iblk0 V c 0 t) (iblk0 V c 1 t) (grid0.coords t) accZero := by
  obtain ⟨n, hn⟩ := t
  cases n with
  | zero => rfl
  | succ n => exact if_pos h

/-- At any other step it is one step over what the point before left. -/
theorem scr0_step (c : Dev nD) (t : Fin cfg0.N) (h : t.val % 16 ≠ 0) :
    scr0 V c t.val t.isLt = accStep (iblk0 V c 0 t) (iblk0 V c 1 t) (grid0.coords t)
      (scr0 V c (t.val - 1) (Nat.lt_of_le_of_lt (Nat.sub_le _ _) t.isLt)) := by
  obtain ⟨n, hn⟩ := t
  cases n with
  | zero => exact absurd (Nat.zero_mod _) h
  | succ n => exact if_neg h

/-! ## The output block, point by point -/

/-- What the body leaves in output window 6's buffer at point `t`: at a last reduction step the layer's output block from the
    finished accumulator; elsewhere the window is idle and nothing reads this. -/
def tail0 (c : Dev nD) (t : Fin cfg0.N) : Vec F S256x256 .bf16 :=
  if h : t.val % 16 = 15 then
    out0_6 (scr0 V c t.val t.isLt) (iblk0 V c 1 t) (iblk0 V c 2 t) (iblk0 V c 3 t) (iblk0 V c 4 t) (iblk0 V c 5 t)
      (grid0.coords t) ((lastK_iff t).mpr h)
  else View.canon []

/-! ## The invariant -/

/-- The carried accumulator as a memref: a whole scoped buffer of the kernel's own. -/
abbrev scrM : Memref sig .tc .vmem S256x256 .f32 := Memref.whole cc0_scratch0

/-- The core's scoped buffers that are neither a staging buffer of this call nor its accumulator, each whole at some contents. -/
def otherScoped (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg5_1), ((c : Thread nD τ).loc cc1_stg5_1) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg6_1), ((c : Thread nD τ).loc cc1_stg6_1) ↦{fullShare} f)
      ∗ (∃ f : Buf (Elt F) ((c : Thread nD τ).loc cc1_scratch0), ((c : Thread nD τ).loc cc1_scratch0) ↦{fullShare} f))

/-- The launch's invariant with the accumulator as a memref owned at some contents. -/
theorem PhiA0_eq (c : Dev nD) :
    (Pipeline.ΦA spec0 c : sProp 𝕄)
      = iprop((iprop(∃ d, owns (c : Thread nD τ) scrM fullShare d) ∗ otherScoped (F := F) c) ∗ (∃ r, prngReg c r)) := by
  unfold Pipeline.ΦA; rw [scopedRest0_eq]; unfold otherScoped; simp only [scrM, owns_whole]; try rfl

/-- The invariant before point `n`: before the first point the launch's; afterwards the accumulator at what the point before
    left, the other scoped buffers as they are, the generator register at some state. -/
def Phi0 (c : Dev nD) : (n : ℕ) → n ≤ cfg0.N → sProp 𝕄
  | 0, _ => Pipeline.ΦA spec0 c
  | n + 1, hn => iprop((owns (c : Thread nD τ) scrM fullShare (scr0 V c n hn) ∗ otherScoped (F := F) c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop((owns (c : Thread nD τ) scrM fullShare (scr0 V c n hn) ∗ otherScoped (F := F) c) ∗ (∃ r, prngReg c r)) := rfl

theorem Phi0_pos (c : Dev nD) (n : ℕ) (h : n ≤ cfg0.N) (hz : n ≠ 0) :
    Phi0 V c n h = iprop((owns (c : Thread nD τ) scrM fullShare (scr0 V c (n - 1) (by omega)) ∗ otherScoped (F := F) c) ∗ (∃ r, prngReg c r)) := by
  cases n with
  | zero => exact absurd rfl hz
  | succ n => rfl

/-! ## The proof data -/

/-- The proof data of the layer's pipeline on core `c`: the arrays as the region finds them; after the body each input's
    buffer at its block and the output's at the tail's store; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => tail0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = tail0 V c t := by dsimp only [dat0]

/-- At a last reduction step the output window holds the layer's output block from the finished accumulator. -/
theorem after0_6_last (c : Dev nD) (t : Fin cfg0.N) (h : t.val % 16 = 15) :
    (dat0 V c).after 6 t = out0_6 (scr0 V c t.val t.isLt) (iblk0 V c 1 t) (iblk0 V c 2 t) (iblk0 V c 3 t) (iblk0 V c 4 t) (iblk0 V c 5 t)
      (grid0.coords t) ((lastK_iff t).mpr h) := by
  rw [after0_6]; unfold tail0; exact dif_pos h

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## Where the windows are idle -/

theorem live0_0 (t : Fin cfg0.N) : cfg0.idle 0 (grid0.coords t) = false := rfl
theorem live0_1 (t : Fin cfg0.N) : cfg0.idle 1 (grid0.coords t) = false := rfl
theorem live0_2 (t : Fin cfg0.N) : cfg0.idle 2 (grid0.coords t) = false := rfl
theorem live0_3 (t : Fin cfg0.N) : cfg0.idle 3 (grid0.coords t) = false := rfl
theorem live0_4 (t : Fin cfg0.N) : cfg0.idle 4 (grid0.coords t) = false := rfl
theorem live0_5 (t : Fin cfg0.N) : cfg0.idle 5 (grid0.coords t) = false := rfl
/-- Off the last reduction step the output window is idle, -/
theorem idle0_6 : ∀ t : Fin cfg0.N, ¬t.val % 16 = 15 → cfg0.idle 6 (grid0.coords t) = true :=
  (by decide +kernel : ∀ t : Fin grid0.N, ¬t.val % 16 = 15 → cfg0.idle 6 (grid0.coords t) = true)
/-- at it, live, -/
theorem live0_6 : ∀ t : Fin cfg0.N, t.val % 16 = 15 → cfg0.idle 6 (grid0.coords t) = false :=
  (by decide +kernel : ∀ t : Fin grid0.N, t.val % 16 = 15 → cfg0.idle 6 (grid0.coords t) = false)
/-- and off it the pipeline does not write the block back. -/
theorem noFlush0_6 (t : Fin cfg0.N) (h : ¬t.val % 16 = 15) : (cfg0.win 6).flush t = false :=
  Bool.eq_false_iff.mpr fun hf => h ((flush0_6 t).mp hf)

theorem leaves0_0 (c : Dev nD) (t : Fin cfg0.N) :
    (dat0 V c).leavesExact 0 t = owns (c : Thread nD τ) (st0_0 t) fullShare (iblk0 V c 0 t) := by
  unfold Dat.leavesExact; rw [live0_0 t, after0_0]
theorem leaves0_1 (c : Dev nD) (t : Fin cfg0.N) :
    (dat0 V c).leavesExact 1 t = owns (c : Thread nD τ) (st0_1 t) fullShare (iblk0 V c 1 t) := by
  unfold Dat.leavesExact; rw [live0_1 t, after0_1]
theorem leaves0_2 (c : Dev nD) (t : Fin cfg0.N) :
    (dat0 V c).leavesExact 2 t = owns (c : Thread nD τ) (st0_2 t) fullShare (iblk0 V c 2 t) := by
  unfold Dat.leavesExact; rw [live0_2 t, after0_2]
theorem leaves0_3 (c : Dev nD) (t : Fin cfg0.N) :
    (dat0 V c).leavesExact 3 t = owns (c : Thread nD τ) (st0_3 t) fullShare (iblk0 V c 3 t) := by
  unfold Dat.leavesExact; rw [live0_3 t, after0_3]
theorem leaves0_4 (c : Dev nD) (t : Fin cfg0.N) :
    (dat0 V c).leavesExact 4 t = owns (c : Thread nD τ) (st0_4 t) fullShare (iblk0 V c 4 t) := by
  unfold Dat.leavesExact; rw [live0_4 t, after0_4]
theorem leaves0_5 (c : Dev nD) (t : Fin cfg0.N) :
    (dat0 V c).leavesExact 5 t = owns (c : Thread nD τ) (st0_5 t) fullShare (iblk0 V c 5 t) := by
  unfold Dat.leavesExact; rw [live0_5 t, after0_5]
theorem leaves0_6_last (c : Dev nD) (t : Fin cfg0.N) (h : t.val % 16 = 15) :
    (dat0 V c).leavesExact 6 t = owns (c : Thread nD τ) (st0_6 t) fullShare ((dat0 V c).after 6 t) := by
  unfold Dat.leavesExact; rw [live0_6 t h]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4000000 in
/-- The body at any point. The inputs' buffers hold their blocks; the point's place on the reduction axis says which case
    runs; the invariant hands the body the accumulator (at what the point before left; at anything where the body resets it)
    and takes it back at this point's contents; off the last step the output's buffer is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = Phi0 V c (t.val + 1) t.isLt from rfl, Phi0_succ]
  rw [leaves0_0, leaves0_1, leaves0_2, leaves0_3, leaves0_4, leaves0_5]
  have hN : t.val < 256 := lt_of_lt_of_eq t.isLt (show cfg0.N = 256 from N_0)
  by_cases h0 : t.val % 16 = 0
  · have h1 : ¬t.val % 16 = 15 := by omega
    rw [Dat.leavesExact_idle (dat0 V c) 6 t (idle0_6 t h1) (noFlush0_6 t h1)]
    rw [scr0_reset V c t h0]
    by_cases hz : t.val = 0
    · rw [Phi0_castSucc V c t, Phi0_zero V c _ _ hz, PhiA0_eq]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run0_first c Set.univ (grid0.coords t) _ _ _ _ _ _ _ _ _ _ _ _ _ _ _ _ ((firstK_iff t).mpr h0) (fun h => h1 ((lastK_iff t).mp h)) (iblk0 V c 0 t) (iblk0 V c 1 t) _)
      isplitl [H0]; · iexact H0
      isplitl [H1]; · iexact H1
      isplitl [HS]; · iexact HS
      iintro ⟨H0, H1, HS⟩
      isplitl [HS Hrest Hg]
      · isplitl [HS Hrest]
        · isplitl [HS]
          · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Phi0_castSucc V c t, Phi0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run0_first c Set.univ (grid0.coords t) _ _ _ _ _ _ _ _ _ _ _ _ _ _ _ _ ((firstK_iff t).mpr h0) (fun h => h1 ((lastK_iff t).mp h)) (iblk0 V c 0 t) (iblk0 V c 1 t) _)
      isplitl [H0]; · iexact H0
      isplitl [H1]; · iexact H1
      isplitl [HS]; · iexists _; iexact HS
      iintro ⟨H0, H1, HS⟩
      isplitl [HS Hrest Hg]
      · isplitl [HS Hrest]
        · isplitl [HS]
          · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    rw [Phi0_castSucc V c t, Phi0_pos V c _ _ hz]
    rw [scr0_step V c t h0]
    by_cases h1 : t.val % 16 = 15
    · rw [leaves0_6_last V c t h1, after0_6_last V c t h1, scr0_step V c t h0]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run0_last c Set.univ (grid0.coords t) _ _ _ _ _ _ _ _ _ _ _ _ _ _ _ _ (fun h => h0 ((firstK_iff t).mp h)) ((lastK_iff t).mpr h1)
        (iblk0 V c 0 t) (iblk0 V c 1 t) (iblk0 V c 2 t) (iblk0 V c 3 t) (iblk0 V c 4 t) (iblk0 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS Hrest Hg]
      · isplitl [HS Hrest]
        · isplitl [HS]
          · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat0 V c) 6 t (idle0_6 t h1) (noFlush0_6 t h1)]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run0_mid c Set.univ (grid0.coords t) _ _ _ _ _ _ _ _ _ _ _ _ _ _ _ _ (fun h => h0 ((firstK_iff t).mp h)) (fun h => h1 ((lastK_iff t).mp h)) (iblk0 V c 0 t) (iblk0 V c 1 t) _ _)
      isplitl [H0]; · iexact H0
      isplitl [H1]; · iexact H1
      isplitl [HS]; · iexact HS
      iintro ⟨H0, H1, HS⟩
      isplitl [HS Hrest Hg]
      · isplitl [HS Hrest]
        · isplitl [HS]
          · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- After the last point the invariant gives the launch's back: the accumulator's contents are forgotten. -/
theorem hout0 (c : Dev nD) : (dat0 V c).Φ (Fin.last cfg0.N) ⊢ Pipeline.ΦA spec0 c := by
  have hN : (Fin.last cfg0.N).val ≠ 0 := by rw [Fin.val_last]; have : cfg0.N = 256 := N_0; omega
  rw [show (dat0 V c).Φ (Fin.last cfg0.N) = Phi0 V c (Fin.last cfg0.N).val (Nat.le_of_lt_succ (Fin.last cfg0.N).isLt) from rfl,
    Phi0_pos V c _ _ hN, PhiA0_eq]
  iintro ⟨⟨HS, Hrest⟩, Hg⟩
  isplitl [HS Hrest]
  · isplitl [HS]
    · iexists _; iexact HS
    iexact Hrest
  iexact Hg

end Region

end Cert.Kernel.Hand

end
-- ==== Proof.Layer2RegionBits.lean ====
import proofs.«180267_g2000104153886438_pallasbulk_1035_2_alg».proof.Proof.Gen.Kernel.Launch
import proofs.«180267_g2000104153886438_pallasbulk_1035_2_alg».proof.Proof.Gen.Kernel.Skeleton
import proofs.«180267_g2000104153886438_pallasbulk_1035_2_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 of the kernel program: the second layer's body on its 16 × 16 grid

The kernel keeps a 256 × 256 accumulator across the 16 points of a row of the grid (the reduction axis is the
second coordinate): at the row's first point it zeroes the accumulator, at every point it adds one block product
into it, and at the row's last point it stores the activated accumulator into one output block and the pooled
product into the other. -/

/-! ## The rectangles of the body's accesses -/

theorem zero_offsets1 : (![0, 0] : Fin 2 → Nat) = fun _ => 0 := funext fun a => by fin_cases a <;> rfl

/-- The whole 256 × 256 buffer (the block of the adjacency matrix, the accumulator, the first output). -/
abbrev rAcc1 : Rect S256x256 := Rect.unit (s := S256x256) ![0, 0] S256x256.size inb_S256x256_S256x256_0_0
/-- The 256 rows of the 4096 × 256 operand the point's reduction coordinate selects. -/
abbrev rRows1 (i : grid1.Coords) : Rect S4096x256 := Rect.unit (s := S4096x256) (k1_off1 i) S256x256.size (k1_off1_inb i)
/-- The whole 1 × 256 bias row. -/
abbrev rBias1 : Rect S1x256 := Rect.unit (s := S1x256) ![0, 0] S1x256.size inb_S1x256_S1x256_0_0
/-- The whole 256 × 128 buffer (the pooling weights, the second output). -/
abbrev rPool1 : Rect S256x128 := Rect.unit (s := S256x128) ![0, 0] S256x128.size inb_S256x128_S256x128_0_0
/-- The whole 1 × 128 pooling bias row. -/
abbrev rPoolBias1 : Rect S1x128 := Rect.unit (s := S1x128) ![0, 0] S1x128.size inb_S1x128_S1x128_0_0

/-! ## What the body's stores leave -/

/-- The accumulator after the reset: one covering store of the zero block. -/
def accZero1 : Vec F S256x256 .f32 :=
  View.canon [⟨rAcc1, k1_pay1 (F := F)⟩]

/-- The accumulator after the update at coordinates `i`, from the adjacency block `a` (single precision: the body rounds
    it to bf16 before the product), the 4096 × 256 operand `y` and the accumulator's contents `s` before the update: one
    covering store. -/
def accStep1 (i : grid1.Coords) (a : Vec F S256x256 .f32) (y : Vec F S4096x256 .bf16) (s : Vec F S256x256 .f32) : Vec F S256x256 .f32 :=
  View.canon [⟨rAcc1, k1_pay2 (View.ld a rAcc1) (View.ld s rAcc1) (View.ld y (rRows1 i))⟩]

/-- Output window 5's buffer after the tail, from the accumulator `s` the update left and the bias row `b`. -/
def out1_5 (s : Vec F S256x256 .f32) (b : Vec F S1x256 .f32) : Vec F S256x256 .f32 :=
  View.canon [⟨rAcc1, k1_pay3 (View.ld s rAcc1) (View.ld b rBias1)⟩]

/-- Output window 6's buffer after the tail, from the accumulator `s`, the bias row `b`, the pooling weights `w` and
    the pooling bias row `b'`. -/
def out1_6 (s : Vec F S256x256 .f32) (b : Vec F S1x256 .f32) (w : Vec F S256x128 .bf16) (b' : Vec F S1x128 .f32) : Vec F S256x128 .f32 :=
  View.canon [⟨rPool1, k1_pay4 (View.ld s rAcc1) (View.ld b rBias1) (View.ld w rPool1) (View.ld b' rPoolBias1)⟩]

/-- Each is its store's payload, the whole-buffer loads reading the contents. -/
theorem accZero1_eq : accZero1 (F := F) = k1_pay1 (F := F) := by
  unfold accZero1; exact View.canon_unit_zero zero_offsets1 _ _
theorem accStep1_eq (i : grid1.Coords) (a : Vec F S256x256 .f32) (y : Vec F S4096x256 .bf16) (s : Vec F S256x256 .f32) :
    accStep1 i a y s = k1_pay2 a s (View.ld y (rRows1 i)) := by
  unfold accStep1
  rw [View.canon_unit_zero zero_offsets1, View.ld_unit_zero zero_offsets1, View.ld_unit_zero zero_offsets1]
theorem out1_5_eq (s : Vec F S256x256 .f32) (b : Vec F S1x256 .f32) : out1_5 s b = k1_pay3 s b := by
  unfold out1_5
  rw [View.canon_unit_zero zero_offsets1, View.ld_unit_zero zero_offsets1, View.ld_unit_zero zero_offsets1]
theorem out1_6_eq (s : Vec F S256x256 .f32) (b : Vec F S1x256 .f32) (w : Vec F S256x128 .bf16) (b' : Vec F S1x128 .f32) :
    out1_6 s b w b' = k1_pay4 s b w b' := by
  unfold out1_6
  rw [View.canon_unit_zero zero_offsets1, View.ld_unit_zero zero_offsets1, View.ld_unit_zero zero_offsets1, View.ld_unit_zero zero_offsets1, View.ld_unit_zero zero_offsets1]

/-- A store through the whole buffer covers it. -/
theorem cover_acc1 {e : EltTy} (p : Vec F S256x256 e) (L : List (View.Piece (Elt F) S256x256 e)) (y : S256x256.Idx) :
    ∃ pc ∈ ((⟨rAcc1, p⟩ : View.Piece (Elt F) S256x256 e) :: L), y ∈ pc.1.set :=
  ⟨_, List.mem_cons_self, View.mem_set_unit_zero zero_offsets1 inb_S256x256_S256x256_0_0 y⟩
theorem cover_pool1 (p : Vec F S256x128 .f32) (y : S256x128.Idx) :
    ∃ pc ∈ ([⟨rPool1, p⟩] : List (View.Piece (Elt F) S256x128 .f32)), y ∈ pc.1.set :=
  ⟨_, List.mem_cons_self, View.mem_set_unit_zero zero_offsets1 inb_S256x128_S256x128_0_0 y⟩

/-! ## The body's branch conditions -/

/-- The body resets the accumulator where the reduction coordinate is 0, -/
abbrev c1reset (i : grid1.Coords) : Prop := (Scalar.cmpi .ne (Scalar.extui (Scalar.cmpi .eq (BitVec.ofNat 32 (i 1).val) 0#32)) 0#32) = 1#1
/-- and runs its tail where it is 15. -/
abbrev c1last (i : grid1.Coords) : Prop := k1_cond2 i = 1#1

theorem hreset1 : ∀ t : Fin cfg1.N, c1reset (grid1.coords t) ↔ t.val % 16 = 0 :=
  (by decide +kernel : ∀ t : Fin grid1.N, c1reset (grid1.coords t) ↔ t.val % 16 = 0)
theorem hlast1 : ∀ t : Fin cfg1.N, c1last (grid1.coords t) ↔ t.val % 16 = 15 :=
  (by decide +kernel : ∀ t : Fin grid1.N, c1last (grid1.coords t) ↔ t.val % 16 = 15)

/-- Off the tail's points both output windows are idle and not written back; at them they are live. -/
theorem idle1_5_off : ∀ t : Fin cfg1.N, ¬c1last (grid1.coords t) → cfg1.idle 5 (grid1.coords t) = true := by decide +kernel
theorem idle1_6_off : ∀ t : Fin cfg1.N, ¬c1last (grid1.coords t) → cfg1.idle 6 (grid1.coords t) = true := by decide +kernel
theorem noFlush1_5_off : ∀ t : Fin cfg1.N, ¬c1last (grid1.coords t) → (cfg1.win 5).flush t = false := by decide +kernel
theorem noFlush1_6_off : ∀ t : Fin cfg1.N, ¬c1last (grid1.coords t) → (cfg1.win 6).flush t = false := by decide +kernel
theorem live1_5_on : ∀ t : Fin cfg1.N, c1last (grid1.coords t) → cfg1.idle 5 (grid1.coords t) = false := by decide +kernel
theorem live1_6_on : ∀ t : Fin cfg1.N, c1last (grid1.coords t) → cfg1.idle 6 (grid1.coords t) = false := by decide +kernel

/-! ## The body's triples, one per control case -/

set_option maxHeartbeats 1000000 in
/-- At a row's first point: the accumulator, at anything, is zeroed and updated. -/
theorem run1_reset (c : Dev nD) (E : Set ℕ) (i : grid1.Coords) (arg2 : Memref sig .tc .vmem S256x256 .f32) (harg2 : arg2.IsWhole) (arg3 : Memref sig .tc .vmem S4096x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S256x256 .f32) (harg7 : arg7.IsWhole) (arg8 : Memref sig .tc .vmem S256x128 .f32) (harg8 : arg8.IsWhole) (arg9 : Memref sig .tc .vmem S256x256 .f32) (harg9 : arg9.IsWhole)
    (hc0 : c1reset i) (hc1 : ¬c1last i)
    (x0 : Vec F S256x256 .f32) (x1 : Vec F S4096x256 .bf16) (K : PUnit → sProp 𝕄) :
    iprop(owns (c : Thread nD τ) arg2 fullShare x0 ∗ owns (c : Thread nD τ) arg3 fullShare x1 ∗ (∃ d, owns (c : Thread nD τ) arg9 fullShare d)
        ∗ (iprop(owns (c : Thread nD τ) arg2 fullShare x0 ∗ owns (c : Thread nD τ) arg3 fullShare x1 ∗ owns (c : Thread nD τ) arg9 fullShare (accStep1 i x0 x1 accZero1)) -∗ K ⟨⟩))
      ⊢ wp frame (wpE (defs₀ (F := F)) Variants.none c none) E (cc1__layer2_body i arg2 harg2 arg3 harg3 arg4 harg4 arg5 harg5 arg6 harg6 arg7 harg7 arg8 harg8 arg9 harg9) K := by
  simp only [cc1__layer2_body_eq_skeleton]; unfold cc1__layer2_body_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  iexists _; isplitr
  swap; · iexact HS
  ipureintro
  unfold accStep1 accZero1
  rw [View.read_writes_eq_canon _ _ _ (cover_acc1 _ _), View.canon_cons_unit_zero zero_offsets1, View.readCov_unit_zero _ zero_offsets1,
    View.canon_unit_zero zero_offsets1, View.canon_unit_zero zero_offsets1,
    View.ld_unit_zero (Val := Elt F) (S := S256x256) (e := .f32) zero_offsets1 inb_S256x256_S256x256_0_0 (k1_pay1 (F := F))]
  rfl

set_option maxHeartbeats 1000000 in
/-- At a point that is neither a row's first nor its last: the accumulator is updated. -/
theorem run1_mid (c : Dev nD) (E : Set ℕ) (i : grid1.Coords) (arg2 : Memref sig .tc .vmem S256x256 .f32) (harg2 : arg2.IsWhole) (arg3 : Memref sig .tc .vmem S4096x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S256x256 .f32) (harg7 : arg7.IsWhole) (arg8 : Memref sig .tc .vmem S256x128 .f32) (harg8 : arg8.IsWhole) (arg9 : Memref sig .tc .vmem S256x256 .f32) (harg9 : arg9.IsWhole)
    (hc0 : ¬c1reset i) (hc1 : ¬c1last i)
    (x0 : Vec F S256x256 .f32) (x1 : Vec F S4096x256 .bf16) (xs : Vec F S256x256 .f32) (K : PUnit → sProp 𝕄) :
    iprop(owns (c : Thread nD τ) arg2 fullShare x0 ∗ owns (c : Thread nD τ) arg3 fullShare x1 ∗ owns (c : Thread nD τ) arg9 fullShare xs
        ∗ (iprop(owns (c : Thread nD τ) arg2 fullShare x0 ∗ owns (c : Thread nD τ) arg3 fullShare x1 ∗ owns (c : Thread nD τ) arg9 fullShare (accStep1 i x0 x1 xs)) -∗ K ⟨⟩))
      ⊢ wp frame (wpE (defs₀ (F := F)) Variants.none c none) E (cc1__layer2_body i arg2 harg2 arg3 harg3 arg4 harg4 arg5 harg5 arg6 harg6 arg7 harg7 arg8 harg8 arg9 harg9) K := by
  simp only [cc1__layer2_body_eq_skeleton]; unfold cc1__layer2_body_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  exact View.read_writes_eq_canon _ _ _ (cover_acc1 _ _)

set_option maxHeartbeats 1000000 in
/-- At a row's last point: the accumulator is updated, and the tail stores both output blocks from it. -/
theorem run1_last (c : Dev nD) (E : Set ℕ) (i : grid1.Coords) (arg2 : Memref sig .tc .vmem S256x256 .f32) (harg2 : arg2.IsWhole) (arg3 : Memref sig .tc .vmem S4096x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S256x256 .f32) (harg7 : arg7.IsWhole) (arg8 : Memref sig .tc .vmem S256x128 .f32) (harg8 : arg8.IsWhole) (arg9 : Memref sig .tc .vmem S256x256 .f32) (harg9 : arg9.IsWhole)
    (hc0 : ¬c1reset i) (hc1 : c1last i)
    (x0 : Vec F S256x256 .f32) (x1 : Vec F S4096x256 .bf16) (x2 : Vec F S1x256 .f32) (x3 : Vec F S256x128 .bf16) (x4 : Vec F S1x128 .f32) (xs : Vec F S256x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (out1_5 (accStep1 i x0 x1 xs) x2) ∗ owns (c : Thread nD τ) arg8 fullShare (out1_6 (accStep1 i x0 x1 xs) x2 x3 x4)
            ∗ owns (c : Thread nD τ) arg9 fullShare (accStep1 i x0 x1 xs)) -∗ K ⟨⟩))
      ⊢ wp frame (wpE (defs₀ (F := F)) Variants.none c none) E (cc1__layer2_body i arg2 harg2 arg3 harg3 arg4 harg4 arg5 harg5 arg6 harg6 arg7 harg7 arg8 harg8 arg9 harg9) K := by
  simp only [cc1__layer2_body_eq_skeleton]; unfold cc1__layer2_body_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%fs, %hfs, HS⟩, Hk⟩
  subst hf0; subst hf1; subst hf2; subst hf3; subst hf4; subst hfs
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    rw [View.read_writes_eq_canon _ _ _ (cover_acc1 _ _), View.readCov_eq_canon_ld _ _ _ (cover_acc1 _ _)]
    rfl
  isplitl [H8]
  · iexists _; isplitr
    swap; · iexact H8
    ipureintro
    rw [View.read_writes_eq_canon _ _ _ (cover_pool1 _), View.readCov_eq_canon_ld _ _ _ (cover_acc1 _ _)]
    rfl
  iexists _; isplitr
  swap; · iexact HS
  ipureintro
  exact View.read_writes_eq_canon _ _ _ (cover_acc1 _ _)

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not, for any proof
    data whose array is `V`'s and whose body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- No input window is ever idle. -/
theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
theorem live1_4 : ∀ t : Fin cfg1.N, cfg1.idle 4 (grid1.coords t) = false := fun _ => rfl

/-! ## The accumulator, point by point -/

/-- The accumulator as a memref: the kernel's own whole scoped buffer, passed beside the windows. -/
abbrev scM1 : Memref sig .tc .vmem S256x256 .f32 := Memref.whole cc1_scratch0

/-- What the accumulator holds after the body at point `n`: at a row's first point the reset's zero block updated,
    elsewhere what the point before left updated. -/
def scr1 (c : Dev nD) : (n : ℕ) → n < cfg1.N → Vec F S256x256 .f32
  | 0, hn => accStep1 (grid1.coords ⟨0, hn⟩) (iblk1 V c 0 ⟨0, hn⟩) (iblk1 V c 1 ⟨0, hn⟩) accZero1
  | n + 1, hn =>
    if (n + 1) % 16 = 0 then
      accStep1 (grid1.coords ⟨n + 1, hn⟩) (iblk1 V c 0 ⟨n + 1, hn⟩) (iblk1 V c 1 ⟨n + 1, hn⟩) accZero1
    else
      accStep1 (grid1.coords ⟨n + 1, hn⟩) (iblk1 V c 0 ⟨n + 1, hn⟩) (iblk1 V c 1 ⟨n + 1, hn⟩) (scr1 c n (Nat.lt_of_succ_lt hn))

/-- At a row's first point. -/
theorem scr1_reset (c : Dev nD) (t : Fin cfg1.N) (h : t.val % 16 = 0) :
    scr1 V c t.val t.isLt = accStep1 (grid1.coords t) (iblk1 V c 0 t) (iblk1 V c 1 t) accZero1 := by
  obtain ⟨n, hn⟩ := t
  cases n with
  | zero => rfl
  | succ n => exact (if_pos h).trans rfl

/-- At any other point. -/
theorem scr1_step (c : Dev nD) (t : Fin cfg1.N) (h : t.val % 16 ≠ 0) :
    scr1 V c t.val t.isLt = accStep1 (grid1.coords t) (iblk1 V c 0 t) (iblk1 V c 1 t)
      (scr1 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region's invariant -/

/-- A scoped buffer of the core whole at some contents. -/
abbrev anyAt1 (c : Dev nD) (b : Ref sig .tc) : sProp 𝕄 :=
  iprop(∃ f : Buf (Elt F) ((c : Thread nD τ).loc b), ((c : Thread nD τ).loc b) ↦{fullShare} f)

/-- The core's scoped buffers that are no staging buffer of this call, the accumulator apart, each at some contents,
    with `X` in the accumulator's place; and the generator register at some state. -/
def PhiWith1 (c : Dev nD) (X : sProp 𝕄) : sProp 𝕄 :=
  iprop((anyAt1 (F := F) c cc0_stg0_0 ∗ anyAt1 (F := F) c cc0_stg0_1 ∗ anyAt1 (F := F) c cc0_stg1_0 ∗ anyAt1 (F := F) c cc0_stg2_0 ∗ anyAt1 (F := F) c cc0_stg3_0 ∗ anyAt1 (F := F) c cc0_stg4_0 ∗ anyAt1 (F := F) c cc0_stg5_0 ∗ anyAt1 (F := F) c cc0_stg6_0 ∗ anyAt1 (F := F) c cc0_stg6_1 ∗ anyAt1 (F := F) c cc0_scratch0 ∗ X) ∗ (∃ r, prngReg c r))

/-- The same without the accumulator. -/
def PhiFrame1 (c : Dev nD) : sProp 𝕄 :=
  iprop((anyAt1 (F := F) c cc0_stg0_0 ∗ anyAt1 (F := F) c cc0_stg0_1 ∗ anyAt1 (F := F) c cc0_stg1_0 ∗ anyAt1 (F := F) c cc0_stg2_0 ∗ anyAt1 (F := F) c cc0_stg3_0 ∗ anyAt1 (F := F) c cc0_stg4_0 ∗ anyAt1 (F := F) c cc0_stg5_0 ∗ anyAt1 (F := F) c cc0_stg6_0 ∗ anyAt1 (F := F) c cc0_stg6_1 ∗ anyAt1 (F := F) c cc0_scratch0) ∗ (∃ r, prngReg c r))

theorem PhiWith1_split (c : Dev nD) (X : sProp 𝕄) : PhiWith1 (F := F) c X ⊢ iprop(X ∗ PhiFrame1 (F := F) c) := by
  unfold PhiWith1 PhiFrame1
  iintro ⟨⟨R1, R2, R3, R4, R5, R6, R7, R8, R9, R10, HX⟩, Hg⟩
  isplitl [HX]; · iexact HX
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  iexact R10

theorem PhiWith1_join (c : Dev nD) (X : sProp 𝕄) : iprop(X ∗ PhiFrame1 (F := F) c) ⊢ PhiWith1 (F := F) c X := by
  unfold PhiWith1 PhiFrame1
  iintro ⟨HX, ⟨R1, R2, R3, R4, R5, R6, R7, R8, R9, R10⟩, Hg⟩
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexact HX

/-- What the launch hands the region, the accumulator owned at some contents. -/
theorem PhiA1_eq (c : Dev nD) :
    (Pipeline.ΦA spec1 c : sProp 𝕄) = PhiWith1 c (iprop(∃ d, owns (c : Thread nD τ) scM1 fullShare d)) := by
  unfold Pipeline.ΦA PhiWith1; rw [scopedRest1_eq]; simp only [scM1, owns_whole]; try rfl

/-- The invariant before position `n`: before the first point what the launch hands over; afterwards the accumulator at
    what the point before left. -/
def PhiS1 (c : Dev nD) : (n : ℕ) → n ≤ cfg1.N → sProp 𝕄
  | 0, _ => Pipeline.ΦA spec1 c
  | n + 1, hn => PhiWith1 c (owns (c : Thread nD τ) scM1 fullShare (scr1 V c n hn))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = PhiWith1 c (owns (c : Thread nD τ) scM1 fullShare (scr1 V c n hn)) := rfl

theorem PhiS1_pos (c : Dev nD) (n : ℕ) (h : n ≤ cfg1.N) (hz : n ≠ 0) :
    PhiS1 V c n h = PhiWith1 c (owns (c : Thread nD τ) scM1 fullShare (scr1 V c (n - 1) (by omega))) := by
  cases n with
  | zero => exact absurd rfl hz
  | succ n => rfl

/-- At every position the invariant gives the accumulator at some contents. -/
theorem PhiS1_any (c : Dev nD) (n : ℕ) (h : n ≤ cfg1.N) :
    PhiS1 V c n h ⊢ PhiWith1 c (iprop(∃ d, owns (c : Thread nD τ) scM1 fullShare d)) := by
  cases n with
  | zero => rw [PhiS1_zero V c 0 h rfl, PhiA1_eq]
  | succ n =>
    rw [PhiS1_succ]
    iintro H
    icases (PhiWith1_split c _) $$ H with ⟨HS, HR⟩
    iapply (PhiWith1_join c _)
    isplitl [HS]
    · iexists _; iexact HS
    iexact HR

/-! ## The pipeline's proof data -/

/-- The proof data of the pipeline on core `c`: the arrays as the region finds them; after the body at point `t` each
    input's buffer at its block and each output's at what the tail stores from the accumulator (read at the
    points that write the window back; a placeholder elsewhere); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (scr1 V c t.val t.isLt) (iblk1 V c 2 t)
    | ⟨6, _⟩ => out1_6 (scr1 V c t.val t.isLt) (iblk1 V c 2 t) (iblk1 V c 3 t) (iblk1 V c 4 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (scr1 V c t.val t.isLt) (iblk1 V c 2 t) := by dsimp only [dat1]
theorem after1_6 (c : Dev nD) (t : Fin cfg1.N) : (dat1 V c).after 6 t = out1_6 (scr1 V c t.val t.isLt) (iblk1 V c 2 t) (iblk1 V c 3 t) (iblk1 V c 4 t) := by dsimp only [dat1]

/-- The two output windows at the points that write them back. -/
theorem after1_5_last (c : Dev nD) (t : Fin cfg1.N) (h : t.val % 16 = 15) :
    (dat1 V c).after 5 t = out1_5 (scr1 V c t.val t.isLt) (iblk1 V c 2 t) := after1_5 V c t
theorem after1_6_last (c : Dev nD) (t : Fin cfg1.N) (h : t.val % 16 = 15) :
    (dat1 V c).after 6 t = out1_6 (scr1 V c t.val t.isLt) (iblk1 V c 2 t) (iblk1 V c 3 t) (iblk1 V c 4 t) := after1_6 V c t

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

/-- An input window's buffer is left at its block. -/
theorem leaves1_0 (c : Dev nD) (t : Fin cfg1.N) :
    (dat1 V c).leavesExact 0 t = owns (c : Thread nD τ) (st1_0 t) fullShare (iblk1 V c 0 t) := by
  rw [show (dat1 V c).leavesExact 0 t = owns (c : Thread nD τ) (st1_0 t) fullShare ((dat1 V c).after 0 t) from by
    unfold Dat.leavesExact; rw [live1_0 t], after1_0]
theorem leaves1_1 (c : Dev nD) (t : Fin cfg1.N) :
    (dat1 V c).leavesExact 1 t = owns (c : Thread nD τ) (st1_1 t) fullShare (iblk1 V c 1 t) := by
  rw [show (dat1 V c).leavesExact 1 t = owns (c : Thread nD τ) (st1_1 t) fullShare ((dat1 V c).after 1 t) from by
    unfold Dat.leavesExact; rw [live1_1 t], after1_1]
theorem leaves1_2 (c : Dev nD) (t : Fin cfg1.N) :
    (dat1 V c).leavesExact 2 t = owns (c : Thread nD τ) (st1_2 t) fullShare (iblk1 V c 2 t) := by
  rw [show (dat1 V c).leavesExact 2 t = owns (c : Thread nD τ) (st1_2 t) fullShare ((dat1 V c).after 2 t) from by
    unfold Dat.leavesExact; rw [live1_2 t], after1_2]
theorem leaves1_3 (c : Dev nD) (t : Fin cfg1.N) :
    (dat1 V c).leavesExact 3 t = owns (c : Thread nD τ) (st1_3 t) fullShare (iblk1 V c 3 t) := by
  rw [show (dat1 V c).leavesExact 3 t = owns (c : Thread nD τ) (st1_3 t) fullShare ((dat1 V c).after 3 t) from by
    unfold Dat.leavesExact; rw [live1_3 t], after1_3]
theorem leaves1_4 (c : Dev nD) (t : Fin cfg1.N) :
    (dat1 V c).leavesExact 4 t = owns (c : Thread nD τ) (st1_4 t) fullShare (iblk1 V c 4 t) := by
  rw [show (dat1 V c).leavesExact 4 t = owns (c : Thread nD τ) (st1_4 t) fullShare ((dat1 V c).after 4 t) from by
    unfold Dat.leavesExact; rw [live1_4 t], after1_4]

set_option maxHeartbeats 4800000 in
/-- The body at any point: the inputs' memrefs hold their blocks; the closed forms say which case the point is in; the
    invariant hands the body the accumulator (at what the point before left, or at anything at a row's first point)
    and takes it back at this point's contents; off the rows' last points the output windows' buffers pass through
    untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  have hN : t.val < 256 := lt_of_lt_of_eq t.isLt (show cfg1.N = 256 from N_1)
  by_cases h0 : t.val % 16 = 0
  · have hc0 : c1reset (grid1.coords t) := (hreset1 t).mpr h0
    have hc1 : ¬c1last (grid1.coords t) := fun h => by have := (hlast1 t).mp h; omega
    rw [Dat.leavesExact_idle (dat1 V c) 5 t (idle1_5_off t hc1) (noFlush1_5_off t hc1),
      Dat.leavesExact_idle (dat1 V c) 6 t (idle1_6_off t hc1) (noFlush1_6_off t hc1)]
    rw [scr1_reset V c t h0, PhiS1_castSucc V c t]
    iintro ⟨HΦ, Ho, ⟨%d0, H0⟩, ⟨%d1, H1⟩, ⟨%d2, H2⟩, ⟨%d3, H3⟩, ⟨%d4, H4⟩, H5, H6⟩
    icases (PhiS1_any V c _ _) $$ HΦ with HΦ
    icases (PhiWith1_split c _) $$ HΦ with ⟨HS, HR⟩
    iapply (run1_reset c Set.univ (grid1.coords t) _ _ _ _ _ _ _ _ _ _ _ _ _ _ _ _ hc0 hc1 (iblk1 V c 0 t) (iblk1 V c 1 t) _)
    isplitl [H0]; · iexact H0
    isplitl [H1]; · iexact H1
    isplitl [HS]; · iexact HS
    iintro ⟨H0, H1, HS⟩
    isplitl [HS HR]
    · iapply (PhiWith1_join c _)
      isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc0 : ¬c1reset (grid1.coords t) := fun h => h0 ((hreset1 t).mp h)
    have hz : t.val ≠ 0 := fun e => h0 (by rw [e])
    rw [scr1_step V c t h0, PhiS1_castSucc V c t, PhiS1_pos V c _ _ hz]
    by_cases h1 : t.val % 16 = 15
    · have hc1 : c1last (grid1.coords t) := (hlast1 t).mpr h1
      rw [show (dat1 V c).leavesExact 5 t = owns (c : Thread nD τ) (st1_5 t) fullShare ((dat1 V c).after 5 t) from by
        unfold Dat.leavesExact; rw [live1_5_on t hc1], after1_5]
      rw [show (dat1 V c).leavesExact 6 t = owns (c : Thread nD τ) (st1_6 t) fullShare ((dat1 V c).after 6 t) from by
        unfold Dat.leavesExact; rw [live1_6_on t hc1], after1_6]
      rw [scr1_step V c t h0]
      iintro ⟨HΦ, Ho, ⟨%d0, H0⟩, ⟨%d1, H1⟩, ⟨%d2, H2⟩, ⟨%d3, H3⟩, ⟨%d4, H4⟩, ⟨%d5, H5⟩, ⟨%d6, H6⟩⟩
      icases (PhiWith1_split c _) $$ HΦ with ⟨HS, HR⟩
      iapply (run1_last c Set.univ (grid1.coords t) _ _ _ _ _ _ _ _ _ _ _ _ _ _ _ _ hc0 hc1 (iblk1 V c 0 t) (iblk1 V c 1 t) (iblk1 V c 2 t) (iblk1 V c 3 t) (iblk1 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexact HS
      iintro ⟨H0, H1, H2, H3, H4, H5, H6, HS⟩
      isplitl [HS HR]
      · iapply (PhiWith1_join c _)
        isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬c1last (grid1.coords t) := fun h => h1 ((hlast1 t).mp h)
      rw [Dat.leavesExact_idle (dat1 V c) 5 t (idle1_5_off t hc1) (noFlush1_5_off t hc1),
        Dat.leavesExact_idle (dat1 V c) 6 t (idle1_6_off t hc1) (noFlush1_6_off t hc1)]
      iintro ⟨HΦ, Ho, ⟨%d0, H0⟩, ⟨%d1, H1⟩, ⟨%d2, H2⟩, ⟨%d3, H3⟩, ⟨%d4, H4⟩, H5, H6⟩
      icases (PhiWith1_split c _) $$ HΦ with ⟨HS, HR⟩
      iapply (run1_mid c Set.univ (grid1.coords t) _ _ _ _ _ _ _ _ _ _ _ _ _ _ _ _ hc0 hc1 (iblk1 V c 0 t) (iblk1 V c 1 t) _ _)
      isplitl [H0]; · iexact H0
      isplitl [H1]; · iexact H1
      isplitl [HS]; · iexact HS
      iintro ⟨H0, H1, HS⟩
      isplitl [HS HR]
      · iapply (PhiWith1_join c _)
        isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives it back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_any V c _ _

end Cert.Kernel.Hand

end
-- ==== Proof.RunKernelBits.lean ====
/-
  The run of @main with its whole final memory.

  From one record per region (two regions here, the valuations V1 … V4), entered from the contents the program's buffers hold before it and left at
  the contents they hold after it, every weakly fair execution of @main from a memory with zero counters terminates, and
  in every final memory EVERY buffer that outlives the regions holds the last valuation's contents: the results as well as
  the arguments. The arguments' part of it is the frame statement, since no item writes an argument.
-/
import proofs.«180267_g2000104153886438_pallasbulk_1035_2_alg».proof.Proof.Gen.Kernel.Regions
import Idealize.ShloMosaic.Lib.Pipeline.Frame
import Idealize.ShloMosaic.Lib.Pipeline.Regions

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

/-- A TensorCore buffer that no region scopes is among the buffers held between the items. -/
theorem mem_ucRef (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

variable (m : (ℓ : Loc nD τ sig) → Buf (Elt F) ℓ)

-- the run theorem's implicit arguments are found by unifying its conclusion with this one, which takes unfolding
-- plain definitions in a metavariable's type
set_option backward.isDefEq.respectTransparency.types false in
/-- THE CONDITIONAL RUN. Under the hypotheses of the conditional frame (a launch of the rest states `E`, one record
    per region entered and left at this program's valuations), every weakly fair execution of @main from memory `m` with
    zero counters terminates and every final memory holds, on every core, every buffer no region scopes at the last
    valuation `V4 m outs c`. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD, ∀ b ∈ Pipeline.ucRefs τ sig,
      r.2.mem (((c.tc : Thread nD τ)).1, b) = V4 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, (hpost0 c).trans (hpre1 c), hpost1 c, sep_mono .rfl (hE2 c)⟩)
    (hinit := ?_) (QY := fun c s => ∀ b ∈ Pipeline.ucRefs τ sig, s.mem (((c : Thread nD τ)).1, b) = V4 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact h
    · iexact HSI

/-- The arguments' part of the run's post: a memory that holds every unscoped buffer at the last valuation holds each
    argument as launched (no host operation writes an argument and no region may change one). -/
theorem args_of_post (outs : Outs (F := F)) (mem : (ℓ : Loc nD τ sig) → Buf (Elt F) ℓ)
    (h : ∀ c : Dev nD, ∀ b ∈ Pipeline.ucRefs τ sig, mem (((c.tc : Thread nD τ)).1, b) = V4 m outs c b) (c : Dev nD) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7) :=
  ⟨(h c _ (mem_ucRef main_arg0 (by decide))).trans (V4_main_arg0 m outs c),
    (h c _ (mem_ucRef main_arg1 (by decide))).trans (V4_main_arg1 m outs c),
    (h c _ (mem_ucRef main_arg2 (by decide))).trans (V4_main_arg2 m outs c),
    (h c _ (mem_ucRef main_arg3 (by decide))).trans (V4_main_arg3 m outs c),
    (h c _ (mem_ucRef main_arg4 (by decide))).trans (V4_main_arg4 m outs c),
    (h c _ (mem_ucRef main_arg5 (by decide))).trans (V4_main_arg5 m outs c),
    (h c _ (mem_ucRef main_arg6 (by decide))).trans (V4_main_arg6 m outs c),
    (h c _ (mem_ucRef main_arg7 (by decide))).trans (V4_main_arg7 m outs c)⟩

end Cert.Kernel.Hand

end
-- ==== Proof.AssembleKernelBits.lean ====
/-
  The kernel program's @main, assembled: a stretch of host operations, the two fused layers as two regions, and the
  closing host operations. Each region's proof data and body obligation come from its own module; here the regions are
  placed in @main — what the core's buffers hold between the items, each region as a segment entered from and left at
  those contents — and the launch is discharged.
-/
import proofs.«180267_g2000104153886438_pallasbulk_1035_2_alg».proof.Proof.Layer1RegionBits
import proofs.«180267_g2000104153886438_pallasbulk_1035_2_alg».proof.Proof.Layer2RegionBits
import proofs.«180267_g2000104153886438_pallasbulk_1035_2_alg».proof.Proof.RunKernelBits
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between @main's items

Before the first region the buffers hold the launch contents after the first stretch of host operations. Each region
then changes its output windows' arrays and nothing else: after it they hold what its write-backs leave, which the
pipeline library computes from the proof data. -/

/-- The buffers as region 0 finds them, read at a TensorCore reference. -/
abbrev in0 (c : Dev nD) (b : Ref sig .tc) : Buf (Elt F) ((c : Thread nD τ).loc b) := V1 m c b
/-- Region 0's arrays after it (every other buffer as it found it). -/
def left0 (c : Dev nD) : Valuation τ sig (Elt F) :=
  Pipeline.withArrays spec0 c (V1 m c) fun w => (dat0 (in0 m) c).arrAt w cfg0.N
/-- The buffers after region 0: its output arrays at what it leaves. -/
abbrev B1 (c : Dev nD) : Valuation τ sig (Elt F) :=
  Function.update (V1 m c) main_call0_v15 (left0 m c main_call0_v15)

/-- The buffers as region 1 finds them, read at a TensorCore reference. -/
abbrev in1 (c : Dev nD) (b : Ref sig .tc) : Buf (Elt F) ((c : Thread nD τ).loc b) := B1 m c b
/-- Region 1's arrays after it (every other buffer as it found it). -/
def left1 (c : Dev nD) : Valuation τ sig (Elt F) :=
  Pipeline.withArrays spec1 c (B1 m c) fun w => (dat1 (in1 m) c).arrAt w cfg1.N
/-- The buffers after region 1: its output arrays at what it leaves. -/
abbrev B2 (c : Dev nD) : Valuation τ sig (Elt F) :=
  Function.update (Function.update (B1 m c) main_v0_0 (left1 m c main_v0_0)) main_call0_v16_1 (left1 m c main_call0_v16_1)

/-- What each region leaves, as the family of unknowns the generated valuations are written over. -/
def outs : Outs (F := F) := fun J r c =>
  if J = 2 then left0 m c r else left1 m c r
theorem V2_eq (c : Dev nD) : V2 m (outs m) c = B1 m c := rfl
theorem V3_eq (c : Dev nD) : V3 m (outs m) c = B2 m c := rfl

/-- Every pipeline's proof data, each at its region's entry contents. -/
def pdats : (p : Fin 2) → (c : Dev nD) → Dat τ (Elt F) Unit ℕ (UR sig nD τ) ℕ (cfgs p) c
  | ⟨0, _⟩ => fun c => dat0 (in0 m) c
  | ⟨1, _⟩ => fun c => dat1 (in1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and its debts, none. -/
abbrev rides (c : Dev nD) : sProp 𝕄 := iprop((∃ r, prngReg c r) ∗ ∃ W, owes (c : Thread nD τ) (0 : CellTallies nD τ sig Unit) W)

/-! ## Region 0 -/

/-- After region 0 each of its arrays holds what the pipeline leaves in it -/
theorem hF0 (c : Dev nD) (w : Fin cfg0.W) :
    (dat0 (in0 m) c).arrAt w cfg0.N = V2 m (outs m) c (Proc.devRef .tc (Pipeline.arrRef spec0 w)) := by
  fin_cases w
  · exact ((dat0 (in0 m) c).arrAt_in 0 rfl _).trans ((A_eq0 (in0 m) c 0).trans (V2_of m (outs m) c _ (by decide)).symm)
  · exact ((dat0 (in0 m) c).arrAt_in 1 rfl _).trans ((A_eq0 (in0 m) c 1).trans (V2_of m (outs m) c _ (by decide)).symm)
  · exact ((dat0 (in0 m) c).arrAt_in 2 rfl _).trans ((A_eq0 (in0 m) c 2).trans (V2_of m (outs m) c _ (by decide)).symm)
  · exact ((dat0 (in0 m) c).arrAt_in 3 rfl _).trans ((A_eq0 (in0 m) c 3).trans (V2_of m (outs m) c _ (by decide)).symm)
  · exact ((dat0 (in0 m) c).arrAt_in 4 rfl _).trans ((A_eq0 (in0 m) c 4).trans (V2_of m (outs m) c _ (by decide)).symm)
  · exact ((dat0 (in0 m) c).arrAt_in 5 rfl _).trans ((A_eq0 (in0 m) c 5).trans (V2_of m (outs m) c _ (by decide)).symm)
  · show _ = B1 m c main_call0_v15
    unfold B1
    rw [Function.update_self]
    unfold left0
    exact (Pipeline.withArrays_arr spec0 launch0.win.arr_inj c (V1 m c) (fun w => (dat0 (in0 m) c).arrAt w cfg0.N) 6).symm

/-- and every other buffer what it held at the region's entry. -/
theorem hrest0 (c : Dev nD) (b : Ref sig .tc) (hb : b ∉ Finset.univ.image (Pipeline.arrRef spec0)) :
    V2 m (outs m) c (Proc.devRef .tc b) = in0 m c b :=
  V2_of m (outs m) c b (fun hm => hb (by
    simp only [List.mem_cons, List.mem_nil_iff, or_false] at hm
    rcases hm with rfl
    · exact Finset.mem_image.mpr ⟨6, Finset.mem_univ _, rfl⟩))

set_option backward.isDefEq.respectTransparency.types false in
/-- Region 0 as a segment of @main: entered from every unscoped buffer at the contents before it, left with its output
    arrays at what it leaves; its arrays are split out of the unscoped buffers at entry and put back at exit; the
    generator register goes into the region's invariant and comes back; nothing is owed; the kernel has no semaphore
    of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (in0 m) c).loose
  hwaits := Pipeline.hwaits_of_owed_zero _ _ _ _ L lv 0 fun _ _ => rfl
  pre c := iprop(StableHlo.held (c : Thread nD τ) (Pipeline.ucRefs τ sig) (V1 m c) ∗ rides c)
  post c := iprop(StableHlo.held (c : Thread nD τ) (Pipeline.ucRefs τ sig) (V2 m (outs m) c) ∗ rides c)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (in0 m c) (A_eq0 (in0 m) c)
    rw [Pipeline.unscopedBufs_held] at hsplit
    replace hsplit : (StableHlo.held (c : Thread nD τ) (Pipeline.ucRefs τ sig) (V1 m c) : sProp 𝕄) ⊢ _ := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (in0 m) c)
    unfold Pipeline.ΦA
    iintro ⟨Hp, -, Hr⟩
    isplitl [Hr]; · iexact Hr
    iexact Hp
  hout c := by
    rw [Pipeline.ownSems0_none]
    refine BIBase.Entails.trans (hout0 (in0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (in0 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- After region 1 each of its arrays holds what the pipeline leaves in it -/
theorem hF1 (c : Dev nD) (w : Fin cfg1.W) :
    (dat1 (in1 m) c).arrAt w cfg1.N = V3 m (outs m) c (Proc.devRef .tc (Pipeline.arrRef spec1 w)) := by
  fin_cases w
  · exact ((dat1 (in1 m) c).arrAt_in 0 rfl _).trans ((A_eq1 (in1 m) c 0).trans (V3_of m (outs m) c _ (by decide)).symm)
  · exact ((dat1 (in1 m) c).arrAt_in 1 rfl _).trans ((A_eq1 (in1 m) c 1).trans (V3_of m (outs m) c _ (by decide)).symm)
  · exact ((dat1 (in1 m) c).arrAt_in 2 rfl _).trans ((A_eq1 (in1 m) c 2).trans (V3_of m (outs m) c _ (by decide)).symm)
  · exact ((dat1 (in1 m) c).arrAt_in 3 rfl _).trans ((A_eq1 (in1 m) c 3).trans (V3_of m (outs m) c _ (by decide)).symm)
  · exact ((dat1 (in1 m) c).arrAt_in 4 rfl _).trans ((A_eq1 (in1 m) c 4).trans (V3_of m (outs m) c _ (by decide)).symm)
  · show _ = B2 m c main_v0_0
    unfold B2
    rw [Function.update_of_ne (StableHlo.devRef_ne_of_ne (by decide) : (Proc.devRef .tc main_v0_0 : DevRef τ sig) ≠ Proc.devRef .tc main_call0_v16_1), Function.update_self]
    unfold left1
    exact (Pipeline.withArrays_arr spec1 launch1.win.arr_inj c (B1 m c) (fun w => (dat1 (in1 m) c).arrAt w cfg1.N) 5).symm
  · show _ = B2 m c main_call0_v16_1
    unfold B2
    rw [Function.update_self]
    unfold left1
    exact (Pipeline.withArrays_arr spec1 launch1.win.arr_inj c (B1 m c) (fun w => (dat1 (in1 m) c).arrAt w cfg1.N) 6).symm

/-- and every other buffer what it held at the region's entry. -/
theorem hrest1 (c : Dev nD) (b : Ref sig .tc) (hb : b ∉ Finset.univ.image (Pipeline.arrRef spec1)) :
    V3 m (outs m) c (Proc.devRef .tc b) = in1 m c b :=
  V3_of m (outs m) c b (fun hm => hb (by
    simp only [List.mem_cons, List.mem_nil_iff, or_false] at hm
    rcases hm with rfl | rfl
    · exact Finset.mem_image.mpr ⟨5, Finset.mem_univ _, rfl⟩
    · exact Finset.mem_image.mpr ⟨6, Finset.mem_univ _, rfl⟩))

set_option backward.isDefEq.respectTransparency.types false in
/-- Region 1 as a segment of @main: entered from every unscoped buffer at the contents before it, left with its output
    arrays at what it leaves; its arrays are split out of the unscoped buffers at entry and put back at exit; the
    generator register goes into the region's invariant and comes back; nothing is owed; the kernel has no semaphore
    of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (in1 m) c).loose
  hwaits := Pipeline.hwaits_of_owed_zero _ _ _ _ L lv 1 fun _ _ => rfl
  pre c := iprop(StableHlo.held (c : Thread nD τ) (Pipeline.ucRefs τ sig) (V2 m (outs m) c) ∗ rides c)
  post c := iprop(StableHlo.held (c : Thread nD τ) (Pipeline.ucRefs τ sig) (V3 m (outs m) c) ∗ rides c)
  X c := iprop(∃ r, prngReg c r)
  Y c := iprop(∃ r, prngReg c r)
  Z c := Pipeline.unscopedRest (Ix := Unit) (Name := ℕ) (U := UR sig nD τ) (Lvl := ℕ) spec1 c (in1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (in1 m c) (A_eq1 (in1 m) c)
    rw [Pipeline.unscopedBufs_held] at hsplit
    replace hsplit : (StableHlo.held (c : Thread nD τ) (Pipeline.ucRefs τ sig) (V2 m (outs m) c) : sProp 𝕄) ⊢ _ := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (in1 m) c)
    unfold Pipeline.ΦA
    iintro ⟨Hp, -, Hr⟩
    isplitl [Hr]; · iexact Hr
    iexact Hp
  hout c := by
    rw [Pipeline.ownSems0_none]
    refine BIBase.Entails.trans (hout1 (in1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (in1 m c) (fun b => V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run of @main -/

/-- What the launch deals a core makes what rides along: the generator register at its launch state, nothing owed. -/
theorem rides_of_launch (c : Dev nD) :
    iprop(unscopedSems0 c ∗ owes (c : Thread nD τ) (0 : CellTallies nD τ sig Unit) ∅ ∗ Pipeline.launchCred (fun _ => (0 : CellTallies nD τ sig Unit)) c ∗ prngReg c (ρ c) ∗ iprop(emp))
      ⊢ (rides c : sProp 𝕄) := by
  iintro ⟨-, HO, -, Hp, -⟩
  isplitl [Hp]; · iexists _; iexact Hp
  iexists ∅; iexact HO

/-- From any memory with every counter at zero, every weakly fair execution of @main terminates, and every final memory
    holds each unscoped buffer at the last valuation: the launch contents, then each stretch of host operations and
    each region's write-backs in @main's order. -/
theorem run_main : θ_run defs (onTc (τ := τ) (main (F := F))) ⟨m, fun _ => 0, ρ⟩ (fun r => ∀ c : Dev nD, ∀ b ∈ Pipeline.ucRefs τ sig,
      r.2.mem (((c.tc : Thread nD τ)).1, b) = V4 m (outs m) c b) :=
  run_cond m emb₁ () 𝒱₀ L lv (fun _ _ => rfl) ρ (outs m) (pdats m) (fun _ => (0 : CellTallies nD τ sig Unit)) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => rides c)
    (by
      iintro ⟨H, -⟩
      imodintro
      iapply (show (bigSep Finset.univ fun c : Dev nD => iprop(unscopedSems0 c ∗ owes (c : Thread nD τ) (0 : CellTallies nD τ sig Unit) ∅ ∗ Pipeline.launchCred (fun _ => (0 : CellTallies nD τ sig Unit)) c ∗ prngReg c (ρ c) ∗ iprop(emp)) : sProp 𝕄)
          ⊢ bigSep Finset.univ (fun c : Dev nD => rides c) from bigSep_mono fun c _ => rides_of_launch ρ c)
      iexact H)
    (fun c => by iintro ⟨-, HO⟩; iexact HO)
    (reg0 m) (fun _ => .rfl) (fun _ => .rfl) (reg1 m) (fun _ => .rfl) (fun _ => .rfl)

end Cert.Kernel.Hand

end
-- ==== Proof.Layer1Region.lean ====
/-
  Region 0 of the kernel program, the first layer's pallas_call on its 16 × 16 grid: the proof data and the body obligation.
  The second grid coordinate is the reduction axis. At its first step the body zeroes the carried 256 × 256 accumulator; at
  every step it adds to the accumulator the product of the point's 256 × 256 block with the step's 256 rows of the resident
  4096 × 256 array; at its last step it forms the layer's output block from the finished accumulator and stores it into the
  output window, which is idle at every other step and written back at the last.
-/
import proofs.«180267_g2000104153886438_pallasbulk_1035_2_alg».proof.Proof.Gen.KernelIdeal.Launch
import proofs.«180267_g2000104153886438_pallasbulk_1035_2_alg».proof.Proof.Gen.KernelIdeal.Skeleton
import proofs.«180267_g2000104153886438_pallasbulk_1035_2_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The reduction axis: where the accumulator is reset and where the layer's output is formed -/

/-- The body's first conditional: the point is the first along the reduction axis (coordinate 1 is 0). -/
abbrev firstK (i : grid0.Coords) : Prop := (Scalar.cmpi .ne (Scalar.extui (Scalar.cmpi .eq (BitVec.ofNat 32 (i 1).val) 0#32)) 0#32) = 1#1
/-- The body's second conditional: the point is the last along the reduction axis (coordinate 1 is 15). -/
abbrev lastK (i : grid0.Coords) : Prop := k0_cond2 i = 1#1

/-- The first conditional holds exactly at the points ≡ 0 (mod 16). -/
theorem firstK_iff : ∀ t : Fin cfg0.N, firstK (grid0.coords t) ↔ t.val % 16 = 0 :=
  (by decide +kernel : ∀ t : Fin grid0.N, firstK (grid0.coords t) ↔ t.val % 16 = 0)
/-- The second conditional holds exactly at the points ≡ 15 (mod 16). -/
theorem lastK_iff : ∀ t : Fin cfg0.N, lastK (grid0.coords t) ↔ t.val % 16 = 15 :=
  (by decide +kernel : ∀ t : Fin grid0.N, lastK (grid0.coords t) ↔ t.val % 16 = 15)

/-! ## The rectangles the body reads and writes through -/

/-- A whole 256 × 256 buffer. -/
abbrev rW : Rect S256x256 := Rect.unit (s := S256x256) ![0, 0] S256x256.size inb_S256x256_S256x256_0_0
/-- The whole 1 × 256 bias row. -/
abbrev rRow : Rect S1x256 := Rect.unit (s := S1x256) ![0, 0] S1x256.size inb_S1x256_S1x256_0_0
/-- The 256 rows of the resident 4096 × 256 array that the reduction step multiplies by: rows 256·k …, k the second coordinate. -/
abbrev rK (i : grid0.Coords) : Rect S4096x256 := Rect.unit (s := S4096x256) (k0_off1 i) S256x256.size (k0_off1_inb i)
/-- The 256 rows of the same array that belong to the output block: rows 256·i …, i the first coordinate (read at the last step only). -/
abbrev rI (i : grid0.Coords) (h : lastK i) : Rect S4096x256 := Rect.unit (s := S4096x256) (k0_off2 i) S256x256.size (k0_off2_inb i h)

/-- The zero offsets, as the function the library's whole-rectangle lemmas ask for. -/
theorem zero_off0 : (![0, 0] : Fin 2 → Nat) = fun _ => 0 := funext fun a => by fin_cases a <;> rfl

/-- Every index of a 256 × 256 buffer lies in the whole-buffer rectangle. -/
theorem mem_rW (y : S256x256.Idx) : y ∈ rW.set :=
  View.mem_set_unit_zero zero_off0 inb_S256x256_S256x256_0_0 y

/-- A list of stores whose last is a whole-buffer store covers a 256 × 256 buffer, whatever its element type and payloads. -/
theorem coverW {Val : EltTy → Type} {e : EltTy} (p0 : rW.shape.Idx → Val e) (L : List (View.Piece Val S256x256 e)) (y : S256x256.Idx) :
    ∃ pc ∈ ((⟨rW, p0⟩ : View.Piece Val S256x256 e) :: L), y ∈ pc.1.set :=
  ⟨_, List.mem_cons_self, mem_rW y⟩

/-! ## What the body leaves in the accumulator and in the output block -/

/-- The accumulator after the reset: the zero fill. -/
def accZero : Vec F S256x256 .f32 := View.canon [⟨rW, k0_pay1 (F := F)⟩]

/-- The accumulator after one reduction step at coordinates `i`: the step's sum over what it held (`acc`), from the
    256 × 256 block `xA` and the resident array `xX`. -/
def accStep (xA : Vec F S256x256 .f32) (xX : Vec F S4096x256 .f32) (i : grid0.Coords) (acc : Vec F S256x256 .f32) : Vec F S256x256 .f32 :=
  View.canon [⟨rW, k0_pay2 (View.ld xA rW) (View.ld xX (rK i)) (View.ld acc rW)⟩]

/-- The output block the last reduction step stores, from the finished accumulator `acc`, the resident array `xX`, the three
    weight matrices and the bias row. -/
def out0_6 (acc : Vec F S256x256 .f32) (xX : Vec F S4096x256 .f32) (xW1 xW2 xW3 : Vec F S256x256 .bf16) (xb : Vec F S1x256 .f32)
    (i : grid0.Coords) (h : lastK i) : Vec F S256x256 .bf16 :=
  View.canon [⟨rW, k0_pay3 (View.ld acc rW) (View.ld xW1 rW) (View.ld xb rRow) (View.ld xX (rI i h)) (View.ld xW2 rW) (View.ld xW3 rW)⟩]

/-- The zero fill is the reset's payload; -/
theorem accZero_eq : accZero (F := F) = k0_pay1 (F := F) := by
  unfold accZero; rw [View.canon_unit_zero zero_off0]

/-- one reduction step is the update's payload at the block, the step's 256 rows and the accumulator; -/
theorem accStep_eq (xA : Vec F S256x256 .f32) (xX : Vec F S4096x256 .f32) (i : grid0.Coords) (acc : Vec F S256x256 .f32) :
    accStep xA xX i acc = k0_pay2 xA (View.ld xX (rK i)) acc := by
  unfold accStep
  rw [View.canon_unit_zero zero_off0,
    View.ld_unit_zero (Val := Elt F) (S := S256x256) (e := .f32) zero_off0 inb_S256x256_S256x256_0_0 xA,
    View.ld_unit_zero (Val := Elt F) (S := S256x256) (e := .f32) zero_off0 inb_S256x256_S256x256_0_0 acc]

/-- the output block is the tail's payload at the accumulator, the weights, the bias row and the output block's 256 rows. -/
theorem out0_6_eq (acc : Vec F S256x256 .f32) (xX : Vec F S4096x256 .f32) (xW1 xW2 xW3 : Vec F S256x256 .bf16) (xb : Vec F S1x256 .f32)
    (i : grid0.Coords) (h : lastK i) :
    out0_6 acc xX xW1 xW2 xW3 xb i h = k0_pay3 acc xW1 xb (View.ld xX (rI i h)) xW2 xW3 := by
  unfold out0_6
  rw [View.canon_unit_zero zero_off0,
    View.ld_unit_zero (Val := Elt F) (S := S256x256) (e := .f32) zero_off0 inb_S256x256_S256x256_0_0 acc,
    View.ld_unit_zero (Val := Elt F) (S := S256x256) (e := .bf16) zero_off0 inb_S256x256_S256x256_0_0 xW1,
    View.ld_unit_zero (Val := Elt F) (S := S256x256) (e := .bf16) zero_off0 inb_S256x256_S256x256_0_0 xW2,
    View.ld_unit_zero (Val := Elt F) (S := S256x256) (e := .bf16) zero_off0 inb_S256x256_S256x256_0_0 xW3,
    View.ld_unit_zero (Val := Elt F) (S := S1x256) (e := .f32) zero_off0 inb_S1x256_S1x256_0_0 xb]

/-! ## The body's triple, case by case -/

set_option maxHeartbeats 1000000 in
/-- At a first reduction step (not the last): the accumulator, whatever it held, is left at one step over the zero fill. -/
theorem run0_first (c : Dev nD) (E : Set ℕ) (i : grid0.Coords) (arg2 : Memref sig .tc .vmem S256x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .f32) (harg9 : arg9.IsWhole)
    (hc0 : firstK i) (hc1 : ¬lastK i)
    (x0 : Vec F S256x256 .f32) (x1 : Vec F S4096x256 .f32) (K : PUnit → sProp 𝕄) :
    iprop(owns (c : Thread nD τ) arg2 fullShare x0 ∗ owns (c : Thread nD τ) arg3 fullShare x1 ∗ (∃ d, owns (c : Thread nD τ) arg9 fullShare d)
        ∗ (iprop(owns (c : Thread nD τ) arg2 fullShare x0 ∗ owns (c : Thread nD τ) arg3 fullShare x1
            ∗ owns (c : Thread nD τ) arg9 fullShare (accStep x0 x1 i accZero)) -∗ K ⟨⟩))
      ⊢ wp frame (wpE (defs₀ (F := F)) Variants.none c none) E (cc0__layer1_body i arg2 harg2 arg3 harg3 arg4 harg4 arg5 harg5 arg6 harg6 arg7 harg7 arg8 harg8 arg9 harg9) K := by
  simp only [cc0__layer1_body_eq_skeleton]; unfold cc0__layer1_body_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  iexists _; isplitr
  swap; · iexact HS
  ipureintro
  have e : arg9.view.readCov [⟨rW, k0_pay1 (F := F)⟩] rW.toLoadRect = View.ld (accZero (F := F)) rW :=
    View.readCov_eq_canon_ld _ _ _ (coverW _ _)
  rw [e, View.read_writes_eq_canon _ _ _ (coverW _ _)]
  unfold accStep
  rw [View.canon_cons_unit_zero (S := S256x256) zero_off0 inb_S256x256_S256x256_0_0 _ [_], View.canon_unit_zero (S := S256x256) zero_off0]
  rfl

set_option maxHeartbeats 1000000 in
/-- At a middle reduction step: the accumulator is left at one step over what it held. -/
theorem run0_mid (c : Dev nD) (E : Set ℕ) (i : grid0.Coords) (arg2 : Memref sig .tc .vmem S256x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .f32) (harg9 : arg9.IsWhole)
    (hc0 : ¬firstK i) (hc1 : ¬lastK i)
    (x0 : Vec F S256x256 .f32) (x1 : Vec F S4096x256 .f32) (xs : Vec F S256x256 .f32) (K : PUnit → sProp 𝕄) :
    iprop(owns (c : Thread nD τ) arg2 fullShare x0 ∗ owns (c : Thread nD τ) arg3 fullShare x1 ∗ owns (c : Thread nD τ) arg9 fullShare xs
        ∗ (iprop(owns (c : Thread nD τ) arg2 fullShare x0 ∗ owns (c : Thread nD τ) arg3 fullShare x1
            ∗ owns (c : Thread nD τ) arg9 fullShare (accStep x0 x1 i xs)) -∗ K ⟨⟩))
      ⊢ wp frame (wpE (defs₀ (F := F)) Variants.none c none) E (cc0__layer1_body i arg2 harg2 arg3 harg3 arg4 harg4 arg5 harg5 arg6 harg6 arg7 harg7 arg8 harg8 arg9 harg9) K := by
  simp only [cc0__layer1_body_eq_skeleton]; unfold cc0__layer1_body_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.readAt_eq_ld, View.readAt_eq_ld, View.readAt_eq_ld]
  unfold accStep
  exact View.read_writes_eq_canon _ _ _ (coverW _ _)

set_option maxHeartbeats 1000000 in
/-- At the last reduction step: the accumulator is left at one step over what it held, and the output block at what the
    layer computes from the finished accumulator. -/
theorem run0_last (c : Dev nD) (E : Set ℕ) (i : grid0.Coords) (arg2 : Memref sig .tc .vmem S256x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .f32) (harg9 : arg9.IsWhole)
    (hc0 : ¬firstK i) (hc1 : lastK i)
    (x0 : Vec F S256x256 .f32) (x1 : Vec F S4096x256 .f32) (x2 x3 x4 : Vec F S256x256 .bf16) (x5 : Vec F S1x256 .f32)
    (xs : Vec F S256x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out0_6 (accStep x0 x1 i xs) x1 x2 x3 x4 x5 i hc1)
            ∗ owns (c : Thread nD τ) arg9 fullShare (accStep x0 x1 i xs)) -∗ K ⟨⟩))
      ⊢ wp frame (wpE (defs₀ (F := F)) Variants.none c none) E (cc0__layer1_body i arg2 harg2 arg3 harg3 arg4 harg4 arg5 harg5 arg6 harg6 arg7 harg7 arg8 harg8 arg9 harg9) K := by
  simp only [cc0__layer1_body_eq_skeleton]; unfold cc0__layer1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf0; subst hf1; subst hf2; subst hf3; subst hf4; subst hf5; subst hfs
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    have e : arg9.view.readCov [⟨rW, k0_pay2 (View.readAt (Elt F) arg2.view rW.toLoadRect f0) (View.readAt (Elt F) arg3.view (rK i).toLoadRect f1) (View.readAt (Elt F) arg9.view rW.toLoadRect fs)⟩] rW.toLoadRect
        = View.ld (accStep (arg2.view.read (Elt F) f0) (arg3.view.read (Elt F) f1) i (arg9.view.read (Elt F) fs)) rW :=
      View.readCov_eq_canon_ld _ _ _ (coverW _ _)
    rw [e, View.readAt_eq_ld, View.readAt_eq_ld, View.readAt_eq_ld, View.readAt_eq_ld, View.readAt_eq_ld]
    unfold out0_6
    exact View.read_writes_eq_canon _ _ _ (coverW _ _)
  iexists _; isplitr
  swap; · iexact HS
  ipureintro
  rw [View.readAt_eq_ld, View.readAt_eq_ld, View.readAt_eq_ld]
  unfold accStep
  exact View.read_writes_eq_canon _ _ _ (coverW _ _)

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data whose
    array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data whose
    array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data whose
    array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data whose
    array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data whose
    array is the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof data whose
    array is the entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator, point by point -/

/-- What the carried accumulator holds after the body at point `n`: at a first reduction step (`n` ≡ 0 mod 16) one step
    over the zero fill, elsewhere one step over what the point before left. -/
def scr0 (c : Dev nD) : (n : ℕ) → n < cfg0.N → Vec F S256x256 .f32
  | 0, hn => accStep (iblk0 V c 0 ⟨0, hn⟩) (iblk0 V c 1 ⟨0, hn⟩) (grid0.coords ⟨0, hn⟩) accZero
  | n + 1, hn =>
    if (n + 1) % 16 = 0 then
      accStep (iblk0 V c 0 ⟨n + 1, hn⟩) (iblk0 V c 1 ⟨n + 1, hn⟩) (grid0.coords ⟨n + 1, hn⟩) accZero
    else
      accStep (iblk0 V c 0 ⟨n + 1, hn⟩) (iblk0 V c 1 ⟨n + 1, hn⟩) (grid0.coords ⟨n + 1, hn⟩) (scr0 c n (Nat.lt_of_succ_lt hn))

/-- At a first reduction step the accumulator is one step over the zero fill. -/
theorem scr0_reset (c : Dev nD) (t : Fin cfg0.N) (h : t.val % 16 = 0) :
    scr0 V c t.val t.isLt = accStep (iblk0 V c 0 t) (iblk0 V c 1 t) (grid0.coords t) accZero := by
  obtain ⟨n, hn⟩ := t
  cases n with
  | zero => rfl
  | succ n => exact if_pos h

/-- At any other step it is one step over what the point before left. -/
theorem scr0_step (c : Dev nD) (t : Fin cfg0.N) (h : t.val % 16 ≠ 0) :
    scr0 V c t.val t.isLt = accStep (iblk0 V c 0 t) (iblk0 V c 1 t) (grid0.coords t)
      (scr0 V c (t.val - 1) (Nat.lt_of_le_of_lt (Nat.sub_le _ _) t.isLt)) := by
  obtain ⟨n, hn⟩ := t
  cases n with
  | zero => exact absurd (Nat.zero_mod _) h
  | succ n => exact if_neg h

/-! ## The output block, point by point -/

/-- What the body leaves in output window 6's buffer at point `t`: at a last reduction step the layer's output block from the
    finished accumulator; elsewhere the window is idle and nothing reads this. -/
def tail0 (c : Dev nD) (t : Fin cfg0.N) : Vec F S256x256 .bf16 :=
  if h : t.val % 16 = 15 then
    out0_6 (scr0 V c t.val t.isLt) (iblk0 V c 1 t) (iblk0 V c 2 t) (iblk0 V c 3 t) (iblk0 V c 4 t) (iblk0 V c 5 t)
      (grid0.coords t) ((lastK_iff t).mpr h)
  else View.canon []

/-! ## The invariant -/

/-- The carried accumulator as a memref: a whole scoped buffer of the kernel's own. -/
abbrev scrM : Memref sig .tc .vmem S256x256 .f32 := Memref.whole cc0_scratch0

/-- The core's scoped buffers that are neither a staging buffer of this call nor its accumulator, each whole at some contents. -/
def otherScoped (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg5_1), ((c : Thread nD τ).loc cc1_stg5_1) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg6_1), ((c : Thread nD τ).loc cc1_stg6_1) ↦{fullShare} f)
      ∗ (∃ f : Buf (Elt F) ((c : Thread nD τ).loc cc1_scratch0), ((c : Thread nD τ).loc cc1_scratch0) ↦{fullShare} f))

/-- The launch's invariant with the accumulator as a memref owned at some contents. -/
theorem PhiA0_eq (c : Dev nD) :
    (Pipeline.ΦA spec0 c : sProp 𝕄)
      = iprop((iprop(∃ d, owns (c : Thread nD τ) scrM fullShare d) ∗ otherScoped (F := F) c) ∗ (∃ r, prngReg c r)) := by
  unfold Pipeline.ΦA; rw [scopedRest0_eq]; unfold otherScoped; simp only [scrM, owns_whole]; try rfl

/-- The invariant before point `n`: before the first point the launch's; afterwards the accumulator at what the point before
    left, the other scoped buffers as they are, the generator register at some state. -/
def Phi0 (c : Dev nD) : (n : ℕ) → n ≤ cfg0.N → sProp 𝕄
  | 0, _ => Pipeline.ΦA spec0 c
  | n + 1, hn => iprop((owns (c : Thread nD τ) scrM fullShare (scr0 V c n hn) ∗ otherScoped (F := F) c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop((owns (c : Thread nD τ) scrM fullShare (scr0 V c n hn) ∗ otherScoped (F := F) c) ∗ (∃ r, prngReg c r)) := rfl

theorem Phi0_pos (c : Dev nD) (n : ℕ) (h : n ≤ cfg0.N) (hz : n ≠ 0) :
    Phi0 V c n h = iprop((owns (c : Thread nD τ) scrM fullShare (scr0 V c (n - 1) (by omega)) ∗ otherScoped (F := F) c) ∗ (∃ r, prngReg c r)) := by
  cases n with
  | zero => exact absurd rfl hz
  | succ n => rfl

/-! ## The proof data -/

/-- The proof data of the layer's pipeline on core `c`: the arrays as the region finds them; after the body each input's
    buffer at its block and the output's at the tail's store; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => tail0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = tail0 V c t := by dsimp only [dat0]

/-- At a last reduction step the output window holds the layer's output block from the finished accumulator. -/
theorem after0_6_last (c : Dev nD) (t : Fin cfg0.N) (h : t.val % 16 = 15) :
    (dat0 V c).after 6 t = out0_6 (scr0 V c t.val t.isLt) (iblk0 V c 1 t) (iblk0 V c 2 t) (iblk0 V c 3 t) (iblk0 V c 4 t) (iblk0 V c 5 t)
      (grid0.coords t) ((lastK_iff t).mpr h) := by
  rw [after0_6]; unfold tail0; exact dif_pos h

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## Where the windows are idle -/

theorem live0_0 (t : Fin cfg0.N) : cfg0.idle 0 (grid0.coords t) = false := rfl
theorem live0_1 (t : Fin cfg0.N) : cfg0.idle 1 (grid0.coords t) = false := rfl
theorem live0_2 (t : Fin cfg0.N) : cfg0.idle 2 (grid0.coords t) = false := rfl
theorem live0_3 (t : Fin cfg0.N) : cfg0.idle 3 (grid0.coords t) = false := rfl
theorem live0_4 (t : Fin cfg0.N) : cfg0.idle 4 (grid0.coords t) = false := rfl
theorem live0_5 (t : Fin cfg0.N) : cfg0.idle 5 (grid0.coords t) = false := rfl
/-- Off the last reduction step the output window is idle, -/
theorem idle0_6 : ∀ t : Fin cfg0.N, ¬t.val % 16 = 15 → cfg0.idle 6 (grid0.coords t) = true :=
  (by decide +kernel : ∀ t : Fin grid0.N, ¬t.val % 16 = 15 → cfg0.idle 6 (grid0.coords t) = true)
/-- at it, live, -/
theorem live0_6 : ∀ t : Fin cfg0.N, t.val % 16 = 15 → cfg0.idle 6 (grid0.coords t) = false :=
  (by decide +kernel : ∀ t : Fin grid0.N, t.val % 16 = 15 → cfg0.idle 6 (grid0.coords t) = false)
/-- and off it the pipeline does not write the block back. -/
theorem noFlush0_6 (t : Fin cfg0.N) (h : ¬t.val % 16 = 15) : (cfg0.win 6).flush t = false :=
  Bool.eq_false_iff.mpr fun hf => h ((flush0_6 t).mp hf)

theorem leaves0_0 (c : Dev nD) (t : Fin cfg0.N) :
    (dat0 V c).leavesExact 0 t = owns (c : Thread nD τ) (st0_0 t) fullShare (iblk0 V c 0 t) := by
  unfold Dat.leavesExact; rw [live0_0 t, after0_0]
theorem leaves0_1 (c : Dev nD) (t : Fin cfg0.N) :
    (dat0 V c).leavesExact 1 t = owns (c : Thread nD τ) (st0_1 t) fullShare (iblk0 V c 1 t) := by
  unfold Dat.leavesExact; rw [live0_1 t, after0_1]
theorem leaves0_2 (c : Dev nD) (t : Fin cfg0.N) :
    (dat0 V c).leavesExact 2 t = owns (c : Thread nD τ) (st0_2 t) fullShare (iblk0 V c 2 t) := by
  unfold Dat.leavesExact; rw [live0_2 t, after0_2]
theorem leaves0_3 (c : Dev nD) (t : Fin cfg0.N) :
    (dat0 V c).leavesExact 3 t = owns (c : Thread nD τ) (st0_3 t) fullShare (iblk0 V c 3 t) := by
  unfold Dat.leavesExact; rw [live0_3 t, after0_3]
theorem leaves0_4 (c : Dev nD) (t : Fin cfg0.N) :
    (dat0 V c).leavesExact 4 t = owns (c : Thread nD τ) (st0_4 t) fullShare (iblk0 V c 4 t) := by
  unfold Dat.leavesExact; rw [live0_4 t, after0_4]
theorem leaves0_5 (c : Dev nD) (t : Fin cfg0.N) :
    (dat0 V c).leavesExact 5 t = owns (c : Thread nD τ) (st0_5 t) fullShare (iblk0 V c 5 t) := by
  unfold Dat.leavesExact; rw [live0_5 t, after0_5]
theorem leaves0_6_last (c : Dev nD) (t : Fin cfg0.N) (h : t.val % 16 = 15) :
    (dat0 V c).leavesExact 6 t = owns (c : Thread nD τ) (st0_6 t) fullShare ((dat0 V c).after 6 t) := by
  unfold Dat.leavesExact; rw [live0_6 t h]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4000000 in
/-- The body at any point. The inputs' buffers hold their blocks; the point's place on the reduction axis says which case
    runs; the invariant hands the body the accumulator (at what the point before left; at anything where the body resets it)
    and takes it back at this point's contents; off the last step the output's buffer is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = Phi0 V c (t.val + 1) t.isLt from rfl, Phi0_succ]
  rw [leaves0_0, leaves0_1, leaves0_2, leaves0_3, leaves0_4, leaves0_5]
  have hN : t.val < 256 := lt_of_lt_of_eq t.isLt (show cfg0.N = 256 from N_0)
  by_cases h0 : t.val % 16 = 0
  · have h1 : ¬t.val % 16 = 15 := by omega
    rw [Dat.leavesExact_idle (dat0 V c) 6 t (idle0_6 t h1) (noFlush0_6 t h1)]
    rw [scr0_reset V c t h0]
    by_cases hz : t.val = 0
    · rw [Phi0_castSucc V c t, Phi0_zero V c _ _ hz, PhiA0_eq]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run0_first c Set.univ (grid0.coords t) _ _ _ _ _ _ _ _ _ _ _ _ _ _ _ _ ((firstK_iff t).mpr h0) (fun h => h1 ((lastK_iff t).mp h)) (iblk0 V c 0 t) (iblk0 V c 1 t) _)
      isplitl [H0]; · iexact H0
      isplitl [H1]; · iexact H1
      isplitl [HS]; · iexact HS
      iintro ⟨H0, H1, HS⟩
      isplitl [HS Hrest Hg]
      · isplitl [HS Hrest]
        · isplitl [HS]
          · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Phi0_castSucc V c t, Phi0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run0_first c Set.univ (grid0.coords t) _ _ _ _ _ _ _ _ _ _ _ _ _ _ _ _ ((firstK_iff t).mpr h0) (fun h => h1 ((lastK_iff t).mp h)) (iblk0 V c 0 t) (iblk0 V c 1 t) _)
      isplitl [H0]; · iexact H0
      isplitl [H1]; · iexact H1
      isplitl [HS]; · iexists _; iexact HS
      iintro ⟨H0, H1, HS⟩
      isplitl [HS Hrest Hg]
      · isplitl [HS Hrest]
        · isplitl [HS]
          · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    rw [Phi0_castSucc V c t, Phi0_pos V c _ _ hz]
    rw [scr0_step V c t h0]
    by_cases h1 : t.val % 16 = 15
    · rw [leaves0_6_last V c t h1, after0_6_last V c t h1, scr0_step V c t h0]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run0_last c Set.univ (grid0.coords t) _ _ _ _ _ _ _ _ _ _ _ _ _ _ _ _ (fun h => h0 ((firstK_iff t).mp h)) ((lastK_iff t).mpr h1)
        (iblk0 V c 0 t) (iblk0 V c 1 t) (iblk0 V c 2 t) (iblk0 V c 3 t) (iblk0 V c 4 t) (iblk0 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS Hrest Hg]
      · isplitl [HS Hrest]
        · isplitl [HS]
          · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat0 V c) 6 t (idle0_6 t h1) (noFlush0_6 t h1)]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run0_mid c Set.univ (grid0.coords t) _ _ _ _ _ _ _ _ _ _ _ _ _ _ _ _ (fun h => h0 ((firstK_iff t).mp h)) (fun h => h1 ((lastK_iff t).mp h)) (iblk0 V c 0 t) (iblk0 V c 1 t) _ _)
      isplitl [H0]; · iexact H0
      isplitl [H1]; · iexact H1
      isplitl [HS]; · iexact HS
      iintro ⟨H0, H1, HS⟩
      isplitl [HS Hrest Hg]
      · isplitl [HS Hrest]
        · isplitl [HS]
          · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- After the last point the invariant gives the launch's back: the accumulator's contents are forgotten. -/
theorem hout0 (c : Dev nD) : (dat0 V c).Φ (Fin.last cfg0.N) ⊢ Pipeline.ΦA spec0 c := by
  have hN : (Fin.last cfg0.N).val ≠ 0 := by rw [Fin.val_last]; have : cfg0.N = 256 := N_0; omega
  rw [show (dat0 V c).Φ (Fin.last cfg0.N) = Phi0 V c (Fin.last cfg0.N).val (Nat.le_of_lt_succ (Fin.last cfg0.N).isLt) from rfl,
    Phi0_pos V c _ _ hN, PhiA0_eq]
  iintro ⟨⟨HS, Hrest⟩, Hg⟩
  isplitl [HS Hrest]
  · isplitl [HS]
    · iexists _; iexact HS
    iexact Hrest
  iexact Hg

end Region

end Cert.KernelIdeal.Hand

end
-- ==== Proof.Layer2Region.lean ====
import proofs.«180267_g2000104153886438_pallasbulk_1035_2_alg».proof.Proof.Gen.KernelIdeal.Launch
import proofs.«180267_g2000104153886438_pallasbulk_1035_2_alg».proof.Proof.Gen.KernelIdeal.Skeleton
import proofs.«180267_g2000104153886438_pallasbulk_1035_2_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 of the kernel program: the second layer's body on its 16 × 16 grid

The kernel keeps a 256 × 256 accumulator across the 16 points of a row of the grid (the reduction axis is the
second coordinate): at the row's first point it zeroes the accumulator, at every point it adds one block product
into it, and at the row's last point it stores the activated accumulator into one output block and the pooled
product into the other. -/

/-! ## The rectangles of the body's accesses -/

theorem zero_offsets1 : (![0, 0] : Fin 2 → Nat) = fun _ => 0 := funext fun a => by fin_cases a <;> rfl

/-- The whole 256 × 256 buffer (the block of the adjacency matrix, the accumulator, the first output). -/
abbrev rAcc1 : Rect S256x256 := Rect.unit (s := S256x256) ![0, 0] S256x256.size inb_S256x256_S256x256_0_0
/-- The 256 rows of the 4096 × 256 operand the point's reduction coordinate selects. -/
abbrev rRows1 (i : grid1.Coords) : Rect S4096x256 := Rect.unit (s := S4096x256) (k1_off1 i) S256x256.size (k1_off1_inb i)
/-- The whole 1 × 256 bias row. -/
abbrev rBias1 : Rect S1x256 := Rect.unit (s := S1x256) ![0, 0] S1x256.size inb_S1x256_S1x256_0_0
/-- The whole 256 × 128 buffer (the pooling weights, the second output). -/
abbrev rPool1 : Rect S256x128 := Rect.unit (s := S256x128) ![0, 0] S256x128.size inb_S256x128_S256x128_0_0
/-- The whole 1 × 128 pooling bias row. -/
abbrev rPoolBias1 : Rect S1x128 := Rect.unit (s := S1x128) ![0, 0] S1x128.size inb_S1x128_S1x128_0_0

/-! ## What the body's stores leave -/

/-- The accumulator after the reset: one covering store of the zero block. -/
def accZero1 : Vec F S256x256 .f32 :=
  View.canon [⟨rAcc1, k1_pay1 (F := F)⟩]

/-- The accumulator after the update at coordinates `i`, from the adjacency block `a` (single precision: the body rounds
    it to bf16 before the product), the 4096 × 256 operand `y` and the accumulator's contents `s` before the update: one
    covering store. -/
def accStep1 (i : grid1.Coords) (a : Vec F S256x256 .f32) (y : Vec F S4096x256 .bf16) (s : Vec F S256x256 .f32) : Vec F S256x256 .f32 :=
  View.canon [⟨rAcc1, k1_pay2 (View.ld a rAcc1) (View.ld s rAcc1) (View.ld y (rRows1 i))⟩]

/-- Output window 5's buffer after the tail, from the accumulator `s` the update left and the bias row `b`. -/
def out1_5 (s : Vec F S256x256 .f32) (b : Vec F S1x256 .f32) : Vec F S256x256 .f32 :=
  View.canon [⟨rAcc1, k1_pay3 (View.ld s rAcc1) (View.ld b rBias1)⟩]

/-- Output window 6's buffer after the tail, from the accumulator `s`, the bias row `b`, the pooling weights `w` and
    the pooling bias row `b'`. -/
def out1_6 (s : Vec F S256x256 .f32) (b : Vec F S1x256 .f32) (w : Vec F S256x128 .bf16) (b' : Vec F S1x128 .f32) : Vec F S256x128 .f32 :=
  View.canon [⟨rPool1, k1_pay4 (View.ld s rAcc1) (View.ld b rBias1) (View.ld w rPool1) (View.ld b' rPoolBias1)⟩]

/-- Each is its store's payload, the whole-buffer loads reading the contents. -/
theorem accZero1_eq : accZero1 (F := F) = k1_pay1 (F := F) := by
  unfold accZero1; exact View.canon_unit_zero zero_offsets1 _ _
theorem accStep1_eq (i : grid1.Coords) (a : Vec F S256x256 .f32) (y : Vec F S4096x256 .bf16) (s : Vec F S256x256 .f32) :
    accStep1 i a y s = k1_pay2 a s (View.ld y (rRows1 i)) := by
  unfold accStep1
  rw [View.canon_unit_zero zero_offsets1, View.ld_unit_zero zero_offsets1, View.ld_unit_zero zero_offsets1]
theorem out1_5_eq (s : Vec F S256x256 .f32) (b : Vec F S1x256 .f32) : out1_5 s b = k1_pay3 s b := by
  unfold out1_5
  rw [View.canon_unit_zero zero_offsets1, View.ld_unit_zero zero_offsets1, View.ld_unit_zero zero_offsets1]
theorem out1_6_eq (s : Vec F S256x256 .f32) (b : Vec F S1x256 .f32) (w : Vec F S256x128 .bf16) (b' : Vec F S1x128 .f32) :
    out1_6 s b w b' = k1_pay4 s b w b' := by
  unfold out1_6
  rw [View.canon_unit_zero zero_offsets1, View.ld_unit_zero zero_offsets1, View.ld_unit_zero zero_offsets1, View.ld_unit_zero zero_offsets1, View.ld_unit_zero zero_offsets1]

/-- A store through the whole buffer covers it. -/
theorem cover_acc1 {e : EltTy} (p : Vec F S256x256 e) (L : List (View.Piece (Elt F) S256x256 e)) (y : S256x256.Idx) :
    ∃ pc ∈ ((⟨rAcc1, p⟩ : View.Piece (Elt F) S256x256 e) :: L), y ∈ pc.1.set :=
  ⟨_, List.mem_cons_self, View.mem_set_unit_zero zero_offsets1 inb_S256x256_S256x256_0_0 y⟩
theorem cover_pool1 (p : Vec F S256x128 .f32) (y : S256x128.Idx) :
    ∃ pc ∈ ([⟨rPool1, p⟩] : List (View.Piece (Elt F) S256x128 .f32)), y ∈ pc.1.set :=
  ⟨_, List.mem_cons_self, View.mem_set_unit_zero zero_offsets1 inb_S256x128_S256x128_0_0 y⟩

/-! ## The body's branch conditions -/

/-- The body resets the accumulator where the reduction coordinate is 0, -/
abbrev c1reset (i : grid1.Coords) : Prop := (Scalar.cmpi .ne (Scalar.extui (Scalar.cmpi .eq (BitVec.ofNat 32 (i 1).val) 0#32)) 0#32) = 1#1
/-- and runs its tail where it is 15. -/
abbrev c1last (i : grid1.Coords) : Prop := k1_cond2 i = 1#1

theorem hreset1 : ∀ t : Fin cfg1.N, c1reset (grid1.coords t) ↔ t.val % 16 = 0 :=
  (by decide +kernel : ∀ t : Fin grid1.N, c1reset (grid1.coords t) ↔ t.val % 16 = 0)
theorem hlast1 : ∀ t : Fin cfg1.N, c1last (grid1.coords t) ↔ t.val % 16 = 15 :=
  (by decide +kernel : ∀ t : Fin grid1.N, c1last (grid1.coords t) ↔ t.val % 16 = 15)

/-- Off the tail's points both output windows are idle and not written back; at them they are live. -/
theorem idle1_5_off : ∀ t : Fin cfg1.N, ¬c1last (grid1.coords t) → cfg1.idle 5 (grid1.coords t) = true := by decide +kernel
theorem idle1_6_off : ∀ t : Fin cfg1.N, ¬c1last (grid1.coords t) → cfg1.idle 6 (grid1.coords t) = true := by decide +kernel
theorem noFlush1_5_off : ∀ t : Fin cfg1.N, ¬c1last (grid1.coords t) → (cfg1.win 5).flush t = false := by decide +kernel
theorem noFlush1_6_off : ∀ t : Fin cfg1.N, ¬c1last (grid1.coords t) → (cfg1.win 6).flush t = false := by decide +kernel
theorem live1_5_on : ∀ t : Fin cfg1.N, c1last (grid1.coords t) → cfg1.idle 5 (grid1.coords t) = false := by decide +kernel
theorem live1_6_on : ∀ t : Fin cfg1.N, c1last (grid1.coords t) → cfg1.idle 6 (grid1.coords t) = false := by decide +kernel

/-! ## The body's triples, one per control case -/

set_option maxHeartbeats 1000000 in
/-- At a row's first point: the accumulator, at anything, is zeroed and updated. -/
theorem run1_reset (c : Dev nD) (E : Set ℕ) (i : grid1.Coords) (arg2 : Memref sig .tc .vmem S256x256 .f32) (harg2 : arg2.IsWhole) (arg3 : Memref sig .tc .vmem S4096x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S256x256 .f32) (harg7 : arg7.IsWhole) (arg8 : Memref sig .tc .vmem S256x128 .f32) (harg8 : arg8.IsWhole) (arg9 : Memref sig .tc .vmem S256x256 .f32) (harg9 : arg9.IsWhole)
    (hc0 : c1reset i) (hc1 : ¬c1last i)
    (x0 : Vec F S256x256 .f32) (x1 : Vec F S4096x256 .bf16) (K : PUnit → sProp 𝕄) :
    iprop(owns (c : Thread nD τ) arg2 fullShare x0 ∗ owns (c : Thread nD τ) arg3 fullShare x1 ∗ (∃ d, owns (c : Thread nD τ) arg9 fullShare d)
        ∗ (iprop(owns (c : Thread nD τ) arg2 fullShare x0 ∗ owns (c : Thread nD τ) arg3 fullShare x1 ∗ owns (c : Thread nD τ) arg9 fullShare (accStep1 i x0 x1 accZero1)) -∗ K ⟨⟩))
      ⊢ wp frame (wpE (defs₀ (F := F)) Variants.none c none) E (cc1__layer2_body i arg2 harg2 arg3 harg3 arg4 harg4 arg5 harg5 arg6 harg6 arg7 harg7 arg8 harg8 arg9 harg9) K := by
  simp only [cc1__layer2_body_eq_skeleton]; unfold cc1__layer2_body_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  iexists _; isplitr
  swap; · iexact HS
  ipureintro
  unfold accStep1 accZero1
  rw [View.read_writes_eq_canon _ _ _ (cover_acc1 _ _), View.canon_cons_unit_zero zero_offsets1, View.readCov_unit_zero _ zero_offsets1,
    View.canon_unit_zero zero_offsets1, View.canon_unit_zero zero_offsets1,
    View.ld_unit_zero (Val := Elt F) (S := S256x256) (e := .f32) zero_offsets1 inb_S256x256_S256x256_0_0 (k1_pay1 (F := F))]
  rfl

set_option maxHeartbeats 1000000 in
/-- At a point that is neither a row's first nor its last: the accumulator is updated. -/
theorem run1_mid (c : Dev nD) (E : Set ℕ) (i : grid1.Coords) (arg2 : Memref sig .tc .vmem S256x256 .f32) (harg2 : arg2.IsWhole) (arg3 : Memref sig .tc .vmem S4096x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S256x256 .f32) (harg7 : arg7.IsWhole) (arg8 : Memref sig .tc .vmem S256x128 .f32) (harg8 : arg8.IsWhole) (arg9 : Memref sig .tc .vmem S256x256 .f32) (harg9 : arg9.IsWhole)
    (hc0 : ¬c1reset i) (hc1 : ¬c1last i)
    (x0 : Vec F S256x256 .f32) (x1 : Vec F S4096x256 .bf16) (xs : Vec F S256x256 .f32) (K : PUnit → sProp 𝕄) :
    iprop(owns (c : Thread nD τ) arg2 fullShare x0 ∗ owns (c : Thread nD τ) arg3 fullShare x1 ∗ owns (c : Thread nD τ) arg9 fullShare xs
        ∗ (iprop(owns (c : Thread nD τ) arg2 fullShare x0 ∗ owns (c : Thread nD τ) arg3 fullShare x1 ∗ owns (c : Thread nD τ) arg9 fullShare (accStep1 i x0 x1 xs)) -∗ K ⟨⟩))
      ⊢ wp frame (wpE (defs₀ (F := F)) Variants.none c none) E (cc1__layer2_body i arg2 harg2 arg3 harg3 arg4 harg4 arg5 harg5 arg6 harg6 arg7 harg7 arg8 harg8 arg9 harg9) K := by
  simp only [cc1__layer2_body_eq_skeleton]; unfold cc1__layer2_body_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  exact View.read_writes_eq_canon _ _ _ (cover_acc1 _ _)

set_option maxHeartbeats 1000000 in
/-- At a row's last point: the accumulator is updated, and the tail stores both output blocks from it. -/
theorem run1_last (c : Dev nD) (E : Set ℕ) (i : grid1.Coords) (arg2 : Memref sig .tc .vmem S256x256 .f32) (harg2 : arg2.IsWhole) (arg3 : Memref sig .tc .vmem S4096x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S256x256 .f32) (harg7 : arg7.IsWhole) (arg8 : Memref sig .tc .vmem S256x128 .f32) (harg8 : arg8.IsWhole) (arg9 : Memref sig .tc .vmem S256x256 .f32) (harg9 : arg9.IsWhole)
    (hc0 : ¬c1reset i) (hc1 : c1last i)
    (x0 : Vec F S256x256 .f32) (x1 : Vec F S4096x256 .bf16) (x2 : Vec F S1x256 .f32) (x3 : Vec F S256x128 .bf16) (x4 : Vec F S1x128 .f32) (xs : Vec F S256x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (out1_5 (accStep1 i x0 x1 xs) x2) ∗ owns (c : Thread nD τ) arg8 fullShare (out1_6 (accStep1 i x0 x1 xs) x2 x3 x4)
            ∗ owns (c : Thread nD τ) arg9 fullShare (accStep1 i x0 x1 xs)) -∗ K ⟨⟩))
      ⊢ wp frame (wpE (defs₀ (F := F)) Variants.none c none) E (cc1__layer2_body i arg2 harg2 arg3 harg3 arg4 harg4 arg5 harg5 arg6 harg6 arg7 harg7 arg8 harg8 arg9 harg9) K := by
  simp only [cc1__layer2_body_eq_skeleton]; unfold cc1__layer2_body_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%fs, %hfs, HS⟩, Hk⟩
  subst hf0; subst hf1; subst hf2; subst hf3; subst hf4; subst hfs
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    rw [View.read_writes_eq_canon _ _ _ (cover_acc1 _ _), View.readCov_eq_canon_ld _ _ _ (cover_acc1 _ _)]
    rfl
  isplitl [H8]
  · iexists _; isplitr
    swap; · iexact H8
    ipureintro
    rw [View.read_writes_eq_canon _ _ _ (cover_pool1 _), View.readCov_eq_canon_ld _ _ _ (cover_acc1 _ _)]
    rfl
  iexists _; isplitr
  swap; · iexact HS
  ipureintro
  exact View.read_writes_eq_canon _ _ _ (cover_acc1 _ _)

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not, for any proof
    data whose array is `V`'s and whose body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- No input window is ever idle. -/
theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
theorem live1_4 : ∀ t : Fin cfg1.N, cfg1.idle 4 (grid1.coords t) = false := fun _ => rfl

/-! ## The accumulator, point by point -/

/-- The accumulator as a memref: the kernel's own whole scoped buffer, passed beside the windows. -/
abbrev scM1 : Memref sig .tc .vmem S256x256 .f32 := Memref.whole cc1_scratch0

/-- What the accumulator holds after the body at point `n`: at a row's first point the reset's zero block updated,
    elsewhere what the point before left updated. -/
def scr1 (c : Dev nD) : (n : ℕ) → n < cfg1.N → Vec F S256x256 .f32
  | 0, hn => accStep1 (grid1.coords ⟨0, hn⟩) (iblk1 V c 0 ⟨0, hn⟩) (iblk1 V c 1 ⟨0, hn⟩) accZero1
  | n + 1, hn =>
    if (n + 1) % 16 = 0 then
      accStep1 (grid1.coords ⟨n + 1, hn⟩) (iblk1 V c 0 ⟨n + 1, hn⟩) (iblk1 V c 1 ⟨n + 1, hn⟩) accZero1
    else
      accStep1 (grid1.coords ⟨n + 1, hn⟩) (iblk1 V c 0 ⟨n + 1, hn⟩) (iblk1 V c 1 ⟨n + 1, hn⟩) (scr1 c n (Nat.lt_of_succ_lt hn))

/-- At a row's first point. -/
theorem scr1_reset (c : Dev nD) (t : Fin cfg1.N) (h : t.val % 16 = 0) :
    scr1 V c t.val t.isLt = accStep1 (grid1.coords t) (iblk1 V c 0 t) (iblk1 V c 1 t) accZero1 := by
  obtain ⟨n, hn⟩ := t
  cases n with
  | zero => rfl
  | succ n => exact (if_pos h).trans rfl

/-- At any other point. -/
theorem scr1_step (c : Dev nD) (t : Fin cfg1.N) (h : t.val % 16 ≠ 0) :
    scr1 V c t.val t.isLt = accStep1 (grid1.coords t) (iblk1 V c 0 t) (iblk1 V c 1 t)
      (scr1 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region's invariant -/

/-- A scoped buffer of the core whole at some contents. -/
abbrev anyAt1 (c : Dev nD) (b : Ref sig .tc) : sProp 𝕄 :=
  iprop(∃ f : Buf (Elt F) ((c : Thread nD τ).loc b), ((c : Thread nD τ).loc b) ↦{fullShare} f)

/-- The core's scoped buffers that are no staging buffer of this call, the accumulator apart, each at some contents,
    with `X` in the accumulator's place; and the generator register at some state. -/
def PhiWith1 (c : Dev nD) (X : sProp 𝕄) : sProp 𝕄 :=
  iprop((anyAt1 (F := F) c cc0_stg0_0 ∗ anyAt1 (F := F) c cc0_stg0_1 ∗ anyAt1 (F := F) c cc0_stg1_0 ∗ anyAt1 (F := F) c cc0_stg2_0 ∗ anyAt1 (F := F) c cc0_stg3_0 ∗ anyAt1 (F := F) c cc0_stg4_0 ∗ anyAt1 (F := F) c cc0_stg5_0 ∗ anyAt1 (F := F) c cc0_stg6_0 ∗ anyAt1 (F := F) c cc0_stg6_1 ∗ anyAt1 (F := F) c cc0_scratch0 ∗ X) ∗ (∃ r, prngReg c r))

/-- The same without the accumulator. -/
def PhiFrame1 (c : Dev nD) : sProp 𝕄 :=
  iprop((anyAt1 (F := F) c cc0_stg0_0 ∗ anyAt1 (F := F) c cc0_stg0_1 ∗ anyAt1 (F := F) c cc0_stg1_0 ∗ anyAt1 (F := F) c cc0_stg2_0 ∗ anyAt1 (F := F) c cc0_stg3_0 ∗ anyAt1 (F := F) c cc0_stg4_0 ∗ anyAt1 (F := F) c cc0_stg5_0 ∗ anyAt1 (F := F) c cc0_stg6_0 ∗ anyAt1 (F := F) c cc0_stg6_1 ∗ anyAt1 (F := F) c cc0_scratch0) ∗ (∃ r, prngReg c r))

theorem PhiWith1_split (c : Dev nD) (X : sProp 𝕄) : PhiWith1 (F := F) c X ⊢ iprop(X ∗ PhiFrame1 (F := F) c) := by
  unfold PhiWith1 PhiFrame1
  iintro ⟨⟨R1, R2, R3, R4, R5, R6, R7, R8, R9, R10, HX⟩, Hg⟩
  isplitl [HX]; · iexact HX
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  iexact R10

theorem PhiWith1_join (c : Dev nD) (X : sProp 𝕄) : iprop(X ∗ PhiFrame1 (F := F) c) ⊢ PhiWith1 (F := F) c X := by
  unfold PhiWith1 PhiFrame1
  iintro ⟨HX, ⟨R1, R2, R3, R4, R5, R6, R7, R8, R9, R10⟩, Hg⟩
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexact HX

/-- What the launch hands the region, the accumulator owned at some contents. -/
theorem PhiA1_eq (c : Dev nD) :
    (Pipeline.ΦA spec1 c : sProp 𝕄) = PhiWith1 c (iprop(∃ d, owns (c : Thread nD τ) scM1 fullShare d)) := by
  unfold Pipeline.ΦA PhiWith1; rw [scopedRest1_eq]; simp only [scM1, owns_whole]; try rfl

/-- The invariant before position `n`: before the first point what the launch hands over; afterwards the accumulator at
    what the point before left. -/
def PhiS1 (c : Dev nD) : (n : ℕ) → n ≤ cfg1.N → sProp 𝕄
  | 0, _ => Pipeline.ΦA spec1 c
  | n + 1, hn => PhiWith1 c (owns (c : Thread nD τ) scM1 fullShare (scr1 V c n hn))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = PhiWith1 c (owns (c : Thread nD τ) scM1 fullShare (scr1 V c n hn)) := rfl

theorem PhiS1_pos (c : Dev nD) (n : ℕ) (h : n ≤ cfg1.N) (hz : n ≠ 0) :
    PhiS1 V c n h = PhiWith1 c (owns (c : Thread nD τ) scM1 fullShare (scr1 V c (n - 1) (by omega))) := by
  cases n with
  | zero => exact absurd rfl hz
  | succ n => rfl

/-- At every position the invariant gives the accumulator at some contents. -/
theorem PhiS1_any (c : Dev nD) (n : ℕ) (h : n ≤ cfg1.N) :
    PhiS1 V c n h ⊢ PhiWith1 c (iprop(∃ d, owns (c : Thread nD τ) scM1 fullShare d)) := by
  cases n with
  | zero => rw [PhiS1_zero V c 0 h rfl, PhiA1_eq]
  | succ n =>
    rw [PhiS1_succ]
    iintro H
    icases (PhiWith1_split c _) $$ H with ⟨HS, HR⟩
    iapply (PhiWith1_join c _)
    isplitl [HS]
    · iexists _; iexact HS
    iexact HR

/-! ## The pipeline's proof data -/

/-- The proof data of the pipeline on core `c`: the arrays as the region finds them; after the body at point `t` each
    input's buffer at its block and each output's at what the tail stores from the accumulator (read at the
    points that write the window back; a placeholder elsewhere); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (scr1 V c t.val t.isLt) (iblk1 V c 2 t)
    | ⟨6, _⟩ => out1_6 (scr1 V c t.val t.isLt) (iblk1 V c 2 t) (iblk1 V c 3 t) (iblk1 V c 4 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (scr1 V c t.val t.isLt) (iblk1 V c 2 t) := by dsimp only [dat1]
theorem after1_6 (c : Dev nD) (t : Fin cfg1.N) : (dat1 V c).after 6 t = out1_6 (scr1 V c t.val t.isLt) (iblk1 V c 2 t) (iblk1 V c 3 t) (iblk1 V c 4 t) := by dsimp only [dat1]

/-- The two output windows at the points that write them back. -/
theorem after1_5_last (c : Dev nD) (t : Fin cfg1.N) (h : t.val % 16 = 15) :
    (dat1 V c).after 5 t = out1_5 (scr1 V c t.val t.isLt) (iblk1 V c 2 t) := after1_5 V c t
theorem after1_6_last (c : Dev nD) (t : Fin cfg1.N) (h : t.val % 16 = 15) :
    (dat1 V c).after 6 t = out1_6 (scr1 V c t.val t.isLt) (iblk1 V c 2 t) (iblk1 V c 3 t) (iblk1 V c 4 t) := after1_6 V c t

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

/-- An input window's buffer is left at its block. -/
theorem leaves1_0 (c : Dev nD) (t : Fin cfg1.N) :
    (dat1 V c).leavesExact 0 t = owns (c : Thread nD τ) (st1_0 t) fullShare (iblk1 V c 0 t) := by
  rw [show (dat1 V c).leavesExact 0 t = owns (c : Thread nD τ) (st1_0 t) fullShare ((dat1 V c).after 0 t) from by
    unfold Dat.leavesExact; rw [live1_0 t], after1_0]
theorem leaves1_1 (c : Dev nD) (t : Fin cfg1.N) :
    (dat1 V c).leavesExact 1 t = owns (c : Thread nD τ) (st1_1 t) fullShare (iblk1 V c 1 t) := by
  rw [show (dat1 V c).leavesExact 1 t = owns (c : Thread nD τ) (st1_1 t) fullShare ((dat1 V c).after 1 t) from by
    unfold Dat.leavesExact; rw [live1_1 t], after1_1]
theorem leaves1_2 (c : Dev nD) (t : Fin cfg1.N) :
    (dat1 V c).leavesExact 2 t = owns (c : Thread nD τ) (st1_2 t) fullShare (iblk1 V c 2 t) := by
  rw [show (dat1 V c).leavesExact 2 t = owns (c : Thread nD τ) (st1_2 t) fullShare ((dat1 V c).after 2 t) from by
    unfold Dat.leavesExact; rw [live1_2 t], after1_2]
theorem leaves1_3 (c : Dev nD) (t : Fin cfg1.N) :
    (dat1 V c).leavesExact 3 t = owns (c : Thread nD τ) (st1_3 t) fullShare (iblk1 V c 3 t) := by
  rw [show (dat1 V c).leavesExact 3 t = owns (c : Thread nD τ) (st1_3 t) fullShare ((dat1 V c).after 3 t) from by
    unfold Dat.leavesExact; rw [live1_3 t], after1_3]
theorem leaves1_4 (c : Dev nD) (t : Fin cfg1.N) :
    (dat1 V c).leavesExact 4 t = owns (c : Thread nD τ) (st1_4 t) fullShare (iblk1 V c 4 t) := by
  rw [show (dat1 V c).leavesExact 4 t = owns (c : Thread nD τ) (st1_4 t) fullShare ((dat1 V c).after 4 t) from by
    unfold Dat.leavesExact; rw [live1_4 t], after1_4]

set_option maxHeartbeats 4800000 in
/-- The body at any point: the inputs' memrefs hold their blocks; the closed forms say which case the point is in; the
    invariant hands the body the accumulator (at what the point before left, or at anything at a row's first point)
    and takes it back at this point's contents; off the rows' last points the output windows' buffers pass through
    untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  have hN : t.val < 256 := lt_of_lt_of_eq t.isLt (show cfg1.N = 256 from N_1)
  by_cases h0 : t.val % 16 = 0
  · have hc0 : c1reset (grid1.coords t) := (hreset1 t).mpr h0
    have hc1 : ¬c1last (grid1.coords t) := fun h => by have := (hlast1 t).mp h; omega
    rw [Dat.leavesExact_idle (dat1 V c) 5 t (idle1_5_off t hc1) (noFlush1_5_off t hc1),
      Dat.leavesExact_idle (dat1 V c) 6 t (idle1_6_off t hc1) (noFlush1_6_off t hc1)]
    rw [scr1_reset V c t h0, PhiS1_castSucc V c t]
    iintro ⟨HΦ, Ho, ⟨%d0, H0⟩, ⟨%d1, H1⟩, ⟨%d2, H2⟩, ⟨%d3, H3⟩, ⟨%d4, H4⟩, H5, H6⟩
    icases (PhiS1_any V c _ _) $$ HΦ with HΦ
    icases (PhiWith1_split c _) $$ HΦ with ⟨HS, HR⟩
    iapply (run1_reset c Set.univ (grid1.coords t) _ _ _ _ _ _ _ _ _ _ _ _ _ _ _ _ hc0 hc1 (iblk1 V c 0 t) (iblk1 V c 1 t) _)
    isplitl [H0]; · iexact H0
    isplitl [H1]; · iexact H1
    isplitl [HS]; · iexact HS
    iintro ⟨H0, H1, HS⟩
    isplitl [HS HR]
    · iapply (PhiWith1_join c _)
      isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc0 : ¬c1reset (grid1.coords t) := fun h => h0 ((hreset1 t).mp h)
    have hz : t.val ≠ 0 := fun e => h0 (by rw [e])
    rw [scr1_step V c t h0, PhiS1_castSucc V c t, PhiS1_pos V c _ _ hz]
    by_cases h1 : t.val % 16 = 15
    · have hc1 : c1last (grid1.coords t) := (hlast1 t).mpr h1
      rw [show (dat1 V c).leavesExact 5 t = owns (c : Thread nD τ) (st1_5 t) fullShare ((dat1 V c).after 5 t) from by
        unfold Dat.leavesExact; rw [live1_5_on t hc1], after1_5]
      rw [show (dat1 V c).leavesExact 6 t = owns (c : Thread nD τ) (st1_6 t) fullShare ((dat1 V c).after 6 t) from by
        unfold Dat.leavesExact; rw [live1_6_on t hc1], after1_6]
      rw [scr1_step V c t h0]
      iintro ⟨HΦ, Ho, ⟨%d0, H0⟩, ⟨%d1, H1⟩, ⟨%d2, H2⟩, ⟨%d3, H3⟩, ⟨%d4, H4⟩, ⟨%d5, H5⟩, ⟨%d6, H6⟩⟩
      icases (PhiWith1_split c _) $$ HΦ with ⟨HS, HR⟩
      iapply (run1_last c Set.univ (grid1.coords t) _ _ _ _ _ _ _ _ _ _ _ _ _ _ _ _ hc0 hc1 (iblk1 V c 0 t) (iblk1 V c 1 t) (iblk1 V c 2 t) (iblk1 V c 3 t) (iblk1 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexact HS
      iintro ⟨H0, H1, H2, H3, H4, H5, H6, HS⟩
      isplitl [HS HR]
      · iapply (PhiWith1_join c _)
        isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬c1last (grid1.coords t) := fun h => h1 ((hlast1 t).mp h)
      rw [Dat.leavesExact_idle (dat1 V c) 5 t (idle1_5_off t hc1) (noFlush1_5_off t hc1),
        Dat.leavesExact_idle (dat1 V c) 6 t (idle1_6_off t hc1) (noFlush1_6_off t hc1)]
      iintro ⟨HΦ, Ho, ⟨%d0, H0⟩, ⟨%d1, H1⟩, ⟨%d2, H2⟩, ⟨%d3, H3⟩, ⟨%d4, H4⟩, H5, H6⟩
      icases (PhiWith1_split c _) $$ HΦ with ⟨HS, HR⟩
      iapply (run1_mid c Set.univ (grid1.coords t) _ _ _ _ _ _ _ _ _ _ _ _ _ _ _ _ hc0 hc1 (iblk1 V c 0 t) (iblk1 V c 1 t) _ _)
      isplitl [H0]; · iexact H0
      isplitl [H1]; · iexact H1
      isplitl [HS]; · iexact HS
      iintro ⟨H0, H1, HS⟩
      isplitl [HS HR]
      · iapply (PhiWith1_join c _)
        isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives it back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_any V c _ _

end Cert.KernelIdeal.Hand

end
-- ==== Proof.RunKernel.lean ====
/-
  The run of @main with its whole final memory.

  From one record per region (two regions here, the valuations V1 … V4), entered from the contents the program's buffers hold before it and left at
  the contents they hold after it, every weakly fair execution of @main from a memory with zero counters terminates, and
  in every final memory EVERY buffer that outlives the regions holds the last valuation's contents: the results as well as
  the arguments. The arguments' part of it is the frame statement, since no item writes an argument.
-/
import proofs.«180267_g2000104153886438_pallasbulk_1035_2_alg».proof.Proof.Gen.KernelIdeal.Regions
import Idealize.ShloMosaic.Lib.Pipeline.Frame
import Idealize.ShloMosaic.Lib.Pipeline.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

/-- A TensorCore buffer that no region scopes is among the buffers held between the items. -/
theorem mem_ucRef (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

variable (m : (ℓ : Loc nD τ sig) → Buf (Elt F) ℓ)

-- the run theorem's implicit arguments are found by unifying its conclusion with this one, which takes unfolding
-- plain definitions in a metavariable's type
set_option backward.isDefEq.respectTransparency.types false in
/-- THE CONDITIONAL RUN. Under the hypotheses of the conditional frame (a launch of the rest states `E`, one record
    per region entered and left at this program's valuations), every weakly fair execution of @main from memory `m` with
    zero counters terminates and every final memory holds, on every core, every buffer no region scopes at the last
    valuation `V4 m outs c`. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD, ∀ b ∈ Pipeline.ucRefs τ sig,
      r.2.mem (((c.tc : Thread nD τ)).1, b) = V4 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, (hpost0 c).trans (hpre1 c), hpost1 c, sep_mono .rfl (hE2 c)⟩)
    (hinit := ?_) (QY := fun c s => ∀ b ∈ Pipeline.ucRefs τ sig, s.mem (((c : Thread nD τ)).1, b) = V4 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact h
    · iexact HSI

/-- The arguments' part of the run's post: a memory that holds every unscoped buffer at the last valuation holds each
    argument as launched (no host operation writes an argument and no region may change one). -/
theorem args_of_post (outs : Outs (F := F)) (mem : (ℓ : Loc nD τ sig) → Buf (Elt F) ℓ)
    (h : ∀ c : Dev nD, ∀ b ∈ Pipeline.ucRefs τ sig, mem (((c.tc : Thread nD τ)).1, b) = V4 m outs c b) (c : Dev nD) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7) :=
  ⟨(h c _ (mem_ucRef main_arg0 (by decide))).trans (V4_main_arg0 m outs c),
    (h c _ (mem_ucRef main_arg1 (by decide))).trans (V4_main_arg1 m outs c),
    (h c _ (mem_ucRef main_arg2 (by decide))).trans (V4_main_arg2 m outs c),
    (h c _ (mem_ucRef main_arg3 (by decide))).trans (V4_main_arg3 m outs c),
    (h c _ (mem_ucRef main_arg4 (by decide))).trans (V4_main_arg4 m outs c),
    (h c _ (mem_ucRef main_arg5 (by decide))).trans (V4_main_arg5 m outs c),
    (h c _ (mem_ucRef main_arg6 (by decide))).trans (V4_main_arg6 m outs c),
    (h c _ (mem_ucRef main_arg7 (by decide))).trans (V4_main_arg7 m outs c)⟩

end Cert.KernelIdeal.Hand

end
-- ==== Proof.AssembleKernel.lean ====
/-
  The kernel program's @main, assembled: a stretch of host operations, the two fused layers as two regions, and the
  closing host operations. Each region's proof data and body obligation come from its own module; here the regions are
  placed in @main — what the core's buffers hold between the items, each region as a segment entered from and left at
  those contents — and the launch is discharged.
-/
import proofs.«180267_g2000104153886438_pallasbulk_1035_2_alg».proof.Proof.Layer1Region
import proofs.«180267_g2000104153886438_pallasbulk_1035_2_alg».proof.Proof.Layer2Region
import proofs.«180267_g2000104153886438_pallasbulk_1035_2_alg».proof.Proof.RunKernel
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between @main's items

Before the first region the buffers hold the launch contents after the first stretch of host operations. Each region
then changes its output windows' arrays and nothing else: after it they hold what its write-backs leave, which the
pipeline library computes from the proof data. -/

/-- The buffers as region 0 finds them, read at a TensorCore reference. -/
abbrev in0 (c : Dev nD) (b : Ref sig .tc) : Buf (Elt F) ((c : Thread nD τ).loc b) := V1 m c b
/-- Region 0's arrays after it (every other buffer as it found it). -/
def left0 (c : Dev nD) : Valuation τ sig (Elt F) :=
  Pipeline.withArrays spec0 c (V1 m c) fun w => (dat0 (in0 m) c).arrAt w cfg0.N
/-- The buffers after region 0: its output arrays at what it leaves. -/
abbrev B1 (c : Dev nD) : Valuation τ sig (Elt F) :=
  Function.update (V1 m c) main_call0_v15 (left0 m c main_call0_v15)

/-- The buffers as region 1 finds them, read at a TensorCore reference. -/
abbrev in1 (c : Dev nD) (b : Ref sig .tc) : Buf (Elt F) ((c : Thread nD τ).loc b) := B1 m c b
/-- Region 1's arrays after it (every other buffer as it found it). -/
def left1 (c : Dev nD) : Valuation τ sig (Elt F) :=
  Pipeline.withArrays spec1 c (B1 m c) fun w => (dat1 (in1 m) c).arrAt w cfg1.N
/-- The buffers after region 1: its output arrays at what it leaves. -/
abbrev B2 (c : Dev nD) : Valuation τ sig (Elt F) :=
  Function.update (Function.update (B1 m c) main_v0_0 (left1 m c main_v0_0)) main_call0_v16_1 (left1 m c main_call0_v16_1)

/-- What each region leaves, as the family of unknowns the generated valuations are written over. -/
def outs : Outs (F := F) := fun J r c =>
  if J = 2 then left0 m c r else left1 m c r
theorem V2_eq (c : Dev nD) : V2 m (outs m) c = B1 m c := rfl
theorem V3_eq (c : Dev nD) : V3 m (outs m) c = B2 m c := rfl

/-- Every pipeline's proof data, each at its region's entry contents. -/
def pdats : (p : Fin 2) → (c : Dev nD) → Dat τ (Elt F) Unit ℕ (UR sig nD τ) ℕ (cfgs p) c
  | ⟨0, _⟩ => fun c => dat0 (in0 m) c
  | ⟨1, _⟩ => fun c => dat1 (in1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and its debts, none. -/
abbrev rides (c : Dev nD) : sProp 𝕄 := iprop((∃ r, prngReg c r) ∗ ∃ W, owes (c : Thread nD τ) (0 : CellTallies nD τ sig Unit) W)

/-! ## Region 0 -/

/-- After region 0 each of its arrays holds what the pipeline leaves in it -/
theorem hF0 (c : Dev nD) (w : Fin cfg0.W) :
    (dat0 (in0 m) c).arrAt w cfg0.N = V2 m (outs m) c (Proc.devRef .tc (Pipeline.arrRef spec0 w)) := by
  fin_cases w
  · exact ((dat0 (in0 m) c).arrAt_in 0 rfl _).trans ((A_eq0 (in0 m) c 0).trans (V2_of m (outs m) c _ (by decide)).symm)
  · exact ((dat0 (in0 m) c).arrAt_in 1 rfl _).trans ((A_eq0 (in0 m) c 1).trans (V2_of m (outs m) c _ (by decide)).symm)
  · exact ((dat0 (in0 m) c).arrAt_in 2 rfl _).trans ((A_eq0 (in0 m) c 2).trans (V2_of m (outs m) c _ (by decide)).symm)
  · exact ((dat0 (in0 m) c).arrAt_in 3 rfl _).trans ((A_eq0 (in0 m) c 3).trans (V2_of m (outs m) c _ (by decide)).symm)
  · exact ((dat0 (in0 m) c).arrAt_in 4 rfl _).trans ((A_eq0 (in0 m) c 4).trans (V2_of m (outs m) c _ (by decide)).symm)
  · exact ((dat0 (in0 m) c).arrAt_in 5 rfl _).trans ((A_eq0 (in0 m) c 5).trans (V2_of m (outs m) c _ (by decide)).symm)
  · show _ = B1 m c main_call0_v15
    unfold B1
    rw [Function.update_self]
    unfold left0
    exact (Pipeline.withArrays_arr spec0 launch0.win.arr_inj c (V1 m c) (fun w => (dat0 (in0 m) c).arrAt w cfg0.N) 6).symm

/-- and every other buffer what it held at the region's entry. -/
theorem hrest0 (c : Dev nD) (b : Ref sig .tc) (hb : b ∉ Finset.univ.image (Pipeline.arrRef spec0)) :
    V2 m (outs m) c (Proc.devRef .tc b) = in0 m c b :=
  V2_of m (outs m) c b (fun hm => hb (by
    simp only [List.mem_cons, List.mem_nil_iff, or_false] at hm
    rcases hm with rfl
    · exact Finset.mem_image.mpr ⟨6, Finset.mem_univ _, rfl⟩))

set_option backward.isDefEq.respectTransparency.types false in
/-- Region 0 as a segment of @main: entered from every unscoped buffer at the contents before it, left with its output
    arrays at what it leaves; its arrays are split out of the unscoped buffers at entry and put back at exit; the
    generator register goes into the region's invariant and comes back; nothing is owed; the kernel has no semaphore
    of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (in0 m) c).loose
  hwaits := Pipeline.hwaits_of_owed_zero _ _ _ _ L lv 0 fun _ _ => rfl
  pre c := iprop(StableHlo.held (c : Thread nD τ) (Pipeline.ucRefs τ sig) (V1 m c) ∗ rides c)
  post c := iprop(StableHlo.held (c : Thread nD τ) (Pipeline.ucRefs τ sig) (V2 m (outs m) c) ∗ rides c)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (in0 m c) (A_eq0 (in0 m) c)
    rw [Pipeline.unscopedBufs_held] at hsplit
    replace hsplit : (StableHlo.held (c : Thread nD τ) (Pipeline.ucRefs τ sig) (V1 m c) : sProp 𝕄) ⊢ _ := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (in0 m) c)
    unfold Pipeline.ΦA
    iintro ⟨Hp, -, Hr⟩
    isplitl [Hr]; · iexact Hr
    iexact Hp
  hout c := by
    rw [Pipeline.ownSems0_none]
    refine BIBase.Entails.trans (hout0 (in0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (in0 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- After region 1 each of its arrays holds what the pipeline leaves in it -/
theorem hF1 (c : Dev nD) (w : Fin cfg1.W) :
    (dat1 (in1 m) c).arrAt w cfg1.N = V3 m (outs m) c (Proc.devRef .tc (Pipeline.arrRef spec1 w)) := by
  fin_cases w
  · exact ((dat1 (in1 m) c).arrAt_in 0 rfl _).trans ((A_eq1 (in1 m) c 0).trans (V3_of m (outs m) c _ (by decide)).symm)
  · exact ((dat1 (in1 m) c).arrAt_in 1 rfl _).trans ((A_eq1 (in1 m) c 1).trans (V3_of m (outs m) c _ (by decide)).symm)
  · exact ((dat1 (in1 m) c).arrAt_in 2 rfl _).trans ((A_eq1 (in1 m) c 2).trans (V3_of m (outs m) c _ (by decide)).symm)
  · exact ((dat1 (in1 m) c).arrAt_in 3 rfl _).trans ((A_eq1 (in1 m) c 3).trans (V3_of m (outs m) c _ (by decide)).symm)
  · exact ((dat1 (in1 m) c).arrAt_in 4 rfl _).trans ((A_eq1 (in1 m) c 4).trans (V3_of m (outs m) c _ (by decide)).symm)
  · show _ = B2 m c main_v0_0
    unfold B2
    rw [Function.update_of_ne (StableHlo.devRef_ne_of_ne (by decide) : (Proc.devRef .tc main_v0_0 : DevRef τ sig) ≠ Proc.devRef .tc main_call0_v16_1), Function.update_self]
    unfold left1
    exact (Pipeline.withArrays_arr spec1 launch1.win.arr_inj c (B1 m c) (fun w => (dat1 (in1 m) c).arrAt w cfg1.N) 5).symm
  · show _ = B2 m c main_call0_v16_1
    unfold B2
    rw [Function.update_self]
    unfold left1
    exact (Pipeline.withArrays_arr spec1 launch1.win.arr_inj c (B1 m c) (fun w => (dat1 (in1 m) c).arrAt w cfg1.N) 6).symm

/-- and every other buffer what it held at the region's entry. -/
theorem hrest1 (c : Dev nD) (b : Ref sig .tc) (hb : b ∉ Finset.univ.image (Pipeline.arrRef spec1)) :
    V3 m (outs m) c (Proc.devRef .tc b) = in1 m c b :=
  V3_of m (outs m) c b (fun hm => hb (by
    simp only [List.mem_cons, List.mem_nil_iff, or_false] at hm
    rcases hm with rfl | rfl
    · exact Finset.mem_image.mpr ⟨5, Finset.mem_univ _, rfl⟩
    · exact Finset.mem_image.mpr ⟨6, Finset.mem_univ _, rfl⟩))

set_option backward.isDefEq.respectTransparency.types false in
/-- Region 1 as a segment of @main: entered from every unscoped buffer at the contents before it, left with its output
    arrays at what it leaves; its arrays are split out of the unscoped buffers at entry and put back at exit; the
    generator register goes into the region's invariant and comes back; nothing is owed; the kernel has no semaphore
    of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (in1 m) c).loose
  hwaits := Pipeline.hwaits_of_owed_zero _ _ _ _ L lv 1 fun _ _ => rfl
  pre c := iprop(StableHlo.held (c : Thread nD τ) (Pipeline.ucRefs τ sig) (V2 m (outs m) c) ∗ rides c)
  post c := iprop(StableHlo.held (c : Thread nD τ) (Pipeline.ucRefs τ sig) (V3 m (outs m) c) ∗ rides c)
  X c := iprop(∃ r, prngReg c r)
  Y c := iprop(∃ r, prngReg c r)
  Z c := Pipeline.unscopedRest (Ix := Unit) (Name := ℕ) (U := UR sig nD τ) (Lvl := ℕ) spec1 c (in1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (in1 m c) (A_eq1 (in1 m) c)
    rw [Pipeline.unscopedBufs_held] at hsplit
    replace hsplit : (StableHlo.held (c : Thread nD τ) (Pipeline.ucRefs τ sig) (V2 m (outs m) c) : sProp 𝕄) ⊢ _ := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (in1 m) c)
    unfold Pipeline.ΦA
    iintro ⟨Hp, -, Hr⟩
    isplitl [Hr]; · iexact Hr
    iexact Hp
  hout c := by
    rw [Pipeline.ownSems0_none]
    refine BIBase.Entails.trans (hout1 (in1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (in1 m c) (fun b => V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run of @main -/

/-- What the launch deals a core makes what rides along: the generator register at its launch state, nothing owed. -/
theorem rides_of_launch (c : Dev nD) :
    iprop(unscopedSems0 c ∗ owes (c : Thread nD τ) (0 : CellTallies nD τ sig Unit) ∅ ∗ Pipeline.launchCred (fun _ => (0 : CellTallies nD τ sig Unit)) c ∗ prngReg c (ρ c) ∗ iprop(emp))
      ⊢ (rides c : sProp 𝕄) := by
  iintro ⟨-, HO, -, Hp, -⟩
  isplitl [Hp]; · iexists _; iexact Hp
  iexists ∅; iexact HO

/-- From any memory with every counter at zero, every weakly fair execution of @main terminates, and every final memory
    holds each unscoped buffer at the last valuation: the launch contents, then each stretch of host operations and
    each region's write-backs in @main's order. -/
theorem run_main : θ_run defs (onTc (τ := τ) (main (F := F))) ⟨m, fun _ => 0, ρ⟩ (fun r => ∀ c : Dev nD, ∀ b ∈ Pipeline.ucRefs τ sig,
      r.2.mem (((c.tc : Thread nD τ)).1, b) = V4 m (outs m) c b) :=
  run_cond m emb₁ () 𝒱₀ L lv (fun _ _ => rfl) ρ (outs m) (pdats m) (fun _ => (0 : CellTallies nD τ sig Unit)) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => rides c)
    (by
      iintro ⟨H, -⟩
      imodintro
      iapply (show (bigSep Finset.univ fun c : Dev nD => iprop(unscopedSems0 c ∗ owes (c : Thread nD τ) (0 : CellTallies nD τ sig Unit) ∅ ∗ Pipeline.launchCred (fun _ => (0 : CellTallies nD τ sig Unit)) c ∗ prngReg c (ρ c) ∗ iprop(emp)) : sProp 𝕄)
          ⊢ bigSep Finset.univ (fun c : Dev nD => rides c) from bigSep_mono fun c _ => rides_of_launch ρ c)
      iexact H)
    (fun c => by iintro ⟨-, HO⟩; iexact HO)
    (reg0 m) (fun _ => .rfl) (fun _ => .rfl) (reg1 m) (fun _ => .rfl) (fun _ => .rfl)

end Cert.KernelIdeal.Hand

end
-- ==== Proof.LibPad.lean ====
/-
  A pad that adds nothing.

  `stablehlo.pad` with no elements added before, after or between those of any axis has its operand's shape, reads
  the operand at the same index everywhere and its padding value nowhere: it is the identity, whatever the padding
  value. (A function that pads its operand up to a block multiple prints such a pad when the operand already is one.)
-/
import Idealize.ShloMosaic.PureOps.ShapeOps

namespace Cert.LibPad

open Idealize.ShloMosaic

/-- A pad that adds nothing before, after or between the elements (the result has the operand's shape) is the identity:
    every result index reads the operand at the same index, and the padding value is read nowhere. -/
theorem pad_zero {α : Type} {s : Shape} (lo hi interior : Fin s.rank → Nat) (x : s.Idx → α) {u : Shape}
    (v : u.Idx → α) (h : s.Pads lo hi interior s) (hu : 0 < u.numel)
    (hlo : ∀ a, lo a = 0) (hint : ∀ a, interior a = 0) : pad s lo hi interior x v h hu = x := by
  funext j
  have hin : ∀ a : Fin s.rank, lo a ≤ (j (a.cast h.1)).val ∧ ((j (a.cast h.1)).val - lo a) % (interior a + 1) = 0
      ∧ ((j (a.cast h.1)).val - lo a) / (interior a + 1) < s.size a := by
    intro a
    rw [hlo a, hint a]
    refine ⟨Nat.zero_le _, Nat.mod_one _, ?_⟩
    simp only [Nat.sub_zero, Nat.zero_add, Nat.div_one]
    exact (j a).isLt
  unfold pad
  rw [dif_pos hin]
  congr 1
  funext a
  apply Fin.ext
  simp [hlo a, hint a]

end Cert.LibPad
-- ==== Proof.HostTermsKernel.lean ====
/-
  The kernel program's host stretches, read as terms of the arguments.

  Before its two regions the program pads, slices and converts its arguments; after them it slices and reshapes one
  output into three vectors. On the extended reals a change of float format is the identity, and a pad that adds
  nothing is the identity, so each operand of a region is an argument, a block of rows of one, or an argument padded
  on the right by a constant; and each result is what the second region leaves, or a column of it.
-/
import proofs.«180267_g2000104153886438_pallasbulk_1035_2_alg».proof.Proof.Gen.KernelIdeal.Regions
import proofs.«180267_g2000104153886438_pallasbulk_1035_2_alg».proof.Proof.LibPad
import Idealize.ShloMosaic.Lib.StableHlo.Run
import Idealize.ShloMosaic.PureOps.Ideal

noncomputable section

namespace Cert.KernelIdeal.Hand

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (c : Dev nD)

/-! ## The operands of the two regions, as terms of the arguments -/

/-- The adjacency operand: argument 0 (padded by nothing). -/
theorem V1_a : (V1 m c main_call0_v0 : S4096x4096.Idx → EReal) = m ((c.tc : Thread nD τ).loc main_arg0) := by
  after_results
  exact Cert.LibPad.pad_zero (s := S4096x4096) ![0, 0] ![0, 0] ![0, 0] _ _ pads_S4096x4096_S4096x4096_000_000 h_S_ (by decide) (by decide)

/-- The feature operand: argument 1 (padded by nothing). -/
theorem V1_x : (V1 m c main_call0_v1 : S4096x256.Idx → EReal) = m ((c.tc : Thread nD τ).loc main_arg1) := by
  after_results
  exact Cert.LibPad.pad_zero (s := S4096x256) ![0, 0] ![0, 0] ![0, 0] _ _ pads_S4096x256_S4096x256_000_000 h_S_ (by decide) (by decide)

/-- The first weight: argument 2 (padded by nothing; on the extended reals the change of float format is the identity). -/
theorem V1_w1 : (V1 m c main_call0_v3 : S256x256.Idx → EReal) = m ((c.tc : Thread nD τ).loc main_arg2) := by
  after_results
  exact Cert.LibPad.pad_zero (s := S256x256) ![0, 0] ![0, 0] ![0, 0] _ _ pads_S256x256_S256x256_000_000 h_S_ (by decide) (by decide)

/-- The top half of the second weight: rows 0 to 255 of argument 4 (padded by nothing, the format change the identity). -/
theorem V1_w2t : (V1 m c main_call0_v6 : S256x256.Idx → EReal)
    = extractStridedSlice S256x256 ![0, 0] (m ((c.tc : Thread nD τ).loc main_arg4) : S512x256.Idx → EReal) slices_S512x256_S256x256_0_0 := by
  after_results
  exact Cert.LibPad.pad_zero (s := S256x256) ![0, 0] ![0, 0] ![0, 0] _ _ pads_S256x256_S256x256_000_000 h_S_ (by decide) (by decide)

/-- The bottom half of the second weight: rows 256 to 511 of argument 4. -/
theorem V1_w2b : (V1 m c main_call0_v9 : S256x256.Idx → EReal)
    = extractStridedSlice S256x256 ![256, 0] (m ((c.tc : Thread nD τ).loc main_arg4) : S512x256.Idx → EReal) slices_S512x256_S256x256_256_0 := by
  after_results
  exact Cert.LibPad.pad_zero (s := S256x256) ![0, 0] ![0, 0] ![0, 0] _ _ pads_S256x256_S256x256_000_000 h_S_ (by decide) (by decide)

/-- The first bias: argument 3 (padded by nothing). -/
theorem V1_b1 : (V1 m c main_call0_v12 : S1x256.Idx → EReal) = m ((c.tc : Thread nD τ).loc main_arg3) := by
  after_results
  exact Cert.LibPad.pad_zero (s := S1x256) ![0, 0] ![0, 0] ![0, 0] _ _ pads_S1x256_S1x256_000_000 h_S_ (by decide) (by decide)

/-- The second bias: argument 5 (padded by nothing). -/
theorem V1_b2 : (V1 m c main_call0_v13 : S1x256.Idx → EReal) = m ((c.tc : Thread nD τ).loc main_arg5) := by
  after_results
  exact Cert.LibPad.pad_zero (s := S1x256) ![0, 0] ![0, 0] ![0, 0] _ _ pads_S1x256_S1x256_000_000 h_S_ (by decide) (by decide)

/-- The projection weight: argument 6 padded on the right to 128 columns by the converted integer zero
    (the format change the identity). -/
theorem V1_wp : (V1 m c main_call0_v11 : S256x128.Idx → EReal)
    = pad S256x128 ![0, 0] ![0, 125] ![0, 0] (m ((c.tc : Thread nD τ).loc main_arg6) : S256x3.Idx → EReal)
        (sitofp (F := Ideal) .f32 (constantI S_ 32 0#32)) pads_S256x3_S256x128_000_01250 h_S_ := by
  after_results
  rfl

/-- The projection bias: argument 7 padded on the right to 128 columns by the converted integer zero. -/
theorem V1_bp : (V1 m c main_call0_v14 : S1x128.Idx → EReal)
    = pad S1x128 ![0, 0] ![0, 125] ![0, 0] (m ((c.tc : Thread nD τ).loc main_arg7) : S1x3.Idx → EReal)
        (sitofp (F := Ideal) .f32 (constantI S_ 32 0#32)) pads_S1x3_S1x128_000_01250 h_S_ := by
  after_results
  rfl

/-! ## The results, as terms of what the second region leaves -/

variable (outs : Outs (F := Ideal))

/-- Result 0 is what the second region leaves in it: no later host operation writes it. -/
theorem V4_z : (V4 m outs c main_v0_0 : S4096x256.Idx → EReal) = outs 3 main_v0_0 c := by
  rw [V4_of m outs c main_v0_0 (by decide)]
  simp only [V3, Function.update_of_ne (StableHlo.devRef_ne_of_ne (by decide) : (Proc.devRef .tc main_v0_0 : DevRef τ sig) ≠ Proc.devRef .tc main_call0_v16_1), Function.update_self]

/-- Result 1: column 0 of the first three columns of the second region's other output, as a vector. -/
theorem V4_col0 : (V4 m outs c main_v0_1 : S4096.Idx → EReal)
    = shapeCast S4096 (extractStridedSlice S4096x1 ![0, 0]
        (extractStridedSlice S4096x3 ![0, 0] (outs 3 main_call0_v16_1 c : S4096x128.Idx → EReal) slices_S4096x128_S4096x3_0_0)
        slices_S4096x3_S4096x1_0_0) shapeCasts_S4096x1_S4096 := by
  after_results
  simp only [V3, Function.update_self]
  rfl

/-- Result 2: column 1 of the same. -/
theorem V4_col1 : (V4 m outs c main_v0_2 : S4096.Idx → EReal)
    = shapeCast S4096 (extractStridedSlice S4096x1 ![0, 1]
        (extractStridedSlice S4096x3 ![0, 0] (outs 3 main_call0_v16_1 c : S4096x128.Idx → EReal) slices_S4096x128_S4096x3_0_0)
        slices_S4096x3_S4096x1_0_1) shapeCasts_S4096x1_S4096 := by
  after_results
  simp only [V3, Function.update_self]
  rfl

/-- Result 3: column 2 of the same. -/
theorem V4_col2 : (V4 m outs c main_v0_3 : S4096.Idx → EReal)
    = shapeCast S4096 (extractStridedSlice S4096x1 ![0, 2]
        (extractStridedSlice S4096x3 ![0, 0] (outs 3 main_call0_v16_1 c : S4096x128.Idx → EReal) slices_S4096x128_S4096x3_0_0)
        slices_S4096x3_S4096x1_0_2) shapeCasts_S4096x1_S4096 := by
  after_results
  simp only [V3, Function.update_self]
  rfl

end Cert.KernelIdeal.Hand

end
-- ==== Proof.MatmulAt.lean ====
/-
  The kernels' matrix-unit products read at an index, at the ideal values (a float is an extended real; a change of
  float format is the identity).

  A `tpu.matmul` into the zero splat, with dimension numbers that contract the left operand's axis 1 with the right
  operand's axis 0, is at the index (p, q) the sum over k of a(p, k) · b(k, q). Stated for the two products the programs
  use, [256,256] × [256,256] and [256,256] × [256,128], in each printed program's namespace, since each declares its own
  copy of the shapes and of the dimension records.
-/
import proofs.«180267_g2000104153886438_pallasbulk_1035_2_alg».proof.KernelIdeal
import proofs.«180267_g2000104153886438_pallasbulk_1035_2_alg».proof.ReferenceIdeal
import Idealize.ShloMosaic.PureOps.Ideal
import Idealize.ShloMosaic.PureOps.Ideal.Laws
import Idealize.ShloMosaic.Lib.ValueIdx

noncomputable section

namespace Cert.KernelIdeal.At

open Idealize.ShloMosaic Idealize.ShloMosaic.ValueIdx

/-! ### Changes of float format -/

/-- A narrowing change of float format is the identity on extended reals. -/
theorem truncf_bf16_eq {S : Shape} (v : FVec Ideal S .f32) (h : FTy.bf16.bits < FTy.f32.bits) :
    (truncf (F := Ideal) .bf16 v h : S.Idx → EReal) = v := rfl

/-- A widening change of float format is the identity on extended reals. -/
theorem extf_f32_eq {S : Shape} (v : FVec Ideal S .bf16) (h : FTy.bf16.bits < FTy.f32.bits) :
    (extf (F := Ideal) .f32 v h : S.Idx → EReal) = v := rfl

/-! The dimension records cite the program's shape facts, so the lemmas about them take those facts too. -/
variable [Facts₀]

/-! ### The square product: [256,256] × [256,256] -/

/-- Axis 0 of the left operand's index is the result's row. -/
theorem sq_lhs_axis0 (p q : Fin 256) (k : dot_S256x256_S256x256_S256x256_1_0_0_1_n_n.contr.Idx) :
    (dot_S256x256_S256x256_S256x256_1_0_0_1_n_n.lhsIdx (ix2 p q) k 0).val = p.val := by
  simp [DotDims.lhsIdx, dot_S256x256_S256x256_S256x256_1_0_0_1_n_n]; rfl

/-- Axis 1 of the left operand's index is the contracted coordinate. -/
theorem sq_lhs_axis1 (p q : Fin 256) (c : Fin 256) :
    (dot_S256x256_S256x256_S256x256_1_0_0_1_n_n.lhsIdx (ix2 p q)
      ((contrEquiv1 dot_S256x256_S256x256_S256x256_1_0_0_1_n_n 256 rfl rfl).symm c) 1).val = c.val := by
  rw [DotDims.lhsIdx_val_of_single (d := dot_S256x256_S256x256_S256x256_1_0_0_1_n_n) (cl := 1) rfl]
  exact contrEquiv1_symm_val dot_S256x256_S256x256_S256x256_1_0_0_1_n_n 256 rfl rfl c

/-- Axis 0 of the right operand's index is the contracted coordinate. -/
theorem sq_rhs_axis0 (p q : Fin 256) (c : Fin 256) :
    (dot_S256x256_S256x256_S256x256_1_0_0_1_n_n.rhsIdx (ix2 p q)
      ((contrEquiv1 dot_S256x256_S256x256_S256x256_1_0_0_1_n_n 256 rfl rfl).symm c) 0).val = c.val := by
  rw [DotDims.rhsIdx_val_of_single (d := dot_S256x256_S256x256_S256x256_1_0_0_1_n_n) (cr := 0) rfl]
  exact contrEquiv1_symm_val dot_S256x256_S256x256_S256x256_1_0_0_1_n_n 256 rfl rfl c

/-- Axis 1 of the right operand's index is the result's column. -/
theorem sq_rhs_axis1 (p q : Fin 256) (k : dot_S256x256_S256x256_S256x256_1_0_0_1_n_n.contr.Idx) :
    (dot_S256x256_S256x256_S256x256_1_0_0_1_n_n.rhsIdx (ix2 p q) k 1).val = q.val := by
  simp [DotDims.rhsIdx, dot_S256x256_S256x256_S256x256_1_0_0_1_n_n]; rfl

/-- The matrix unit's product of two 256 × 256 matrices into the zero splat, read at (p, q): the sum over the contracted
    coordinate of the products of the entries. -/
theorem matmul_sq_apply (a b : FVec Ideal S256x256 .bf16) (p q : Fin 256) :
    matmul (F := Ideal) dot_S256x256_S256x256_S256x256_1_0_0_1_n_n none a b (constant S256x256 .f32 0x00000000#32) (ix2 p q)
      = ∑ k : Fin 256, a (ix2 p k) * b (ix2 k q) := by
  show FloatOps.matmul _ none a b (constant S256x256 .f32 0x00000000#32) (ix2 p q) = _
  rw [Ideal.matmul_constant_zero_apply,
    ← Equiv.sum_comp (contrEquiv1 dot_S256x256_S256x256_S256x256_1_0_0_1_n_n 256 rfl rfl).symm]
  refine Finset.sum_congr rfl fun c _ => ?_
  have l : dot_S256x256_S256x256_S256x256_1_0_0_1_n_n.lhsIdx (ix2 p q)
      ((contrEquiv1 dot_S256x256_S256x256_S256x256_1_0_0_1_n_n 256 rfl rfl).symm c) = ix2 p c := by
    funext ax; apply Fin.ext
    match ax with
    | ⟨0, _⟩ => exact sq_lhs_axis0 p q _
    | ⟨1, _⟩ => exact sq_lhs_axis1 p q c
  have r : dot_S256x256_S256x256_S256x256_1_0_0_1_n_n.rhsIdx (ix2 p q)
      ((contrEquiv1 dot_S256x256_S256x256_S256x256_1_0_0_1_n_n 256 rfl rfl).symm c) = ix2 c q := by
    funext ax; apply Fin.ext
    match ax with
    | ⟨0, _⟩ => exact sq_rhs_axis0 p q c
    | ⟨1, _⟩ => exact sq_rhs_axis1 p q _
  rw [l, r]

/-! ### The pooling product: [256,256] × [256,128] -/

/-- Axis 0 of the left operand's index is the result's row. -/
theorem pool_lhs_axis0 (p : Fin 256) (q : Fin 128) (k : dot_S256x256_S256x128_S256x128_1_0_0_1_n_n.contr.Idx) :
    (dot_S256x256_S256x128_S256x128_1_0_0_1_n_n.lhsIdx (ix2 p q) k 0).val = p.val := by
  simp [DotDims.lhsIdx, dot_S256x256_S256x128_S256x128_1_0_0_1_n_n]; rfl

/-- Axis 1 of the left operand's index is the contracted coordinate. -/
theorem pool_lhs_axis1 (p : Fin 256) (q : Fin 128) (c : Fin 256) :
    (dot_S256x256_S256x128_S256x128_1_0_0_1_n_n.lhsIdx (ix2 p q)
      ((contrEquiv1 dot_S256x256_S256x128_S256x128_1_0_0_1_n_n 256 rfl rfl).symm c) 1).val = c.val := by
  rw [DotDims.lhsIdx_val_of_single (d := dot_S256x256_S256x128_S256x128_1_0_0_1_n_n) (cl := 1) rfl]
  exact contrEquiv1_symm_val dot_S256x256_S256x128_S256x128_1_0_0_1_n_n 256 rfl rfl c

/-- Axis 0 of the right operand's index is the contracted coordinate. -/
theorem pool_rhs_axis0 (p : Fin 256) (q : Fin 128) (c : Fin 256) :
    (dot_S256x256_S256x128_S256x128_1_0_0_1_n_n.rhsIdx (ix2 p q)
      ((contrEquiv1 dot_S256x256_S256x128_S256x128_1_0_0_1_n_n 256 rfl rfl).symm c) 0).val = c.val := by
  rw [DotDims.rhsIdx_val_of_single (d := dot_S256x256_S256x128_S256x128_1_0_0_1_n_n) (cr := 0) rfl]
  exact contrEquiv1_symm_val dot_S256x256_S256x128_S256x128_1_0_0_1_n_n 256 rfl rfl c

/-- Axis 1 of the right operand's index is the result's column. -/
theorem pool_rhs_axis1 (p : Fin 256) (q : Fin 128) (k : dot_S256x256_S256x128_S256x128_1_0_0_1_n_n.contr.Idx) :
    (dot_S256x256_S256x128_S256x128_1_0_0_1_n_n.rhsIdx (ix2 p q) k 1).val = q.val := by
  simp [DotDims.rhsIdx, dot_S256x256_S256x128_S256x128_1_0_0_1_n_n]; rfl

/-- The matrix unit's product of a 256 × 256 by a 256 × 128 matrix into the zero splat, read at (p, q): the sum over the
    contracted coordinate of the products of the entries. -/
theorem matmul_pool_apply (a : FVec Ideal S256x256 .bf16) (b : FVec Ideal S256x128 .bf16) (p : Fin 256) (q : Fin 128) :
    matmul (F := Ideal) dot_S256x256_S256x128_S256x128_1_0_0_1_n_n none a b (constant S256x128 .f32 0x00000000#32) (ix2 p q)
      = ∑ k : Fin 256, a (ix2 p k) * b (ix2 k q) := by
  show FloatOps.matmul _ none a b (constant S256x128 .f32 0x00000000#32) (ix2 p q) = _
  rw [Ideal.matmul_constant_zero_apply,
    ← Equiv.sum_comp (contrEquiv1 dot_S256x256_S256x128_S256x128_1_0_0_1_n_n 256 rfl rfl).symm]
  refine Finset.sum_congr rfl fun c _ => ?_
  have l : dot_S256x256_S256x128_S256x128_1_0_0_1_n_n.lhsIdx (ix2 p q)
      ((contrEquiv1 dot_S256x256_S256x128_S256x128_1_0_0_1_n_n 256 rfl rfl).symm c) = ix2 p c := by
    funext ax; apply Fin.ext
    match ax with
    | ⟨0, _⟩ => exact pool_lhs_axis0 p q _
    | ⟨1, _⟩ => exact pool_lhs_axis1 p q c
  have r : dot_S256x256_S256x128_S256x128_1_0_0_1_n_n.rhsIdx (ix2 p q)
      ((contrEquiv1 dot_S256x256_S256x128_S256x128_1_0_0_1_n_n 256 rfl rfl).symm c) = ix2 c q := by
    funext ax; apply Fin.ext
    match ax with
    | ⟨0, _⟩ => exact pool_rhs_axis0 p q c
    | ⟨1, _⟩ => exact pool_rhs_axis1 p q _
  rw [l, r]

end Cert.KernelIdeal.At

namespace Cert.ReferenceIdeal.At

open Idealize.ShloMosaic Idealize.ShloMosaic.ValueIdx

/-! ### Changes of float format -/

/-- A narrowing change of float format is the identity on extended reals. -/
theorem truncf_bf16_eq {S : Shape} (v : FVec Ideal S .f32) (h : FTy.bf16.bits < FTy.f32.bits) :
    (truncf (F := Ideal) .bf16 v h : S.Idx → EReal) = v := rfl

/-- A widening change of float format is the identity on extended reals. -/
theorem extf_f32_eq {S : Shape} (v : FVec Ideal S .bf16) (h : FTy.bf16.bits < FTy.f32.bits) :
    (extf (F := Ideal) .f32 v h : S.Idx → EReal) = v := rfl

/-! The dimension records cite the program's shape facts, so the lemmas about them take those facts too. -/
variable [Facts₀]

/-! ### The square product: [256,256] × [256,256] -/

/-- Axis 0 of the left operand's index is the result's row. -/
theorem sq_lhs_axis0 (p q : Fin 256) (k : dot_S256x256_S256x256_S256x256_1_0_0_1_n_n.contr.Idx) :
    (dot_S256x256_S256x256_S256x256_1_0_0_1_n_n.lhsIdx (ix2 p q) k 0).val = p.val := by
  simp [DotDims.lhsIdx, dot_S256x256_S256x256_S256x256_1_0_0_1_n_n]; rfl

/-- Axis 1 of the left operand's index is the contracted coordinate. -/
theorem sq_lhs_axis1 (p q : Fin 256) (c : Fin 256) :
    (dot_S256x256_S256x256_S256x256_1_0_0_1_n_n.lhsIdx (ix2 p q)
      ((contrEquiv1 dot_S256x256_S256x256_S256x256_1_0_0_1_n_n 256 rfl rfl).symm c) 1).val = c.val := by
  rw [DotDims.lhsIdx_val_of_single (d := dot_S256x256_S256x256_S256x256_1_0_0_1_n_n) (cl := 1) rfl]
  exact contrEquiv1_symm_val dot_S256x256_S256x256_S256x256_1_0_0_1_n_n 256 rfl rfl c

/-- Axis 0 of the right operand's index is the contracted coordinate. -/
theorem sq_rhs_axis0 (p q : Fin 256) (c : Fin 256) :
    (dot_S256x256_S256x256_S256x256_1_0_0_1_n_n.rhsIdx (ix2 p q)
      ((contrEquiv1 dot_S256x256_S256x256_S256x256_1_0_0_1_n_n 256 rfl rfl).symm c) 0).val = c.val := by
  rw [DotDims.rhsIdx_val_of_single (d := dot_S256x256_S256x256_S256x256_1_0_0_1_n_n) (cr := 0) rfl]
  exact contrEquiv1_symm_val dot_S256x256_S256x256_S256x256_1_0_0_1_n_n 256 rfl rfl c

/-- Axis 1 of the right operand's index is the result's column. -/
theorem sq_rhs_axis1 (p q : Fin 256) (k : dot_S256x256_S256x256_S256x256_1_0_0_1_n_n.contr.Idx) :
    (dot_S256x256_S256x256_S256x256_1_0_0_1_n_n.rhsIdx (ix2 p q) k 1).val = q.val := by
  simp [DotDims.rhsIdx, dot_S256x256_S256x256_S256x256_1_0_0_1_n_n]; rfl

/-- The matrix unit's product of two 256 × 256 matrices into the zero splat, read at (p, q): the sum over the contracted
    coordinate of the products of the entries. -/
theorem matmul_sq_apply (a b : FVec Ideal S256x256 .bf16) (p q : Fin 256) :
    matmul (F := Ideal) dot_S256x256_S256x256_S256x256_1_0_0_1_n_n none a b (constant S256x256 .f32 0x00000000#32) (ix2 p q)
      = ∑ k : Fin 256, a (ix2 p k) * b (ix2 k q) := by
  show FloatOps.matmul _ none a b (constant S256x256 .f32 0x00000000#32) (ix2 p q) = _
  rw [Ideal.matmul_constant_zero_apply,
    ← Equiv.sum_comp (contrEquiv1 dot_S256x256_S256x256_S256x256_1_0_0_1_n_n 256 rfl rfl).symm]
  refine Finset.sum_congr rfl fun c _ => ?_
  have l : dot_S256x256_S256x256_S256x256_1_0_0_1_n_n.lhsIdx (ix2 p q)
      ((contrEquiv1 dot_S256x256_S256x256_S256x256_1_0_0_1_n_n 256 rfl rfl).symm c) = ix2 p c := by
    funext ax; apply Fin.ext
    match ax with
    | ⟨0, _⟩ => exact sq_lhs_axis0 p q _
    | ⟨1, _⟩ => exact sq_lhs_axis1 p q c
  have r : dot_S256x256_S256x256_S256x256_1_0_0_1_n_n.rhsIdx (ix2 p q)
      ((contrEquiv1 dot_S256x256_S256x256_S256x256_1_0_0_1_n_n 256 rfl rfl).symm c) = ix2 c q := by
    funext ax; apply Fin.ext
    match ax with
    | ⟨0, _⟩ => exact sq_rhs_axis0 p q c
    | ⟨1, _⟩ => exact sq_rhs_axis1 p q _
  rw [l, r]

/-! ### The pooling product: [256,256] × [256,128] -/

/-- Axis 0 of the left operand's index is the result's row. -/
theorem pool_lhs_axis0 (p : Fin 256) (q : Fin 128) (k : dot_S256x256_S256x128_S256x128_1_0_0_1_n_n.contr.Idx) :
    (dot_S256x256_S256x128_S256x128_1_0_0_1_n_n.lhsIdx (ix2 p q) k 0).val = p.val := by
  simp [DotDims.lhsIdx, dot_S256x256_S256x128_S256x128_1_0_0_1_n_n]; rfl

/-- Axis 1 of the left operand's index is the contracted coordinate. -/
theorem pool_lhs_axis1 (p : Fin 256) (q : Fin 128) (c : Fin 256) :
    (dot_S256x256_S256x128_S256x128_1_0_0_1_n_n.lhsIdx (ix2 p q)
      ((contrEquiv1 dot_S256x256_S256x128_S256x128_1_0_0_1_n_n 256 rfl rfl).symm c) 1).val = c.val := by
  rw [DotDims.lhsIdx_val_of_single (d := dot_S256x256_S256x128_S256x128_1_0_0_1_n_n) (cl := 1) rfl]
  exact contrEquiv1_symm_val dot_S256x256_S256x128_S256x128_1_0_0_1_n_n 256 rfl rfl c

/-- Axis 0 of the right operand's index is the contracted coordinate. -/
theorem pool_rhs_axis0 (p : Fin 256) (q : Fin 128) (c : Fin 256) :
    (dot_S256x256_S256x128_S256x128_1_0_0_1_n_n.rhsIdx (ix2 p q)
      ((contrEquiv1 dot_S256x256_S256x128_S256x128_1_0_0_1_n_n 256 rfl rfl).symm c) 0).val = c.val := by
  rw [DotDims.rhsIdx_val_of_single (d := dot_S256x256_S256x128_S256x128_1_0_0_1_n_n) (cr := 0) rfl]
  exact contrEquiv1_symm_val dot_S256x256_S256x128_S256x128_1_0_0_1_n_n 256 rfl rfl c

/-- Axis 1 of the right operand's index is the result's column. -/
theorem pool_rhs_axis1 (p : Fin 256) (q : Fin 128) (k : dot_S256x256_S256x128_S256x128_1_0_0_1_n_n.contr.Idx) :
    (dot_S256x256_S256x128_S256x128_1_0_0_1_n_n.rhsIdx (ix2 p q) k 1).val = q.val := by
  simp [DotDims.rhsIdx, dot_S256x256_S256x128_S256x128_1_0_0_1_n_n]; rfl

/-- The matrix unit's product of a 256 × 256 by a 256 × 128 matrix into the zero splat, read at (p, q): the sum over the
    contracted coordinate of the products of the entries. -/
theorem matmul_pool_apply (a : FVec Ideal S256x256 .bf16) (b : FVec Ideal S256x128 .bf16) (p : Fin 256) (q : Fin 128) :
    matmul (F := Ideal) dot_S256x256_S256x128_S256x128_1_0_0_1_n_n none a b (constant S256x128 .f32 0x00000000#32) (ix2 p q)
      = ∑ k : Fin 256, a (ix2 p k) * b (ix2 k q) := by
  show FloatOps.matmul _ none a b (constant S256x128 .f32 0x00000000#32) (ix2 p q) = _
  rw [Ideal.matmul_constant_zero_apply,
    ← Equiv.sum_comp (contrEquiv1 dot_S256x256_S256x128_S256x128_1_0_0_1_n_n 256 rfl rfl).symm]
  refine Finset.sum_congr rfl fun c _ => ?_
  have l : dot_S256x256_S256x128_S256x128_1_0_0_1_n_n.lhsIdx (ix2 p q)
      ((contrEquiv1 dot_S256x256_S256x128_S256x128_1_0_0_1_n_n 256 rfl rfl).symm c) = ix2 p c := by
    funext ax; apply Fin.ext
    match ax with
    | ⟨0, _⟩ => exact pool_lhs_axis0 p q _
    | ⟨1, _⟩ => exact pool_lhs_axis1 p q c
  have r : dot_S256x256_S256x128_S256x128_1_0_0_1_n_n.rhsIdx (ix2 p q)
      ((contrEquiv1 dot_S256x256_S256x128_S256x128_1_0_0_1_n_n 256 rfl rfl).symm c) = ix2 c q := by
    funext ax; apply Fin.ext
    match ax with
    | ⟨0, _⟩ => exact pool_rhs_axis0 p q c
    | ⟨1, _⟩ => exact pool_rhs_axis1 p q _
  rw [l, r]

end Cert.ReferenceIdeal.At
-- ==== Proof.LibBlockMatmul.lean ====
import Mathlib.Data.EReal.Basic
import Mathlib.Data.EReal.Operations
import Mathlib.Algebra.BigOperators.Ring.Finset
import Mathlib.Algebra.BigOperators.Group.Finset.Sigma

/-!
# Blocked matrix products over the extended reals

On the extended reals multiplication is neither associative over sums nor
distributive at the infinities, so every law below assumes that the entries of
the matrices are real numbers.  Under that hypothesis each identity is the
image, under the coercion `ℝ → EReal`, of the same identity over `ℝ`.
-/

namespace Cert.LibBlockMatmul

open Finset

/-- every entry is a real number -/
def IsReal {ι κ : Type} (a : ι → κ → EReal) : Prop := ∀ i j, ∃ r : ℝ, a i j = (r : EReal)

/-- the matrix product as a plain sum -/
noncomputable def mmul {l m n : ℕ} (a : Fin l → Fin m → EReal) (b : Fin m → Fin n → EReal) :
    Fin l → Fin n → EReal := fun i j => ∑ k : Fin m, a i k * b k j

/-- the coercion of a finite sum of reals is the sum of the coercions -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- a matrix with real entries is the entrywise coercion of a real matrix -/
theorem IsReal.exists_eq_coe {ι κ : Type} {a : ι → κ → EReal} (ha : IsReal a) :
    ∃ f : ι → κ → ℝ, a = fun i j => (f i j : EReal) := by
  choose f hf using ha
  exact ⟨f, funext fun i => funext fun j => hf i j⟩

/-- the entrywise coercion of a real matrix has real entries -/
theorem isReal_coe {ι κ : Type} (f : ι → κ → ℝ) : IsReal (fun i j => (f i j : EReal)) :=
  fun i j => ⟨f i j, rfl⟩

/-- the product of two coerced real matrices is the coercion of the real product -/
theorem mmul_coe {l m n : ℕ} (f : Fin l → Fin m → ℝ) (g : Fin m → Fin n → ℝ) :
    mmul (fun i k => (f i k : EReal)) (fun k j => (g k j : EReal))
      = fun i j => ((∑ k, f i k * g k j : ℝ) : EReal) := by
  funext i j
  simp only [mmul, coe_finset_sum, EReal.coe_mul]

/-- the product of matrices with real entries has real entries -/
theorem IsReal.mmul {l m n : ℕ} {a : Fin l → Fin m → EReal} {b : Fin m → Fin n → EReal}
    (ha : IsReal a) (hb : IsReal b) : IsReal (mmul a b) := by
  obtain ⟨f, rfl⟩ := ha.exists_eq_coe
  obtain ⟨g, rfl⟩ := hb.exists_eq_coe
  rw [mmul_coe]
  exact isReal_coe _

/-- the entrywise sum of matrices with real entries has real entries -/
theorem IsReal.add {ι κ : Type} {a b : ι → κ → EReal} (ha : IsReal a) (hb : IsReal b) :
    IsReal (fun i j => a i j + b i j) := by
  intro i j
  obtain ⟨r, hr⟩ := ha i j
  obtain ⟨t, ht⟩ := hb i j
  exact ⟨r + t, by show a i j + b i j = _; rw [hr, ht, EReal.coe_add]⟩

/-- adding zero on the left keeps the entries real -/
theorem isReal_zero_add {ι κ : Type} {a : ι → κ → EReal} (ha : IsReal a) :
    IsReal (fun i j => 0 + a i j) := by
  intro i j
  obtain ⟨r, hr⟩ := ha i j
  exact ⟨r, by show 0 + a i j = _; rw [hr, zero_add]⟩

/-- the matrix product is associative on matrices with real entries -/
theorem mmul_assoc {l m n o : ℕ} {a : Fin l → Fin m → EReal} {x : Fin m → Fin n → EReal}
    {w : Fin n → Fin o → EReal} (ha : IsReal a) (hx : IsReal x) (hw : IsReal w) :
    mmul (mmul a x) w = mmul a (mmul x w) := by
  obtain ⟨f, rfl⟩ := ha.exists_eq_coe
  obtain ⟨g, rfl⟩ := hx.exists_eq_coe
  obtain ⟨h, rfl⟩ := hw.exists_eq_coe
  rw [mmul_coe, mmul_coe, mmul_coe, mmul_coe]
  funext i j
  congr 1
  simp only [Finset.sum_mul, Finset.mul_sum]
  rw [Finset.sum_comm]
  exact Finset.sum_congr rfl fun k _ => Finset.sum_congr rfl fun p _ => mul_assoc _ _ _

/-- the matrix product distributes over a sum in its left factor, on real entries -/
theorem mmul_add_left {l m n : ℕ} {s u : Fin l → Fin m → EReal} {w : Fin m → Fin n → EReal}
    (hs : IsReal s) (hu : IsReal u) (hw : IsReal w) :
    mmul (fun i j => s i j + u i j) w = fun i j => mmul s w i j + mmul u w i j := by
  obtain ⟨f, rfl⟩ := hs.exists_eq_coe
  obtain ⟨g, rfl⟩ := hu.exists_eq_coe
  obtain ⟨h, rfl⟩ := hw.exists_eq_coe
  have e : (fun i j => ((f i j : ℝ) : EReal) + (g i j : EReal))
      = fun i j => ((f i j + g i j : ℝ) : EReal) := by
    funext i j
    rw [EReal.coe_add]
  rw [e, mmul_coe, mmul_coe, mmul_coe]
  funext i j
  rw [← EReal.coe_add, ← Finset.sum_add_distrib]
  congr 1
  exact Finset.sum_congr rfl fun k _ => add_mul _ _ _

/-- the accumulator of a blocked product: start from 0 + a₀x₀, then add a_{k+1}x_{k+1} -/
noncomputable def accum {l m n : ℕ} (a : ℕ → Fin l → Fin m → EReal) (x : ℕ → Fin m → Fin n → EReal) :
    ℕ → Fin l → Fin n → EReal
  | 0 => fun i j => 0 + mmul (a 0) (x 0) i j
  | k + 1 => fun i j => accum a x k i j + mmul (a (k + 1)) (x (k + 1)) i j

/-- the accumulator of a blocked product of real blocks has real entries -/
theorem IsReal.accum {l m n : ℕ} {a : ℕ → Fin l → Fin m → EReal}
    {x : ℕ → Fin m → Fin n → EReal} (ha : ∀ k, IsReal (a k)) (hx : ∀ k, IsReal (x k))
    (k : ℕ) : IsReal (accum a x k) := by
  induction k with
  | zero => exact isReal_zero_add ((ha 0).mmul (hx 0))
  | succ k ih => exact ih.add ((ha (k + 1)).mmul (hx (k + 1)))

/-- multiplying the accumulated blocked product by w on the right is accumulating the
blocks x_k·w -/
theorem mmul_accum {l m n o : ℕ} {a : ℕ → Fin l → Fin m → EReal}
    {x : ℕ → Fin m → Fin n → EReal} {w : Fin n → Fin o → EReal}
    (ha : ∀ k, IsReal (a k)) (hx : ∀ k, IsReal (x k)) (hw : IsReal w) (k : ℕ) :
    mmul (accum a x k) w = accum a (fun k => mmul (x k) w) k := by
  induction k with
  | zero =>
    have e : accum a x 0 = mmul (a 0) (x 0) := by
      funext i j
      exact zero_add _
    rw [e, mmul_assoc (ha 0) (hx 0) hw]
    funext i j
    exact (zero_add _).symm
  | succ k ih =>
    have e : accum a x (k + 1)
        = fun i j => accum a x k i j + mmul (a (k + 1)) (x (k + 1)) i j := rfl
    rw [e, mmul_add_left (IsReal.accum ha hx k) ((ha (k + 1)).mmul (hx (k + 1))) hw, ih,
      mmul_assoc (ha (k + 1)) (hx (k + 1)) hw]
    rfl

/-- a state kept by a recurrence over a flat grid of `P` points per row (reset to
`0 + a_t x_t` at the start of a row, otherwise add `a_t x_t` to the state of the previous
point) is, at point `k` of row `r`, the accumulator of the blocks of that row -/
theorem accum_of_rec {l m n : ℕ} (P : ℕ) (hP : 0 < P) (s : ℕ → Fin l → Fin n → EReal)
    (a : ℕ → Fin l → Fin m → EReal) (x : ℕ → Fin m → Fin n → EReal)
    (h0 : ∀ t, t % P = 0 → s t = fun i j => 0 + mmul (a t) (x t) i j)
    (hs : ∀ t, t % P ≠ 0 → s t = fun i j => s (t - 1) i j + mmul (a t) (x t) i j)
    (r k : ℕ) (hk : k < P) :
    s (P * r + k) = accum (fun k => a (P * r + k)) (fun k => x (P * r + k)) k := by
  induction k with
  | zero =>
    have hmod : (P * r + 0) % P = 0 := by
      rw [Nat.mul_add_mod, Nat.mod_eq_of_lt hP]
    rw [h0 _ hmod]
    rfl
  | succ k ih =>
    have hmod : (P * r + (k + 1)) % P ≠ 0 := by
      rw [Nat.mul_add_mod, Nat.mod_eq_of_lt hk]
      exact Nat.succ_ne_zero k
    have hpred : P * r + (k + 1) - 1 = P * r + k := rfl
    rw [hs _ hmod, hpred, ih (Nat.lt_of_succ_lt hk)]
    rfl

/-- any function of the accumulated blocked product times w equals the same function of
the accumulator of the blocks x_k·w -/
theorem layer_eq {β : Type} {l m n o : ℕ} {a : ℕ → Fin l → Fin m → EReal}
    {x : ℕ → Fin m → Fin n → EReal} {w : Fin n → Fin o → EReal}
    (ha : ∀ k, IsReal (a k)) (hx : ∀ k, IsReal (x k)) (hw : IsReal w) (k : ℕ)
    (g : (Fin l → Fin o → EReal) → β) :
    g (mmul (accum a x k) w) = g (accum a (fun k => mmul (x k) w) k) :=
  congrArg g (mmul_accum ha hx hw k)

end Cert.LibBlockMatmul
-- ==== Proof.Spec.lean ====
/-
  What the two programs compute, as functions of matrices of extended reals.

  The adjacency matrix A is 4096 × 4096, cut in 16 × 16 blocks of 256 × 256; a product A · Y is accumulated row-block
  by row-block over the 16 column blocks, starting from zero. The kernel program forms (A · X) · W₁, the reference
  A · (X · W₁); the rest — bias, leaky rectifier, the second weight matrix cut in its upper and lower halves, the second
  propagation, the pooling matrix — is the same on both sides and is stated once.
-/
import proofs.«180267_g2000104153886438_pallasbulk_1035_2_alg».proof.Proof.LibBlockMatmul
import Idealize.ShloMosaic.PureOps.Ideal
import Idealize.ShloMosaic.Lib.ValueIdx

noncomputable section

namespace Cert.Spec

open Idealize.ShloMosaic Cert.LibBlockMatmul

abbrev Mat (a b : ℕ) : Type := Fin a → Fin b → EReal

/-- A rank-2 array of extended reals read as a matrix, and a 1 × n array as a row. -/
def ofArr {a b : ℕ} (f : (⟨2, ![a, b]⟩ : Shape).Idx → EReal) : Mat a b := fun r q => f (ValueIdx.ix2 r q)
def ofRow {n : ℕ} (f : (⟨2, ![1, n]⟩ : Shape).Idx → EReal) : Fin n → EReal := fun q => f (ValueIdx.ix2 0 q)

/-- The leaky rectifier as both programs spell it: `x` where `0 ≤ x`, else the slope's word times `x`. -/
def lrelu (x : EReal) : EReal :=
  Scalar.select (FloatOps.cmpf (F := Ideal) (φ := .f32) .oge x (Ideal.ofBits .f32 0x00000000#32)) x
    (Ideal.ofBits .f32 0x3C23D70A#32 * x)

/-- Rows 256·k … 256·k + 255 of a matrix of 4096 rows (the row taken modulo 4096, so that the function is total in `k`). -/
def rowsOf {n : ℕ} (Y : Mat 4096 n) (k : ℕ) : Mat 256 n :=
  fun p q => Y ⟨(256 * k + p.val) % 4096, Nat.mod_lt _ (by norm_num)⟩ q

/-- Block (i, k) of a 4096 × 4096 matrix. -/
def blockOf (A : Mat 4096 4096) (i k : ℕ) : Mat 256 256 :=
  fun p q => A ⟨(256 * i + p.val) % 4096, Nat.mod_lt _ (by norm_num)⟩ ⟨(256 * k + q.val) % 4096, Nat.mod_lt _ (by norm_num)⟩

/-- Row-block `i` of A · Y: the sum over the 16 column blocks of A's block (i, k) times rows 256·k … of Y, accumulated
    from zero in block order. -/
def blockedProd {n : ℕ} (A : Mat 4096 4096) (Y : Mat 4096 n) (i : ℕ) : Mat 256 n :=
  accum (fun k => blockOf A i k) (fun k => rowsOf Y k) 15

/-- The row's block and its place in the block. -/
def rowBlock (r : Fin 4096) : ℕ := r.val / 256
def rowIn (r : Fin 4096) : Fin 256 := ⟨r.val % 256, Nat.mod_lt _ (by norm_num)⟩

/-! ## The first layer's output, the kernel program's way: (A · X) · W₁ -/

/-- Row-block `i` of the hidden activation: rectifier of (A · X)ᵢ · W₁ + b₁. -/
def hiddenK (A : Mat 4096 4096) (X : Mat 4096 256) (W1 : Mat 256 256) (b1 : Fin 256 → EReal) (i : ℕ) : Mat 256 256 :=
  fun p q => lrelu (mmul (blockedProd A X i) W1 p q + b1 q)

/-- The array the first pallas_call of the kernel program leaves: rectified X times the upper half of W₂, plus the
    hidden activation times the lower half. -/
def ywK (A : Mat 4096 4096) (X : Mat 4096 256) (W1 : Mat 256 256) (b1 : Fin 256 → EReal) (W2t W2b : Mat 256 256) : Mat 4096 256 :=
  fun r q => mmul (fun p j => lrelu (rowsOf X (rowBlock r) p j)) W2t (rowIn r) q
    + mmul (hiddenK A X W1 b1 (rowBlock r)) W2b (rowIn r) q

/-! ## The reference's way: A · (X · W₁), with a pre-pass -/

/-- The pre-pass: X · W₁ and rectified X times the upper half of W₂, row by row. -/
def xw (X : Mat 4096 256) (W1 : Mat 256 256) : Mat 4096 256 := fun r q => ∑ j : Fin 256, X r j * W1 j q
def xw2t (X : Mat 4096 256) (W2t : Mat 256 256) : Mat 4096 256 := fun r q => ∑ j : Fin 256, lrelu (X r j) * W2t j q

/-- The array the reference's second pallas_call leaves, from the two pre-pass arrays it is handed. -/
def ywR (A : Mat 4096 4096) (XW XW2T : Mat 4096 256) (b1 : Fin 256 → EReal) (W2b : Mat 256 256) : Mat 4096 256 :=
  fun r q => XW2T r q
    + mmul (fun p j => lrelu (blockedProd A XW (rowBlock r) p j + b1 j)) W2b (rowIn r) q

/-! ## The second propagation and the pooling, the same on both sides -/

/-- Row-block `i` of the second layer's output: rectifier of (A · YW)ᵢ + b₂. -/
def zBlock (A : Mat 4096 4096) (YW : Mat 4096 256) (b2 : Fin 256 → EReal) (i : ℕ) : Mat 256 256 :=
  fun p q => lrelu (blockedProd A YW i p q + b2 q)

def zOf (A : Mat 4096 4096) (YW : Mat 4096 256) (b2 : Fin 256 → EReal) : Mat 4096 256 :=
  fun r q => zBlock A YW b2 (rowBlock r) (rowIn r) q

/-- The pooling slab: the second layer's output times the padded pooling matrix, plus its padded bias. -/
def poolOf (A : Mat 4096 4096) (YW : Mat 4096 256) (b2 : Fin 256 → EReal) (Wp : Mat 256 128) (bp : Fin 128 → EReal) : Mat 4096 128 :=
  fun r q => mmul (zBlock A YW b2 (rowBlock r)) Wp (rowIn r) q + bp q

end Cert.Spec

end
-- ==== Proof.Layer1Payloads.lean ====
import proofs.«180267_g2000104153886438_pallasbulk_1035_2_alg».proof.Proof.Gen.KernelIdeal.Skeleton
import proofs.«180267_g2000104153886438_pallasbulk_1035_2_alg».proof.Proof.MatmulAt
import proofs.«180267_g2000104153886438_pallasbulk_1035_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-! # The first layer's payloads at an index

At the ideal values a float is an extended real and a change of float format is the identity, so each payload of the
first pallas_call's body, read at (p, q), is a sum of products of entries of the blocks it was computed from. -/

/-- The bias row, broadcast down the 256 rows, read at (p, j): the row's entry j. -/
theorem bias_row_at (b : Vec Ideal S1x256 .f32) (p j : Fin 256) :
    broadcastTo S256x256 (shapeCast S1x256 b shapeCasts_S1x256_S1x256) broadcasts_S1x256_S256x256 (ix2 p j)
      = b (ix2 0 j) := by
  rw [shapeCast_self]
  refine broadcastTo_apply b broadcasts_S1x256_S256x256 (ix2 p j) (ix2 0 j) fun a => ?_
  match a with
  | ⟨0, _⟩ => rfl
  | ⟨1, _⟩ => rfl

/-- The reset's payload is the zero block. -/
theorem k0_pay1_at (p q : Fin 256) : k0_pay1 (F := Ideal) (ix2 p q) = 0 := by
  unfold k0_pay1
  rw [shapeCast_self]
  exact Ideal.ofBits_zero_f32

/-- The accumulator update at (p, q): what the accumulator held there plus row p of the adjacency block times
    column q of the rows of X. -/
theorem k0_pay2_at (a : Vec Ideal S256x256 .f32) (x : Vec Ideal S256x256 .f32) (s : Vec Ideal S256x256 .f32) (p q : Fin 256) :
    k0_pay2 a x s (ix2 p q) = s (ix2 p q) + ∑ k : Fin 256, a (ix2 p k) * x (ix2 k q) := by
  unfold k0_pay2
  simp only [shapeCast_self]
  show s (ix2 p q) + matmul (F := Ideal) dot_S256x256_S256x256_S256x256_1_0_0_1_n_n none
      (truncf .bf16 a bitsLt_bf16_f32) (truncf .bf16 x bitsLt_bf16_f32) (constant S256x256 .f32 0x00000000#32) (ix2 p q) = _
  rw [At.matmul_sq_apply]
  rfl

/-- The closing step at (p, q): the rectified row p of the destination rows of X times column q of the upper half of
    the second weight matrix, plus the rectified row p of (accumulator · first weight matrix + bias) times column q of
    the lower half. -/
theorem k0_pay3_at (acc : Vec Ideal S256x256 .f32) (w1 : Vec Ideal S256x256 .bf16) (b1 : Vec Ideal S1x256 .f32)
    (xi : Vec Ideal S256x256 .f32) (w2t w2b : Vec Ideal S256x256 .bf16) (p q : Fin 256) :
    k0_pay3 acc w1 b1 xi w2t w2b (ix2 p q)
      = (∑ j : Fin 256, Cert.Spec.lrelu (xi (ix2 p j)) * w2t (ix2 j q))
        + ∑ j : Fin 256, Cert.Spec.lrelu ((∑ k : Fin 256, acc (ix2 p k) * w1 (ix2 k j)) + b1 (ix2 0 j)) * w2b (ix2 j q) := by
  unfold k0_pay3
  simp only [shapeCast_self]
  rw [truncf_apply, addf_apply, At.matmul_sq_apply, At.matmul_sq_apply]
  refine congrArg₂ (· + ·) (Finset.sum_congr rfl fun j _ => rfl) (Finset.sum_congr rfl fun j _ => ?_)
  rw [truncf_apply, select_apply, cmpf_apply, mulf_apply, addf_apply, broadcast_apply, broadcast_apply,
    At.matmul_sq_apply]
  have hb := bias_row_at b1 p j
  rw [shapeCast_self] at hb
  rw [hb]
  rfl

end Cert.KernelIdeal.Hand

end
-- ==== Proof.BlockReadsKernel.lean ====
/-
  The kernel's pipeline windows read at an index, and its bodies' loads.

  A window's block at a grid point is a rectangle of the window's array: on each axis an element of the block sits at
  the block index times the block's size plus its own coordinate. The two pipelines run on 16 × 16 grids, the flat
  point t = 16 · i + k standing for the coordinates (i, k) = (t / 16, t % 16); the block indices are read off the
  printed index maps and decided over the 256 points. Stated per window: where an entry of the block sits in the array
  and what the block reads there; for a window whose block is its whole array, that the block reads the array; for an
  output window, which array indices a point's block holds and that every index is in the block of a point that writes
  back. Then the bodies' loads of 256 rows at an offset computed from a grid coordinate, and loads and stores through
  a whole buffer.
-/
import proofs.«180267_g2000104153886438_pallasbulk_1035_2_alg».proof.Proof.Gen.KernelIdeal.Launch
import proofs.«180267_g2000104153886438_pallasbulk_1035_2_alg».proof.Proof.Gen.KernelIdeal.Points
import Idealize.ShloMosaic.Lib.Pipeline.Value
import Idealize.ShloMosaic.Lib.Pipeline.FrameBody
import Idealize.ShloMosaic.Lib.ValueIdx

noncomputable section

namespace Cert.KernelIdeal.At2

open Cert.KernelIdeal Cert.KernelIdeal.Gen Idealize.ShloMosaic Idealize.ShloMosaic.TcCoe Idealize.SL.Sem
open Idealize.ShloMosaic.ValueIdx

/-! ## Pipeline 0 -/

/-- The coordinates of the flat point t = 16 · i + k on pipeline 0's grid: i = t / 16, k = t % 16. -/
theorem coords0 : ∀ t : Fin cfg0.N, ((grid0.coords t) 0).val = t.val / 16 ∧ ((grid0.coords t) 1).val = t.val % 16 :=
  (by decide +kernel : ∀ t : Fin grid0.N, _)

/-- Window 0's block index at the flat point t, decided over the grid. -/
theorem idx0_0 : ∀ t : Fin cfg0.N, win0_0.index t (0 : Fin 2) = t.val / 16 ∧ win0_0.index t (1 : Fin 2) = t.val % 16 :=
  (by decide +kernel : ∀ t : Fin grid0.N, _)

/-- Where entry (p, q) of window 0's block at point t sits in the array: row 256 · (t.val / 16) + p, column 256 · (t.val % 16) + q. -/
theorem blk0_0_emb (t : Fin cfg0.N) (p : Fin 256) (q : Fin 256) :
    (((cfg0.win 0).blk t).view.emb (ix2 p q) : S4096x4096.Idx) = ix2 ⟨256 * (t.val / 16) + p.val, by have := t.isLt; have hN : cfg0.N = 256 := N_0; omega⟩ ⟨256 * (t.val % 16) + q.val, by omega⟩ := by
  obtain ⟨e0, e1⟩ := idx0_0 t
  funext a
  apply Fin.ext
  match a with
  | ⟨0, _⟩ => show win0_0.index t (0 : Fin 2) * 256 + 1 * p.val = 256 * (t.val / 16) + p.val; rw [e0]; omega
  | ⟨1, _⟩ => show win0_0.index t (1 : Fin 2) * 256 + 1 * q.val = 256 * (t.val % 16) + q.val; rw [e1]; omega

/-- Window 0's block at point t, read of an array X at (p, q), is X at row 256 · (t.val / 16) + p, column 256 · (t.val % 16) + q. -/
theorem blk0_0_read {Val : EltTy → Type} (t : Fin cfg0.N) (X : S4096x4096.Idx → Val .f32) (p : Fin 256) (q : Fin 256) :
    ((cfg0.win 0).blk t).view.read Val X (ix2 p q) = X (ix2 ⟨256 * (t.val / 16) + p.val, by have := t.isLt; have hN : cfg0.N = 256 := N_0; omega⟩ ⟨256 * (t.val % 16) + q.val, by omega⟩) := by
  rw [View.read_apply]
  show X _ = X _
  rw [blk0_0_emb]

/-- Window 1's block index at the flat point t is zero on both axes: the block is the whole array, decided over the grid. -/
theorem idx0_1 : ∀ t : Fin cfg0.N, win0_1.index t (0 : Fin 2) = 0 ∧ win0_1.index t (1 : Fin 2) = 0 :=
  (by decide +kernel : ∀ t : Fin grid0.N, _)

/-- Window 1 is resident: its block at any point, read of an array X, is X. -/
theorem blk0_1_read {Val : EltTy → Type} (t : Fin cfg0.N) (X : S4096x256.Idx → Val .f32) :
    ((cfg0.win 1).blk t).view.read Val X = X := by
  obtain ⟨e0, e1⟩ := idx0_1 t
  funext y
  rw [View.read_apply]
  show X _ = X _
  congr 1
  funext a
  apply Fin.ext
  match a with
  | ⟨0, _⟩ => show win0_1.index t (0 : Fin 2) * 4096 + 1 * (y 0).val = (y 0).val; rw [e0]; omega
  | ⟨1, _⟩ => show win0_1.index t (1 : Fin 2) * 256 + 1 * (y 1).val = (y 1).val; rw [e1]; omega

/-- The same at an index. -/
theorem blk0_1_read_apply {Val : EltTy → Type} (t : Fin cfg0.N) (X : S4096x256.Idx → Val .f32) (y : S4096x256.Idx) :
    ((cfg0.win 1).blk t).view.read Val X y = X y :=
  congrFun (blk0_1_read t X) y

/-- Window 2's block index at the flat point t is zero on both axes: the block is the whole array, decided over the grid. -/
theorem idx0_2 : ∀ t : Fin cfg0.N, win0_2.index t (0 : Fin 2) = 0 ∧ win0_2.index t (1 : Fin 2) = 0 :=
  (by decide +kernel : ∀ t : Fin grid0.N, _)

/-- Window 2 is resident: its block at any point, read of an array X, is X. -/
theorem blk0_2_read {Val : EltTy → Type} (t : Fin cfg0.N) (X : S256x256.Idx → Val .bf16) :
    ((cfg0.win 2).blk t).view.read Val X = X := by
  obtain ⟨e0, e1⟩ := idx0_2 t
  funext y
  rw [View.read_apply]
  show X _ = X _
  congr 1
  funext a
  apply Fin.ext
  match a with
  | ⟨0, _⟩ => show win0_2.index t (0 : Fin 2) * 256 + 1 * (y 0).val = (y 0).val; rw [e0]; omega
  | ⟨1, _⟩ => show win0_2.index t (1 : Fin 2) * 256 + 1 * (y 1).val = (y 1).val; rw [e1]; omega

/-- The same at an index. -/
theorem blk0_2_read_apply {Val : EltTy → Type} (t : Fin cfg0.N) (X : S256x256.Idx → Val .bf16) (y : S256x256.Idx) :
    ((cfg0.win 2).blk t).view.read Val X y = X y :=
  congrFun (blk0_2_read t X) y

/-- Window 3's block index at the flat point t is zero on both axes: the block is the whole array, decided over the grid. -/
theorem idx0_3 : ∀ t : Fin cfg0.N, win0_3.index t (0 : Fin 2) = 0 ∧ win0_3.index t (1 : Fin 2) = 0 :=
  (by decide +kernel : ∀ t : Fin grid0.N, _)

/-- Window 3 is resident: its block at any point, read of an array X, is X. -/
theorem blk0_3_read {Val : EltTy → Type} (t : Fin cfg0.N) (X : S256x256.Idx → Val .bf16) :
    ((cfg0.win 3).blk t).view.read Val X = X := by
  obtain ⟨e0, e1⟩ := idx0_3 t
  funext y
  rw [View.read_apply]
  show X _ = X _
  congr 1
  funext a
  apply Fin.ext
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega

/-- The same at an index. -/
theorem blk0_3_read_apply {Val : EltTy → Type} (t : Fin cfg0.N) (X : S256x256.Idx → Val .bf16) (y : S256x256.Idx) :
    ((cfg0.win 3).blk t).view.read Val X y = X y :=
  congrFun (blk0_3_read t X) y

/-- Window 4's block index at the flat point t is zero on both axes: the block is the whole array, decided over the grid. -/
theorem idx0_4 : ∀ t : Fin cfg0.N, win0_4.index t (0 : Fin 2) = 0 ∧ win0_4.index t (1 : Fin 2) = 0 :=
  (by decide +kernel : ∀ t : Fin grid0.N, _)

/-- Window 4 is resident: its block at any point, read of an array X, is X. -/
theorem blk0_4_read {Val : EltTy → Type} (t : Fin cfg0.N) (X : S256x256.Idx → Val .bf16) :
    ((cfg0.win 4).blk t).view.read Val X = X := by
  obtain ⟨e0, e1⟩ := idx0_4 t
  funext y
  rw [View.read_apply]
  show X _ = X _
  congr 1
  funext a
  apply Fin.ext
  match a with
  | ⟨0, _⟩ => show win0_4.index t (0 : Fin 2) * 256 + 1 * (y 0).val = (y 0).val; rw [e0]; omega
  | ⟨1, _⟩ => show win0_4.index t (1 : Fin 2) * 256 + 1 * (y 1).val = (y 1).val; rw [e1]; omega

/-- The same at an index. -/
theorem blk0_4_read_apply {Val : EltTy → Type} (t : Fin cfg0.N) (X : S256x256.Idx → Val .bf16) (y : S256x256.Idx) :
    ((cfg0.win 4).blk t).view.read Val X y = X y :=
  congrFun (blk0_4_read t X) y

/-- Window 5's block index at the flat point t is zero on both axes: the block is the whole array, decided over the grid. -/
theorem idx0_5 : ∀ t : Fin cfg0.N, win0_5.index t (0 : Fin 2) = 0 ∧ win0_5.index t (1 : Fin 2) = 0 :=
  (by decide +kernel : ∀ t : Fin grid0.N, _)

/-- Window 5 is resident: its block at any point, read of an array X, is X. -/
theorem blk0_5_read {Val : EltTy → Type} (t : Fin cfg0.N) (X : S1x256.Idx → Val .f32) :
    ((cfg0.win 5).blk t).view.read Val X = X := by
  obtain ⟨e0, e1⟩ := idx0_5 t
  funext y
  rw [View.read_apply]
  show X _ = X _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 256 + 1 * (y 1).val = (y 1).val; rw [e1]; omega

/-- The same at an index. -/
theorem blk0_5_read_apply {Val : EltTy → Type} (t : Fin cfg0.N) (X : S1x256.Idx → Val .f32) (y : S1x256.Idx) :
    ((cfg0.win 5).blk t).view.read Val X y = X y :=
  congrFun (blk0_5_read t X) y

/-- Window 6's block index at the flat point t, decided over the grid. -/
theorem idx0_6 : ∀ t : Fin cfg0.N, win0_6.index t (0 : Fin 2) = t.val / 16 ∧ win0_6.index t (1 : Fin 2) = 0 :=
  (by decide +kernel : ∀ t : Fin grid0.N, _)

/-- Where entry (p, q) of window 6's block at point t sits in the array: row 256 · (t.val / 16) + p, column q. -/
theorem blk0_6_emb (t : Fin cfg0.N) (p : Fin 256) (q : Fin 256) :
    (((cfg0.win 6).blk t).view.emb (ix2 p q) : S4096x256.Idx) = ix2 ⟨256 * (t.val / 16) + p.val, by have := t.isLt; have hN : cfg0.N = 256 := N_0; omega⟩ q := by
  obtain ⟨e0, e1⟩ := idx0_6 t
  funext a
  apply Fin.ext
  match a with
  | ⟨0, _⟩ => show win0_6.index t (0 : Fin 2) * 256 + 1 * p.val = 256 * (t.val / 16) + p.val; rw [e0]; omega
  | ⟨1, _⟩ => show win0_6.index t (1 : Fin 2) * 256 + 1 * q.val = q.val; rw [e1]; omega

/-- Window 6's block at point t, read of an array X at (p, q), is X at row 256 · (t.val / 16) + p, column q. -/
theorem blk0_6_read {Val : EltTy → Type} (t : Fin cfg0.N) (X : S4096x256.Idx → Val .bf16) (p : Fin 256) (q : Fin 256) :
    ((cfg0.win 6).blk t).view.read Val X (ix2 p q) = X (ix2 ⟨256 * (t.val / 16) + p.val, by have := t.isLt; have hN : cfg0.N = 256 := N_0; omega⟩ q) := by
  rw [View.read_apply]
  show X _ = X _
  rw [blk0_6_emb]

/-- An index of window 6's array lies in point t's block exactly when its row is in the band of 256 rows numbered t.val / 16. -/
theorem mem_blk0_6 (t : Fin cfg0.N) (i : S4096x256.Idx) :
    i ∈ ((cfg0.win 6).blk t).view.set ↔ (i 0).val / 256 = t.val / 16 := by
  obtain ⟨e0, e1⟩ := idx0_6 t
  have hi1 : (i 1).val < 256 := idx2_lt1 i
  show i ∈ ((View.whole main_call0_v15).slice (win0_6.rect t)).set ↔ _
  rw [View.set_slice_whole, Rect.mem_set_unit]
  constructor
  · intro h
    have b0 : win0_6.index t (0 : Fin 2) * 256 ≤ (i 0).val ∧ (i 0).val < win0_6.index t (0 : Fin 2) * 256 + 256 := h 0
    omega
  · intro h a
    match a with
    | ⟨0, _⟩ => show win0_6.index t (0 : Fin 2) * 256 ≤ (i 0).val ∧ (i 0).val < win0_6.index t (0 : Fin 2) * 256 + 256; omega
    | ⟨1, _⟩ => show win0_6.index t (1 : Fin 2) * 256 ≤ (i 1).val ∧ (i 1).val < win0_6.index t (1 : Fin 2) * 256 + 256; omega

/-- The point that writes the row of index i of window 6's array back: the last point of the row band (i 0) / 256. -/
def wbPt0_6 (i : S4096x256.Idx) : Fin cfg0.N :=
  ⟨16 * ((i 0).val / 256) + 15, by have hi0 : (i 0).val < 4096 := idx2_lt0 i; rw [show cfg0.N = 256 from N_0]; omega⟩

/-- Its number. -/
theorem wbPt0_6_val (i : S4096x256.Idx) : (wbPt0_6 i).val = 16 * ((i 0).val / 256) + 15 := rfl

/-- That point writes window 6 back, and its block holds i. -/
theorem cover0_6_at (i : S4096x256.Idx) :
    (cfg0.win 6).flush (wbPt0_6 i) = true ∧ i ∈ ((cfg0.win 6).blk (wbPt0_6 i)).view.set := by
  have hi0 : (i 0).val < 4096 := idx2_lt0 i
  refine ⟨(flush0_6 _).mpr ?_, (mem_blk0_6 _ i).mpr ?_⟩
  · rw [wbPt0_6_val]; omega
  · rw [wbPt0_6_val]; omega

/-- Every index of window 6's array is in the block of some point that writes it back. -/
theorem cover0_6 (i : S4096x256.Idx) :
    ∃ t : Fin cfg0.N, (cfg0.win 6).flush t = true ∧ i ∈ ((cfg0.win 6).blk t).view.set :=
  ⟨_, cover0_6_at i⟩

/-- The body's load of 256 rows at the offsets k0_off1, of contents X, at (p, q): X at row 256 · (coordinate 1 of the point) + p, column q. -/
theorem ld_k0_off1 {Val : EltTy → Type} {e : EltTy} (i : grid0.Coords) (X : S4096x256.Idx → Val e)
    (inb : ∀ a, (k0_off1 i) a + S256x256.size a ≤ S4096x256.size a) (p q : Fin 256) :
    View.ld X (Rect.unit (s := S4096x256) (k0_off1 i) S256x256.size inb) (ix2 p q)
      = X (ix2 ⟨256 * (i 1).val + p.val, by have h : (i 1).val < 16 := (i 1).isLt; omega⟩ q) := by
  show X _ = X _
  congr 1
  funext a
  apply Fin.ext
  match a with
  | ⟨0, _⟩ => show (k0_off1 i) 0 + 1 * p.val = 256 * (i 1).val + p.val; rw [k0_off1_eq]; show 256 * (i 1).val + 1 * p.val = _; omega
  | ⟨1, _⟩ => show (k0_off1 i) 1 + 1 * q.val = q.val; rw [k0_off1_eq]; show 0 + 1 * q.val = _; omega

/-- The same at the coordinates of the flat point t: row 256 · (t.val % 16) + p. -/
theorem ld_k0_off1_at {Val : EltTy → Type} {e : EltTy} (t : Fin cfg0.N) (X : S4096x256.Idx → Val e)
    (inb : ∀ a, (k0_off1 (grid0.coords t)) a + S256x256.size a ≤ S4096x256.size a) (p q : Fin 256) :
    View.ld X (Rect.unit (s := S4096x256) (k0_off1 (grid0.coords t)) S256x256.size inb) (ix2 p q)
      = X (ix2 ⟨256 * (t.val % 16) + p.val, by have := t.isLt; have hN : cfg0.N = 256 := N_0; omega⟩ q) := by
  rw [ld_k0_off1]
  congr 2
  apply Fin.ext
  show 256 * ((grid0.coords t) 1).val + p.val = 256 * (t.val % 16) + p.val
  rw [(coords0 t).2]

/-- The body's load of 256 rows at the offsets k0_off2, of contents X, at (p, q): X at row 256 · (coordinate 0 of the point) + p, column q. -/
theorem ld_k0_off2 {Val : EltTy → Type} {e : EltTy} (i : grid0.Coords) (X : S4096x256.Idx → Val e)
    (inb : ∀ a, (k0_off2 i) a + S256x256.size a ≤ S4096x256.size a) (p q : Fin 256) :
    View.ld X (Rect.unit (s := S4096x256) (k0_off2 i) S256x256.size inb) (ix2 p q)
      = X (ix2 ⟨256 * (i 0).val + p.val, by have h : (i 0).val < 16 := (i 0).isLt; omega⟩ q) := by
  show X _ = X _
  congr 1
  funext a
  apply Fin.ext
  match a with
  | ⟨0, _⟩ => show (k0_off2 i) 0 + 1 * p.val = 256 * (i 0).val + p.val; rw [k0_off2_eq]; show 256 * (i 0).val + 1 * p.val = _; omega
  | ⟨1, _⟩ => show (k0_off2 i) 1 + 1 * q.val = q.val; rw [k0_off2_eq]; show 0 + 1 * q.val = _; omega

/-- The same at the coordinates of the flat point t: row 256 · (t.val / 16) + p. -/
theorem ld_k0_off2_at {Val : EltTy → Type} {e : EltTy} (t : Fin cfg0.N) (X : S4096x256.Idx → Val e)
    (inb : ∀ a, (k0_off2 (grid0.coords t)) a + S256x256.size a ≤ S4096x256.size a) (p q : Fin 256) :
    View.ld X (Rect.unit (s := S4096x256) (k0_off2 (grid0.coords t)) S256x256.size inb) (ix2 p q)
      = X (ix2 ⟨256 * (t.val / 16) + p.val, by have := t.isLt; have hN : cfg0.N = 256 := N_0; omega⟩ q) := by
  rw [ld_k0_off2]
  congr 2
  apply Fin.ext
  show 256 * ((grid0.coords t) 0).val + p.val = 256 * (t.val / 16) + p.val
  rw [(coords0 t).1]

/-! ## Pipeline 1 -/

/-- The coordinates of the flat point t = 16 · i + k on pipeline 1's grid: i = t / 16, k = t % 16. -/
theorem coords1 : ∀ t : Fin cfg1.N, ((grid1.coords t) 0).val = t.val / 16 ∧ ((grid1.coords t) 1).val = t.val % 16 :=
  (by decide +kernel : ∀ t : Fin grid1.N, _)

/-- Window 0's block index at the flat point t, decided over the grid. -/
theorem idx1_0 : ∀ t : Fin cfg1.N, win1_0.index t (0 : Fin 2) = t.val / 16 ∧ win1_0.index t (1 : Fin 2) = t.val % 16 :=
  (by decide +kernel : ∀ t : Fin grid1.N, _)

/-- Where entry (p, q) of window 0's block at point t sits in the array: row 256 · (t.val / 16) + p, column 256 · (t.val % 16) + q. -/
theorem blk1_0_emb (t : Fin cfg1.N) (p : Fin 256) (q : Fin 256) :
    (((cfg1.win 0).blk t).view.emb (ix2 p q) : S4096x4096.Idx) = ix2 ⟨256 * (t.val / 16) + p.val, by have := t.isLt; have hN : cfg1.N = 256 := N_1; omega⟩ ⟨256 * (t.val % 16) + q.val, by omega⟩ := by
  obtain ⟨e0, e1⟩ := idx1_0 t
  funext a
  apply Fin.ext
  match a with
  | ⟨0, _⟩ => show win1_0.index t (0 : Fin 2) * 256 + 1 * p.val = 256 * (t.val / 16) + p.val; rw [e0]; omega
  | ⟨1, _⟩ => show win1_0.index t (1 : Fin 2) * 256 + 1 * q.val = 256 * (t.val % 16) + q.val; rw [e1]; omega

/-- Window 0's block at point t, read of an array X at (p, q), is X at row 256 · (t.val / 16) + p, column 256 · (t.val % 16) + q. -/
theorem blk1_0_read {Val : EltTy → Type} (t : Fin cfg1.N) (X : S4096x4096.Idx → Val .f32) (p : Fin 256) (q : Fin 256) :
    ((cfg1.win 0).blk t).view.read Val X (ix2 p q) = X (ix2 ⟨256 * (t.val / 16) + p.val, by have := t.isLt; have hN : cfg1.N = 256 := N_1; omega⟩ ⟨256 * (t.val % 16) + q.val, by omega⟩) := by
  rw [View.read_apply]
  show X _ = X _
  rw [blk1_0_emb]

/-- Window 1's block index at the flat point t is zero on both axes: the block is the whole array, decided over the grid. -/
theorem idx1_1 : ∀ t : Fin cfg1.N, win1_1.index t (0 : Fin 2) = 0 ∧ win1_1.index t (1 : Fin 2) = 0 :=
  (by decide +kernel : ∀ t : Fin grid1.N, _)

/-- Window 1 is resident: its block at any point, read of an array X, is X. -/
theorem blk1_1_read {Val : EltTy → Type} (t : Fin cfg1.N) (X : S4096x256.Idx → Val .bf16) :
    ((cfg1.win 1).blk t).view.read Val X = X := by
  obtain ⟨e0, e1⟩ := idx1_1 t
  funext y
  rw [View.read_apply]
  show X _ = X _
  congr 1
  funext a
  apply Fin.ext
  match a with
  | ⟨0, _⟩ => show win1_1.index t (0 : Fin 2) * 4096 + 1 * (y 0).val = (y 0).val; rw [e0]; omega
  | ⟨1, _⟩ => show win1_1.index t (1 : Fin 2) * 256 + 1 * (y 1).val = (y 1).val; rw [e1]; omega

/-- The same at an index. -/
theorem blk1_1_read_apply {Val : EltTy → Type} (t : Fin cfg1.N) (X : S4096x256.Idx → Val .bf16) (y : S4096x256.Idx) :
    ((cfg1.win 1).blk t).view.read Val X y = X y :=
  congrFun (blk1_1_read t X) y

/-- Window 2's block index at the flat point t is zero on both axes: the block is the whole array, decided over the grid. -/
theorem idx1_2 : ∀ t : Fin cfg1.N, win1_2.index t (0 : Fin 2) = 0 ∧ win1_2.index t (1 : Fin 2) = 0 :=
  (by decide +kernel : ∀ t : Fin grid1.N, _)

/-- Window 2 is resident: its block at any point, read of an array X, is X. -/
theorem blk1_2_read {Val : EltTy → Type} (t : Fin cfg1.N) (X : S1x256.Idx → Val .f32) :
    ((cfg1.win 2).blk t).view.read Val X = X := by
  obtain ⟨e0, e1⟩ := idx1_2 t
  funext y
  rw [View.read_apply]
  show X _ = X _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 256 + 1 * (y 1).val = (y 1).val; rw [e1]; omega

/-- The same at an index. -/
theorem blk1_2_read_apply {Val : EltTy → Type} (t : Fin cfg1.N) (X : S1x256.Idx → Val .f32) (y : S1x256.Idx) :
    ((cfg1.win 2).blk t).view.read Val X y = X y :=
  congrFun (blk1_2_read t X) y

/-- Window 3's block index at the flat point t is zero on both axes: the block is the whole array, decided over the grid. -/
theorem idx1_3 : ∀ t : Fin cfg1.N, win1_3.index t (0 : Fin 2) = 0 ∧ win1_3.index t (1 : Fin 2) = 0 :=
  (by decide +kernel : ∀ t : Fin grid1.N, _)

/-- Window 3 is resident: its block at any point, read of an array X, is X. -/
theorem blk1_3_read {Val : EltTy → Type} (t : Fin cfg1.N) (X : S256x128.Idx → Val .bf16) :
    ((cfg1.win 3).blk t).view.read Val X = X := by
  obtain ⟨e0, e1⟩ := idx1_3 t
  funext y
  rw [View.read_apply]
  show X _ = X _
  congr 1
  funext a
  apply Fin.ext
  match a with
  | ⟨0, _⟩ => show win1_3.index t (0 : Fin 2) * 256 + 1 * (y 0).val = (y 0).val; rw [e0]; omega
  | ⟨1, _⟩ => show win1_3.index t (1 : Fin 2) * 128 + 1 * (y 1).val = (y 1).val; rw [e1]; omega

/-- The same at an index. -/
theorem blk1_3_read_apply {Val : EltTy → Type} (t : Fin cfg1.N) (X : S256x128.Idx → Val .bf16) (y : S256x128.Idx) :
    ((cfg1.win 3).blk t).view.read Val X y = X y :=
  congrFun (blk1_3_read t X) y

/-- Window 4's block index at the flat point t is zero on both axes: the block is the whole array, decided over the grid. -/
theorem idx1_4 : ∀ t : Fin cfg1.N, win1_4.index t (0 : Fin 2) = 0 ∧ win1_4.index t (1 : Fin 2) = 0 :=
  (by decide +kernel : ∀ t : Fin grid1.N, _)

/-- Window 4 is resident: its block at any point, read of an array X, is X. -/
theorem blk1_4_read {Val : EltTy → Type} (t : Fin cfg1.N) (X : S1x128.Idx → Val .f32) :
    ((cfg1.win 4).blk t).view.read Val X = X := by
  obtain ⟨e0, e1⟩ := idx1_4 t
  funext y
  rw [View.read_apply]
  show X _ = X _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- The same at an index. -/
theorem blk1_4_read_apply {Val : EltTy → Type} (t : Fin cfg1.N) (X : S1x128.Idx → Val .f32) (y : S1x128.Idx) :
    ((cfg1.win 4).blk t).view.read Val X y = X y :=
  congrFun (blk1_4_read t X) y

/-- Window 5's block index at the flat point t, decided over the grid. -/
theorem idx1_5 : ∀ t : Fin cfg1.N, win1_5.index t (0 : Fin 2) = t.val / 16 ∧ win1_5.index t (1 : Fin 2) = 0 :=
  (by decide +kernel : ∀ t : Fin grid1.N, _)

/-- Where entry (p, q) of window 5's block at point t sits in the array: row 256 · (t.val / 16) + p, column q. -/
theorem blk1_5_emb (t : Fin cfg1.N) (p : Fin 256) (q : Fin 256) :
    (((cfg1.win 5).blk t).view.emb (ix2 p q) : S4096x256.Idx) = ix2 ⟨256 * (t.val / 16) + p.val, by have := t.isLt; have hN : cfg1.N = 256 := N_1; omega⟩ q := by
  obtain ⟨e0, e1⟩ := idx1_5 t
  funext a
  apply Fin.ext
  match a with
  | ⟨0, _⟩ => show win1_5.index t (0 : Fin 2) * 256 + 1 * p.val = 256 * (t.val / 16) + p.val; rw [e0]; omega
  | ⟨1, _⟩ => show win1_5.index t (1 : Fin 2) * 256 + 1 * q.val = q.val; rw [e1]; omega

/-- Window 5's block at point t, read of an array X at (p, q), is X at row 256 · (t.val / 16) + p, column q. -/
theorem blk1_5_read {Val : EltTy → Type} (t : Fin cfg1.N) (X : S4096x256.Idx → Val .f32) (p : Fin 256) (q : Fin 256) :
    ((cfg1.win 5).blk t).view.read Val X (ix2 p q) = X (ix2 ⟨256 * (t.val / 16) + p.val, by have := t.isLt; have hN : cfg1.N = 256 := N_1; omega⟩ q) := by
  rw [View.read_apply]
  show X _ = X _
  rw [blk1_5_emb]

/-- An index of window 5's array lies in point t's block exactly when its row is in the band of 256 rows numbered t.val / 16. -/
theorem mem_blk1_5 (t : Fin cfg1.N) (i : S4096x256.Idx) :
    i ∈ ((cfg1.win 5).blk t).view.set ↔ (i 0).val / 256 = t.val / 16 := by
  obtain ⟨e0, e1⟩ := idx1_5 t
  have hi1 : (i 1).val < 256 := idx2_lt1 i
  show i ∈ ((View.whole main_v0_0).slice (win1_5.rect t)).set ↔ _
  rw [View.set_slice_whole, Rect.mem_set_unit]
  constructor
  · intro h
    have b0 : win1_5.index t (0 : Fin 2) * 256 ≤ (i 0).val ∧ (i 0).val < win1_5.index t (0 : Fin 2) * 256 + 256 := h 0
    omega
  · intro h a
    match a with
    | ⟨0, _⟩ => show win1_5.index t (0 : Fin 2) * 256 ≤ (i 0).val ∧ (i 0).val < win1_5.index t (0 : Fin 2) * 256 + 256; omega
    | ⟨1, _⟩ => show win1_5.index t (1 : Fin 2) * 256 ≤ (i 1).val ∧ (i 1).val < win1_5.index t (1 : Fin 2) * 256 + 256; omega

/-- The point that writes the row of index i of window 5's array back: the last point of the row band (i 0) / 256. -/
def wbPt1_5 (i : S4096x256.Idx) : Fin cfg1.N :=
  ⟨16 * ((i 0).val / 256) + 15, by have hi0 : (i 0).val < 4096 := idx2_lt0 i; rw [show cfg1.N = 256 from N_1]; omega⟩

/-- Its number. -/
theorem wbPt1_5_val (i : S4096x256.Idx) : (wbPt1_5 i).val = 16 * ((i 0).val / 256) + 15 := rfl

/-- That point writes window 5 back, and its block holds i. -/
theorem cover1_5_at (i : S4096x256.Idx) :
    (cfg1.win 5).flush (wbPt1_5 i) = true ∧ i ∈ ((cfg1.win 5).blk (wbPt1_5 i)).view.set := by
  have hi0 : (i 0).val < 4096 := idx2_lt0 i
  refine ⟨(flush1_5 _).mpr ?_, (mem_blk1_5 _ i).mpr ?_⟩
  · rw [wbPt1_5_val]; omega
  · rw [wbPt1_5_val]; omega

/-- Every index of window 5's array is in the block of some point that writes it back. -/
theorem cover1_5 (i : S4096x256.Idx) :
    ∃ t : Fin cfg1.N, (cfg1.win 5).flush t = true ∧ i ∈ ((cfg1.win 5).blk t).view.set :=
  ⟨_, cover1_5_at i⟩

/-- Window 6's block index at the flat point t, decided over the grid. -/
theorem idx1_6 : ∀ t : Fin cfg1.N, win1_6.index t (0 : Fin 2) = t.val / 16 ∧ win1_6.index t (1 : Fin 2) = 0 :=
  (by decide +kernel : ∀ t : Fin grid1.N, _)

/-- Where entry (p, q) of window 6's block at point t sits in the array: row 256 · (t.val / 16) + p, column q. -/
theorem blk1_6_emb (t : Fin cfg1.N) (p : Fin 256) (q : Fin 128) :
    (((cfg1.win 6).blk t).view.emb (ix2 p q) : S4096x128.Idx) = ix2 ⟨256 * (t.val / 16) + p.val, by have := t.isLt; have hN : cfg1.N = 256 := N_1; omega⟩ q := by
  obtain ⟨e0, e1⟩ := idx1_6 t
  funext a
  apply Fin.ext
  match a with
  | ⟨0, _⟩ => show win1_6.index t (0 : Fin 2) * 256 + 1 * p.val = 256 * (t.val / 16) + p.val; rw [e0]; omega
  | ⟨1, _⟩ => show win1_6.index t (1 : Fin 2) * 128 + 1 * q.val = q.val; rw [e1]; omega

/-- Window 6's block at point t, read of an array X at (p, q), is X at row 256 · (t.val / 16) + p, column q. -/
theorem blk1_6_read {Val : EltTy → Type} (t : Fin cfg1.N) (X : S4096x128.Idx → Val .f32) (p : Fin 256) (q : Fin 128) :
    ((cfg1.win 6).blk t).view.read Val X (ix2 p q) = X (ix2 ⟨256 * (t.val / 16) + p.val, by have := t.isLt; have hN : cfg1.N = 256 := N_1; omega⟩ q) := by
  rw [View.read_apply]
  show X _ = X _
  rw [blk1_6_emb]

/-- An index of window 6's array lies in point t's block exactly when its row is in the band of 256 rows numbered t.val / 16. -/
theorem mem_blk1_6 (t : Fin cfg1.N) (i : S4096x128.Idx) :
    i ∈ ((cfg1.win 6).blk t).view.set ↔ (i 0).val / 256 = t.val / 16 := by
  obtain ⟨e0, e1⟩ := idx1_6 t
  have hi1 : (i 1).val < 128 := idx2_lt1 i
  show i ∈ ((View.whole main_call0_v16_1).slice (win1_6.rect t)).set ↔ _
  rw [View.set_slice_whole, Rect.mem_set_unit]
  constructor
  · intro h
    have b0 : win1_6.index t (0 : Fin 2) * 256 ≤ (i 0).val ∧ (i 0).val < win1_6.index t (0 : Fin 2) * 256 + 256 := h 0
    omega
  · intro h a
    match a with
    | ⟨0, _⟩ => show win1_6.index t (0 : Fin 2) * 256 ≤ (i 0).val ∧ (i 0).val < win1_6.index t (0 : Fin 2) * 256 + 256; omega
    | ⟨1, _⟩ => show win1_6.index t (1 : Fin 2) * 128 ≤ (i 1).val ∧ (i 1).val < win1_6.index t (1 : Fin 2) * 128 + 128; omega

/-- The point that writes the row of index i of window 6's array back: the last point of the row band (i 0) / 256. -/
def wbPt1_6 (i : S4096x128.Idx) : Fin cfg1.N :=
  ⟨16 * ((i 0).val / 256) + 15, by have hi0 : (i 0).val < 4096 := idx2_lt0 i; rw [show cfg1.N = 256 from N_1]; omega⟩

/-- Its number. -/
theorem wbPt1_6_val (i : S4096x128.Idx) : (wbPt1_6 i).val = 16 * ((i 0).val / 256) + 15 := rfl

/-- That point writes window 6 back, and its block holds i. -/
theorem cover1_6_at (i : S4096x128.Idx) :
    (cfg1.win 6).flush (wbPt1_6 i) = true ∧ i ∈ ((cfg1.win 6).blk (wbPt1_6 i)).view.set := by
  have hi0 : (i 0).val < 4096 := idx2_lt0 i
  refine ⟨(flush1_6 _).mpr ?_, (mem_blk1_6 _ i).mpr ?_⟩
  · rw [wbPt1_6_val]; omega
  · rw [wbPt1_6_val]; omega

/-- Every index of window 6's array is in the block of some point that writes it back. -/
theorem cover1_6 (i : S4096x128.Idx) :
    ∃ t : Fin cfg1.N, (cfg1.win 6).flush t = true ∧ i ∈ ((cfg1.win 6).blk t).view.set :=
  ⟨_, cover1_6_at i⟩

/-- The body's load of 256 rows at the offsets k1_off1, of contents X, at (p, q): X at row 256 · (coordinate 1 of the point) + p, column q. -/
theorem ld_k1_off1 {Val : EltTy → Type} {e : EltTy} (i : grid1.Coords) (X : S4096x256.Idx → Val e)
    (inb : ∀ a, (k1_off1 i) a + S256x256.size a ≤ S4096x256.size a) (p q : Fin 256) :
    View.ld X (Rect.unit (s := S4096x256) (k1_off1 i) S256x256.size inb) (ix2 p q)
      = X (ix2 ⟨256 * (i 1).val + p.val, by have h : (i 1).val < 16 := (i 1).isLt; omega⟩ q) := by
  show X _ = X _
  congr 1
  funext a
  apply Fin.ext
  match a with
  | ⟨0, _⟩ => show (k1_off1 i) 0 + 1 * p.val = 256 * (i 1).val + p.val; rw [k1_off1_eq]; show 256 * (i 1).val + 1 * p.val = _; omega
  | ⟨1, _⟩ => show (k1_off1 i) 1 + 1 * q.val = q.val; rw [k1_off1_eq]; show 0 + 1 * q.val = _; omega

/-- The same at the coordinates of the flat point t: row 256 · (t.val % 16) + p. -/
theorem ld_k1_off1_at {Val : EltTy → Type} {e : EltTy} (t : Fin cfg1.N) (X : S4096x256.Idx → Val e)
    (inb : ∀ a, (k1_off1 (grid1.coords t)) a + S256x256.size a ≤ S4096x256.size a) (p q : Fin 256) :
    View.ld X (Rect.unit (s := S4096x256) (k1_off1 (grid1.coords t)) S256x256.size inb) (ix2 p q)
      = X (ix2 ⟨256 * (t.val % 16) + p.val, by have := t.isLt; have hN : cfg1.N = 256 := N_1; omega⟩ q) := by
  rw [ld_k1_off1]
  congr 2
  apply Fin.ext
  show 256 * ((grid1.coords t) 1).val + p.val = 256 * (t.val % 16) + p.val
  rw [(coords1 t).2]

/-! ## Loads and stores through a whole buffer -/

/-- The zero offsets, as the constant function. -/
theorem hz2 : (![0, 0] : Fin 2 → Nat) = fun _ => 0 := funext fun a => match a with | ⟨0, _⟩ => rfl | ⟨1, _⟩ => rfl

/-- A load through the whole 256x256 rectangle reads the contents. -/
theorem ld_whole_S256x256 {Val : EltTy → Type} {e : EltTy} (X : S256x256.Idx → Val e) (inb : ∀ a, (![0, 0] : Fin 2 → Nat) a + S256x256.size a ≤ S256x256.size a) :
    View.ld X (Rect.unit (s := S256x256) ![0, 0] S256x256.size inb) = X :=
  View.ld_unit_zero (S := S256x256) hz2 inb X

/-- One store through the whole 256x256 rectangle leaves its payload. -/
theorem canon_whole_S256x256 {Val : EltTy → Type} [∀ e, Nonempty (Val e)] {e : EltTy} (P : S256x256.Idx → Val e)
    (inb : ∀ a, (![0, 0] : Fin 2 → Nat) a + S256x256.size a ≤ S256x256.size a) :
    View.canon [(⟨Rect.unit (s := S256x256) ![0, 0] S256x256.size inb, P⟩ : View.Piece Val S256x256 e)] = P :=
  View.canon_unit_zero hz2 inb P

/-- A load through the whole 1x256 rectangle reads the contents. -/
theorem ld_whole_S1x256 {Val : EltTy → Type} {e : EltTy} (X : S1x256.Idx → Val e) (inb : ∀ a, (![0, 0] : Fin 2 → Nat) a + S1x256.size a ≤ S1x256.size a) :
    View.ld X (Rect.unit (s := S1x256) ![0, 0] S1x256.size inb) = X :=
  View.ld_unit_zero (S := S1x256) hz2 inb X

/-- One store through the whole 1x256 rectangle leaves its payload. -/
theorem canon_whole_S1x256 {Val : EltTy → Type} [∀ e, Nonempty (Val e)] {e : EltTy} (P : S1x256.Idx → Val e)
    (inb : ∀ a, (![0, 0] : Fin 2 → Nat) a + S1x256.size a ≤ S1x256.size a) :
    View.canon [(⟨Rect.unit (s := S1x256) ![0, 0] S1x256.size inb, P⟩ : View.Piece Val S1x256 e)] = P :=
  View.canon_unit_zero hz2 inb P

/-- A load through the whole 256x128 rectangle reads the contents. -/
theorem ld_whole_S256x128 {Val : EltTy → Type} {e : EltTy} (X : S256x128.Idx → Val e) (inb : ∀ a, (![0, 0] : Fin 2 → Nat) a + S256x128.size a ≤ S256x128.size a) :
    View.ld X (Rect.unit (s := S256x128) ![0, 0] S256x128.size inb) = X :=
  View.ld_unit_zero (S := S256x128) hz2 inb X

/-- One store through the whole 256x128 rectangle leaves its payload. -/
theorem canon_whole_S256x128 {Val : EltTy → Type} [∀ e, Nonempty (Val e)] {e : EltTy} (P : S256x128.Idx → Val e)
    (inb : ∀ a, (![0, 0] : Fin 2 → Nat) a + S256x128.size a ≤ S256x128.size a) :
    View.canon [(⟨Rect.unit (s := S256x128) ![0, 0] S256x128.size inb, P⟩ : View.Piece Val S256x128 e)] = P :=
  View.canon_unit_zero hz2 inb P

/-- A load through the whole 1x128 rectangle reads the contents. -/
theorem ld_whole_S1x128 {Val : EltTy → Type} {e : EltTy} (X : S1x128.Idx → Val e) (inb : ∀ a, (![0, 0] : Fin 2 → Nat) a + S1x128.size a ≤ S1x128.size a) :
    View.ld X (Rect.unit (s := S1x128) ![0, 0] S1x128.size inb) = X :=
  View.ld_unit_zero (S := S1x128) hz2 inb X

/-- One store through the whole 1x128 rectangle leaves its payload. -/
theorem canon_whole_S1x128 {Val : EltTy → Type} [∀ e, Nonempty (Val e)] {e : EltTy} (P : S1x128.Idx → Val e)
    (inb : ∀ a, (![0, 0] : Fin 2 → Nat) a + S1x128.size a ≤ S1x128.size a) :
    View.canon [(⟨Rect.unit (s := S1x128) ![0, 0] S1x128.size inb, P⟩ : View.Piece Val S1x128 e)] = P :=
  View.canon_unit_zero hz2 inb P

end Cert.KernelIdeal.At2
-- ==== Proof.Layer1Value.lean ====
/-
  The values of the kernel program's first-layer region, at the ideal values.

  On its 16 × 16 grid the region keeps a 256 × 256 accumulator across the 16 points of a row: reset at the row's first
  point, at every point the product of one block of the adjacency matrix with 256 rows of the features is added, and at
  the row's last point the output block is formed: the rectified rows of the features times the upper half of the second
  weight matrix, plus the rectified (accumulator · first weight matrix + bias) times the lower half. Read as matrices of
  extended reals: the accumulator at the last point of row-block i is the accumulated blocked product of the adjacency
  matrix and the features, and the output's array ends at the first layer's output formed as (A · X) · W₁ block by block,
  a function of the arrays the region finds.
-/
import proofs.«180267_g2000104153886438_pallasbulk_1035_2_alg».proof.Proof.Layer1Region
import proofs.«180267_g2000104153886438_pallasbulk_1035_2_alg».proof.Proof.Layer1Payloads
import proofs.«180267_g2000104153886438_pallasbulk_1035_2_alg».proof.Proof.BlockReadsKernel
import proofs.«180267_g2000104153886438_pallasbulk_1035_2_alg».proof.Proof.MatmulAt
import proofs.«180267_g2000104153886438_pallasbulk_1035_2_alg».proof.Proof.Spec
import proofs.«180267_g2000104153886438_pallasbulk_1035_2_alg».proof.Proof.LibBlockMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.LibBlockMatmul Cert.Spec

/-! ## What the body's stores leave, at an index -/

theorem zero_offsets0 : (![0, 0] : Fin 2 → Nat) = fun _ => 0 := funext fun a => by fin_cases a <;> rfl

/-- The reset leaves the zero block. -/
theorem accZero0_at (y : S256x256.Idx) : (accZero (F := Ideal) : S256x256.Idx → EReal) y = 0 := by
  unfold accZero
  rw [View.canon_unit_zero zero_offsets0]
  obtain ⟨p, q, rfl⟩ : ∃ (p q : Fin 256), y = ix2 p q := ⟨y 0, y 1, eq_ix2 y⟩
  exact k0_pay1_at p q

/-- The update adds to the accumulator the product of the adjacency block and the 256 rows the load reads. -/
theorem accStep0_at (xA : Vec Ideal S256x256 .f32) (xX : Vec Ideal S4096x256 .f32) (i : grid0.Coords)
    (acc : Vec Ideal S256x256 .f32) (p q : Fin 256) :
    (accStep xA xX i acc : S256x256.Idx → EReal) (ix2 p q)
      = acc (ix2 p q) + ∑ k : Fin 256, xA (ix2 p k) * View.ld xX (rK i) (ix2 k q) := by
  unfold accStep
  rw [View.canon_unit_zero zero_offsets0, View.ld_unit_zero zero_offsets0, View.ld_unit_zero zero_offsets0, k0_pay2_at]

/-- The closing step's block at an index. -/
theorem out0_6_at (acc : Vec Ideal S256x256 .f32) (xX : Vec Ideal S4096x256 .f32) (xW1 xW2 xW3 : Vec Ideal S256x256 .bf16)
    (xb : Vec Ideal S1x256 .f32) (i : grid0.Coords) (h : lastK i) (p q : Fin 256) :
    (out0_6 acc xX xW1 xW2 xW3 xb i h : S256x256.Idx → EReal) (ix2 p q)
      = (∑ j : Fin 256, lrelu (View.ld xX (rI i h) (ix2 p j)) * xW2 (ix2 j q))
        + ∑ j : Fin 256, lrelu ((∑ k : Fin 256, acc (ix2 p k) * xW1 (ix2 k j)) + xb (ix2 0 j)) * xW3 (ix2 j q) := by
  unfold out0_6
  rw [View.canon_unit_zero zero_offsets0, View.ld_unit_zero zero_offsets0, View.ld_unit_zero zero_offsets0,
    View.ld_unit_zero zero_offsets0, View.ld_unit_zero zero_offsets0, View.ld_unit_zero zero_offsets0, k0_pay3_at]

/-! ## The region-entry arrays as matrices -/

variable (V : (c : Dev nD) → (b : Ref sig .tc) → Buf (Elt Ideal) ((c : Thread nD τ).loc b))

/-- A matrix read as a rank-2 array. -/
def toArr0 {a b : ℕ} (M : Mat a b) : (⟨2, ![a, b]⟩ : Shape).Idx → EReal := fun i => M (i 0) (i 1)

/-- The adjacency matrix, the features, the first weight matrix, the two halves of the second, and the bias row, as the
    region finds them. -/
def adjM0 (c : Dev nD) : Mat 4096 4096 := ofArr (a := 4096) (b := 4096) (V c (Pipeline.arrRef spec0 0))
def xM0 (c : Dev nD) : Mat 4096 256 := ofArr (a := 4096) (b := 256) (V c (Pipeline.arrRef spec0 1))
def w1M0 (c : Dev nD) : Mat 256 256 := ofArr (a := 256) (b := 256) (V c (Pipeline.arrRef spec0 2))
def w2tM0 (c : Dev nD) : Mat 256 256 := ofArr (a := 256) (b := 256) (V c (Pipeline.arrRef spec0 3))
def w2bM0 (c : Dev nD) : Mat 256 256 := ofArr (a := 256) (b := 256) (V c (Pipeline.arrRef spec0 4))
def b1R0 (c : Dev nD) : Fin 256 → EReal := ofRow (n := 256) (V c (Pipeline.arrRef spec0 5))

/-! ## The windows' blocks and the body's row loads, as matrices -/

/-- The adjacency window's block at point t is block (t / 16, t % 16) of the adjacency matrix. -/
theorem iblk0_0_apply (c : Dev nD) (t : Fin cfg0.N) (i k : ℕ) (hi : t.val / 16 = i) (hk : t.val % 16 = k) (p q : Fin 256) :
    (iblk0 V c 0 t : S256x256.Idx → EReal) (ix2 p q) = blockOf (adjM0 V c) i k p q := by
  subst hi; subst hk
  have hN : t.val < 256 := lt_of_lt_of_eq t.isLt (show cfg0.N = 256 from N_0)
  unfold iblk0
  rw [Cert.KernelIdeal.At2.blk0_0_read]
  show V c (Pipeline.arrRef spec0 0) _ = V c (Pipeline.arrRef spec0 0) _
  congr 1
  funext a
  apply Fin.ext
  match a with
  | ⟨0, _⟩ => show 256 * (t.val / 16) + p.val = (256 * (t.val / 16) + p.val) % 4096; have := p.isLt; omega
  | ⟨1, _⟩ => show 256 * (t.val % 16) + q.val = (256 * (t.val % 16) + q.val) % 4096; have := q.isLt; omega

/-- The update's load of 256 rows of the features at point t reads rows 256 · (t % 16) … of them. -/
theorem ld_rK0_apply (c : Dev nD) (t : Fin cfg0.N) (k : ℕ) (hk : t.val % 16 = k) (p q : Fin 256) :
    (View.ld (iblk0 V c 1 t) (rK (grid0.coords t)) : S256x256.Idx → EReal) (ix2 p q) = rowsOf (xM0 V c) k p q := by
  subst hk
  have hN : t.val < 256 := lt_of_lt_of_eq t.isLt (show cfg0.N = 256 from N_0)
  rw [Cert.KernelIdeal.At2.ld_k0_off1_at]
  unfold iblk0
  rw [Cert.KernelIdeal.At2.blk0_1_read]
  show V c (Pipeline.arrRef spec0 1) _ = V c (Pipeline.arrRef spec0 1) _
  congr 1
  funext a
  apply Fin.ext
  match a with
  | ⟨0, _⟩ => show 256 * (t.val % 16) + p.val = (256 * (t.val % 16) + p.val) % 4096; have := p.isLt; omega
  | ⟨1, _⟩ => rfl

/-- The closing step's load of 256 rows of the features at point t reads rows 256 · (t / 16) … of them. -/
theorem ld_rI0_apply (c : Dev nD) (t : Fin cfg0.N) (h : lastK (grid0.coords t)) (i : ℕ) (hi : t.val / 16 = i) (p q : Fin 256) :
    (View.ld (iblk0 V c 1 t) (rI (grid0.coords t) h) : S256x256.Idx → EReal) (ix2 p q) = rowsOf (xM0 V c) i p q := by
  subst hi
  have hN : t.val < 256 := lt_of_lt_of_eq t.isLt (show cfg0.N = 256 from N_0)
  rw [Cert.KernelIdeal.At2.ld_k0_off2_at]
  unfold iblk0
  rw [Cert.KernelIdeal.At2.blk0_1_read]
  show V c (Pipeline.arrRef spec0 1) _ = V c (Pipeline.arrRef spec0 1) _
  congr 1
  funext a
  apply Fin.ext
  match a with
  | ⟨0, _⟩ => show 256 * (t.val / 16) + p.val = (256 * (t.val / 16) + p.val) % 4096; have := p.isLt; omega
  | ⟨1, _⟩ => rfl

/-- The weight matrices' and the bias row's windows are resident: their blocks are the arrays. -/
theorem iblk0_2_apply (c : Dev nD) (t : Fin cfg0.N) (k j : Fin 256) :
    (iblk0 V c 2 t : S256x256.Idx → EReal) (ix2 k j) = w1M0 V c k j := by
  unfold iblk0; rw [Cert.KernelIdeal.At2.blk0_2_read]; rfl
theorem iblk0_3_apply (c : Dev nD) (t : Fin cfg0.N) (k j : Fin 256) :
    (iblk0 V c 3 t : S256x256.Idx → EReal) (ix2 k j) = w2tM0 V c k j := by
  unfold iblk0; rw [Cert.KernelIdeal.At2.blk0_3_read]; rfl
theorem iblk0_4_apply (c : Dev nD) (t : Fin cfg0.N) (k j : Fin 256) :
    (iblk0 V c 4 t : S256x256.Idx → EReal) (ix2 k j) = w2bM0 V c k j := by
  unfold iblk0; rw [Cert.KernelIdeal.At2.blk0_4_read]; rfl
theorem iblk0_5_apply (c : Dev nD) (t : Fin cfg0.N) (j : Fin 256) :
    (iblk0 V c 5 t : S1x256.Idx → EReal) (ix2 0 j) = b1R0 V c j := by
  unfold iblk0; rw [Cert.KernelIdeal.At2.blk0_5_read]; rfl

/-- The update at point t = 16 · i + k adds block (i, k) of the adjacency matrix times rows 256 · k … of the features. -/
theorem accStep0_pt (c : Dev nD) (t : Fin cfg0.N) (i k : ℕ) (hi : t.val / 16 = i) (hk : t.val % 16 = k)
    (s : Vec Ideal S256x256 .f32) (p q : Fin 256) :
    (accStep (iblk0 V c 0 t) (iblk0 V c 1 t) (grid0.coords t) s : S256x256.Idx → EReal) (ix2 p q)
      = s (ix2 p q) + mmul (blockOf (adjM0 V c) i k) (rowsOf (xM0 V c) k) p q := by
  rw [accStep0_at]
  congr 1
  refine Finset.sum_congr rfl fun j _ => ?_
  rw [iblk0_0_apply V c t i k hi hk, ld_rK0_apply V c t k hk]

/-! ## The accumulator across a row of the grid -/

/-- The accumulator's contents depend on the point's number only. -/
theorem scr0_congr (c : Dev nD) (n m : ℕ) (hn : n < cfg0.N) (hm : m < cfg0.N) (e : n = m) :
    scr0 V c n hn = scr0 V c m hm := by
  subst e; rfl

/-- After the body at point 16 · r + k (k < 16) the accumulator holds, as a matrix, the accumulated product of the
    blocks (r, 0 … k) of the adjacency matrix with the corresponding blocks of rows of the features. -/
theorem scr0_eq_accum (c : Dev nD) (r : ℕ) :
    ∀ (k : ℕ) (hk : k < 16) (h : 16 * r + k < cfg0.N),
      ofArr (a := 256) (b := 256) (scr0 V c (16 * r + k) h)
        = accum (fun k => blockOf (adjM0 V c) r k) (fun k => rowsOf (xM0 V c) k) k
  | 0, hk, h => by
    have hN : 16 * r + 0 < 256 := lt_of_lt_of_eq h (show cfg0.N = 256 from N_0)
    funext p q
    show (scr0 V c (16 * r + 0) h : S256x256.Idx → EReal) (ix2 p q) = 0 + mmul (blockOf (adjM0 V c) r 0) (rowsOf (xM0 V c) 0) p q
    rw [scr0_reset V c ⟨16 * r + 0, h⟩ (by show (16 * r + 0) % 16 = 0; omega),
      accStep0_pt V c ⟨16 * r + 0, h⟩ r 0 (by show (16 * r + 0) / 16 = r; omega) (by show (16 * r + 0) % 16 = 0; omega),
      accZero0_at]
  | k + 1, hk, h => by
    have hN : 16 * r + (k + 1) < 256 := lt_of_lt_of_eq h (show cfg0.N = 256 from N_0)
    have ih := scr0_eq_accum c r k (Nat.lt_of_succ_lt hk) (Nat.lt_of_succ_lt h)
    funext p q
    show (scr0 V c (16 * r + (k + 1)) h : S256x256.Idx → EReal) (ix2 p q)
      = accum (fun k => blockOf (adjM0 V c) r k) (fun k => rowsOf (xM0 V c) k) k p q
        + mmul (blockOf (adjM0 V c) r (k + 1)) (rowsOf (xM0 V c) (k + 1)) p q
    rw [scr0_step V c ⟨16 * r + (k + 1), h⟩ (by show (16 * r + (k + 1)) % 16 ≠ 0; omega),
      accStep0_pt V c ⟨16 * r + (k + 1), h⟩ r (k + 1) (by show (16 * r + (k + 1)) / 16 = r; omega)
        (by show (16 * r + (k + 1)) % 16 = k + 1; omega), ← ih]
    rfl

/-- At a row's last point the accumulator holds the row-block of the product of the adjacency matrix and the features. -/
theorem scr0_last (c : Dev nD) (t : Fin cfg0.N) (h15 : t.val % 16 = 15) :
    ofArr (a := 256) (b := 256) (scr0 V c t.val t.isLt) = blockedProd (adjM0 V c) (xM0 V c) (t.val / 16) := by
  have hN : t.val < 256 := lt_of_lt_of_eq t.isLt (show cfg0.N = 256 from N_0)
  have e : t.val = 16 * (t.val / 16) + 15 := by omega
  have h' : 16 * (t.val / 16) + 15 < cfg0.N := lt_of_eq_of_lt e.symm t.isLt
  rw [scr0_congr V c t.val _ t.isLt h' e]
  exact scr0_eq_accum V c (t.val / 16) 15 (by omega) h'

/-! ## What the output window writes back, and the array after the run -/

/-- Row 256 · i + p (p < 256) is row p of the block of rows i. -/
theorem rowBlock_mk0 (i : ℕ) (p : Fin 256) (h : 256 * i + p.val < 4096) : rowBlock ⟨256 * i + p.val, h⟩ = i := by
  show (256 * i + p.val) / 256 = i
  have := p.isLt; omega
theorem rowIn_mk0 (i : ℕ) (p : Fin 256) (h : 256 * i + p.val < 4096) : rowIn ⟨256 * i + p.val, h⟩ = p := by
  apply Fin.ext
  show (256 * i + p.val) % 256 = p.val
  have := p.isLt; omega

/-- What the output's array ends holding: the first layer's output, formed block by block. -/
def G0_6 (c : Dev nD) : S4096x256.Idx → EReal :=
  toArr0 (ywK (adjM0 V c) (xM0 V c) (w1M0 V c) (b1R0 V c) (w2tM0 V c) (w2bM0 V c))

/-- The first layer's output at an index, the products spelt as sums. -/
theorem G0_6_apply (c : Dev nD) (r : Fin 4096) (q : Fin 256) :
    G0_6 V c (ix2 r q)
      = (∑ j : Fin 256, lrelu (rowsOf (xM0 V c) (rowBlock r) (rowIn r) j) * w2tM0 V c j q)
        + ∑ j : Fin 256, lrelu ((∑ k : Fin 256, blockedProd (adjM0 V c) (xM0 V c) (rowBlock r) (rowIn r) k * w1M0 V c k j) + b1R0 V c j) * w2bM0 V c j q :=
  rfl

/-- A point that writes the output back writes its block of the first layer's output. -/
theorem flushed0_6_eq (c : Dev nD) (t : Fin cfg0.N) (hf : (cfg0.win 6).flush t = true) :
    (dat0 V c).flushed 6 t = ((cfg0.win 6).blk t).view.read (Elt Ideal) (G0_6 V c) := by
  have h15 : t.val % 16 = 15 := (flush0_6 t).mp hf
  have hN : t.val < 256 := lt_of_lt_of_eq t.isLt (show cfg0.N = 256 from N_0)
  show (cfg0.win 6).cut (grid0.coords t) ((dat0 V c).after 6 t) = _
  rw [after0_6_last V c t h15]
  funext y
  obtain ⟨p, q, rfl⟩ : ∃ (p q : Fin 256), y = ix2 p q := ⟨y 0, y 1, eq_ix2 y⟩
  rw [Cert.KernelIdeal.At2.blk0_6_read, G0_6_apply]
  refine Eq.trans (b := (out0_6 (scr0 V c t.val t.isLt) (iblk0 V c 1 t) (iblk0 V c 2 t) (iblk0 V c 3 t) (iblk0 V c 4 t) (iblk0 V c 5 t)
        (grid0.coords t) ((lastK_iff t).mpr h15) : S256x256.Idx → EReal) (ix2 p q)) rfl ?_
  rw [out0_6_at, rowBlock_mk0, rowIn_mk0, ← scr0_last V c t h15]
  refine congrArg₂ (· + ·) (Finset.sum_congr rfl fun j _ => ?_) (Finset.sum_congr rfl fun j _ => ?_)
  · rw [ld_rI0_apply V c t _ (t.val / 16) rfl, iblk0_3_apply]
  · rw [iblk0_5_apply, iblk0_4_apply]
    refine congrArg (fun z => lrelu (z + b1R0 V c j) * w2bM0 V c j q) ?_
    refine Finset.sum_congr rfl fun k _ => ?_
    rw [iblk0_2_apply]
    rfl

/-- The output's array after the run. -/
theorem final0_6 (c : Dev nD) : (dat0 V c).arrAt 6 cfg0.N = G0_6 V c :=
  (dat0 V c).arrAt_eq_of_cover 6 (G0_6 V c) (flushed0_6_eq V c) Cert.KernelIdeal.At2.cover0_6

/-- The output's array after the run, as a matrix, is the first layer's output of the arrays the region finds, formed as
    (A · X) · W₁ block by block. -/
theorem yw_final (c : Dev nD) :
    ofArr (a := 4096) (b := 256) ((dat0 V c).arrAt 6 cfg0.N)
      = ywK (ofArr (a := 4096) (b := 4096) (V c (Pipeline.arrRef spec0 0))) (ofArr (a := 4096) (b := 256) (V c (Pipeline.arrRef spec0 1)))
          (ofArr (a := 256) (b := 256) (V c (Pipeline.arrRef spec0 2))) (ofRow (n := 256) (V c (Pipeline.arrRef spec0 5)))
          (ofArr (a := 256) (b := 256) (V c (Pipeline.arrRef spec0 3))) (ofArr (a := 256) (b := 256) (V c (Pipeline.arrRef spec0 4))) := by
  rw [final0_6]
  rfl

end Cert.KernelIdeal.Hand

end
-- ==== Proof.Layer2Value.lean ====
/-
  What the kernel program's second pallas_call leaves in its two output arrays, at the extended reals.

  The body keeps a 256 × 256 accumulator over the 16 points of a row of its 16 × 16 grid: zero plus the first block
  product at the row's first point, then one more block product at each later point, so that after point k of row r it
  is the blocked product's accumulator of row-block r of the adjacency matrix against the resident operand, up to
  column block k. At the row's last point the tail adds the bias row, applies the leaky rectifier and stores the block
  into the first output, and stores that block times the pooling matrix, plus the pooling bias row, into the second.
  The rows' last points write back blocks that tile each output array, so each array ends holding one matrix of the
  specification: the second layer's output, and the pooling slab.
-/
import proofs.«180267_g2000104153886438_pallasbulk_1035_2_alg».proof.Proof.Layer2Region
import proofs.«180267_g2000104153886438_pallasbulk_1035_2_alg».proof.Proof.BlockReadsKernel
import proofs.«180267_g2000104153886438_pallasbulk_1035_2_alg».proof.Proof.MatmulAt
import proofs.«180267_g2000104153886438_pallasbulk_1035_2_alg».proof.Proof.Spec
import proofs.«180267_g2000104153886438_pallasbulk_1035_2_alg».proof.Proof.LibBlockMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.Spec Cert.LibBlockMatmul

/-! ## The body's payloads at an index, at the extended reals -/

/-- The reset's block is zero everywhere. -/
theorem pay1_apply (j : S256x256.Idx) : (k1_pay1 (F := Ideal) : S256x256.Idx → EReal) j = 0 := by
  unfold k1_pay1
  simp only [shapeCast_self]
  show Ideal.ofBits .f32 0x00000000#32 = 0
  exact Ideal.ofBits_zero_f32

/-- The update's block at (p, q): the accumulator there plus the product's entry; rounding the left factor to bf16 is the
    identity. -/
theorem pay2_apply (a : Vec Ideal S256x256 .f32) (s : Vec Ideal S256x256 .f32) (y : Vec Ideal S256x256 .bf16) (p q : Fin 256) :
    (k1_pay2 a s y : S256x256.Idx → EReal) (ix2 p q) = s (ix2 p q) + ∑ k : Fin 256, a (ix2 p k) * y (ix2 k q) := by
  unfold k1_pay2
  simp only [shapeCast_self]
  rw [addf_apply, At.matmul_sq_apply]
  rfl

/-- The activated block at (p, q): the leaky rectifier of the accumulator plus the bias row's entry. -/
theorem pay3_apply (s : Vec Ideal S256x256 .f32) (b : Vec Ideal S1x256 .f32) (p q : Fin 256) :
    (k1_pay3 s b : S256x256.Idx → EReal) (ix2 p q) = lrelu (s (ix2 p q) + b (ix2 0 q)) := by
  unfold k1_pay3
  simp only [shapeCast_self]
  rw [select_apply, cmpf_apply, mulf_apply, addf_apply, broadcast_apply, broadcast_apply, broadcastTo_1b_ab_apply]
  rfl

/-- The pooled block at (p, q): the activated block times the pooling matrix, plus the pooling bias row's entry. -/
theorem pay4_apply (s : Vec Ideal S256x256 .f32) (b : Vec Ideal S1x256 .f32) (w : Vec Ideal S256x128 .bf16) (b' : Vec Ideal S1x128 .f32)
    (p : Fin 256) (q : Fin 128) :
    (k1_pay4 s b w b' : S256x128.Idx → EReal) (ix2 p q)
      = (∑ k : Fin 256, (k1_pay3 s b : S256x256.Idx → EReal) (ix2 p k) * w (ix2 k q)) + b' (ix2 0 q) := by
  unfold k1_pay4
  simp only [shapeCast_self]
  rw [addf_apply, At.matmul_pool_apply, broadcastTo_1b_ab_apply]
  rfl

/-! ## The arrays the region finds, as matrices -/

variable (V : (c : Dev nD) → (b : Ref sig .tc) → Buf (Elt Ideal) ((c : Thread nD τ).loc b))

/-- The adjacency matrix, the resident 4096 × 256 operand, the bias row, the pooling matrix and its bias row. -/
abbrev adjM (c : Dev nD) : Mat 4096 4096 := ofArr (V c (Pipeline.arrRef spec1 0) : S4096x4096.Idx → EReal)
abbrev srcM (c : Dev nD) : Mat 4096 256 := ofArr (V c (Pipeline.arrRef spec1 1) : S4096x256.Idx → EReal)
abbrev biasR (c : Dev nD) : Fin 256 → EReal := ofRow (V c (Pipeline.arrRef spec1 2) : S1x256.Idx → EReal)
abbrev poolM (c : Dev nD) : Mat 256 128 := ofArr (V c (Pipeline.arrRef spec1 3) : S256x128.Idx → EReal)
abbrev poolBiasR (c : Dev nD) : Fin 128 → EReal := ofRow (V c (Pipeline.arrRef spec1 4) : S1x128.Idx → EReal)

/-! ## The accumulator as the blocked product's accumulator -/

/-- The update, as matrices: the accumulator plus the product of the adjacency block and the rows it loads. -/
theorem accStep1_mat (i : grid1.Coords) (a : Vec Ideal S256x256 .f32) (y : Vec Ideal S4096x256 .bf16) (s : Vec Ideal S256x256 .f32) :
    ofArr (accStep1 i a y s : S256x256.Idx → EReal)
      = fun p q => ofArr (s : S256x256.Idx → EReal) p q
          + mmul (ofArr (a : S256x256.Idx → EReal)) (ofArr (View.ld y (rRows1 i) : S256x256.Idx → EReal)) p q := by
  funext p q
  show (accStep1 i a y s : S256x256.Idx → EReal) (ix2 p q) = _
  rw [accStep1_eq, pay2_apply]
  rfl

/-- The reset's block is the zero matrix. -/
theorem accZero1_mat : ofArr (accZero1 (F := Ideal) : S256x256.Idx → EReal) = fun _ _ => 0 := by
  funext p q
  show (accZero1 (F := Ideal) : S256x256.Idx → EReal) (ix2 p q) = 0
  rw [accZero1_eq, pay1_apply]

/-- The adjacency window's block at the flat point t is block (t / 16, t % 16) of the adjacency matrix. -/
theorem adjBlock_mat (c : Dev nD) (t : Fin cfg1.N) :
    ofArr (iblk1 V c 0 t : S256x256.Idx → EReal) = blockOf (adjM V c) (t.val / 16) (t.val % 16) := by
  have hN : t.val < 256 := lt_of_lt_of_eq t.isLt (show cfg1.N = 256 from N_1)
  funext p q
  show (iblk1 V c 0 t : S256x256.Idx → EReal) (ix2 p q) = _
  unfold iblk1
  rw [At2.blk1_0_read]
  show _ = (V c (Pipeline.arrRef spec1 0) : S4096x4096.Idx → EReal) (ix2 _ _)
  congr 1
  have e0 : (256 * (t.val / 16) + p.val) % 4096 = 256 * (t.val / 16) + p.val := Nat.mod_eq_of_lt (by have := p.isLt; omega)
  have e1 : (256 * (t.val % 16) + q.val) % 4096 = 256 * (t.val % 16) + q.val := Nat.mod_eq_of_lt (by have := q.isLt; omega)
  funext ax
  match ax with
  | ⟨0, _⟩ => exact Fin.ext e0.symm
  | ⟨1, _⟩ => exact Fin.ext e1.symm

/-- The rows the body loads of the resident operand at the flat point t are rows 256 · (t % 16) … of it. -/
theorem srcRows_mat (c : Dev nD) (t : Fin cfg1.N) :
    ofArr (View.ld (iblk1 V c 1 t : S4096x256.Idx → EReal) (rRows1 (grid1.coords t)) : S256x256.Idx → EReal)
      = rowsOf (srcM V c) (t.val % 16) := by
  funext p q
  show View.ld (iblk1 V c 1 t : S4096x256.Idx → EReal) (rRows1 (grid1.coords t)) (ix2 p q) = _
  rw [At2.ld_k1_off1_at]
  unfold iblk1
  rw [At2.blk1_1_read]
  show _ = (V c (Pipeline.arrRef spec1 1) : S4096x256.Idx → EReal) (ix2 _ _)
  congr 1
  have e0 : (256 * (t.val % 16) + p.val) % 4096 = 256 * (t.val % 16) + p.val := Nat.mod_eq_of_lt (by have := p.isLt; omega)
  funext ax
  match ax with
  | ⟨0, _⟩ => exact Fin.ext e0.symm
  | ⟨1, _⟩ => rfl

/-- THE ACCUMULATOR. After point k of row r of the grid the accumulator holds the blocked product's accumulator of row-block
    r of the adjacency matrix against the resident operand, up to column block k. -/
theorem scr1_accum (c : Dev nD) (r : ℕ) (hr : r < 16) : ∀ (k : ℕ) (hk : k < 16),
    ofArr (scr1 V c (16 * r + k) (lt_of_lt_of_eq (by omega) (show (256 : ℕ) = cfg1.N from N_1.symm)) : S256x256.Idx → EReal)
      = accum (fun k => blockOf (adjM V c) r k) (fun k => rowsOf (srcM V c) k) k
  | 0, hk => by
    have hlt : 16 * r + 0 < cfg1.N := lt_of_lt_of_eq (by omega) (show (256 : ℕ) = cfg1.N from N_1.symm)
    have h0 : (⟨16 * r + 0, hlt⟩ : Fin cfg1.N).val % 16 = 0 := by dsimp only; omega
    rw [scr1_reset V c ⟨16 * r + 0, hlt⟩ h0, accStep1_mat, accZero1_mat, adjBlock_mat, srcRows_mat]
    have d : (16 * r + 0) / 16 = r := by omega
    have m : (16 * r + 0) % 16 = 0 := by omega
    show (fun p q => (0 : EReal) + mmul (blockOf (adjM V c) ((16 * r + 0) / 16) ((16 * r + 0) % 16)) (rowsOf (srcM V c) ((16 * r + 0) % 16)) p q) = _
    rw [d, m]
    rfl
  | k + 1, hk => by
    have hlt : 16 * r + (k + 1) < cfg1.N := lt_of_lt_of_eq (by omega) (show (256 : ℕ) = cfg1.N from N_1.symm)
    have h0 : (⟨16 * r + (k + 1), hlt⟩ : Fin cfg1.N).val % 16 ≠ 0 := by dsimp only; omega
    rw [scr1_step V c ⟨16 * r + (k + 1), hlt⟩ h0, accStep1_mat, adjBlock_mat, srcRows_mat]
    have d : (16 * r + (k + 1)) / 16 = r := by omega
    have m : (16 * r + (k + 1)) % 16 = k + 1 := by omega
    have ih := scr1_accum c r hr k (by omega)
    show (fun p q => ofArr (scr1 V c (16 * r + k) _ : S256x256.Idx → EReal) p q
        + mmul (blockOf (adjM V c) ((16 * r + (k + 1)) / 16) ((16 * r + (k + 1)) % 16)) (rowsOf (srcM V c) ((16 * r + (k + 1)) % 16)) p q) = _
    rw [d, m, ih]
    rfl

/-- The same at a flat point: its row of the grid is t / 16, its place in the row t % 16. -/
theorem scr1_accum_at (c : Dev nD) (t : Fin cfg1.N) :
    ofArr (scr1 V c t.val t.isLt : S256x256.Idx → EReal)
      = accum (fun k => blockOf (adjM V c) (t.val / 16) k) (fun k => rowsOf (srcM V c) k) (t.val % 16) := by
  have hN : t.val < 256 := lt_of_lt_of_eq t.isLt (show cfg1.N = 256 from N_1)
  have e : 16 * (t.val / 16) + t.val % 16 = t.val := Nat.div_add_mod _ _
  have key : ∀ (n : ℕ) (h : n < cfg1.N), n = t.val → scr1 V c n h = scr1 V c t.val t.isLt := by
    intro n h e; subst e; rfl
  rw [← key _ (lt_of_lt_of_eq (by omega) (show (256 : ℕ) = cfg1.N from N_1.symm)) e]
  exact scr1_accum V c (t.val / 16) (by omega) (t.val % 16) (by omega)

/-! ## The two output arrays -/

/-- The second layer's output and the pooling slab as arrays: the matrices of the specification read at an index's two
    coordinates. -/
def zArr (c : Dev nD) : S4096x256.Idx → EReal :=
  fun i => zOf (adjM V c) (srcM V c) (biasR V c) (i 0) (i 1)
def poolArr (c : Dev nD) : S4096x128.Idx → EReal :=
  fun i => poolOf (adjM V c) (srcM V c) (biasR V c) (poolM V c) (poolBiasR V c) (i 0) (i 1)

theorem ofArr_zArr (c : Dev nD) : ofArr (zArr V c) = zOf (adjM V c) (srcM V c) (biasR V c) := rfl
theorem ofArr_poolArr (c : Dev nD) :
    ofArr (poolArr V c) = poolOf (adjM V c) (srcM V c) (biasR V c) (poolM V c) (poolBiasR V c) := rfl

/-- Row 256 · i + p of a 4096-row matrix is in row block i, at place p. -/
theorem rowBlock_at (i : ℕ) (p : Fin 256) (h : 256 * i + p.val < 4096) : rowBlock ⟨256 * i + p.val, h⟩ = i := by
  unfold rowBlock; dsimp only; have := p.isLt; omega
theorem rowIn_at (i : ℕ) (p : Fin 256) (h : 256 * i + p.val < 4096) : rowIn ⟨256 * i + p.val, h⟩ = p := by
  unfold rowIn; apply Fin.ext; dsimp only; have := p.isLt; omega

/-- At a row's last point the activated block at (p, q) is the specification's block of the row. -/
theorem zBlock_at (c : Dev nD) (t : Fin cfg1.N) (h15 : t.val % 16 = 15) (p q : Fin 256) :
    (k1_pay3 (scr1 V c t.val t.isLt) (iblk1 V c 2 t) : S256x256.Idx → EReal) (ix2 p q)
      = zBlock (adjM V c) (srcM V c) (biasR V c) (t.val / 16) p q := by
  rw [pay3_apply]
  have hs : (scr1 V c t.val t.isLt : S256x256.Idx → EReal) (ix2 p q) = blockedProd (adjM V c) (srcM V c) (t.val / 16) p q := by
    have := congrFun (congrFun (scr1_accum_at V c t) p) q
    rw [h15] at this
    exact this
  have hb : (iblk1 V c 2 t : S1x256.Idx → EReal) (ix2 0 q) = biasR V c q := by
    unfold iblk1
    rw [At2.blk1_2_read]
    rfl
  rw [hs, hb]
  rfl

/-- What a row's last point writes back into the second layer's output is its block of the specification's array. -/
theorem flushed5_eq (c : Dev nD) (t : Fin cfg1.N) (hf : (cfg1.win 5).flush t = true) :
    (dat1 V c).flushed 5 t = ((cfg1.win 5).blk t).view.read (Elt Ideal) (zArr V c) := by
  have h15 : t.val % 16 = 15 := (flush1_5 t).mp hf
  have hN : t.val < 256 := lt_of_lt_of_eq t.isLt (show cfg1.N = 256 from N_1)
  show (cfg1.win 5).cut (grid1.coords t) ((dat1 V c).after 5 t) = _
  rw [after1_5]
  funext j
  obtain ⟨p, q, rfl⟩ : ∃ (p q : Fin 256), j = ix2 p q := ⟨j 0, j 1, eq_ix2 j⟩
  rw [At2.blk1_5_read]
  show (out1_5 (scr1 V c t.val t.isLt) (iblk1 V c 2 t) : S256x256.Idx → EReal) (ix2 p q) = _
  rw [out1_5_eq, zBlock_at V c t h15]
  show _ = zBlock (adjM V c) (srcM V c) (biasR V c) (rowBlock ⟨256 * (t.val / 16) + p.val, _⟩) (rowIn ⟨256 * (t.val / 16) + p.val, _⟩) q
  rw [rowBlock_at, rowIn_at]

/-- So the second layer's output array ends holding the specification's. -/
theorem z_array (c : Dev nD) : ((dat1 V c).arrAt 5 cfg1.N : S4096x256.Idx → EReal) = zArr V c :=
  (dat1 V c).arrAt_eq_of_cover 5 (zArr V c) (flushed5_eq V c) At2.cover1_5

theorem z_final (c : Dev nD) :
    ofArr ((dat1 V c).arrAt 5 cfg1.N : S4096x256.Idx → EReal)
      = zOf (ofArr (V c (Pipeline.arrRef spec1 0) : S4096x4096.Idx → EReal))
          (ofArr (V c (Pipeline.arrRef spec1 1) : S4096x256.Idx → EReal))
          (ofRow (V c (Pipeline.arrRef spec1 2) : S1x256.Idx → EReal)) := by
  rw [z_array]; rfl

/-- What a row's last point writes back into the pooling slab is its block of the specification's array. -/
theorem flushed6_eq (c : Dev nD) (t : Fin cfg1.N) (hf : (cfg1.win 6).flush t = true) :
    (dat1 V c).flushed 6 t = ((cfg1.win 6).blk t).view.read (Elt Ideal) (poolArr V c) := by
  have h15 : t.val % 16 = 15 := (flush1_6 t).mp hf
  have hN : t.val < 256 := lt_of_lt_of_eq t.isLt (show cfg1.N = 256 from N_1)
  show (cfg1.win 6).cut (grid1.coords t) ((dat1 V c).after 6 t) = _
  rw [after1_6]
  funext j
  obtain ⟨p, q, rfl⟩ : ∃ (p : Fin 256) (q : Fin 128), j = ix2 p q := ⟨j 0, j 1, eq_ix2 j⟩
  rw [At2.blk1_6_read]
  show (out1_6 (scr1 V c t.val t.isLt) (iblk1 V c 2 t) (iblk1 V c 3 t) (iblk1 V c 4 t) : S256x128.Idx → EReal) (ix2 p q) = _
  rw [out1_6_eq, pay4_apply]
  have hw : ∀ k : Fin 256, (iblk1 V c 3 t : S256x128.Idx → EReal) (ix2 k q) = poolM V c k q := by
    intro k
    unfold iblk1
    rw [At2.blk1_3_read]
    rfl
  have hb : (iblk1 V c 4 t : S1x128.Idx → EReal) (ix2 0 q) = poolBiasR V c q := by
    unfold iblk1
    rw [At2.blk1_4_read]
    rfl
  rw [hb, Finset.sum_congr rfl fun k _ => by rw [zBlock_at V c t h15 p k, hw k]]
  show _ = mmul (zBlock (adjM V c) (srcM V c) (biasR V c) (rowBlock ⟨256 * (t.val / 16) + p.val, _⟩)) (poolM V c) (rowIn ⟨256 * (t.val / 16) + p.val, _⟩) q + poolBiasR V c q
  rw [rowBlock_at, rowIn_at]
  rfl

/-- So the pooling slab ends holding the specification's. -/
theorem pool_array (c : Dev nD) : ((dat1 V c).arrAt 6 cfg1.N : S4096x128.Idx → EReal) = poolArr V c :=
  (dat1 V c).arrAt_eq_of_cover 6 (poolArr V c) (flushed6_eq V c) At2.cover1_6

theorem pool_final (c : Dev nD) :
    ofArr ((dat1 V c).arrAt 6 cfg1.N : S4096x128.Idx → EReal)
      = poolOf (ofArr (V c (Pipeline.arrRef spec1 0) : S4096x4096.Idx → EReal))
          (ofArr (V c (Pipeline.arrRef spec1 1) : S4096x256.Idx → EReal))
          (ofRow (V c (Pipeline.arrRef spec1 2) : S1x256.Idx → EReal))
          (ofArr (V c (Pipeline.arrRef spec1 3) : S256x128.Idx → EReal))
          (ofRow (V c (Pipeline.arrRef spec1 4) : S1x128.Idx → EReal)) := by
  rw [pool_array]; rfl

end Cert.KernelIdeal.Hand

end
-- ==== Proof.ResultsKernel.lean ====
/-
  The kernel program's results as functions of its arguments, at the ideal values.

  Each region's values are stated of the arrays it finds. The first region finds the arguments behind its windows —
  padded by nothing, converted between float formats, or cut into two blocks of rows, all the identity or a named term on
  the extended reals; the second finds the adjacency and bias arguments, the padded pooling matrix and bias, and, in the
  window over the first region's output, what the first region left there. Composing the two: result 0 is the second
  layer's output of the arguments, the second region's other output is the pooling slab of the arguments, and results
  1 to 3 are its first three columns.
-/
import proofs.«180267_g2000104153886438_pallasbulk_1035_2_alg».proof.Proof.AssembleKernel
import proofs.«180267_g2000104153886438_pallasbulk_1035_2_alg».proof.Proof.HostTermsKernel
import proofs.«180267_g2000104153886438_pallasbulk_1035_2_alg».proof.Proof.Layer1Value
import proofs.«180267_g2000104153886438_pallasbulk_1035_2_alg».proof.Proof.Layer2Value
import proofs.«180267_g2000104153886438_pallasbulk_1035_2_alg».proof.Proof.Spec
import Idealize.ShloMosaic.Lib.Pipeline.FrameSuffix

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments, as matrices and rows of extended reals -/

/-- The adjacency matrix: argument 0. -/
abbrev argA : Cert.Spec.Mat 4096 4096 := Cert.Spec.ofArr (m ((c.tc : Thread nD τ).loc main_arg0) : S4096x4096.Idx → EReal)
/-- The features: argument 1. -/
abbrev argX : Cert.Spec.Mat 4096 256 := Cert.Spec.ofArr (m ((c.tc : Thread nD τ).loc main_arg1) : S4096x256.Idx → EReal)
/-- The first weight matrix: argument 2. -/
abbrev argW1 : Cert.Spec.Mat 256 256 := Cert.Spec.ofArr (m ((c.tc : Thread nD τ).loc main_arg2) : S256x256.Idx → EReal)
/-- The first bias: argument 3. -/
abbrev argB1 : Fin 256 → EReal := Cert.Spec.ofRow (m ((c.tc : Thread nD τ).loc main_arg3) : S1x256.Idx → EReal)
/-- The upper half of the second weight matrix: rows 0 to 255 of argument 4. -/
abbrev argW2t : Cert.Spec.Mat 256 256 :=
  Cert.Spec.ofArr (extractStridedSlice S256x256 ![0, 0] (m ((c.tc : Thread nD τ).loc main_arg4) : S512x256.Idx → EReal) slices_S512x256_S256x256_0_0)
/-- Its lower half: rows 256 to 511 of argument 4. -/
abbrev argW2b : Cert.Spec.Mat 256 256 :=
  Cert.Spec.ofArr (extractStridedSlice S256x256 ![256, 0] (m ((c.tc : Thread nD τ).loc main_arg4) : S512x256.Idx → EReal) slices_S512x256_S256x256_256_0)
/-- The second bias: argument 5. -/
abbrev argB2 : Fin 256 → EReal := Cert.Spec.ofRow (m ((c.tc : Thread nD τ).loc main_arg5) : S1x256.Idx → EReal)
/-- The pooling matrix: argument 6 padded on the right to 128 columns by the converted integer zero. -/
abbrev argWp : Cert.Spec.Mat 256 128 :=
  Cert.Spec.ofArr (pad S256x128 ![0, 0] ![0, 125] ![0, 0] (m ((c.tc : Thread nD τ).loc main_arg6) : S256x3.Idx → EReal)
    (sitofp (F := Ideal) .f32 (constantI S_ 32 0#32)) pads_S256x3_S256x128_000_01250 h_S_)
/-- The pooling bias: argument 7 padded likewise. -/
abbrev argBp : Fin 128 → EReal :=
  Cert.Spec.ofRow (pad S1x128 ![0, 0] ![0, 125] ![0, 0] (m ((c.tc : Thread nD τ).loc main_arg7) : S1x3.Idx → EReal)
    (sitofp (F := Ideal) .f32 (constantI S_ 32 0#32)) pads_S1x3_S1x128_000_01250 h_S_)

/-- The first layer's output as the kernel program forms it, of the arguments. -/
abbrev argYW : Cert.Spec.Mat 4096 256 :=
  Cert.Spec.ywK (argA m c) (argX m c) (argW1 m c) (argB1 m c) (argW2t m c) (argW2b m c)

/-! ## What the first region finds in its windows' arrays -/

/-- Window 0's array: the adjacency argument. -/
theorem in0_w0 : (in0 m c (Pipeline.arrRef spec0 0) : S4096x4096.Idx → EReal) = m ((c.tc : Thread nD τ).loc main_arg0) := V1_a m c
/-- Window 1's array: the feature argument. -/
theorem in0_w1 : (in0 m c (Pipeline.arrRef spec0 1) : S4096x256.Idx → EReal) = m ((c.tc : Thread nD τ).loc main_arg1) := V1_x m c
/-- Window 2's array: the first weight matrix. -/
theorem in0_w2 : (in0 m c (Pipeline.arrRef spec0 2) : S256x256.Idx → EReal) = m ((c.tc : Thread nD τ).loc main_arg2) := V1_w1 m c
/-- Window 3's array: the upper half of the second weight matrix. -/
theorem in0_w3 : (in0 m c (Pipeline.arrRef spec0 3) : S256x256.Idx → EReal)
    = extractStridedSlice S256x256 ![0, 0] (m ((c.tc : Thread nD τ).loc main_arg4) : S512x256.Idx → EReal) slices_S512x256_S256x256_0_0 := V1_w2t m c
/-- Window 4's array: its lower half. -/
theorem in0_w4 : (in0 m c (Pipeline.arrRef spec0 4) : S256x256.Idx → EReal)
    = extractStridedSlice S256x256 ![256, 0] (m ((c.tc : Thread nD τ).loc main_arg4) : S512x256.Idx → EReal) slices_S512x256_S256x256_256_0 := V1_w2b m c
/-- Window 5's array: the first bias. -/
theorem in0_w5 : (in0 m c (Pipeline.arrRef spec0 5) : S1x256.Idx → EReal) = m ((c.tc : Thread nD τ).loc main_arg3) := V1_b1 m c

/-- What the first region leaves in its output window's array is what its write-backs leave there. -/
theorem left0_w6 : left0 m c main_call0_v15 = (dat0 (in0 m) c).arrAt 6 cfg0.N := by
  unfold left0
  exact Pipeline.withArrays_arr spec0 launch0.win.arr_inj c _ _ 6

/-- The first region's output, as a matrix: the first layer's output of the arguments. -/
theorem yw_entry : Cert.Spec.ofArr (left0 m c main_call0_v15 : S4096x256.Idx → EReal) = argYW m c := by
  rw [left0_w6]
  refine (yw_final (in0 m) c).trans ?_
  rw [in0_w0, in0_w1, in0_w2, in0_w3, in0_w4, in0_w5]

/-! ## What the second region finds in its windows' arrays -/

/-- Window 0's array: the adjacency argument (the first region did not write it). -/
theorem in1_w0 : (in1 m c (Pipeline.arrRef spec1 0) : S4096x4096.Idx → EReal) = m ((c.tc : Thread nD τ).loc main_arg0) := by
  show B1 m c main_call0_v0 = _
  unfold B1
  rw [Function.update_of_ne (StableHlo.devRef_ne_of_ne (by decide) : (Proc.devRef .tc main_call0_v0 : DevRef τ sig) ≠ Proc.devRef .tc main_call0_v15)]
  exact V1_a m c
/-- Window 1's array: what the first region left in its output. -/
theorem in1_w1 : in1 m c (Pipeline.arrRef spec1 1) = left0 m c main_call0_v15 := by
  show B1 m c main_call0_v15 = _
  unfold B1
  rw [Function.update_self]
/-- Window 2's array: the second bias. -/
theorem in1_w2 : (in1 m c (Pipeline.arrRef spec1 2) : S1x256.Idx → EReal) = m ((c.tc : Thread nD τ).loc main_arg5) := by
  show B1 m c main_call0_v13 = _
  unfold B1
  rw [Function.update_of_ne (StableHlo.devRef_ne_of_ne (by decide) : (Proc.devRef .tc main_call0_v13 : DevRef τ sig) ≠ Proc.devRef .tc main_call0_v15)]
  exact V1_b2 m c
/-- Window 3's array: the padded pooling matrix. -/
theorem in1_w3 : (in1 m c (Pipeline.arrRef spec1 3) : S256x128.Idx → EReal)
    = pad S256x128 ![0, 0] ![0, 125] ![0, 0] (m ((c.tc : Thread nD τ).loc main_arg6) : S256x3.Idx → EReal)
        (sitofp (F := Ideal) .f32 (constantI S_ 32 0#32)) pads_S256x3_S256x128_000_01250 h_S_ := by
  show B1 m c main_call0_v11 = _
  unfold B1
  rw [Function.update_of_ne (StableHlo.devRef_ne_of_ne (by decide) : (Proc.devRef .tc main_call0_v11 : DevRef τ sig) ≠ Proc.devRef .tc main_call0_v15)]
  exact V1_wp m c
/-- Window 4's array: the padded pooling bias. -/
theorem in1_w4 : (in1 m c (Pipeline.arrRef spec1 4) : S1x128.Idx → EReal)
    = pad S1x128 ![0, 0] ![0, 125] ![0, 0] (m ((c.tc : Thread nD τ).loc main_arg7) : S1x3.Idx → EReal)
        (sitofp (F := Ideal) .f32 (constantI S_ 32 0#32)) pads_S1x3_S1x128_000_01250 h_S_ := by
  show B1 m c main_call0_v14 = _
  unfold B1
  rw [Function.update_of_ne (StableHlo.devRef_ne_of_ne (by decide) : (Proc.devRef .tc main_call0_v14 : DevRef τ sig) ≠ Proc.devRef .tc main_call0_v15)]
  exact V1_bp m c

/-- What the second region leaves in its first output window's array is what its write-backs leave there. -/
theorem left1_w5 : left1 m c main_v0_0 = (dat1 (in1 m) c).arrAt 5 cfg1.N := by
  unfold left1
  exact Pipeline.withArrays_arr spec1 launch1.win.arr_inj c _ _ 5
/-- The same for its second output window. -/
theorem left1_w6 : left1 m c main_call0_v16_1 = (dat1 (in1 m) c).arrAt 6 cfg1.N := by
  unfold left1
  exact Pipeline.withArrays_arr spec1 launch1.win.arr_inj c _ _ 6

/-- The second region's first output, as a matrix: the second layer's output of the arguments. -/
theorem z_entry : Cert.Spec.ofArr (left1 m c main_v0_0 : S4096x256.Idx → EReal) = Cert.Spec.zOf (argA m c) (argYW m c) (argB2 m c) := by
  rw [left1_w5]
  refine (z_final (in1 m) c).trans ?_
  rw [in1_w0, in1_w1, in1_w2, yw_entry]
/-- Its second output, as a matrix: the pooling slab of the arguments. -/
theorem pool_entry : Cert.Spec.ofArr (left1 m c main_call0_v16_1 : S4096x128.Idx → EReal)
    = Cert.Spec.poolOf (argA m c) (argYW m c) (argB2 m c) (argWp m c) (argBp m c) := by
  rw [left1_w6]
  refine (pool_final (in1 m) c).trans ?_
  rw [in1_w0, in1_w1, in1_w2, in1_w3, in1_w4, yw_entry]

/-! ## The results -/

/-- Result 0, as a matrix, is the second layer's output of the arguments. -/
theorem z_result : Cert.Spec.ofArr (V4 m (outs m) c main_v0_0 : S4096x256.Idx → EReal)
    = Cert.Spec.zOf (argA m c) (Cert.Spec.ywK (argA m c) (argX m c) (argW1 m c) (argB1 m c) (argW2t m c) (argW2b m c)) (argB2 m c) := by
  rw [V4_z m c (outs m)]
  exact z_entry m c

/-- What the second region leaves in its other output, as a matrix, is the pooling slab of the arguments. -/
theorem pool_result : Cert.Spec.ofArr (outs m 3 main_call0_v16_1 c : S4096x128.Idx → EReal)
    = Cert.Spec.poolOf (argA m c) (Cert.Spec.ywK (argA m c) (argX m c) (argW1 m c) (argB1 m c) (argW2t m c) (argW2b m c)) (argB2 m c) (argWp m c) (argBp m c) :=
  pool_entry m c

/-- Result 1 is column 0 of the first three columns of that output, as a vector. -/
theorem col_result0 : (V4 m (outs m) c main_v0_1 : S4096.Idx → EReal)
    = shapeCast S4096 (extractStridedSlice S4096x1 ![0, 0]
        (extractStridedSlice S4096x3 ![0, 0] (outs m 3 main_call0_v16_1 c : S4096x128.Idx → EReal) slices_S4096x128_S4096x3_0_0)
        slices_S4096x3_S4096x1_0_0) shapeCasts_S4096x1_S4096 := V4_col0 m c (outs m)
/-- Result 2 is column 1. -/
theorem col_result1 : (V4 m (outs m) c main_v0_2 : S4096.Idx → EReal)
    = shapeCast S4096 (extractStridedSlice S4096x1 ![0, 1]
        (extractStridedSlice S4096x3 ![0, 0] (outs m 3 main_call0_v16_1 c : S4096x128.Idx → EReal) slices_S4096x128_S4096x3_0_0)
        slices_S4096x3_S4096x1_0_1) shapeCasts_S4096x1_S4096 := V4_col1 m c (outs m)
/-- Result 3 is column 2. -/
theorem col_result2 : (V4 m (outs m) c main_v0_3 : S4096.Idx → EReal)
    = shapeCast S4096 (extractStridedSlice S4096x1 ![0, 2]
        (extractStridedSlice S4096x3 ![0, 0] (outs m 3 main_call0_v16_1 c : S4096x128.Idx → EReal) slices_S4096x128_S4096x3_0_0)
        slices_S4096x3_S4096x1_0_2) shapeCasts_S4096x1_S4096 := V4_col2 m c (outs m)

end Cert.KernelIdeal.Hand

end
-- ==== Proof.PrepassRegion.lean ====
import proofs.«180267_g2000104153886438_pallasbulk_1035_2_alg».proof.Proof.Gen.ReferenceIdeal.Launch
import proofs.«180267_g2000104153886438_pallasbulk_1035_2_alg».proof.Proof.Gen.ReferenceIdeal.Skeleton
import proofs.«180267_g2000104153886438_pallasbulk_1035_2_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 of @main: the prepass call, at the entry contents `V`

One axis of 16 points. At each point the body reads a 256 x 256 block of the row-blocked operand and the two
whole 256 x 256 operands, and writes one block of each of the two results: the first operand's block times the
second operand, rounded to bf16; and the leaky-rectified block, rounded to bf16, times the third operand. Nothing
is carried from point to point, and both result blocks are written back at every point. -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-blocked operand's buffer holds its block at every point: for any proof data whose array is the entry
    contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second operand is fetched once, at the first point; its block index never moves, so its buffer holds the
    block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same of the third operand. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle every access of the body goes through: the whole 256 x 256 buffer. -/
abbrev whole256 : Rect S256x256 := Rect.unit (s := S256x256) ![0, 0] S256x256.size inb_S256x256_S256x256_0_0

/-! ## What the body leaves in each result window's buffer -/

/-- The first result's buffer after the body: one store of the whole buffer, the product of the first operand's
    block with the second operand, rounded to bf16. -/
def out0_3 (x0 x1 : Vec F S256x256 .bf16) : Vec F S256x256 .bf16 :=
  View.canon [⟨whole256, k0_pay2 (View.ld x0 whole256) (View.ld x1 whole256)⟩]

/-- The second result's buffer after the body: one store of the whole buffer, the rectified and rounded block
    of the first operand times the third operand. -/
def out0_4 (x0 x2 : Vec F S256x256 .bf16) : Vec F S256x256 .f32 :=
  View.canon [⟨whole256, k0_pay3 (View.ld x0 whole256) (View.ld x2 whole256)⟩]

/-- A single store through the whole-buffer rectangle covers the buffer. -/
theorem cover_whole256 {e : EltTy} (p0 : Vec F S256x256 e) (y : S256x256.Idx) :
    ∃ pc ∈ ([⟨whole256, p0⟩] : List (View.Piece (Elt F) S256x256 e)), y ∈ pc.1.set :=
  View.cover_of_tiled [⟨whole256, p0⟩] S256x256.size (by rfl) y

/-! ## The body's triple -/

set_option maxHeartbeats 1000000 in
/-- The body on whole staging memrefs, the three operands' at read contents `x0 x1 x2` and the two results' at
    anything, runs to the continuation holding the operands' as they were and each result's at `out0_3`, `out0_4`
    of the operands'. The two loads of the result buffers' old contents are read by nothing. -/
theorem sound_kernel0 (c : Dev nD) (E : Set ℕ) (i : grid0.Coords)
    (arg1 : Memref sig .tc .vmem S256x256 .bf16) (harg1 : arg1.IsWhole)
    (arg2 : Memref sig .tc .vmem S256x256 .bf16) (harg2 : arg2.IsWhole)
    (arg3 : Memref sig .tc .vmem S256x256 .bf16) (harg3 : arg3.IsWhole)
    (arg4 : Memref sig .tc .vmem S256x256 .bf16) (harg4 : arg4.IsWhole)
    (arg5 : Memref sig .tc .vmem S256x256 .f32) (harg5 : arg5.IsWhole)
    (x0 x1 x2 : Vec F S256x256 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2)) -∗ K ⟨⟩))
      ⊢ wp frame (wpE (defs₀ (F := F)) Variants.none c none) E (cc0__prepass_kernel i arg1 harg1 arg2 harg2 arg3 harg3 arg4 harg4 arg5 harg5) K := by
  simp only [cc0__prepass_kernel_eq_skeleton]; unfold cc0__prepass_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_whole256 _)
  iexists _; isplitr
  swap; · iexact H4
  ipureintro
  exact View.read_writes_eq_canon _ _ _ (cover_whole256 _)

/-! ## The pipeline's proof data -/

/-- The proof data of the prepass pipeline on core `c`: the arrays as the region finds them; after the body at
    point `t` each operand's buffer at its block and each result's at `out0_3`, `out0_4` of the operand blocks;
    the invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

/-- Each operand's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the operands' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- What the launch hands the region is the invariant before the first point. -/
theorem hin0 (c : Dev nD) : Pipeline.ΦA spec0 c ⊢ (dat0 V c).Φ 0 :=
  Idealize.SL.BI.Entails.refl _

/-- The invariant after the last point is what the region hands back. -/
theorem hout0 (c : Dev nD) : (dat0 V c).Φ (Fin.last cfg0.N) ⊢ Pipeline.ΦA spec0 c :=
  Idealize.SL.BI.Entails.refl _

end Cert.ReferenceIdeal.Hand

end
-- ==== Proof.Gcn1Region.lean ====
import proofs.«180267_g2000104153886438_pallasbulk_1035_2_alg».proof.Proof.Gen.ReferenceIdeal.Launch
import proofs.«180267_g2000104153886438_pallasbulk_1035_2_alg».proof.Proof.Gen.ReferenceIdeal.Skeleton
import proofs.«180267_g2000104153886438_pallasbulk_1035_2_alg».proof.Proof.Gen.ReferenceIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 of the reference program: the first graph-convolution layer

The grid is 16 × 16: `(i, k)`, `k` the reduction axis. The kernel keeps a 256 × 256 accumulator in a scratch
buffer: at `k = 0` it is zeroed; at every point the product of the adjacency block `(i, k)` with rows `k` of the
transformed features is added to it; at `k = 15` the tail adds the bias, applies the leaky rectifier, multiplies by
the second weight, adds the pre-pass result for the destination rows and stores the block of the output. -/

/-! ## The body's accesses -/

/-- A whole 256 × 256 buffer, as a rectangle. -/
abbrev rS1 : Rect S256x256 := Rect.unit (s := S256x256) ![0, 0] S256x256.size inb_S256x256_S256x256_0_0
/-- The whole 1 × 256 bias row. -/
abbrev rB1 : Rect S1x256 := Rect.unit (s := S1x256) ![0, 0] S1x256.size inb_S1x256_S1x256_0_0
/-- Rows `k` of the transformed features: 256 rows from row `256 k`. -/
abbrev rX1 (i : grid1.Coords) : Rect S4096x256 := Rect.unit (s := S4096x256) (k1_off1 i) S256x256.size (k1_off1_inb i)

theorem zeroOff1 : (![0, 0] : Fin S256x256.rank → ℕ) = fun _ => 0 := by funext a; fin_cases a <;> rfl

/-! ## The branch conditions, from the grid coordinates -/

/-- The accumulator is zeroed: `k = 0`. -/
abbrev isReset1 (i : grid1.Coords) : Prop := (Scalar.cmpi .ne (Scalar.extui (Scalar.cmpi .eq (BitVec.ofNat 32 (i 1).val) 0#32)) 0#32) = 1#1
/-- The tail runs: `k = 15`. -/
abbrev isLast1 (i : grid1.Coords) : Prop := k1_cond2 i = 1#1

theorem isReset1_iff : ∀ t : Fin cfg1.N, isReset1 (grid1.coords t) ↔ t.val % 16 = 0 :=
  (by decide +kernel : ∀ t : Fin grid1.N, isReset1 (grid1.coords t) ↔ t.val % 16 = 0)
theorem isLast1_iff : ∀ t : Fin cfg1.N, isLast1 (grid1.coords t) ↔ t.val % 16 = 15 :=
  (by decide +kernel : ∀ t : Fin grid1.N, isLast1 (grid1.coords t) ↔ t.val % 16 = 15)

/-! ## What the body leaves -/

/-- The accumulator after one update: the product of the adjacency block `xa` with rows `k` of `xw` added to
    `acc`, stored over the whole scratch buffer. -/
def scrUpd1 (i : grid1.Coords) (xa : Vec F S256x256 .bf16) (xw : Vec F S4096x256 .bf16) (acc : Vec F S256x256 .f32) :
    Vec F S256x256 .f32 :=
  View.canon [⟨rS1, k1_pay2 (View.ld xw (rX1 i)) acc (View.ld xa rS1)⟩]

/-- The output block the tail stores, from the finished accumulator `xs`, the bias `xb`, the pre-pass result `xp`
    for the destination rows and the second weight `xwt`. -/
def out1_5 (xs : Vec F S256x256 .f32) (xb : Vec F S1x256 .f32) (xp : Vec F S256x256 .f32) (xwt : Vec F S256x256 .bf16) :
    Vec F S256x256 .bf16 :=
  View.canon [⟨rS1, k1_pay3 (View.ld xs rS1) (View.ld xb rB1) (View.ld xp rS1) (View.ld xwt rS1)⟩]

/-- One store of a whole 256 × 256 buffer, whatever came before it, covers the buffer. -/
theorem coverS1 {e : EltTy} (p : Vec F S256x256 e) (L : List (View.Piece (Elt F) S256x256 e)) (y : S256x256.Idx) :
    ∃ pc ∈ ((⟨rS1, p⟩ : View.Piece (Elt F) S256x256 e) :: L), y ∈ pc.1.set :=
  ⟨_, List.mem_cons_self, View.mem_set_unit_zero zeroOff1 inb_S256x256_S256x256_0_0 y⟩

/-- The update's closed form: the stored sum itself. -/
theorem scrUpd1_eq (i : grid1.Coords) (xa : Vec F S256x256 .bf16) (xw : Vec F S4096x256 .bf16) (acc : Vec F S256x256 .f32) :
    scrUpd1 i xa xw acc = k1_pay2 (View.ld xw (rX1 i)) acc xa := by
  unfold scrUpd1; rw [View.canon_unit_zero zeroOff1, View.ld_unit_zero zeroOff1]

/-- The tail's closed form: the stored block itself. -/
theorem out1_5_eq (xs : Vec F S256x256 .f32) (xb : Vec F S1x256 .f32) (xp : Vec F S256x256 .f32) (xwt : Vec F S256x256 .bf16) :
    out1_5 xs xb xp xwt = k1_pay3 xs xb xp xwt := by
  unfold out1_5
  rw [View.canon_unit_zero zeroOff1, View.ld_unit_zero zeroOff1, View.ld_unit_zero zeroOff1, View.ld_unit_zero zeroOff1,
    View.ld_unit_zero zeroOff1]

/-! ## The body's triple, case by case -/

set_option maxHeartbeats 1000000 in
/-- `k = 0`: the scratch, at anything, is zeroed and updated. -/
theorem run1_reset (c : Dev nD) (E : Set ℕ) (i : grid1.Coords) (arg2 : Memref sig .tc .vmem S256x256 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .f32) (harg8 : arg8.IsWhole)
    (hc0 : isReset1 i) (hc1 : ¬isLast1 i)
    (x0 : Vec F S256x256 .bf16) (x1 : Vec F S4096x256 .bf16) (K : PUnit → sProp 𝕄) :
    iprop(owns (c : Thread nD τ) arg2 fullShare x0 ∗ owns (c : Thread nD τ) arg3 fullShare x1 ∗ (∃ d, owns (c : Thread nD τ) arg8 fullShare d)
        ∗ (iprop(owns (c : Thread nD τ) arg2 fullShare x0 ∗ owns (c : Thread nD τ) arg3 fullShare x1
            ∗ owns (c : Thread nD τ) arg8 fullShare (scrUpd1 i x0 x1 k1_pay1)) -∗ K ⟨⟩))
      ⊢ wp frame (wpE (defs₀ (F := F)) Variants.none c none) E (cc1__gcn1_kernel i arg2 harg2 arg3 harg3 arg4 harg4 arg5 harg5 arg6 harg6 arg7 harg7 arg8 harg8) K := by
  simp only [cc1__gcn1_kernel_eq_skeleton]; unfold cc1__gcn1_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (coverS1 _ _), View.canon_cons_unit_zero zeroOff1, View.readCov_unit_zero _ zeroOff1]
  unfold scrUpd1
  rw [View.canon_unit_zero zeroOff1]
  rfl

set_option maxHeartbeats 1000000 in
/-- `0 < k < 15`: the scratch, at what the point before left, is updated. -/
theorem run1_mid (c : Dev nD) (E : Set ℕ) (i : grid1.Coords) (arg2 : Memref sig .tc .vmem S256x256 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .f32) (harg8 : arg8.IsWhole)
    (hc0 : ¬isReset1 i) (hc1 : ¬isLast1 i)
    (x0 : Vec F S256x256 .bf16) (x1 : Vec F S4096x256 .bf16) (xs : Vec F S256x256 .f32) (K : PUnit → sProp 𝕄) :
    iprop(owns (c : Thread nD τ) arg2 fullShare x0 ∗ owns (c : Thread nD τ) arg3 fullShare x1 ∗ owns (c : Thread nD τ) arg8 fullShare xs
        ∗ (iprop(owns (c : Thread nD τ) arg2 fullShare x0 ∗ owns (c : Thread nD τ) arg3 fullShare x1
            ∗ owns (c : Thread nD τ) arg8 fullShare (scrUpd1 i x0 x1 (View.ld xs rS1))) -∗ K ⟨⟩))
      ⊢ wp frame (wpE (defs₀ (F := F)) Variants.none c none) E (cc1__gcn1_kernel i arg2 harg2 arg3 harg3 arg4 harg4 arg5 harg5 arg6 harg6 arg7 harg7 arg8 harg8) K := by
  simp only [cc1__gcn1_kernel_eq_skeleton]; unfold cc1__gcn1_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  exact View.read_writes_eq_canon _ _ _ (coverS1 _ _)

set_option maxHeartbeats 1000000 in
/-- `k = 15`: the scratch is updated, and the tail stores the output block from the finished accumulator. -/
theorem run1_last (c : Dev nD) (E : Set ℕ) (i : grid1.Coords) (arg2 : Memref sig .tc .vmem S256x256 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .f32) (harg8 : arg8.IsWhole)
    (hc0 : ¬isReset1 i) (hc1 : isLast1 i)
    (x0 : Vec F S256x256 .bf16) (x1 : Vec F S4096x256 .bf16) (x2 : Vec F S1x256 .f32) (x3 : Vec F S256x256 .f32)
    (x4 : Vec F S256x256 .bf16) (xs : Vec F S256x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 (scrUpd1 i x0 x1 (View.ld xs rS1)) x2 x3 x4)
            ∗ owns (c : Thread nD τ) arg8 fullShare (scrUpd1 i x0 x1 (View.ld xs rS1))) -∗ K ⟨⟩))
      ⊢ wp frame (wpE (defs₀ (F := F)) Variants.none c none) E (cc1__gcn1_kernel i arg2 harg2 arg3 harg3 arg4 harg4 arg5 harg5 arg6 harg6 arg7 harg7 arg8 harg8) K := by
  simp only [cc1__gcn1_kernel_eq_skeleton]; unfold cc1__gcn1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0; subst hf1; subst hf2; subst hf3; subst hf4; subst hfs
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.readCov_eq_canon_ld _ _ _ (coverS1 _ _)]
    exact View.read_writes_eq_canon _ _ _ (coverS1 _ _)
  iexists _; isplitr
  swap; · iexact HS
  ipureintro
  exact View.read_writes_eq_canon _ _ _ (coverS1 _ _)

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not: an input
    that is not fetched has not moved. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator, point by point -/

/-- What the scratch accumulator holds after the body at point `n`: at `k = 0` the update of the zeroed buffer, else
    the update of what the point before left. -/
def scr1 (c : Dev nD) : (n : ℕ) → n < cfg1.N → Vec F S256x256 .f32
  | 0, hn => scrUpd1 (grid1.coords ⟨0, hn⟩) (iblk1 V c 0 ⟨0, hn⟩) (iblk1 V c 1 ⟨0, hn⟩) k1_pay1
  | n + 1, hn =>
    if (n + 1) % 16 = 0 then
      scrUpd1 (grid1.coords ⟨n + 1, hn⟩) (iblk1 V c 0 ⟨n + 1, hn⟩) (iblk1 V c 1 ⟨n + 1, hn⟩) k1_pay1
    else
      scrUpd1 (grid1.coords ⟨n + 1, hn⟩) (iblk1 V c 0 ⟨n + 1, hn⟩) (iblk1 V c 1 ⟨n + 1, hn⟩)
        (View.ld (scr1 c n (Nat.lt_of_succ_lt hn)) rS1)

/-- At `k = 0`: the zeroed accumulator updated. -/
theorem scr1_reset (c : Dev nD) (t : Fin cfg1.N) (h : t.val % 16 = 0) :
    scr1 V c t.val t.isLt = scrUpd1 (grid1.coords t) (iblk1 V c 0 t) (iblk1 V c 1 t) k1_pay1 := by
  obtain ⟨n, hn⟩ := t
  cases n with
  | zero => rfl
  | succ n => exact if_pos h

/-- At `k > 0`: what the point before left, updated. -/
theorem scr1_step (c : Dev nD) (t : Fin cfg1.N) (h : t.val % 16 ≠ 0) :
    scr1 V c t.val t.isLt = scrUpd1 (grid1.coords t) (iblk1 V c 0 t) (iblk1 V c 1 t)
      (View.ld (scr1 V c (t.val - 1) (Nat.lt_of_le_of_lt (Nat.sub_le _ _) t.isLt)) rS1) := by
  obtain ⟨n, hn⟩ := t
  cases n with
  | zero => exact absurd (Nat.zero_mod _) h
  | succ n => exact if_neg h

/-! ## The invariant between points -/

/-- The accumulator's buffer, whole. -/
abbrev scM1 : Memref sig .tc .vmem S256x256 .f32 := Memref.whole cc1_scratch0

/-- The scoped buffers that are neither a staging buffer of this call nor its scratch, each at some contents. -/
abbrev others1 (c : Dev nD) : sProp 𝕄 :=
  Pipeline.scopedRestBut (Ix := Unit) (Name := ℕ) (U := UR sig nD τ) (Lvl := ℕ) (Val := Elt F) spec1 c [cc1_scratch0]

/-- What the launch hands the region, with the scratch set apart and owned at some contents. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA
  rw [Pipeline.scopedRest_split_of_list spec1 c [cc1_scratch0] (by decide) (by decide)]
  simp only [Idealize.SL.BI.bigSepL_singleton, scM1, owns_whole]; try rfl

/-- The invariant before position `n`: before the first point what the launch hands over; afterwards the same with the
    scratch at what the point before left in it. -/
def PhiS1 (c : Dev nD) : (n : ℕ) → n ≤ cfg1.N → sProp 𝕄
  | 0, _ => Pipeline.ΦA spec1 c
  | n + 1, hn => iprop(iprop(owns (c : Thread nD τ) scM1 fullShare (scr1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (scr1 V c n hn) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (scr1 V c (n - 1) (by omega)) ∗ others1 c) ∗ (∃ r, prngReg c r)) := by
  cases n with
  | zero => exact absurd rfl hz
  | succ n => rfl

/-- At any position the invariant gives the scratch at some contents. -/
theorem PhiS1_any (c : Dev nD) (n : ℕ) (h : n ≤ cfg1.N) :
    PhiS1 V c n h ⊢ iprop(iprop((∃ d, owns (c : Thread nD τ) scM1 fullShare d) ∗ others1 c) ∗ (∃ r, prngReg c r)) := by
  cases n with
  | zero => rw [PhiS1_zero V c 0 h rfl, PhiA1_eq]
  | succ n =>
    rw [PhiS1_succ]
    iintro ⟨⟨HS, Hr⟩, Hg⟩
    isplitr [Hg]
    · isplitl [HS]
      · iexists _; iexact HS
      iexact Hr
    iexact Hg

/-! ## The proof data -/

/-- The proof data of the pipeline on core `c`: the arrays as the region finds them; after the body each input's buffer
    at its block and the output's at the tail's store over the accumulator of that point (read only where `k = 15`, the
    one point of sixteen that writes the block back); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (scr1 V c t.val t.isLt) (iblk1 V c 2 t) (iblk1 V c 3 t) (iblk1 V c 4 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (scr1 V c t.val t.isLt) (iblk1 V c 2 t) (iblk1 V c 3 t) (iblk1 V c 4 t) := by dsimp only [dat1]
/-- At the points that write the output block back: the tail's store over the finished accumulator. -/
theorem after1_5_last (c : Dev nD) (t : Fin cfg1.N) (h : t.val % 16 = 15) :
    (dat1 V c).after 5 t = out1_5 (scr1 V c t.val t.isLt) (iblk1 V c 2 t) (iblk1 V c 3 t) (iblk1 V c 4 t) := after1_5 V c t

theorem PhiS1_castSucc (c : Dev nD) (t : Fin cfg1.N) :
    (dat1 V c).Φ t.castSucc = PhiS1 V c t.val (Nat.le_of_lt t.isLt) := by
  dsimp only [dat1]; simp only [Fin.coe_castSucc]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## Where the output window is idle -/

theorem idleAt1_5 : ∀ t : Fin cfg1.N, ¬t.val % 16 = 15 → cfg1.idle 5 (grid1.coords t) = true :=
  (by decide +kernel : ∀ t : Fin grid1.N, ¬t.val % 16 = 15 → idle1 5 (grid1.coords t) = true)
theorem liveAt1_5 : ∀ t : Fin cfg1.N, t.val % 16 = 15 → cfg1.idle 5 (grid1.coords t) = false :=
  (by decide +kernel : ∀ t : Fin grid1.N, t.val % 16 = 15 → idle1 5 (grid1.coords t) = false)
theorem noFlush1_5 (t : Fin cfg1.N) (h : ¬t.val % 16 = 15) : (cfg1.win 5).flush t = false :=
  Bool.eq_false_iff.mpr fun hf => h ((flush1_5 t).mp hf)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ (dat1 V c).leavesExact 5 t)

set_option maxHeartbeats 4000000 in
/-- The body at any point. The inputs' buffers hold their blocks; the position of `k` says which case runs. At
    `k = 0` the invariant hands over the scratch at anything, at `k > 0` at what the point before left; it takes it back
    at this point's accumulator. Where `k < 15` the output's buffer is handed back as found; at `k = 15` it holds the
    tail's store. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, PhiS1_castSucc V c t]
  have hN : t.val < 256 := lt_of_lt_of_eq t.isLt N_1
  by_cases h0 : t.val % 16 = 0
  · have h1 : ¬t.val % 16 = 15 := by omega
    rw [Dat.leavesExact_idle (dat1 V c) 5 t (idleAt1_5 t h1) (noFlush1_5 t h1), scr1_reset V c t h0]
    refine (sep_mono (PhiS1_any V c _ _) .rfl).trans ?_
    iintro ⟨⟨⟨HS, Hr⟩, Hg⟩, Ho, ⟨%d0, H0⟩, ⟨%d1, H1⟩, ⟨%d2, H2⟩, ⟨%d3, H3⟩, ⟨%d4, H4⟩, H5⟩
    iapply (run1_reset c Set.univ (grid1.coords t) _ _ _ _ _ _ _ _ _ _ _ _ _ _ ((isReset1_iff t).mpr h0) (fun h => h1 ((isLast1_iff t).mp h)) (iblk1 V c 0 t) (iblk1 V c 1 t) _)
    isplitl [H0]; · iexact H0
    isplitl [H1]; · iexact H1
    isplitl [HS]; · iexact HS
    iintro ⟨H0, H1, HS⟩
    isplitl [HS Hr Hg]
    · isplitr [Hg]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := fun e => h0 (by rw [e])
    rw [PhiS1_pos V c _ _ hz, scr1_step V c t h0]
    by_cases h1 : t.val % 16 = 15
    · rw [show (dat1 V c).leavesExact 5 t = owns (c : Thread nD τ) (st1_5 t) fullShare ((dat1 V c).after 5 t) from by
        unfold Dat.leavesExact; rw [liveAt1_5 t h1], after1_5, scr1_step V c t h0]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (run1_last c Set.univ (grid1.coords t) _ _ _ _ _ _ _ _ _ _ _ _ _ _ (fun h => h0 ((isReset1_iff t).mp h)) ((isLast1_iff t).mpr h1) (iblk1 V c 0 t) (iblk1 V c 1 t) (iblk1 V c 2 t) (iblk1 V c 3 t) (iblk1 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 5 t (idleAt1_5 t h1) (noFlush1_5 t h1)]
      iintro ⟨⟨⟨HS, Hr⟩, Hg⟩, Ho, ⟨%d0, H0⟩, ⟨%d1, H1⟩, ⟨%d2, H2⟩, ⟨%d3, H3⟩, ⟨%d4, H4⟩, H5⟩
      iapply (run1_mid c Set.univ (grid1.coords t) _ _ _ _ _ _ _ _ _ _ _ _ _ _ (fun h => h0 ((isReset1_iff t).mp h)) (fun h => h1 ((isLast1_iff t).mp h)) (iblk1 V c 0 t) (iblk1 V c 1 t) _ _)
      isplitl [H0]; · iexact H0
      isplitl [H1]; · iexact H1
      isplitl [HS]; · iexact HS
      iintro ⟨H0, H1, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point the invariant gives back what the launch handed over: the accumulator's contents are forgotten. -/
theorem Phi_out1 (c : Dev nD) (t : Fin (cfg1.N + 1)) : (dat1 V c).Φ t ⊢ Pipeline.ΦA spec1 c := by
  rw [show (dat1 V c).Φ t = PhiS1 V c t.val (Nat.le_of_lt_succ t.isLt) from rfl, PhiA1_eq]
  exact PhiS1_any V c _ _

/-- The same after the last point. -/
theorem hout1 (c : Dev nD) : (dat1 V c).Φ (Fin.last cfg1.N) ⊢ Pipeline.ΦA spec1 c := Phi_out1 V c _

end Region

end Cert.ReferenceIdeal.Hand

end
-- ==== Proof.Gcn2Region.lean ====
import proofs.«180267_g2000104153886438_pallasbulk_1035_2_alg».proof.Proof.Gen.ReferenceIdeal.Launch
import proofs.«180267_g2000104153886438_pallasbulk_1035_2_alg».proof.Proof.Gen.ReferenceIdeal.Skeleton
import proofs.«180267_g2000104153886438_pallasbulk_1035_2_alg».proof.Proof.Gen.ReferenceIdeal.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2 of the reference program: the second graph-convolution kernel on its 16 × 16 grid

The kernel keeps a 256 × 256 accumulator across the 16 points of a row of the grid (the reduction axis is the
second coordinate): at the row's first point it zeroes the accumulator, at every point it adds one block product
into it, and at the row's last point it stores the activated accumulator into one output block and the pooled
product into the other. -/

/-! ## The rectangles of the body's accesses -/

theorem zero_offsets : (![0, 0] : Fin 2 → Nat) = fun _ => 0 := funext fun a => by fin_cases a <;> rfl

/-- The whole 256 × 256 buffer (the block of the adjacency matrix, the accumulator, the first output). -/
abbrev rAcc : Rect S256x256 := Rect.unit (s := S256x256) ![0, 0] S256x256.size inb_S256x256_S256x256_0_0
/-- The 256 rows of the 4096 × 256 operand the point's reduction coordinate selects. -/
abbrev rRows (i : grid2.Coords) : Rect S4096x256 := Rect.unit (s := S4096x256) (k2_off1 i) S256x256.size (k2_off1_inb i)
/-- The whole 1 × 256 bias row. -/
abbrev rBias : Rect S1x256 := Rect.unit (s := S1x256) ![0, 0] S1x256.size inb_S1x256_S1x256_0_0
/-- The whole 256 × 128 buffer (the pooling weights, the second output). -/
abbrev rPool : Rect S256x128 := Rect.unit (s := S256x128) ![0, 0] S256x128.size inb_S256x128_S256x128_0_0
/-- The whole 1 × 128 pooling bias row. -/
abbrev rPoolBias : Rect S1x128 := Rect.unit (s := S1x128) ![0, 0] S1x128.size inb_S1x128_S1x128_0_0

/-! ## What the body's stores leave -/

/-- The accumulator after the reset: one covering store of the zero block. -/
def accZero : Vec F S256x256 .f32 :=
  View.canon [⟨rAcc, k2_pay1 (F := F)⟩]

/-- The accumulator after the update at coordinates `i`, from the adjacency block `a`, the 4096 × 256 operand `y` and
    the accumulator's contents `s` before the update: one covering store. -/
def accStep (i : grid2.Coords) (a : Vec F S256x256 .bf16) (y : Vec F S4096x256 .bf16) (s : Vec F S256x256 .f32) : Vec F S256x256 .f32 :=
  View.canon [⟨rAcc, k2_pay2 (View.ld y (rRows i)) (View.ld s rAcc) (View.ld a rAcc)⟩]

/-- Output window 5's buffer after the tail, from the accumulator `s` the update left and the bias row `b`. -/
def out2_5 (s : Vec F S256x256 .f32) (b : Vec F S1x256 .f32) : Vec F S256x256 .bf16 :=
  View.canon [⟨rAcc, k2_pay4 (View.ld s rAcc) (View.ld b rBias)⟩]

/-- Output window 6's buffer after the tail, from the accumulator `s`, the bias row `b`, the pooling weights `w` and
    the pooling bias row `b'`. -/
def out2_6 (s : Vec F S256x256 .f32) (b : Vec F S1x256 .f32) (w : Vec F S256x128 .bf16) (b' : Vec F S1x128 .f32) : Vec F S256x128 .f32 :=
  View.canon [⟨rPool, k2_pay5 (View.ld s rAcc) (View.ld b rBias) (View.ld w rPool) (View.ld b' rPoolBias)⟩]

/-- Each is its store's payload, the whole-buffer loads reading the contents. -/
theorem accZero_eq : accZero (F := F) = k2_pay1 (F := F) := by
  unfold accZero; exact View.canon_unit_zero zero_offsets _ _
theorem accStep_eq (i : grid2.Coords) (a : Vec F S256x256 .bf16) (y : Vec F S4096x256 .bf16) (s : Vec F S256x256 .f32) :
    accStep i a y s = k2_pay2 (View.ld y (rRows i)) s a := by
  unfold accStep
  rw [View.canon_unit_zero zero_offsets, View.ld_unit_zero zero_offsets, View.ld_unit_zero zero_offsets]
theorem out2_5_eq (s : Vec F S256x256 .f32) (b : Vec F S1x256 .f32) : out2_5 s b = k2_pay4 s b := by
  unfold out2_5
  rw [View.canon_unit_zero zero_offsets, View.ld_unit_zero zero_offsets, View.ld_unit_zero zero_offsets]
theorem out2_6_eq (s : Vec F S256x256 .f32) (b : Vec F S1x256 .f32) (w : Vec F S256x128 .bf16) (b' : Vec F S1x128 .f32) :
    out2_6 s b w b' = k2_pay5 s b w b' := by
  unfold out2_6
  rw [View.canon_unit_zero zero_offsets, View.ld_unit_zero zero_offsets, View.ld_unit_zero zero_offsets, View.ld_unit_zero zero_offsets, View.ld_unit_zero zero_offsets]

/-- A store through the whole buffer covers it. -/
theorem cover_acc {e : EltTy} (p : Vec F S256x256 e) (L : List (View.Piece (Elt F) S256x256 e)) (y : S256x256.Idx) :
    ∃ pc ∈ ((⟨rAcc, p⟩ : View.Piece (Elt F) S256x256 e) :: L), y ∈ pc.1.set :=
  ⟨_, List.mem_cons_self, View.mem_set_unit_zero zero_offsets inb_S256x256_S256x256_0_0 y⟩
theorem cover_pool (p : Vec F S256x128 .f32) (y : S256x128.Idx) :
    ∃ pc ∈ ([⟨rPool, p⟩] : List (View.Piece (Elt F) S256x128 .f32)), y ∈ pc.1.set :=
  ⟨_, List.mem_cons_self, View.mem_set_unit_zero zero_offsets inb_S256x128_S256x128_0_0 y⟩

/-! ## The body's branch conditions -/

/-- The body resets the accumulator where the reduction coordinate is 0, -/
abbrev c2reset (i : grid2.Coords) : Prop := (Scalar.cmpi .ne (Scalar.extui (Scalar.cmpi .eq (BitVec.ofNat 32 (i 1).val) 0#32)) 0#32) = 1#1
/-- and runs its tail where it is 15. -/
abbrev c2last (i : grid2.Coords) : Prop := k2_cond2 i = 1#1

theorem hreset2 : ∀ t : Fin cfg2.N, c2reset (grid2.coords t) ↔ t.val % 16 = 0 :=
  (by decide +kernel : ∀ t : Fin grid2.N, c2reset (grid2.coords t) ↔ t.val % 16 = 0)
theorem hlast2 : ∀ t : Fin cfg2.N, c2last (grid2.coords t) ↔ t.val % 16 = 15 :=
  (by decide +kernel : ∀ t : Fin grid2.N, c2last (grid2.coords t) ↔ t.val % 16 = 15)

/-- Off the tail's points both output windows are idle and not written back; at them they are live. -/
theorem idle2_5_off : ∀ t : Fin cfg2.N, ¬c2last (grid2.coords t) → cfg2.idle 5 (grid2.coords t) = true := by decide +kernel
theorem idle2_6_off : ∀ t : Fin cfg2.N, ¬c2last (grid2.coords t) → cfg2.idle 6 (grid2.coords t) = true := by decide +kernel
theorem noFlush2_5_off : ∀ t : Fin cfg2.N, ¬c2last (grid2.coords t) → (cfg2.win 5).flush t = false := by decide +kernel
theorem noFlush2_6_off : ∀ t : Fin cfg2.N, ¬c2last (grid2.coords t) → (cfg2.win 6).flush t = false := by decide +kernel
theorem live2_5_on : ∀ t : Fin cfg2.N, c2last (grid2.coords t) → cfg2.idle 5 (grid2.coords t) = false := by decide +kernel
theorem live2_6_on : ∀ t : Fin cfg2.N, c2last (grid2.coords t) → cfg2.idle 6 (grid2.coords t) = false := by decide +kernel

/-! ## The body's triples, one per control case -/

set_option maxHeartbeats 1000000 in
/-- At a row's first point: the accumulator, at anything, is zeroed and updated. -/
theorem run2_reset (c : Dev nD) (E : Set ℕ) (i : grid2.Coords) (arg2 : Memref sig .tc .vmem S256x256 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S256x256 .bf16) (harg7 : arg7.IsWhole) (arg8 : Memref sig .tc .vmem S256x128 .f32) (harg8 : arg8.IsWhole) (arg9 : Memref sig .tc .vmem S256x256 .f32) (harg9 : arg9.IsWhole)
    (hc0 : c2reset i) (hc1 : ¬c2last i)
    (x0 : Vec F S256x256 .bf16) (x1 : Vec F S4096x256 .bf16) (K : PUnit → sProp 𝕄) :
    iprop(owns (c : Thread nD τ) arg2 fullShare x0 ∗ owns (c : Thread nD τ) arg3 fullShare x1 ∗ (∃ d, owns (c : Thread nD τ) arg9 fullShare d)
        ∗ (iprop(owns (c : Thread nD τ) arg2 fullShare x0 ∗ owns (c : Thread nD τ) arg3 fullShare x1 ∗ owns (c : Thread nD τ) arg9 fullShare (accStep i x0 x1 accZero)) -∗ K ⟨⟩))
      ⊢ wp frame (wpE (defs₀ (F := F)) Variants.none c none) E (cc2__gcn2_kernel i arg2 harg2 arg3 harg3 arg4 harg4 arg5 harg5 arg6 harg6 arg7 harg7 arg8 harg8 arg9 harg9) K := by
  simp only [cc2__gcn2_kernel_eq_skeleton]; unfold cc2__gcn2_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  iexists _; isplitr
  swap; · iexact HS
  ipureintro
  unfold accStep accZero
  rw [View.read_writes_eq_canon _ _ _ (cover_acc _ _), View.canon_cons_unit_zero zero_offsets, View.readCov_unit_zero _ zero_offsets,
    View.canon_unit_zero zero_offsets, View.canon_unit_zero zero_offsets, View.ld_unit_zero zero_offsets]
  rfl

set_option maxHeartbeats 1000000 in
/-- At a point that is neither a row's first nor its last: the accumulator is updated. -/
theorem run2_mid (c : Dev nD) (E : Set ℕ) (i : grid2.Coords) (arg2 : Memref sig .tc .vmem S256x256 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S256x256 .bf16) (harg7 : arg7.IsWhole) (arg8 : Memref sig .tc .vmem S256x128 .f32) (harg8 : arg8.IsWhole) (arg9 : Memref sig .tc .vmem S256x256 .f32) (harg9 : arg9.IsWhole)
    (hc0 : ¬c2reset i) (hc1 : ¬c2last i)
    (x0 : Vec F S256x256 .bf16) (x1 : Vec F S4096x256 .bf16) (xs : Vec F S256x256 .f32) (K : PUnit → sProp 𝕄) :
    iprop(owns (c : Thread nD τ) arg2 fullShare x0 ∗ owns (c : Thread nD τ) arg3 fullShare x1 ∗ owns (c : Thread nD τ) arg9 fullShare xs
        ∗ (iprop(owns (c : Thread nD τ) arg2 fullShare x0 ∗ owns (c : Thread nD τ) arg3 fullShare x1 ∗ owns (c : Thread nD τ) arg9 fullShare (accStep i x0 x1 xs)) -∗ K ⟨⟩))
      ⊢ wp frame (wpE (defs₀ (F := F)) Variants.none c none) E (cc2__gcn2_kernel i arg2 harg2 arg3 harg3 arg4 harg4 arg5 harg5 arg6 harg6 arg7 harg7 arg8 harg8 arg9 harg9) K := by
  simp only [cc2__gcn2_kernel_eq_skeleton]; unfold cc2__gcn2_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  exact View.read_writes_eq_canon _ _ _ (cover_acc _ _)

set_option maxHeartbeats 1000000 in
/-- At a row's last point: the accumulator is updated, and the tail stores both output blocks from it. -/
theorem run2_last (c : Dev nD) (E : Set ℕ) (i : grid2.Coords) (arg2 : Memref sig .tc .vmem S256x256 .bf16) (harg2 : arg2.IsWhole) (arg3 : Memref sig .tc .vmem S4096x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S256x256 .bf16) (harg7 : arg7.IsWhole) (arg8 : Memref sig .tc .vmem S256x128 .f32) (harg8 : arg8.IsWhole) (arg9 : Memref sig .tc .vmem S256x256 .f32) (harg9 : arg9.IsWhole)
    (hc0 : ¬c2reset i) (hc1 : c2last i)
    (x0 : Vec F S256x256 .bf16) (x1 : Vec F S4096x256 .bf16) (x2 : Vec F S1x256 .f32) (x3 : Vec F S256x128 .bf16) (x4 : Vec F S1x128 .f32) (xs : Vec F S256x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (out2_5 (accStep i x0 x1 xs) x2) ∗ owns (c : Thread nD τ) arg8 fullShare (out2_6 (accStep i x0 x1 xs) x2 x3 x4)
            ∗ owns (c : Thread nD τ) arg9 fullShare (accStep i x0 x1 xs)) -∗ K ⟨⟩))
      ⊢ wp frame (wpE (defs₀ (F := F)) Variants.none c none) E (cc2__gcn2_kernel i arg2 harg2 arg3 harg3 arg4 harg4 arg5 harg5 arg6 harg6 arg7 harg7 arg8 harg8 arg9 harg9) K := by
  simp only [cc2__gcn2_kernel_eq_skeleton]; unfold cc2__gcn2_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%fs, %hfs, HS⟩, Hk⟩
  subst hf0; subst hf1; subst hf2; subst hf3; subst hf4; subst hfs
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    rw [View.read_writes_eq_canon _ _ _ (cover_acc _ _), View.readCov_eq_canon_ld _ _ _ (cover_acc _ _)]
    rfl
  isplitl [H8]
  · iexists _; isplitr
    swap; · iexact H8
    ipureintro
    rw [View.read_writes_eq_canon _ _ _ (cover_pool _), View.readCov_eq_canon_ld _ _ _ (cover_acc _ _)]
    rfl
  iexists _; isplitr
  swap; · iexact HS
  ipureintro
  exact View.read_writes_eq_canon _ _ _ (cover_acc _ _)

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not, for any proof
    data whose array is `V`'s and whose body leaves the block in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- No input window is ever idle. -/
theorem live2_0 : ∀ t : Fin cfg2.N, cfg2.idle 0 (grid2.coords t) = false := fun _ => rfl
theorem live2_1 : ∀ t : Fin cfg2.N, cfg2.idle 1 (grid2.coords t) = false := fun _ => rfl
theorem live2_2 : ∀ t : Fin cfg2.N, cfg2.idle 2 (grid2.coords t) = false := fun _ => rfl
theorem live2_3 : ∀ t : Fin cfg2.N, cfg2.idle 3 (grid2.coords t) = false := fun _ => rfl
theorem live2_4 : ∀ t : Fin cfg2.N, cfg2.idle 4 (grid2.coords t) = false := fun _ => rfl

/-! ## The accumulator, point by point -/

/-- The accumulator as a memref: the kernel's own whole scoped buffer, passed beside the windows. -/
abbrev scM2 : Memref sig .tc .vmem S256x256 .f32 := Memref.whole cc2_scratch0

/-- What the accumulator holds after the body at point `n`: at a row's first point the reset's zero block updated,
    elsewhere what the point before left updated. -/
def scr2 (c : Dev nD) : (n : ℕ) → n < cfg2.N → Vec F S256x256 .f32
  | 0, hn => accStep (grid2.coords ⟨0, hn⟩) (iblk2 V c 0 ⟨0, hn⟩) (iblk2 V c 1 ⟨0, hn⟩) accZero
  | n + 1, hn =>
    if (n + 1) % 16 = 0 then
      accStep (grid2.coords ⟨n + 1, hn⟩) (iblk2 V c 0 ⟨n + 1, hn⟩) (iblk2 V c 1 ⟨n + 1, hn⟩) accZero
    else
      accStep (grid2.coords ⟨n + 1, hn⟩) (iblk2 V c 0 ⟨n + 1, hn⟩) (iblk2 V c 1 ⟨n + 1, hn⟩) (scr2 c n (Nat.lt_of_succ_lt hn))

/-- At a row's first point. -/
theorem scr2_reset (c : Dev nD) (t : Fin cfg2.N) (h : t.val % 16 = 0) :
    scr2 V c t.val t.isLt = accStep (grid2.coords t) (iblk2 V c 0 t) (iblk2 V c 1 t) accZero := by
  obtain ⟨n, hn⟩ := t
  cases n with
  | zero => rfl
  | succ n => exact (if_pos h).trans rfl

/-- At any other point. -/
theorem scr2_step (c : Dev nD) (t : Fin cfg2.N) (h : t.val % 16 ≠ 0) :
    scr2 V c t.val t.isLt = accStep (grid2.coords t) (iblk2 V c 0 t) (iblk2 V c 1 t)
      (scr2 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region's invariant -/

/-- A scoped buffer of the core whole at some contents. -/
abbrev anyAt2 (c : Dev nD) (b : Ref sig .tc) : sProp 𝕄 :=
  iprop(∃ f : Buf (Elt F) ((c : Thread nD τ).loc b), ((c : Thread nD τ).loc b) ↦{fullShare} f)

/-- The core's scoped buffers that are no staging buffer of this call, the accumulator apart, each at some contents,
    with `X` in the accumulator's place; and the generator register at some state. -/
def PhiWith2 (c : Dev nD) (X : sProp 𝕄) : sProp 𝕄 :=
  iprop((anyAt2 (F := F) c cc0_stg0_0 ∗ anyAt2 (F := F) c cc0_stg0_1 ∗ anyAt2 (F := F) c cc0_stg1_0 ∗ anyAt2 (F := F) c cc0_stg2_0 ∗ anyAt2 (F := F) c cc0_stg3_0 ∗ anyAt2 (F := F) c cc0_stg3_1 ∗ anyAt2 (F := F) c cc0_stg4_0 ∗ anyAt2 (F := F) c cc0_stg4_1 ∗ anyAt2 (F := F) c cc1_stg0_0 ∗ anyAt2 (F := F) c cc1_stg0_1 ∗ anyAt2 (F := F) c cc1_stg1_0 ∗ anyAt2 (F := F) c cc1_stg2_0 ∗ anyAt2 (F := F) c cc1_stg3_0 ∗ anyAt2 (F := F) c cc1_stg3_1 ∗ anyAt2 (F := F) c cc1_stg4_0 ∗ anyAt2 (F := F) c cc1_stg5_0 ∗ anyAt2 (F := F) c cc1_stg5_1 ∗ anyAt2 (F := F) c cc1_scratch0 ∗ X) ∗ (∃ r, prngReg c r))

/-- The same without the accumulator. -/
def PhiFrame2 (c : Dev nD) : sProp 𝕄 :=
  iprop((anyAt2 (F := F) c cc0_stg0_0 ∗ anyAt2 (F := F) c cc0_stg0_1 ∗ anyAt2 (F := F) c cc0_stg1_0 ∗ anyAt2 (F := F) c cc0_stg2_0 ∗ anyAt2 (F := F) c cc0_stg3_0 ∗ anyAt2 (F := F) c cc0_stg3_1 ∗ anyAt2 (F := F) c cc0_stg4_0 ∗ anyAt2 (F := F) c cc0_stg4_1 ∗ anyAt2 (F := F) c cc1_stg0_0 ∗ anyAt2 (F := F) c cc1_stg0_1 ∗ anyAt2 (F := F) c cc1_stg1_0 ∗ anyAt2 (F := F) c cc1_stg2_0 ∗ anyAt2 (F := F) c cc1_stg3_0 ∗ anyAt2 (F := F) c cc1_stg3_1 ∗ anyAt2 (F := F) c cc1_stg4_0 ∗ anyAt2 (F := F) c cc1_stg5_0 ∗ anyAt2 (F := F) c cc1_stg5_1 ∗ anyAt2 (F := F) c cc1_scratch0) ∗ (∃ r, prngReg c r))

theorem PhiWith2_split (c : Dev nD) (X : sProp 𝕄) : PhiWith2 (F := F) c X ⊢ iprop(X ∗ PhiFrame2 (F := F) c) := by
  unfold PhiWith2 PhiFrame2
  iintro ⟨⟨R1, R2, R3, R4, R5, R6, R7, R8, R9, R10, R11, R12, R13, R14, R15, R16, R17, R18, HX⟩, Hg⟩
  isplitl [HX]; · iexact HX
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  isplitl [R17]; · iexact R17
  iexact R18

theorem PhiWith2_join (c : Dev nD) (X : sProp 𝕄) : iprop(X ∗ PhiFrame2 (F := F) c) ⊢ PhiWith2 (F := F) c X := by
  unfold PhiWith2 PhiFrame2
  iintro ⟨HX, ⟨R1, R2, R3, R4, R5, R6, R7, R8, R9, R10, R11, R12, R13, R14, R15, R16, R17, R18⟩, Hg⟩
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  isplitl [R17]; · iexact R17
  isplitl [R18]; · iexact R18
  iexact HX

/-- What the launch hands the region, the accumulator owned at some contents. -/
theorem PhiA2_eq (c : Dev nD) :
    (Pipeline.ΦA spec2 c : sProp 𝕄) = PhiWith2 c (iprop(∃ d, owns (c : Thread nD τ) scM2 fullShare d)) := by
  unfold Pipeline.ΦA PhiWith2; rw [scopedRest2_eq]; simp only [scM2, owns_whole]; try rfl

/-- The invariant before position `n`: before the first point what the launch hands over; afterwards the accumulator at
    what the point before left. -/
def PhiS2 (c : Dev nD) : (n : ℕ) → n ≤ cfg2.N → sProp 𝕄
  | 0, _ => Pipeline.ΦA spec2 c
  | n + 1, hn => PhiWith2 c (owns (c : Thread nD τ) scM2 fullShare (scr2 V c n hn))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = PhiWith2 c (owns (c : Thread nD τ) scM2 fullShare (scr2 V c n hn)) := rfl

theorem PhiS2_pos (c : Dev nD) (n : ℕ) (h : n ≤ cfg2.N) (hz : n ≠ 0) :
    PhiS2 V c n h = PhiWith2 c (owns (c : Thread nD τ) scM2 fullShare (scr2 V c (n - 1) (by omega))) := by
  cases n with
  | zero => exact absurd rfl hz
  | succ n => rfl

/-- At every position the invariant gives the accumulator at some contents. -/
theorem PhiS2_any (c : Dev nD) (n : ℕ) (h : n ≤ cfg2.N) :
    PhiS2 V c n h ⊢ PhiWith2 c (iprop(∃ d, owns (c : Thread nD τ) scM2 fullShare d)) := by
  cases n with
  | zero => rw [PhiS2_zero V c 0 h rfl, PhiA2_eq]
  | succ n =>
    rw [PhiS2_succ]
    iintro H
    icases (PhiWith2_split c _) $$ H with ⟨HS, HR⟩
    iapply (PhiWith2_join c _)
    isplitl [HS]
    · iexists _; iexact HS
    iexact HR

/-! ## The pipeline's proof data -/

/-- The proof data of the pipeline on core `c`: the arrays as the region finds them; after the body at point `t` each
    input's buffer at its block and each output's at what the tail stores from the accumulator (read at the
    points that write the window back; a placeholder elsewhere); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (scr2 V c t.val t.isLt) (iblk2 V c 2 t)
    | ⟨6, _⟩ => out2_6 (scr2 V c t.val t.isLt) (iblk2 V c 2 t) (iblk2 V c 3 t) (iblk2 V c 4 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (scr2 V c t.val t.isLt) (iblk2 V c 2 t) := by dsimp only [dat2]
theorem after2_6 (c : Dev nD) (t : Fin cfg2.N) : (dat2 V c).after 6 t = out2_6 (scr2 V c t.val t.isLt) (iblk2 V c 2 t) (iblk2 V c 3 t) (iblk2 V c 4 t) := by dsimp only [dat2]

/-- The two output windows at the points that write them back. -/
theorem after2_5_last (c : Dev nD) (t : Fin cfg2.N) (h : t.val % 16 = 15) :
    (dat2 V c).after 5 t = out2_5 (scr2 V c t.val t.isLt) (iblk2 V c 2 t) := after2_5 V c t
theorem after2_6_last (c : Dev nD) (t : Fin cfg2.N) (h : t.val % 16 = 15) :
    (dat2 V c).after 6 t = out2_6 (scr2 V c t.val t.isLt) (iblk2 V c 2 t) (iblk2 V c 3 t) (iblk2 V c 4 t) := after2_6 V c t

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

/-- An input window's buffer is left at its block. -/
theorem leaves2_0 (c : Dev nD) (t : Fin cfg2.N) :
    (dat2 V c).leavesExact 0 t = owns (c : Thread nD τ) (st2_0 t) fullShare (iblk2 V c 0 t) := by
  rw [show (dat2 V c).leavesExact 0 t = owns (c : Thread nD τ) (st2_0 t) fullShare ((dat2 V c).after 0 t) from by
    unfold Dat.leavesExact; rw [live2_0 t], after2_0]
theorem leaves2_1 (c : Dev nD) (t : Fin cfg2.N) :
    (dat2 V c).leavesExact 1 t = owns (c : Thread nD τ) (st2_1 t) fullShare (iblk2 V c 1 t) := by
  rw [show (dat2 V c).leavesExact 1 t = owns (c : Thread nD τ) (st2_1 t) fullShare ((dat2 V c).after 1 t) from by
    unfold Dat.leavesExact; rw [live2_1 t], after2_1]
theorem leaves2_2 (c : Dev nD) (t : Fin cfg2.N) :
    (dat2 V c).leavesExact 2 t = owns (c : Thread nD τ) (st2_2 t) fullShare (iblk2 V c 2 t) := by
  rw [show (dat2 V c).leavesExact 2 t = owns (c : Thread nD τ) (st2_2 t) fullShare ((dat2 V c).after 2 t) from by
    unfold Dat.leavesExact; rw [live2_2 t], after2_2]
theorem leaves2_3 (c : Dev nD) (t : Fin cfg2.N) :
    (dat2 V c).leavesExact 3 t = owns (c : Thread nD τ) (st2_3 t) fullShare (iblk2 V c 3 t) := by
  rw [show (dat2 V c).leavesExact 3 t = owns (c : Thread nD τ) (st2_3 t) fullShare ((dat2 V c).after 3 t) from by
    unfold Dat.leavesExact; rw [live2_3 t], after2_3]
theorem leaves2_4 (c : Dev nD) (t : Fin cfg2.N) :
    (dat2 V c).leavesExact 4 t = owns (c : Thread nD τ) (st2_4 t) fullShare (iblk2 V c 4 t) := by
  rw [show (dat2 V c).leavesExact 4 t = owns (c : Thread nD τ) (st2_4 t) fullShare ((dat2 V c).after 4 t) from by
    unfold Dat.leavesExact; rw [live2_4 t], after2_4]

set_option maxHeartbeats 4800000 in
/-- The body at any point: the inputs' memrefs hold their blocks; the closed forms say which case the point is in; the
    invariant hands the body the accumulator (at what the point before left, or at anything at a row's first point)
    and takes it back at this point's contents; off the rows' last points the output windows' buffers pass through
    untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4]
  have hN : t.val < 256 := lt_of_lt_of_eq t.isLt (show cfg2.N = 256 from N_2)
  by_cases h0 : t.val % 16 = 0
  · have hc0 : c2reset (grid2.coords t) := (hreset2 t).mpr h0
    have hc1 : ¬c2last (grid2.coords t) := fun h => by have := (hlast2 t).mp h; omega
    rw [Dat.leavesExact_idle (dat2 V c) 5 t (idle2_5_off t hc1) (noFlush2_5_off t hc1),
      Dat.leavesExact_idle (dat2 V c) 6 t (idle2_6_off t hc1) (noFlush2_6_off t hc1)]
    rw [scr2_reset V c t h0, PhiS2_castSucc V c t]
    iintro ⟨HΦ, Ho, ⟨%d0, H0⟩, ⟨%d1, H1⟩, ⟨%d2, H2⟩, ⟨%d3, H3⟩, ⟨%d4, H4⟩, H5, H6⟩
    icases (PhiS2_any V c _ _) $$ HΦ with HΦ
    icases (PhiWith2_split c _) $$ HΦ with ⟨HS, HR⟩
    iapply (run2_reset c Set.univ (grid2.coords t) _ _ _ _ _ _ _ _ _ _ _ _ _ _ _ _ hc0 hc1 (iblk2 V c 0 t) (iblk2 V c 1 t) _)
    isplitl [H0]; · iexact H0
    isplitl [H1]; · iexact H1
    isplitl [HS]; · iexact HS
    iintro ⟨H0, H1, HS⟩
    isplitl [HS HR]
    · iapply (PhiWith2_join c _)
      isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc0 : ¬c2reset (grid2.coords t) := fun h => h0 ((hreset2 t).mp h)
    have hz : t.val ≠ 0 := fun e => h0 (by rw [e])
    rw [scr2_step V c t h0, PhiS2_castSucc V c t, PhiS2_pos V c _ _ hz]
    by_cases h1 : t.val % 16 = 15
    · have hc1 : c2last (grid2.coords t) := (hlast2 t).mpr h1
      rw [show (dat2 V c).leavesExact 5 t = owns (c : Thread nD τ) (st2_5 t) fullShare ((dat2 V c).after 5 t) from by
        unfold Dat.leavesExact; rw [live2_5_on t hc1], after2_5]
      rw [show (dat2 V c).leavesExact 6 t = owns (c : Thread nD τ) (st2_6 t) fullShare ((dat2 V c).after 6 t) from by
        unfold Dat.leavesExact; rw [live2_6_on t hc1], after2_6]
      rw [scr2_step V c t h0]
      iintro ⟨HΦ, Ho, ⟨%d0, H0⟩, ⟨%d1, H1⟩, ⟨%d2, H2⟩, ⟨%d3, H3⟩, ⟨%d4, H4⟩, ⟨%d5, H5⟩, ⟨%d6, H6⟩⟩
      icases (PhiWith2_split c _) $$ HΦ with ⟨HS, HR⟩
      iapply (run2_last c Set.univ (grid2.coords t) _ _ _ _ _ _ _ _ _ _ _ _ _ _ _ _ hc0 hc1 (iblk2 V c 0 t) (iblk2 V c 1 t) (iblk2 V c 2 t) (iblk2 V c 3 t) (iblk2 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexact HS
      iintro ⟨H0, H1, H2, H3, H4, H5, H6, HS⟩
      isplitl [HS HR]
      · iapply (PhiWith2_join c _)
        isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬c2last (grid2.coords t) := fun h => h1 ((hlast2 t).mp h)
      rw [Dat.leavesExact_idle (dat2 V c) 5 t (idle2_5_off t hc1) (noFlush2_5_off t hc1),
        Dat.leavesExact_idle (dat2 V c) 6 t (idle2_6_off t hc1) (noFlush2_6_off t hc1)]
      iintro ⟨HΦ, Ho, ⟨%d0, H0⟩, ⟨%d1, H1⟩, ⟨%d2, H2⟩, ⟨%d3, H3⟩, ⟨%d4, H4⟩, H5, H6⟩
      icases (PhiWith2_split c _) $$ HΦ with ⟨HS, HR⟩
      iapply (run2_mid c Set.univ (grid2.coords t) _ _ _ _ _ _ _ _ _ _ _ _ _ _ _ _ hc0 hc1 (iblk2 V c 0 t) (iblk2 V c 1 t) _ _)
      isplitl [H0]; · iexact H0
      isplitl [H1]; · iexact H1
      isplitl [HS]; · iexact HS
      iintro ⟨H0, H1, HS⟩
      isplitl [HS HR]
      · iapply (PhiWith2_join c _)
        isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After the last point the invariant gives it back: the accumulator's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl, PhiA2_eq]
  exact PhiS2_any V c _ _

end Cert.ReferenceIdeal.Hand

end
-- ==== Proof.RunReference.lean ====
/-
  The run of @main with its whole final memory.

  From one record per region (three regions here, the valuations V1 … V5), entered from the contents the program's buffers hold before it and left at
  the contents they hold after it, every weakly fair execution of @main from a memory with zero counters terminates, and
  in every final memory EVERY buffer that outlives the regions holds the last valuation's contents: the results as well as
  the arguments. The arguments' part of it is the frame statement, since no item writes an argument.
-/
import proofs.«180267_g2000104153886438_pallasbulk_1035_2_alg».proof.Proof.Gen.ReferenceIdeal.Regions
import Idealize.ShloMosaic.Lib.Pipeline.Frame
import Idealize.ShloMosaic.Lib.Pipeline.Regions

noncomputable section

namespace Cert.ReferenceIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.ReferenceIdeal Cert.ReferenceIdeal.Gen

variable {F : FTy → Type} [FloatOps F]

/-- A TensorCore buffer that no region scopes is among the buffers held between the items. -/
theorem mem_ucRef (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

variable (m : (ℓ : Loc nD τ sig) → Buf (Elt F) ℓ)

-- the run theorem's implicit arguments are found by unifying its conclusion with this one, which takes unfolding
-- plain definitions in a metavariable's type
set_option backward.isDefEq.respectTransparency.types false in
/-- THE CONDITIONAL RUN. Under the hypotheses of the conditional frame (a launch of the rest states `E`, one record
    per region entered and left at this program's valuations), every weakly fair execution of @main from memory `m` with
    zero counters terminates and every final memory holds, on every core, every buffer no region scopes at the last
    valuation `V5 m outs c`. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V3 m outs c) ∗ E 2 c) ⊢ R2.pre c)
    (hpost2 : ∀ c : Dev nD, R2.post c ⊢ iprop(StableHlo.held (c : Thread nD τ) (Pipeline.ucRefs τ sig) (V4 m outs c) ∗ E 3 c)) :
    θ_run defs (onTc (τ := τ) (main (F := F))) ⟨m, fun _ => 0, ρ⟩ (fun r => ∀ c : Dev nD, ∀ b ∈ Pipeline.ucRefs τ sig,
      r.2.mem (((c.tc : Thread nD τ)).1, b) = V5 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨.rfl, hpre0 c, (hpost0 c).trans (hpre1 c), (hpost1 c).trans (hpre2 c), hpost2 c, sep_mono .rfl (hE3 c)⟩)
    (hinit := ?_) (QY := fun c s => ∀ b ∈ Pipeline.ucRefs τ sig, s.mem (((c : Thread nD τ)).1, b) = V5 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact h
    · iexact HSI

/-- The arguments' part of the run's post: a memory that holds every unscoped buffer at the last valuation holds each
    argument as launched (no host operation writes an argument and no region may change one). -/
theorem args_of_post (outs : Outs (F := F)) (mem : (ℓ : Loc nD τ sig) → Buf (Elt F) ℓ)
    (h : ∀ c : Dev nD, ∀ b ∈ Pipeline.ucRefs τ sig, mem (((c.tc : Thread nD τ)).1, b) = V5 m outs c b) (c : Dev nD) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7) :=
  ⟨(h c _ (mem_ucRef main_arg0 (by decide))).trans (V5_main_arg0 m outs c),
    (h c _ (mem_ucRef main_arg1 (by decide))).trans (V5_main_arg1 m outs c),
    (h c _ (mem_ucRef main_arg2 (by decide))).trans (V5_main_arg2 m outs c),
    (h c _ (mem_ucRef main_arg3 (by decide))).trans (V5_main_arg3 m outs c),
    (h c _ (mem_ucRef main_arg4 (by decide))).trans (V5_main_arg4 m outs c),
    (h c _ (mem_ucRef main_arg5 (by decide))).trans (V5_main_arg5 m outs c),
    (h c _ (mem_ucRef main_arg6 (by decide))).trans (V5_main_arg6 m outs c),
    (h c _ (mem_ucRef main_arg7 (by decide))).trans (V5_main_arg7 m outs c)⟩

end Cert.ReferenceIdeal.Hand

end
-- ==== Proof.AssembleReference.lean ====
/-
  The reference program's @main, assembled: a stretch of host operations, the pre-pass, the two propagation
  regions, and the closing host operations. Each region's proof data and body obligation come from its own module; here
  the regions are placed in @main — what the core's buffers hold between the items, each region as a segment entered
  from and left at those contents — and the launch is discharged.
-/
import proofs.«180267_g2000104153886438_pallasbulk_1035_2_alg».proof.Proof.PrepassRegion
import proofs.«180267_g2000104153886438_pallasbulk_1035_2_alg».proof.Proof.Gcn1Region
import proofs.«180267_g2000104153886438_pallasbulk_1035_2_alg».proof.Proof.Gcn2Region
import proofs.«180267_g2000104153886438_pallasbulk_1035_2_alg».proof.Proof.RunReference
import Idealize.ShloMosaic.Lib.Pipeline.RegionsLoop
import Idealize.ShloMosaic.Lib.Pipeline.FrameSuffix

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between @main's items

Before the first region the buffers hold the launch contents after the first stretch of host operations. Each region
then changes its output windows' arrays and nothing else: after it they hold what its write-backs leave, which the
pipeline library computes from the proof data. -/

/-- The buffers as region 0 finds them, read at a TensorCore reference. -/
abbrev in0 (c : Dev nD) (b : Ref sig .tc) : Buf (Elt F) ((c : Thread nD τ).loc b) := V1 m c b
/-- Region 0's arrays after it (every other buffer as it found it). -/
def left0 (c : Dev nD) : Valuation τ sig (Elt F) :=
  Pipeline.withArrays spec0 c (V1 m c) fun w => (dat0 (in0 m) c).arrAt w cfg0.N
/-- The buffers after region 0: its output arrays at what it leaves. -/
abbrev B1 (c : Dev nD) : Valuation τ sig (Elt F) :=
  Function.update (Function.update (V1 m c) main_call0_v17_0 (left0 m c main_call0_v17_0)) main_call0_v17_1 (left0 m c main_call0_v17_1)

/-- The buffers as region 1 finds them, read at a TensorCore reference. -/
abbrev in1 (c : Dev nD) (b : Ref sig .tc) : Buf (Elt F) ((c : Thread nD τ).loc b) := B1 m c b
/-- Region 1's arrays after it (every other buffer as it found it). -/
def left1 (c : Dev nD) : Valuation τ sig (Elt F) :=
  Pipeline.withArrays spec1 c (B1 m c) fun w => (dat1 (in1 m) c).arrAt w cfg1.N
/-- The buffers after region 1: its output arrays at what it leaves. -/
abbrev B2 (c : Dev nD) : Valuation τ sig (Elt F) :=
  Function.update (B1 m c) main_call0_v18 (left1 m c main_call0_v18)

/-- The buffers as region 2 finds them, read at a TensorCore reference. -/
abbrev in2 (c : Dev nD) (b : Ref sig .tc) : Buf (Elt F) ((c : Thread nD τ).loc b) := B2 m c b
/-- Region 2's arrays after it (every other buffer as it found it). -/
def left2 (c : Dev nD) : Valuation τ sig (Elt F) :=
  Pipeline.withArrays spec2 c (B2 m c) fun w => (dat2 (in2 m) c).arrAt w cfg2.N
/-- The buffers after region 2: its output arrays at what it leaves. -/
abbrev B3 (c : Dev nD) : Valuation τ sig (Elt F) :=
  Function.update (Function.update (B2 m c) main_call0_v19_0 (left2 m c main_call0_v19_0)) main_call0_v19_1 (left2 m c main_call0_v19_1)

/-- What each region leaves, as the family of unknowns the generated valuations are written over. -/
def outs : Outs (F := F) := fun J r c =>
  if J = 2 then left0 m c r else if J = 3 then left1 m c r else left2 m c r
theorem V2_eq (c : Dev nD) : V2 m (outs m) c = B1 m c := rfl
theorem V3_eq (c : Dev nD) : V3 m (outs m) c = B2 m c := rfl
theorem V4_eq (c : Dev nD) : V4 m (outs m) c = B3 m c := rfl

/-- Every pipeline's proof data, each at its region's entry contents. -/
def pdats : (p : Fin 3) → (c : Dev nD) → Dat τ (Elt F) Unit ℕ (UR sig nD τ) ℕ (cfgs p) c
  | ⟨0, _⟩ => fun c => dat0 (in0 m) c
  | ⟨1, _⟩ => fun c => dat1 (in1 m) c
  | ⟨2, _⟩ => fun c => dat2 (in2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and its debts, none. -/
abbrev rides (c : Dev nD) : sProp 𝕄 := iprop((∃ r, prngReg c r) ∗ ∃ W, owes (c : Thread nD τ) (0 : CellTallies nD τ sig Unit) W)

/-! ## Region 0 -/

/-- After region 0 each of its arrays holds what the pipeline leaves in it -/
theorem hF0 (c : Dev nD) (w : Fin cfg0.W) :
    (dat0 (in0 m) c).arrAt w cfg0.N = V2 m (outs m) c (Proc.devRef .tc (Pipeline.arrRef spec0 w)) := by
  fin_cases w
  · exact ((dat0 (in0 m) c).arrAt_in 0 rfl _).trans ((A_eq0 (in0 m) c 0).trans (V2_of m (outs m) c _ (by decide)).symm)
  · exact ((dat0 (in0 m) c).arrAt_in 1 rfl _).trans ((A_eq0 (in0 m) c 1).trans (V2_of m (outs m) c _ (by decide)).symm)
  · exact ((dat0 (in0 m) c).arrAt_in 2 rfl _).trans ((A_eq0 (in0 m) c 2).trans (V2_of m (outs m) c _ (by decide)).symm)
  · show _ = B1 m c main_call0_v17_0
    unfold B1
    rw [Function.update_of_ne (StableHlo.devRef_ne_of_ne (by decide) : (Proc.devRef .tc main_call0_v17_0 : DevRef τ sig) ≠ Proc.devRef .tc main_call0_v17_1), Function.update_self]
    unfold left0
    exact (Pipeline.withArrays_arr spec0 launch0.win.arr_inj c (V1 m c) (fun w => (dat0 (in0 m) c).arrAt w cfg0.N) 3).symm
  · show _ = B1 m c main_call0_v17_1
    unfold B1
    rw [Function.update_self]
    unfold left0
    exact (Pipeline.withArrays_arr spec0 launch0.win.arr_inj c (V1 m c) (fun w => (dat0 (in0 m) c).arrAt w cfg0.N) 4).symm

/-- and every other buffer what it held at the region's entry. -/
theorem hrest0 (c : Dev nD) (b : Ref sig .tc) (hb : b ∉ Finset.univ.image (Pipeline.arrRef spec0)) :
    V2 m (outs m) c (Proc.devRef .tc b) = in0 m c b :=
  V2_of m (outs m) c b (fun hm => hb (by
    simp only [List.mem_cons, List.mem_nil_iff, or_false] at hm
    rcases hm with rfl | rfl
    · exact Finset.mem_image.mpr ⟨3, Finset.mem_univ _, rfl⟩
    · exact Finset.mem_image.mpr ⟨4, Finset.mem_univ _, rfl⟩))

set_option backward.isDefEq.respectTransparency.types false in
/-- Region 0 as a segment of @main: entered from every unscoped buffer at the contents before it, left with its output
    arrays at what it leaves; its arrays are split out of the unscoped buffers at entry and put back at exit; the
    generator register goes into the region's invariant and comes back; nothing is owed; the kernel has no semaphore
    of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (in0 m) c).loose
  hwaits := Pipeline.hwaits_of_owed_zero _ _ _ _ L lv 0 fun _ _ => rfl
  pre c := iprop(StableHlo.held (c : Thread nD τ) (Pipeline.ucRefs τ sig) (V1 m c) ∗ rides c)
  post c := iprop(StableHlo.held (c : Thread nD τ) (Pipeline.ucRefs τ sig) (V2 m (outs m) c) ∗ rides c)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (in0 m c) (A_eq0 (in0 m) c)
    rw [Pipeline.unscopedBufs_held] at hsplit
    replace hsplit : (StableHlo.held (c : Thread nD τ) (Pipeline.ucRefs τ sig) (V1 m c) : sProp 𝕄) ⊢ _ := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (in0 m) c)
    unfold Pipeline.ΦA
    iintro ⟨Hp, -, Hr⟩
    isplitl [Hr]; · iexact Hr
    iexact Hp
  hout c := by
    rw [Pipeline.ownSems0_none]
    refine BIBase.Entails.trans (hout0 (in0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (in0 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- After region 1 each of its arrays holds what the pipeline leaves in it -/
theorem hF1 (c : Dev nD) (w : Fin cfg1.W) :
    (dat1 (in1 m) c).arrAt w cfg1.N = V3 m (outs m) c (Proc.devRef .tc (Pipeline.arrRef spec1 w)) := by
  fin_cases w
  · exact ((dat1 (in1 m) c).arrAt_in 0 rfl _).trans ((A_eq1 (in1 m) c 0).trans (V3_of m (outs m) c _ (by decide)).symm)
  · exact ((dat1 (in1 m) c).arrAt_in 1 rfl _).trans ((A_eq1 (in1 m) c 1).trans (V3_of m (outs m) c _ (by decide)).symm)
  · exact ((dat1 (in1 m) c).arrAt_in 2 rfl _).trans ((A_eq1 (in1 m) c 2).trans (V3_of m (outs m) c _ (by decide)).symm)
  · exact ((dat1 (in1 m) c).arrAt_in 3 rfl _).trans ((A_eq1 (in1 m) c 3).trans (V3_of m (outs m) c _ (by decide)).symm)
  · exact ((dat1 (in1 m) c).arrAt_in 4 rfl _).trans ((A_eq1 (in1 m) c 4).trans (V3_of m (outs m) c _ (by decide)).symm)
  · show _ = B2 m c main_call0_v18
    unfold B2
    rw [Function.update_self]
    unfold left1
    exact (Pipeline.withArrays_arr spec1 launch1.win.arr_inj c (B1 m c) (fun w => (dat1 (in1 m) c).arrAt w cfg1.N) 5).symm

/-- and every other buffer what it held at the region's entry. -/
theorem hrest1 (c : Dev nD) (b : Ref sig .tc) (hb : b ∉ Finset.univ.image (Pipeline.arrRef spec1)) :
    V3 m (outs m) c (Proc.devRef .tc b) = in1 m c b :=
  V3_of m (outs m) c b (fun hm => hb (by
    simp only [List.mem_cons, List.mem_nil_iff, or_false] at hm
    rcases hm with rfl
    · exact Finset.mem_image.mpr ⟨5, Finset.mem_univ _, rfl⟩))

set_option backward.isDefEq.respectTransparency.types false in
/-- Region 1 as a segment of @main: entered from every unscoped buffer at the contents before it, left with its output
    arrays at what it leaves; its arrays are split out of the unscoped buffers at entry and put back at exit; the
    generator register goes into the region's invariant and comes back; nothing is owed; the kernel has no semaphore
    of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (in1 m) c).loose
  hwaits := Pipeline.hwaits_of_owed_zero _ _ _ _ L lv 1 fun _ _ => rfl
  pre c := iprop(StableHlo.held (c : Thread nD τ) (Pipeline.ucRefs τ sig) (V2 m (outs m) c) ∗ rides c)
  post c := iprop(StableHlo.held (c : Thread nD τ) (Pipeline.ucRefs τ sig) (V3 m (outs m) c) ∗ rides c)
  X c := iprop(∃ r, prngReg c r)
  Y c := iprop(∃ r, prngReg c r)
  Z c := Pipeline.unscopedRest (Ix := Unit) (Name := ℕ) (U := UR sig nD τ) (Lvl := ℕ) spec1 c (in1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (in1 m c) (A_eq1 (in1 m) c)
    rw [Pipeline.unscopedBufs_held] at hsplit
    replace hsplit : (StableHlo.held (c : Thread nD τ) (Pipeline.ucRefs τ sig) (V2 m (outs m) c) : sProp 𝕄) ⊢ _ := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (in1 m) c)
    unfold Pipeline.ΦA
    iintro ⟨Hp, -, Hr⟩
    isplitl [Hr]; · iexact Hr
    iexact Hp
  hout c := by
    rw [Pipeline.ownSems0_none]
    refine BIBase.Entails.trans (hout1 (in1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (in1 m c) (fun b => V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- After region 2 each of its arrays holds what the pipeline leaves in it -/
theorem hF2 (c : Dev nD) (w : Fin cfg2.W) :
    (dat2 (in2 m) c).arrAt w cfg2.N = V4 m (outs m) c (Proc.devRef .tc (Pipeline.arrRef spec2 w)) := by
  fin_cases w
  · exact ((dat2 (in2 m) c).arrAt_in 0 rfl _).trans ((A_eq2 (in2 m) c 0).trans (V4_of m (outs m) c _ (by decide)).symm)
  · exact ((dat2 (in2 m) c).arrAt_in 1 rfl _).trans ((A_eq2 (in2 m) c 1).trans (V4_of m (outs m) c _ (by decide)).symm)
  · exact ((dat2 (in2 m) c).arrAt_in 2 rfl _).trans ((A_eq2 (in2 m) c 2).trans (V4_of m (outs m) c _ (by decide)).symm)
  · exact ((dat2 (in2 m) c).arrAt_in 3 rfl _).trans ((A_eq2 (in2 m) c 3).trans (V4_of m (outs m) c _ (by decide)).symm)
  · exact ((dat2 (in2 m) c).arrAt_in 4 rfl _).trans ((A_eq2 (in2 m) c 4).trans (V4_of m (outs m) c _ (by decide)).symm)
  · show _ = B3 m c main_call0_v19_0
    unfold B3
    rw [Function.update_of_ne (StableHlo.devRef_ne_of_ne (by decide) : (Proc.devRef .tc main_call0_v19_0 : DevRef τ sig) ≠ Proc.devRef .tc main_call0_v19_1), Function.update_self]
    unfold left2
    exact (Pipeline.withArrays_arr spec2 launch2.win.arr_inj c (B2 m c) (fun w => (dat2 (in2 m) c).arrAt w cfg2.N) 5).symm
  · show _ = B3 m c main_call0_v19_1
    unfold B3
    rw [Function.update_self]
    unfold left2
    exact (Pipeline.withArrays_arr spec2 launch2.win.arr_inj c (B2 m c) (fun w => (dat2 (in2 m) c).arrAt w cfg2.N) 6).symm

/-- and every other buffer what it held at the region's entry. -/
theorem hrest2 (c : Dev nD) (b : Ref sig .tc) (hb : b ∉ Finset.univ.image (Pipeline.arrRef spec2)) :
    V4 m (outs m) c (Proc.devRef .tc b) = in2 m c b :=
  V4_of m (outs m) c b (fun hm => hb (by
    simp only [List.mem_cons, List.mem_nil_iff, or_false] at hm
    rcases hm with rfl | rfl
    · exact Finset.mem_image.mpr ⟨5, Finset.mem_univ _, rfl⟩
    · exact Finset.mem_image.mpr ⟨6, Finset.mem_univ _, rfl⟩))

set_option backward.isDefEq.respectTransparency.types false in
/-- Region 2 as a segment of @main: entered from every unscoped buffer at the contents before it, left with its output
    arrays at what it leaves; its arrays are split out of the unscoped buffers at entry and put back at exit; the
    generator register goes into the region's invariant and comes back; nothing is owed; the kernel has no semaphore
    of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (in2 m) c).loose
  hwaits := Pipeline.hwaits_of_owed_zero _ _ _ _ L lv 2 fun _ _ => rfl
  pre c := iprop(StableHlo.held (c : Thread nD τ) (Pipeline.ucRefs τ sig) (V3 m (outs m) c) ∗ rides c)
  post c := iprop(StableHlo.held (c : Thread nD τ) (Pipeline.ucRefs τ sig) (V4 m (outs m) c) ∗ rides c)
  X c := iprop(∃ r, prngReg c r)
  Y c := iprop(∃ r, prngReg c r)
  Z c := Pipeline.unscopedRest (Ix := Unit) (Name := ℕ) (U := UR sig nD τ) (Lvl := ℕ) spec2 c (in2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (in2 m c) (A_eq2 (in2 m) c)
    rw [Pipeline.unscopedBufs_held] at hsplit
    replace hsplit : (StableHlo.held (c : Thread nD τ) (Pipeline.ucRefs τ sig) (V3 m (outs m) c) : sProp 𝕄) ⊢ _ := hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (in2 m) c)
    unfold Pipeline.ΦA
    iintro ⟨Hp, -, Hr⟩
    isplitl [Hr]; · iexact Hr
    iexact Hp
  hout c := by
    rw [Pipeline.ownSems0_none]
    refine BIBase.Entails.trans (hout2 (in2 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (in2 m c) (fun b => V4 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run of @main -/

/-- What the launch deals a core makes what rides along: the generator register at its launch state, nothing owed. -/
theorem rides_of_launch (c : Dev nD) :
    iprop(unscopedSems0 c ∗ owes (c : Thread nD τ) (0 : CellTallies nD τ sig Unit) ∅ ∗ Pipeline.launchCred (fun _ => (0 : CellTallies nD τ sig Unit)) c ∗ prngReg c (ρ c) ∗ iprop(emp))
      ⊢ (rides c : sProp 𝕄) := by
  iintro ⟨-, HO, -, Hp, -⟩
  isplitl [Hp]; · iexists _; iexact Hp
  iexists ∅; iexact HO

/-- From any memory with every counter at zero, every weakly fair execution of @main terminates, and every final memory
    holds each unscoped buffer at the last valuation: the launch contents, then each stretch of host operations and
    each region's write-backs in @main's order. -/
theorem run_main : θ_run defs (onTc (τ := τ) (main (F := F))) ⟨m, fun _ => 0, ρ⟩ (fun r => ∀ c : Dev nD, ∀ b ∈ Pipeline.ucRefs τ sig,
      r.2.mem (((c.tc : Thread nD τ)).1, b) = V5 m (outs m) c b) :=
  run_cond m emb₁ () 𝒱₀ L lv (fun _ _ => rfl) ρ (outs m) (pdats m) (fun _ => (0 : CellTallies nD τ sig Unit)) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => rides c)
    (by
      iintro ⟨H, -⟩
      imodintro
      iapply (show (bigSep Finset.univ fun c : Dev nD => iprop(unscopedSems0 c ∗ owes (c : Thread nD τ) (0 : CellTallies nD τ sig Unit) ∅ ∗ Pipeline.launchCred (fun _ => (0 : CellTallies nD τ sig Unit)) c ∗ prngReg c (ρ c) ∗ iprop(emp)) : sProp 𝕄)
          ⊢ bigSep Finset.univ (fun c : Dev nD => rides c) from bigSep_mono fun c _ => rides_of_launch ρ c)
      iexact H)
    (fun c => by iintro ⟨-, HO⟩; iexact HO)
    (reg0 m) (fun _ => .rfl) (fun _ => .rfl) (reg1 m) (fun _ => .rfl) (fun _ => .rfl) (reg2 m) (fun _ => .rfl) (fun _ => .rfl)

end Cert.ReferenceIdeal.Hand

end
-- ==== Proof.HostTermsReference.lean ====
/-
  The reference program's host stretches, read as terms of the arguments.

  Before its three regions the program pads, slices and converts its arguments; after them it converts one output
  back and slices and reshapes the other into three vectors. On the extended reals a change of float format is the
  identity, and a pad that adds nothing is the identity, so each operand of a region is an argument, a block of rows
  of one, or an argument padded on the right by a constant; and each result is what the third region leaves, or a
  column of it. The right-hand terms are those of the kernel program's host stretches.
-/
import proofs.«180267_g2000104153886438_pallasbulk_1035_2_alg».proof.Proof.Gen.ReferenceIdeal.Regions
import proofs.«180267_g2000104153886438_pallasbulk_1035_2_alg».proof.Proof.LibPad
import Idealize.ShloMosaic.Lib.StableHlo.Run
import Idealize.ShloMosaic.PureOps.Ideal

noncomputable section

namespace Cert.ReferenceIdeal.Hand

open Idealize.ShloMosaic Idealize.ShloMosaic.TcCoe Idealize.ShloMosaic.StableHlo Idealize.SL.Sem
open Cert.ReferenceIdeal Cert.ReferenceIdeal.Gen

variable (m : (ℓ : Loc nD τ sig) → Buf (Elt Ideal) ℓ) (c : Dev nD)

/-! ## The operands of the three regions, as terms of the arguments -/

/-- The adjacency operand: argument 0 (padded by nothing; on the extended reals the change of float format is the identity). -/
theorem V1_a : (V1 m c main_call0_v1 : S4096x4096.Idx → EReal) = m ((c.tc : Thread nD τ).loc main_arg0) := by
  after_results
  exact Cert.LibPad.pad_zero (s := S4096x4096) ![0, 0] ![0, 0] ![0, 0] _ _ pads_S4096x4096_S4096x4096_000_000 h_S_ (by decide) (by decide)

/-- The feature operand: argument 1 (padded by nothing, the format change the identity). -/
theorem V1_x : (V1 m c main_call0_v3 : S4096x256.Idx → EReal) = m ((c.tc : Thread nD τ).loc main_arg1) := by
  after_results
  exact Cert.LibPad.pad_zero (s := S4096x256) ![0, 0] ![0, 0] ![0, 0] _ _ pads_S4096x256_S4096x256_000_000 h_S_ (by decide) (by decide)

/-- The first weight: argument 2 (padded by nothing, the format change the identity). -/
theorem V1_w1 : (V1 m c main_call0_v5 : S256x256.Idx → EReal) = m ((c.tc : Thread nD τ).loc main_arg2) := by
  after_results
  exact Cert.LibPad.pad_zero (s := S256x256) ![0, 0] ![0, 0] ![0, 0] _ _ pads_S256x256_S256x256_000_000 h_S_ (by decide) (by decide)

/-- The top half of the second weight: rows 0 to 255 of argument 4 (padded by nothing, the format change the identity). -/
theorem V1_w2t : (V1 m c main_call0_v8 : S256x256.Idx → EReal)
    = extractStridedSlice S256x256 ![0, 0] (m ((c.tc : Thread nD τ).loc main_arg4) : S512x256.Idx → EReal) slices_S512x256_S256x256_0_0 := by
  after_results
  exact Cert.LibPad.pad_zero (s := S256x256) ![0, 0] ![0, 0] ![0, 0] _ _ pads_S256x256_S256x256_000_000 h_S_ (by decide) (by decide)

/-- The bottom half of the second weight: rows 256 to 511 of argument 4. -/
theorem V1_w2b : (V1 m c main_call0_v11 : S256x256.Idx → EReal)
    = extractStridedSlice S256x256 ![256, 0] (m ((c.tc : Thread nD τ).loc main_arg4) : S512x256.Idx → EReal) slices_S512x256_S256x256_256_0 := by
  after_results
  exact Cert.LibPad.pad_zero (s := S256x256) ![0, 0] ![0, 0] ![0, 0] _ _ pads_S256x256_S256x256_000_000 h_S_ (by decide) (by decide)

/-- The first bias: argument 3 (padded by nothing). -/
theorem V1_b1 : (V1 m c main_call0_v14 : S1x256.Idx → EReal) = m ((c.tc : Thread nD τ).loc main_arg3) := by
  after_results
  exact Cert.LibPad.pad_zero (s := S1x256) ![0, 0] ![0, 0] ![0, 0] _ _ pads_S1x256_S1x256_000_000 h_S_ (by decide) (by decide)

/-- The second bias: argument 5 (padded by nothing). -/
theorem V1_b2 : (V1 m c main_call0_v15 : S1x256.Idx → EReal) = m ((c.tc : Thread nD τ).loc main_arg5) := by
  after_results
  exact Cert.LibPad.pad_zero (s := S1x256) ![0, 0] ![0, 0] ![0, 0] _ _ pads_S1x256_S1x256_000_000 h_S_ (by decide) (by decide)

/-- The projection weight: argument 6 padded on the right to 128 columns by the converted integer zero
    (the format change the identity). -/
theorem V1_wp : (V1 m c main_call0_v13 : S256x128.Idx → EReal)
    = pad S256x128 ![0, 0] ![0, 125] ![0, 0] (m ((c.tc : Thread nD τ).loc main_arg6) : S256x3.Idx → EReal)
        (sitofp (F := Ideal) .f32 (constantI S_ 32 0#32)) pads_S256x3_S256x128_000_01250 h_S_ := by
  after_results
  rfl

/-- The projection bias: argument 7 padded on the right to 128 columns by the converted integer zero. -/
theorem V1_bp : (V1 m c main_call0_v16 : S1x128.Idx → EReal)
    = pad S1x128 ![0, 0] ![0, 125] ![0, 0] (m ((c.tc : Thread nD τ).loc main_arg7) : S1x3.Idx → EReal)
        (sitofp (F := Ideal) .f32 (constantI S_ 32 0#32)) pads_S1x3_S1x128_000_01250 h_S_ := by
  after_results
  rfl

/-! ## The results, as terms of what the third region leaves -/

variable (outs : Outs (F := Ideal))

/-- Result 0 is what the third region leaves in its first output (the format change back the identity). -/
theorem V5_z : (V5 m outs c main_v0_0 : S4096x256.Idx → EReal) = outs 4 main_call0_v19_0 c := by
  after_results
  simp only [V4, Function.update_of_ne (StableHlo.devRef_ne_of_ne (by decide) : (Proc.devRef .tc main_call0_v19_0 : DevRef τ sig) ≠ Proc.devRef .tc main_call0_v19_1), Function.update_self]
  rfl

/-- Result 1: column 0 of the first three columns of the third region's other output, as a vector. -/
theorem V5_col0 : (V5 m outs c main_v0_1 : S4096.Idx → EReal)
    = shapeCast S4096 (extractStridedSlice S4096x1 ![0, 0]
        (extractStridedSlice S4096x3 ![0, 0] (outs 4 main_call0_v19_1 c : S4096x128.Idx → EReal) slices_S4096x128_S4096x3_0_0)
        slices_S4096x3_S4096x1_0_0) shapeCasts_S4096x1_S4096 := by
  after_results
  simp only [V4, Function.update_self]
  rfl

/-- Result 2: column 1 of the same. -/
theorem V5_col1 : (V5 m outs c main_v0_2 : S4096.Idx → EReal)
    = shapeCast S4096 (extractStridedSlice S4096x1 ![0, 1]
        (extractStridedSlice S4096x3 ![0, 0] (outs 4 main_call0_v19_1 c : S4096x128.Idx → EReal) slices_S4096x128_S4096x3_0_0)
        slices_S4096x3_S4096x1_0_1) shapeCasts_S4096x1_S4096 := by
  after_results
  simp only [V4, Function.update_self]
  rfl

/-- Result 3: column 2 of the same. -/
theorem V5_col2 : (V5 m outs c main_v0_3 : S4096.Idx → EReal)
    = shapeCast S4096 (extractStridedSlice S4096x1 ![0, 2]
        (extractStridedSlice S4096x3 ![0, 0] (outs 4 main_call0_v19_1 c : S4096x128.Idx → EReal) slices_S4096x128_S4096x3_0_0)
        slices_S4096x3_S4096x1_0_2) shapeCasts_S4096x1_S4096 := by
  after_results
  simp only [V4, Function.update_self]
  rfl

end Cert.ReferenceIdeal.Hand

end
-- ==== Proof.PrepassValue.lean ====
import proofs.«180267_g2000104153886438_pallasbulk_1035_2_alg».proof.Proof.PrepassRegion
import proofs.«180267_g2000104153886438_pallasbulk_1035_2_alg».proof.Proof.MatmulAt
import proofs.«180267_g2000104153886438_pallasbulk_1035_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.ValueIdx
open Idealize.ShloMosaic.Pipeline (Dat)

/-! ## The payloads at an index -/

/-- The first store's payload at (p, q): row p of the first block times column q of the second operand. -/
theorem pay2_at (x0 x1 : Vec Ideal S256x256 .bf16) (p q : Fin 256) :
    k0_pay2 x0 x1 (ix2 p q) = ∑ k : Fin 256, x0 (ix2 p k) * x1 (ix2 k q) := by
  unfold k0_pay2 k0_pay1
  simp only [shapeCast_self]
  exact At.matmul_sq_apply x0 x1 p q

/-- The second store's payload at (p, q): the rectified row p of the first block times column q of the third operand. -/
theorem pay3_at (x0 x2 : Vec Ideal S256x256 .bf16) (p q : Fin 256) :
    k0_pay3 x0 x2 (ix2 p q) = ∑ k : Fin 256, Cert.Spec.lrelu (x0 (ix2 p k)) * x2 (ix2 k q) := by
  unfold k0_pay3 k0_pay1
  simp only [shapeCast_self]
  rw [At.matmul_sq_apply]
  rfl

variable (V : (c : Dev nD) → (b : Ref sig .tc) → Buf (Elt Ideal) ((c : Thread nD τ).loc b))

/-! ## The index maps over the 16 points -/

theorem zeros2 : (![0, 0] : Fin 2 → Nat) = fun _ => 0 := funext fun a => by fin_cases a <;> rfl

/-- The row-blocked windows are on row-block t at point t; the two resident operands never move. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The two results as functions of the operand arrays -/

/-- The first result: entry (r, q) is row r of X times column q of W₁. -/
def xwArr (X : S4096x256.Idx → EReal) (W : S256x256.Idx → EReal) : S4096x256.Idx → EReal :=
  fun i => ∑ k : Fin 256, X (ix2 (n0 := 4096) (n1 := 256) (i 0) k) * W (ix2 (n0 := 256) (n1 := 256) k (i 1))

/-- The second result: entry (r, q) is the rectified row r of X times column q of the upper half of W₂. -/
def xw2tArr (X : S4096x256.Idx → EReal) (W : S256x256.Idx → EReal) : S4096x256.Idx → EReal :=
  fun i => ∑ k : Fin 256, Cert.Spec.lrelu (X (ix2 (n0 := 4096) (n1 := 256) (i 0) k)) * W (ix2 (n0 := 256) (n1 := 256) k (i 1))

/-! ## The operand blocks, read where the windows' rectangles say -/

/-- Entry (p, k) of the X window's block at point t is X's entry in the same row as entry (p, ·) of the first
    result's block at t, column k. -/
theorem emb0_eq3 (t : Fin cfg0.N) (j : S256x256.Idx) (k : Fin 256) :
    (((cfg0.win 0).blk t).view.emb (ix2 (j 0) k : S256x256.Idx) : S4096x256.Idx)
      = ix2 (n0 := 4096) (n1 := 256) ((((cfg0.win 3).blk t).view.emb j : S4096x256.Idx) 0) k := by
  obtain ⟨e00, e01, e10, e11, e20, e21, e30, e31, e40, e41⟩ := idx_facts0 t
  funext a; apply Fin.ext
  match a with
  | ⟨0, _⟩ => show win0_0.index t (0 : Fin 2) * 256 + 1 * (j 0).val = win0_3.index t (0 : Fin 2) * 256 + 1 * (j 0).val; omega
  | ⟨1, _⟩ => show win0_0.index t (1 : Fin 2) * 256 + 1 * k.val = k.val; omega

/-- The same against the second result's block. -/
theorem emb0_eq4 (t : Fin cfg0.N) (j : S256x256.Idx) (k : Fin 256) :
    (((cfg0.win 0).blk t).view.emb (ix2 (j 0) k : S256x256.Idx) : S4096x256.Idx)
      = ix2 (n0 := 4096) (n1 := 256) ((((cfg0.win 4).blk t).view.emb j : S4096x256.Idx) 0) k := by
  obtain ⟨e00, e01, e10, e11, e20, e21, e30, e31, e40, e41⟩ := idx_facts0 t
  funext a; apply Fin.ext
  match a with
  | ⟨0, _⟩ => show win0_0.index t (0 : Fin 2) * 256 + 1 * (j 0).val = win0_4.index t (0 : Fin 2) * 256 + 1 * (j 0).val; omega
  | ⟨1, _⟩ => show win0_0.index t (1 : Fin 2) * 256 + 1 * k.val = k.val; omega

/-- The second operand's block is the whole array: entry (k, q) is its entry (k, column of the result's entry). -/
theorem emb1_eq3 (t : Fin cfg0.N) (j : S256x256.Idx) (k : Fin 256) :
    (((cfg0.win 1).blk t).view.emb (ix2 k (j 1) : S256x256.Idx) : S256x256.Idx)
      = ix2 (n0 := 256) (n1 := 256) k ((((cfg0.win 3).blk t).view.emb j : S4096x256.Idx) 1) := by
  obtain ⟨e00, e01, e10, e11, e20, e21, e30, e31, e40, e41⟩ := idx_facts0 t
  funext a; apply Fin.ext
  match a with
  | ⟨0, _⟩ => show win0_1.index t (0 : Fin 2) * 256 + 1 * k.val = k.val; omega
  | ⟨1, _⟩ => show win0_1.index t (1 : Fin 2) * 256 + 1 * (j 1).val = win0_3.index t (1 : Fin 2) * 256 + 1 * (j 1).val; omega

/-- The third operand's block is the whole array. -/
theorem emb2_eq4 (t : Fin cfg0.N) (j : S256x256.Idx) (k : Fin 256) :
    (((cfg0.win 2).blk t).view.emb (ix2 k (j 1) : S256x256.Idx) : S256x256.Idx)
      = ix2 (n0 := 256) (n1 := 256) k ((((cfg0.win 4).blk t).view.emb j : S4096x256.Idx) 1) := by
  obtain ⟨e00, e01, e10, e11, e20, e21, e30, e31, e40, e41⟩ := idx_facts0 t
  funext a; apply Fin.ext
  match a with
  | ⟨0, _⟩ => show win0_2.index t (0 : Fin 2) * 256 + 1 * k.val = k.val; omega
  | ⟨1, _⟩ => show win0_2.index t (1 : Fin 2) * 256 + 1 * (j 1).val = win0_4.index t (1 : Fin 2) * 256 + 1 * (j 1).val; omega

/-- The product of the blocks at point t, at a block index, is the first result's function at the array index
    under it. -/
theorem block3_sum (X : S4096x256.Idx → EReal) (W : S256x256.Idx → EReal) (t : Fin cfg0.N) (j : S256x256.Idx) :
    (∑ k : Fin 256, X (((cfg0.win 0).blk t).view.emb (ix2 (j 0) k : S256x256.Idx))
        * W (((cfg0.win 1).blk t).view.emb (ix2 k (j 1) : S256x256.Idx)))
      = xwArr X W (((cfg0.win 3).blk t).view.emb j) := by
  unfold xwArr
  refine Finset.sum_congr rfl fun k _ => ?_
  rw [emb0_eq3 t j k, emb1_eq3 t j k]

/-- The same of the second result. -/
theorem block4_sum (X : S4096x256.Idx → EReal) (W : S256x256.Idx → EReal) (t : Fin cfg0.N) (j : S256x256.Idx) :
    (∑ k : Fin 256, Cert.Spec.lrelu (X (((cfg0.win 0).blk t).view.emb (ix2 (j 0) k : S256x256.Idx)))
        * W (((cfg0.win 2).blk t).view.emb (ix2 k (j 1) : S256x256.Idx)))
      = xw2tArr X W (((cfg0.win 4).blk t).view.emb j) := by
  unfold xw2tArr
  refine Finset.sum_congr rfl fun k _ => ?_
  rw [emb0_eq4 t j k, emb2_eq4 t j k]

/-! ## What each point writes back -/

/-- What point t writes back to the first result is block t of `xwArr` of the operand arrays. -/
theorem flushed3_eq (c : Dev nD) (t : Fin cfg0.N) :
    (dat0 V c).flushed 3 t = ((cfg0.win 3).blk t).view.read (Elt Ideal)
      (xwArr (V c (Pipeline.arrRef spec0 0)) (V c (Pipeline.arrRef spec0 1))) := by
  show (cfg0.win 3).cut (grid0.coords t) ((dat0 V c).after 3 t) = _
  rw [after0_3]
  unfold out0_3
  rw [View.canon_unit_zero zeros2]
  simp only [View.ld_unit_zero (S := S256x256) zeros2]
  funext j
  refine ((congrArg (k0_pay2 (iblk0 V c 0 t) (iblk0 V c 1 t)) (eq_ix2 (j : S256x256.Idx))).trans
    (pay2_at (iblk0 V c 0 t) (iblk0 V c 1 t) (j 0) (j 1))).trans ?_
  exact block3_sum (V c (Pipeline.arrRef spec0 0)) (V c (Pipeline.arrRef spec0 1)) t j

/-- What point t writes back to the second result is block t of `xw2tArr` of the operand arrays. -/
theorem flushed4_eq (c : Dev nD) (t : Fin cfg0.N) :
    (dat0 V c).flushed 4 t = ((cfg0.win 4).blk t).view.read (Elt Ideal)
      (xw2tArr (V c (Pipeline.arrRef spec0 0)) (V c (Pipeline.arrRef spec0 2))) := by
  show (cfg0.win 4).cut (grid0.coords t) ((dat0 V c).after 4 t) = _
  rw [after0_4]
  unfold out0_4
  rw [View.canon_unit_zero zeros2]
  simp only [View.ld_unit_zero (S := S256x256) zeros2]
  funext j
  refine ((congrArg (k0_pay3 (iblk0 V c 0 t) (iblk0 V c 2 t)) (eq_ix2 (j : S256x256.Idx))).trans
    (pay3_at (iblk0 V c 0 t) (iblk0 V c 2 t) (j 0) (j 1))).trans ?_
  exact block4_sum (V c (Pipeline.arrRef spec0 0)) (V c (Pipeline.arrRef spec0 2)) t j

/-! ## The blocks cover the arrays -/

/-- An index of the first result's array is in point t's block iff each coordinate is in the block's range. -/
theorem mem_blk3 (t : Fin cfg0.N) (i : S4096x256.Idx) :
    i ∈ ((cfg0.win 3).blk t).view.set ↔ ∀ a : Fin 2, win0_3.index t a * S256x256.size a ≤ (i a).val ∧ (i a).val < win0_3.index t a * S256x256.size a + S256x256.size a := by
  show i ∈ ((View.whole main_call0_v17_0).slice (win0_3.rect t)).set ↔ _
  rw [View.set_slice_whole, Rect.mem_set_unit]
  exact Iff.rfl

/-- The same of the second result's array. -/
theorem mem_blk4 (t : Fin cfg0.N) (i : S4096x256.Idx) :
    i ∈ ((cfg0.win 4).blk t).view.set ↔ ∀ a : Fin 2, win0_4.index t a * S256x256.size a ≤ (i a).val ∧ (i a).val < win0_4.index t a * S256x256.size a + S256x256.size a := by
  show i ∈ ((View.whole main_call0_v17_1).slice (win0_4.rect t)).set ↔ _
  rw [View.set_slice_whole, Rect.mem_set_unit]
  exact Iff.rfl

/-- Row r of the first result is written by point r / 256. -/
theorem cover3 (i : S4096x256.Idx) : ∃ t : Fin cfg0.N, (cfg0.win 3).flush t = true ∧ i ∈ ((cfg0.win 3).blk t).view.set := by
  have hi0 : (i 0).val < 4096 := (i 0).isLt
  have hi1 : (i 1).val < 256 := (i 1).isLt
  have hN : (i 0).val / 256 < cfg0.N := by rw [show cfg0.N = 16 from N_0]; omega
  refine ⟨⟨(i 0).val / 256, hN⟩, flush0_3 _, ?_⟩
  obtain ⟨e00, e01, e10, e11, e20, e21, e30, e31, e40, e41⟩ := idx_facts0 ⟨(i 0).val / 256, hN⟩
  rw [mem_blk3]
  intro a
  match a with
  | ⟨0, _⟩ =>
    show win0_3.index _ (0 : Fin 2) * 256 ≤ (i 0).val ∧ (i 0).val < win0_3.index _ (0 : Fin 2) * 256 + 256
    rw [e30]; show (i 0).val / 256 * 256 ≤ _ ∧ _ < (i 0).val / 256 * 256 + 256; omega
  | ⟨1, _⟩ =>
    show win0_3.index _ (1 : Fin 2) * 256 ≤ (i 1).val ∧ (i 1).val < win0_3.index _ (1 : Fin 2) * 256 + 256
    rw [e31]; omega

/-- Row r of the second result is written by point r / 256. -/
theorem cover4 (i : S4096x256.Idx) : ∃ t : Fin cfg0.N, (cfg0.win 4).flush t = true ∧ i ∈ ((cfg0.win 4).blk t).view.set := by
  have hi0 : (i 0).val < 4096 := (i 0).isLt
  have hi1 : (i 1).val < 256 := (i 1).isLt
  have hN : (i 0).val / 256 < cfg0.N := by rw [show cfg0.N = 16 from N_0]; omega
  refine ⟨⟨(i 0).val / 256, hN⟩, flush0_4 _, ?_⟩
  obtain ⟨e00, e01, e10, e11, e20, e21, e30, e31, e40, e41⟩ := idx_facts0 ⟨(i 0).val / 256, hN⟩
  rw [mem_blk4]
  intro a
  match a with
  | ⟨0, _⟩ =>
    show win0_4.index _ (0 : Fin 2) * 256 ≤ (i 0).val ∧ (i 0).val < win0_4.index _ (0 : Fin 2) * 256 + 256
    rw [e40]; show (i 0).val / 256 * 256 ≤ _ ∧ _ < (i 0).val / 256 * 256 + 256; omega
  | ⟨1, _⟩ =>
    show win0_4.index _ (1 : Fin 2) * 256 ≤ (i 1).val ∧ (i 1).val < win0_4.index _ (1 : Fin 2) * 256 + 256
    rw [e41]; omega

/-! ## The arrays after the region -/

/-- The first result's array after the region is X · W₁, entry by entry. -/
theorem xw_final (c : Dev nD) :
    Cert.Spec.ofArr ((dat0 V c).arrAt 3 cfg0.N : S4096x256.Idx → EReal)
      = Cert.Spec.xw (Cert.Spec.ofArr (V c (Pipeline.arrRef spec0 0) : S4096x256.Idx → EReal))
          (Cert.Spec.ofArr (V c (Pipeline.arrRef spec0 1) : S256x256.Idx → EReal)) := by
  rw [(dat0 V c).arrAt_eq_of_cover 3 (xwArr (V c (Pipeline.arrRef spec0 0)) (V c (Pipeline.arrRef spec0 1)))
    (fun t _ => flushed3_eq V c t) cover3]
  rfl

/-- The second result's array after the region is the rectified X times the upper half of W₂, entry by entry. -/
theorem xw2t_final (c : Dev nD) :
    Cert.Spec.ofArr ((dat0 V c).arrAt 4 cfg0.N : S4096x256.Idx → EReal)
      = Cert.Spec.xw2t (Cert.Spec.ofArr (V c (Pipeline.arrRef spec0 0) : S4096x256.Idx → EReal))
          (Cert.Spec.ofArr (V c (Pipeline.arrRef spec0 2) : S256x256.Idx → EReal)) := by
  rw [(dat0 V c).arrAt_eq_of_cover 4 (xw2tArr (V c (Pipeline.arrRef spec0 0)) (V c (Pipeline.arrRef spec0 2)))
    (fun t _ => flushed4_eq V c t) cover4]
  rfl

end Cert.ReferenceIdeal.Hand

end
-- ==== Proof.BlockReadsReference.lean ====
/-
  The reference's pipeline windows read at an index, and its bodies' loads.

  A window's block at a grid point is a rectangle of the window's array: on each axis an element of the block sits at
  the block index times the block's size plus its own coordinate. Pipeline 0 runs on a one-axis grid of 16 points, the
  point t being its own coordinate; pipelines 1 and 2 run on 16 × 16 grids, the flat point t = 16 · i + k standing for
  the coordinates (i, k) = (t / 16, t % 16). The block indices are read off the printed index maps and decided over
  the grid's points. Stated per window: where an entry of the block sits in the array and what the block reads there;
  for a window whose block is its whole array, that the block reads the array; for an output window, which array
  indices a point's block holds and that every index is in the block of a point that writes back. Then the bodies'
  loads of 256 rows at an offset computed from a grid coordinate, and loads and stores through a whole buffer.
-/
import proofs.«180267_g2000104153886438_pallasbulk_1035_2_alg».proof.Proof.Gen.ReferenceIdeal.Launch
import proofs.«180267_g2000104153886438_pallasbulk_1035_2_alg».proof.Proof.Gen.ReferenceIdeal.Points
import Idealize.ShloMosaic.Lib.Pipeline.Value
import Idealize.ShloMosaic.Lib.Pipeline.FrameBody
import Idealize.ShloMosaic.Lib.ValueIdx

noncomputable section

namespace Cert.ReferenceIdeal.At2

open Cert.ReferenceIdeal Cert.ReferenceIdeal.Gen Idealize.ShloMosaic Idealize.ShloMosaic.TcCoe Idealize.SL.Sem
open Idealize.ShloMosaic.ValueIdx

/-! ## Pipeline 0 -/

/-- The coordinate of the flat point t on pipeline 0's one-axis grid is t itself. -/
theorem coords0 : ∀ t : Fin cfg0.N, ((grid0.coords t) 0).val = t.val :=
  (by decide +kernel : ∀ t : Fin grid0.N, _)

/-- Window 0's block index at the flat point t, decided over the grid. -/
theorem idx0_0 : ∀ t : Fin cfg0.N, win0_0.index t (0 : Fin 2) = t.val ∧ win0_0.index t (1 : Fin 2) = 0 :=
  (by decide +kernel : ∀ t : Fin grid0.N, _)

/-- Where entry (p, q) of window 0's block at point t sits in the array: row 256 · (t.val) + p, column q. -/
theorem blk0_0_emb (t : Fin cfg0.N) (p : Fin 256) (q : Fin 256) :
    (((cfg0.win 0).blk t).view.emb (ix2 p q) : S4096x256.Idx) = ix2 ⟨256 * (t.val) + p.val, by have := t.isLt; have hN : cfg0.N = 16 := N_0; omega⟩ q := by
  obtain ⟨e0, e1⟩ := idx0_0 t
  funext a
  apply Fin.ext
  match a with
  | ⟨0, _⟩ => show win0_0.index t (0 : Fin 2) * 256 + 1 * p.val = 256 * (t.val) + p.val; rw [e0]; omega
  | ⟨1, _⟩ => show win0_0.index t (1 : Fin 2) * 256 + 1 * q.val = q.val; rw [e1]; omega

/-- Window 0's block at point t, read of an array X at (p, q), is X at row 256 · (t.val) + p, column q. -/
theorem blk0_0_read {Val : EltTy → Type} (t : Fin cfg0.N) (X : S4096x256.Idx → Val .bf16) (p : Fin 256) (q : Fin 256) :
    ((cfg0.win 0).blk t).view.read Val X (ix2 p q) = X (ix2 ⟨256 * (t.val) + p.val, by have := t.isLt; have hN : cfg0.N = 16 := N_0; omega⟩ q) := by
  rw [View.read_apply]
  show X _ = X _
  rw [blk0_0_emb]

/-- Window 1's block index at the flat point t is zero on both axes: the block is the whole array, decided over the grid. -/
theorem idx0_1 : ∀ t : Fin cfg0.N, win0_1.index t (0 : Fin 2) = 0 ∧ win0_1.index t (1 : Fin 2) = 0 :=
  (by decide +kernel : ∀ t : Fin grid0.N, _)

/-- Window 1 is resident: its block at any point, read of an array X, is X. -/
theorem blk0_1_read {Val : EltTy → Type} (t : Fin cfg0.N) (X : S256x256.Idx → Val .bf16) :
    ((cfg0.win 1).blk t).view.read Val X = X := by
  obtain ⟨e0, e1⟩ := idx0_1 t
  funext y
  rw [View.read_apply]
  show X _ = X _
  congr 1
  funext a
  apply Fin.ext
  match a with
  | ⟨0, _⟩ => show win0_1.index t (0 : Fin 2) * 256 + 1 * (y 0).val = (y 0).val; rw [e0]; omega
  | ⟨1, _⟩ => show win0_1.index t (1 : Fin 2) * 256 + 1 * (y 1).val = (y 1).val; rw [e1]; omega

/-- The same at an index. -/
theorem blk0_1_read_apply {Val : EltTy → Type} (t : Fin cfg0.N) (X : S256x256.Idx → Val .bf16) (y : S256x256.Idx) :
    ((cfg0.win 1).blk t).view.read Val X y = X y :=
  congrFun (blk0_1_read t X) y

/-- Window 2's block index at the flat point t is zero on both axes: the block is the whole array, decided over the grid. -/
theorem idx0_2 : ∀ t : Fin cfg0.N, win0_2.index t (0 : Fin 2) = 0 ∧ win0_2.index t (1 : Fin 2) = 0 :=
  (by decide +kernel : ∀ t : Fin grid0.N, _)

/-- Window 2 is resident: its block at any point, read of an array X, is X. -/
theorem blk0_2_read {Val : EltTy → Type} (t : Fin cfg0.N) (X : S256x256.Idx → Val .bf16) :
    ((cfg0.win 2).blk t).view.read Val X = X := by
  obtain ⟨e0, e1⟩ := idx0_2 t
  funext y
  rw [View.read_apply]
  show X _ = X _
  congr 1
  funext a
  apply Fin.ext
  match a with
  | ⟨0, _⟩ => show win0_2.index t (0 : Fin 2) * 256 + 1 * (y 0).val = (y 0).val; rw [e0]; omega
  | ⟨1, _⟩ => show win0_2.index t (1 : Fin 2) * 256 + 1 * (y 1).val = (y 1).val; rw [e1]; omega

/-- The same at an index. -/
theorem blk0_2_read_apply {Val : EltTy → Type} (t : Fin cfg0.N) (X : S256x256.Idx → Val .bf16) (y : S256x256.Idx) :
    ((cfg0.win 2).blk t).view.read Val X y = X y :=
  congrFun (blk0_2_read t X) y

/-- Window 3's block index at the flat point t, decided over the grid. -/
theorem idx0_3 : ∀ t : Fin cfg0.N, win0_3.index t (0 : Fin 2) = t.val ∧ win0_3.index t (1 : Fin 2) = 0 :=
  (by decide +kernel : ∀ t : Fin grid0.N, _)

/-- Where entry (p, q) of window 3's block at point t sits in the array: row 256 · (t.val) + p, column q. -/
theorem blk0_3_emb (t : Fin cfg0.N) (p : Fin 256) (q : Fin 256) :
    (((cfg0.win 3).blk t).view.emb (ix2 p q) : S4096x256.Idx) = ix2 ⟨256 * (t.val) + p.val, by have := t.isLt; have hN : cfg0.N = 16 := N_0; omega⟩ q := by
  obtain ⟨e0, e1⟩ := idx0_3 t
  funext a
  apply Fin.ext
  match a with
  | ⟨0, _⟩ => show win0_3.index t (0 : Fin 2) * 256 + 1 * p.val = 256 * (t.val) + p.val; rw [e0]; omega
  | ⟨1, _⟩ => show win0_3.index t (1 : Fin 2) * 256 + 1 * q.val = q.val; rw [e1]; omega

/-- Window 3's block at point t, read of an array X at (p, q), is X at row 256 · (t.val) + p, column q. -/
theorem blk0_3_read {Val : EltTy → Type} (t : Fin cfg0.N) (X : S4096x256.Idx → Val .bf16) (p : Fin 256) (q : Fin 256) :
    ((cfg0.win 3).blk t).view.read Val X (ix2 p q) = X (ix2 ⟨256 * (t.val) + p.val, by have := t.isLt; have hN : cfg0.N = 16 := N_0; omega⟩ q) := by
  rw [View.read_apply]
  show X _ = X _
  rw [blk0_3_emb]

/-- An index of window 3's array lies in point t's block exactly when its row is in the band of 256 rows numbered t.val. -/
theorem mem_blk0_3 (t : Fin cfg0.N) (i : S4096x256.Idx) :
    i ∈ ((cfg0.win 3).blk t).view.set ↔ (i 0).val / 256 = t.val := by
  obtain ⟨e0, e1⟩ := idx0_3 t
  have hi1 : (i 1).val < 256 := idx2_lt1 i
  show i ∈ ((View.whole main_call0_v17_0).slice (win0_3.rect t)).set ↔ _
  rw [View.set_slice_whole, Rect.mem_set_unit]
  constructor
  · intro h
    have b0 : win0_3.index t (0 : Fin 2) * 256 ≤ (i 0).val ∧ (i 0).val < win0_3.index t (0 : Fin 2) * 256 + 256 := h 0
    omega
  · intro h a
    match a with
    | ⟨0, _⟩ => show win0_3.index t (0 : Fin 2) * 256 ≤ (i 0).val ∧ (i 0).val < win0_3.index t (0 : Fin 2) * 256 + 256; omega
    | ⟨1, _⟩ => show win0_3.index t (1 : Fin 2) * 256 ≤ (i 1).val ∧ (i 1).val < win0_3.index t (1 : Fin 2) * 256 + 256; omega

/-- The point that writes the row of index i of window 3's array back: the point numbered by the row band (i 0) / 256. -/
def wbPt0_3 (i : S4096x256.Idx) : Fin cfg0.N :=
  ⟨(i 0).val / 256, by have hi0 : (i 0).val < 4096 := idx2_lt0 i; rw [show cfg0.N = 16 from N_0]; omega⟩

/-- Its number. -/
theorem wbPt0_3_val (i : S4096x256.Idx) : (wbPt0_3 i).val = (i 0).val / 256 := rfl

/-- That point writes window 3 back, and its block holds i. -/
theorem cover0_3_at (i : S4096x256.Idx) :
    (cfg0.win 3).flush (wbPt0_3 i) = true ∧ i ∈ ((cfg0.win 3).blk (wbPt0_3 i)).view.set := by
  have hi0 : (i 0).val < 4096 := idx2_lt0 i
  refine ⟨flush0_3 _, (mem_blk0_3 _ i).mpr ?_⟩
  rw [wbPt0_3_val]

/-- Every index of window 3's array is in the block of some point that writes it back. -/
theorem cover0_3 (i : S4096x256.Idx) :
    ∃ t : Fin cfg0.N, (cfg0.win 3).flush t = true ∧ i ∈ ((cfg0.win 3).blk t).view.set :=
  ⟨_, cover0_3_at i⟩

/-- Window 4's block index at the flat point t, decided over the grid. -/
theorem idx0_4 : ∀ t : Fin cfg0.N, win0_4.index t (0 : Fin 2) = t.val ∧ win0_4.index t (1 : Fin 2) = 0 :=
  (by decide +kernel : ∀ t : Fin grid0.N, _)

/-- Where entry (p, q) of window 4's block at point t sits in the array: row 256 · (t.val) + p, column q. -/
theorem blk0_4_emb (t : Fin cfg0.N) (p : Fin 256) (q : Fin 256) :
    (((cfg0.win 4).blk t).view.emb (ix2 p q) : S4096x256.Idx) = ix2 ⟨256 * (t.val) + p.val, by have := t.isLt; have hN : cfg0.N = 16 := N_0; omega⟩ q := by
  obtain ⟨e0, e1⟩ := idx0_4 t
  funext a
  apply Fin.ext
  match a with
  | ⟨0, _⟩ => show win0_4.index t (0 : Fin 2) * 256 + 1 * p.val = 256 * (t.val) + p.val; rw [e0]; omega
  | ⟨1, _⟩ => show win0_4.index t (1 : Fin 2) * 256 + 1 * q.val = q.val; rw [e1]; omega

/-- Window 4's block at point t, read of an array X at (p, q), is X at row 256 · (t.val) + p, column q. -/
theorem blk0_4_read {Val : EltTy → Type} (t : Fin cfg0.N) (X : S4096x256.Idx → Val .f32) (p : Fin 256) (q : Fin 256) :
    ((cfg0.win 4).blk t).view.read Val X (ix2 p q) = X (ix2 ⟨256 * (t.val) + p.val, by have := t.isLt; have hN : cfg0.N = 16 := N_0; omega⟩ q) := by
  rw [View.read_apply]
  show X _ = X _
  rw [blk0_4_emb]

/-- An index of window 4's array lies in point t's block exactly when its row is in the band of 256 rows numbered t.val. -/
theorem mem_blk0_4 (t : Fin cfg0.N) (i : S4096x256.Idx) :
    i ∈ ((cfg0.win 4).blk t).view.set ↔ (i 0).val / 256 = t.val := by
  obtain ⟨e0, e1⟩ := idx0_4 t
  have hi1 : (i 1).val < 256 := idx2_lt1 i
  show i ∈ ((View.whole main_call0_v17_1).slice (win0_4.rect t)).set ↔ _
  rw [View.set_slice_whole, Rect.mem_set_unit]
  constructor
  · intro h
    have b0 : win0_4.index t (0 : Fin 2) * 256 ≤ (i 0).val ∧ (i 0).val < win0_4.index t (0 : Fin 2) * 256 + 256 := h 0
    omega
  · intro h a
    match a with
    | ⟨0, _⟩ => show win0_4.index t (0 : Fin 2) * 256 ≤ (i 0).val ∧ (i 0).val < win0_4.index t (0 : Fin 2) * 256 + 256; omega
    | ⟨1, _⟩ => show win0_4.index t (1 : Fin 2) * 256 ≤ (i 1).val ∧ (i 1).val < win0_4.index t (1 : Fin 2) * 256 + 256; omega

/-- The point that writes the row of index i of window 4's array back: the point numbered by the row band (i 0) / 256. -/
def wbPt0_4 (i : S4096x256.Idx) : Fin cfg0.N :=
  ⟨(i 0).val / 256, by have hi0 : (i 0).val < 4096 := idx2_lt0 i; rw [show cfg0.N = 16 from N_0]; omega⟩

/-- Its number. -/
theorem wbPt0_4_val (i : S4096x256.Idx) : (wbPt0_4 i).val = (i 0).val / 256 := rfl

/-- That point writes window 4 back, and its block holds i. -/
theorem cover0_4_at (i : S4096x256.Idx) :
    (cfg0.win 4).flush (wbPt0_4 i) = true ∧ i ∈ ((cfg0.win 4).blk (wbPt0_4 i)).view.set := by
  have hi0 : (i 0).val < 4096 := idx2_lt0 i
  refine ⟨flush0_4 _, (mem_blk0_4 _ i).mpr ?_⟩
  rw [wbPt0_4_val]

/-- Every index of window 4's array is in the block of some point that writes it back. -/
theorem cover0_4 (i : S4096x256.Idx) :
    ∃ t : Fin cfg0.N, (cfg0.win 4).flush t = true ∧ i ∈ ((cfg0.win 4).blk t).view.set :=
  ⟨_, cover0_4_at i⟩

/-! ## Pipeline 1 -/

/-- The coordinates of the flat point t = 16 · i + k on pipeline 1's grid: i = t / 16, k = t % 16. -/
theorem coords1 : ∀ t : Fin cfg1.N, ((grid1.coords t) 0).val = t.val / 16 ∧ ((grid1.coords t) 1).val = t.val % 16 :=
  (by decide +kernel : ∀ t : Fin grid1.N, _)

/-- Window 0's block index at the flat point t, decided over the grid. -/
theorem idx1_0 : ∀ t : Fin cfg1.N, win1_0.index t (0 : Fin 2) = t.val / 16 ∧ win1_0.index t (1 : Fin 2) = t.val % 16 :=
  (by decide +kernel : ∀ t : Fin grid1.N, _)

/-- Where entry (p, q) of window 0's block at point t sits in the array: row 256 · (t.val / 16) + p, column 256 · (t.val % 16) + q. -/
theorem blk1_0_emb (t : Fin cfg1.N) (p : Fin 256) (q : Fin 256) :
    (((cfg1.win 0).blk t).view.emb (ix2 p q) : S4096x4096.Idx) = ix2 ⟨256 * (t.val / 16) + p.val, by have := t.isLt; have hN : cfg1.N = 256 := N_1; omega⟩ ⟨256 * (t.val % 16) + q.val, by omega⟩ := by
  obtain ⟨e0, e1⟩ := idx1_0 t
  funext a
  apply Fin.ext
  match a with
  | ⟨0, _⟩ => show win1_0.index t (0 : Fin 2) * 256 + 1 * p.val = 256 * (t.val / 16) + p.val; rw [e0]; omega
  | ⟨1, _⟩ => show win1_0.index t (1 : Fin 2) * 256 + 1 * q.val = 256 * (t.val % 16) + q.val; rw [e1]; omega

/-- Window 0's block at point t, read of an array X at (p, q), is X at row 256 · (t.val / 16) + p, column 256 · (t.val % 16) + q. -/
theorem blk1_0_read {Val : EltTy → Type} (t : Fin cfg1.N) (X : S4096x4096.Idx → Val .bf16) (p : Fin 256) (q : Fin 256) :
    ((cfg1.win 0).blk t).view.read Val X (ix2 p q) = X (ix2 ⟨256 * (t.val / 16) + p.val, by have := t.isLt; have hN : cfg1.N = 256 := N_1; omega⟩ ⟨256 * (t.val % 16) + q.val, by omega⟩) := by
  rw [View.read_apply]
  show X _ = X _
  rw [blk1_0_emb]

/-- Window 1's block index at the flat point t is zero on both axes: the block is the whole array, decided over the grid. -/
theorem idx1_1 : ∀ t : Fin cfg1.N, win1_1.index t (0 : Fin 2) = 0 ∧ win1_1.index t (1 : Fin 2) = 0 :=
  (by decide +kernel : ∀ t : Fin grid1.N, _)

/-- Window 1 is resident: its block at any point, read of an array X, is X. -/
theorem blk1_1_read {Val : EltTy → Type} (t : Fin cfg1.N) (X : S4096x256.Idx → Val .bf16) :
    ((cfg1.win 1).blk t).view.read Val X = X := by
  obtain ⟨e0, e1⟩ := idx1_1 t
  funext y
  rw [View.read_apply]
  show X _ = X _
  congr 1
  funext a
  apply Fin.ext
  match a with
  | ⟨0, _⟩ => show win1_1.index t (0 : Fin 2) * 4096 + 1 * (y 0).val = (y 0).val; rw [e0]; omega
  | ⟨1, _⟩ => show win1_1.index t (1 : Fin 2) * 256 + 1 * (y 1).val = (y 1).val; rw [e1]; omega

/-- The same at an index. -/
theorem blk1_1_read_apply {Val : EltTy → Type} (t : Fin cfg1.N) (X : S4096x256.Idx → Val .bf16) (y : S4096x256.Idx) :
    ((cfg1.win 1).blk t).view.read Val X y = X y :=
  congrFun (blk1_1_read t X) y

/-- Window 2's block index at the flat point t is zero on both axes: the block is the whole array, decided over the grid. -/
theorem idx1_2 : ∀ t : Fin cfg1.N, win1_2.index t (0 : Fin 2) = 0 ∧ win1_2.index t (1 : Fin 2) = 0 :=
  (by decide +kernel : ∀ t : Fin grid1.N, _)

/-- Window 2 is resident: its block at any point, read of an array X, is X. -/
theorem blk1_2_read {Val : EltTy → Type} (t : Fin cfg1.N) (X : S1x256.Idx → Val .f32) :
    ((cfg1.win 2).blk t).view.read Val X = X := by
  obtain ⟨e0, e1⟩ := idx1_2 t
  funext y
  rw [View.read_apply]
  show X _ = X _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 256 + 1 * (y 1).val = (y 1).val; rw [e1]; omega

/-- The same at an index. -/
theorem blk1_2_read_apply {Val : EltTy → Type} (t : Fin cfg1.N) (X : S1x256.Idx → Val .f32) (y : S1x256.Idx) :
    ((cfg1.win 2).blk t).view.read Val X y = X y :=
  congrFun (blk1_2_read t X) y

/-- Window 3's block index at the flat point t, decided over the grid. -/
theorem idx1_3 : ∀ t : Fin cfg1.N, win1_3.index t (0 : Fin 2) = t.val / 16 ∧ win1_3.index t (1 : Fin 2) = 0 :=
  (by decide +kernel : ∀ t : Fin grid1.N, _)

/-- Where entry (p, q) of window 3's block at point t sits in the array: row 256 · (t.val / 16) + p, column q. -/
theorem blk1_3_emb (t : Fin cfg1.N) (p : Fin 256) (q : Fin 256) :
    (((cfg1.win 3).blk t).view.emb (ix2 p q) : S4096x256.Idx) = ix2 ⟨256 * (t.val / 16) + p.val, by have := t.isLt; have hN : cfg1.N = 256 := N_1; omega⟩ q := by
  obtain ⟨e0, e1⟩ := idx1_3 t
  funext a
  apply Fin.ext
  match a with
  | ⟨0, _⟩ => show win1_3.index t (0 : Fin 2) * 256 + 1 * p.val = 256 * (t.val / 16) + p.val; rw [e0]; omega
  | ⟨1, _⟩ => show win1_3.index t (1 : Fin 2) * 256 + 1 * q.val = q.val; rw [e1]; omega

/-- Window 3's block at point t, read of an array X at (p, q), is X at row 256 · (t.val / 16) + p, column q. -/
theorem blk1_3_read {Val : EltTy → Type} (t : Fin cfg1.N) (X : S4096x256.Idx → Val .f32) (p : Fin 256) (q : Fin 256) :
    ((cfg1.win 3).blk t).view.read Val X (ix2 p q) = X (ix2 ⟨256 * (t.val / 16) + p.val, by have := t.isLt; have hN : cfg1.N = 256 := N_1; omega⟩ q) := by
  rw [View.read_apply]
  show X _ = X _
  rw [blk1_3_emb]

/-- Window 4's block index at the flat point t is zero on both axes: the block is the whole array, decided over the grid. -/
theorem idx1_4 : ∀ t : Fin cfg1.N, win1_4.index t (0 : Fin 2) = 0 ∧ win1_4.index t (1 : Fin 2) = 0 :=
  (by decide +kernel : ∀ t : Fin grid1.N, _)

/-- Window 4 is resident: its block at any point, read of an array X, is X. -/
theorem blk1_4_read {Val : EltTy → Type} (t : Fin cfg1.N) (X : S256x256.Idx → Val .bf16) :
    ((cfg1.win 4).blk t).view.read Val X = X := by
  obtain ⟨e0, e1⟩ := idx1_4 t
  funext y
  rw [View.read_apply]
  show X _ = X _
  congr 1
  funext a
  apply Fin.ext
  match a with
  | ⟨0, _⟩ => show win1_4.index t (0 : Fin 2) * 256 + 1 * (y 0).val = (y 0).val; rw [e0]; omega
  | ⟨1, _⟩ => show win1_4.index t (1 : Fin 2) * 256 + 1 * (y 1).val = (y 1).val; rw [e1]; omega

/-- The same at an index. -/
theorem blk1_4_read_apply {Val : EltTy → Type} (t : Fin cfg1.N) (X : S256x256.Idx → Val .bf16) (y : S256x256.Idx) :
    ((cfg1.win 4).blk t).view.read Val X y = X y :=
  congrFun (blk1_4_read t X) y

/-- Window 5's block index at the flat point t, decided over the grid. -/
theorem idx1_5 : ∀ t : Fin cfg1.N, win1_5.index t (0 : Fin 2) = t.val / 16 ∧ win1_5.index t (1 : Fin 2) = 0 :=
  (by decide +kernel : ∀ t : Fin grid1.N, _)

/-- Where entry (p, q) of window 5's block at point t sits in the array: row 256 · (t.val / 16) + p, column q. -/
theorem blk1_5_emb (t : Fin cfg1.N) (p : Fin 256) (q : Fin 256) :
    (((cfg1.win 5).blk t).view.emb (ix2 p q) : S4096x256.Idx) = ix2 ⟨256 * (t.val / 16) + p.val, by have := t.isLt; have hN : cfg1.N = 256 := N_1; omega⟩ q := by
  obtain ⟨e0, e1⟩ := idx1_5 t
  funext a
  apply Fin.ext
  match a with
  | ⟨0, _⟩ => show win1_5.index t (0 : Fin 2) * 256 + 1 * p.val = 256 * (t.val / 16) + p.val; rw [e0]; omega
  | ⟨1, _⟩ => show win1_5.index t (1 : Fin 2) * 256 + 1 * q.val = q.val; rw [e1]; omega

/-- Window 5's block at point t, read of an array X at (p, q), is X at row 256 · (t.val / 16) + p, column q. -/
theorem blk1_5_read {Val : EltTy → Type} (t : Fin cfg1.N) (X : S4096x256.Idx → Val .bf16) (p : Fin 256) (q : Fin 256) :
    ((cfg1.win 5).blk t).view.read Val X (ix2 p q) = X (ix2 ⟨256 * (t.val / 16) + p.val, by have := t.isLt; have hN : cfg1.N = 256 := N_1; omega⟩ q) := by
  rw [View.read_apply]
  show X _ = X _
  rw [blk1_5_emb]

/-- An index of window 5's array lies in point t's block exactly when its row is in the band of 256 rows numbered t.val / 16. -/
theorem mem_blk1_5 (t : Fin cfg1.N) (i : S4096x256.Idx) :
    i ∈ ((cfg1.win 5).blk t).view.set ↔ (i 0).val / 256 = t.val / 16 := by
  obtain ⟨e0, e1⟩ := idx1_5 t
  have hi1 : (i 1).val < 256 := idx2_lt1 i
  show i ∈ ((View.whole main_call0_v18).slice (win1_5.rect t)).set ↔ _
  rw [View.set_slice_whole, Rect.mem_set_unit]
  constructor
  · intro h
    have b0 : win1_5.index t (0 : Fin 2) * 256 ≤ (i 0).val ∧ (i 0).val < win1_5.index t (0 : Fin 2) * 256 + 256 := h 0
    omega
  · intro h a
    match a with
    | ⟨0, _⟩ => show win1_5.index t (0 : Fin 2) * 256 ≤ (i 0).val ∧ (i 0).val < win1_5.index t (0 : Fin 2) * 256 + 256; omega
    | ⟨1, _⟩ => show win1_5.index t (1 : Fin 2) * 256 ≤ (i 1).val ∧ (i 1).val < win1_5.index t (1 : Fin 2) * 256 + 256; omega

/-- The point that writes the row of index i of window 5's array back: the last point of the row band (i 0) / 256. -/
def wbPt1_5 (i : S4096x256.Idx) : Fin cfg1.N :=
  ⟨16 * ((i 0).val / 256) + 15, by have hi0 : (i 0).val < 4096 := idx2_lt0 i; rw [show cfg1.N = 256 from N_1]; omega⟩

/-- Its number. -/
theorem wbPt1_5_val (i : S4096x256.Idx) : (wbPt1_5 i).val = 16 * ((i 0).val / 256) + 15 := rfl

/-- That point writes window 5 back, and its block holds i. -/
theorem cover1_5_at (i : S4096x256.Idx) :
    (cfg1.win 5).flush (wbPt1_5 i) = true ∧ i ∈ ((cfg1.win 5).blk (wbPt1_5 i)).view.set := by
  have hi0 : (i 0).val < 4096 := idx2_lt0 i
  refine ⟨(flush1_5 _).mpr ?_, (mem_blk1_5 _ i).mpr ?_⟩
  · rw [wbPt1_5_val]; omega
  · rw [wbPt1_5_val]; omega

/-- Every index of window 5's array is in the block of some point that writes it back. -/
theorem cover1_5 (i : S4096x256.Idx) :
    ∃ t : Fin cfg1.N, (cfg1.win 5).flush t = true ∧ i ∈ ((cfg1.win 5).blk t).view.set :=
  ⟨_, cover1_5_at i⟩

/-- The body's load of 256 rows at the offsets k1_off1, of contents X, at (p, q): X at row 256 · (coordinate 1 of the point) + p, column q. -/
theorem ld_k1_off1 {Val : EltTy → Type} {e : EltTy} (i : grid1.Coords) (X : S4096x256.Idx → Val e)
    (inb : ∀ a, (k1_off1 i) a + S256x256.size a ≤ S4096x256.size a) (p q : Fin 256) :
    View.ld X (Rect.unit (s := S4096x256) (k1_off1 i) S256x256.size inb) (ix2 p q)
      = X (ix2 ⟨256 * (i 1).val + p.val, by have h : (i 1).val < 16 := (i 1).isLt; omega⟩ q) := by
  show X _ = X _
  congr 1
  funext a
  apply Fin.ext
  match a with
  | ⟨0, _⟩ => show (k1_off1 i) 0 + 1 * p.val = 256 * (i 1).val + p.val; rw [k1_off1_eq]; show 256 * (i 1).val + 1 * p.val = _; omega
  | ⟨1, _⟩ => show (k1_off1 i) 1 + 1 * q.val = q.val; rw [k1_off1_eq]; show 0 + 1 * q.val = _; omega

/-- The same at the coordinates of the flat point t: row 256 · (t.val % 16) + p. -/
theorem ld_k1_off1_at {Val : EltTy → Type} {e : EltTy} (t : Fin cfg1.N) (X : S4096x256.Idx → Val e)
    (inb : ∀ a, (k1_off1 (grid1.coords t)) a + S256x256.size a ≤ S4096x256.size a) (p q : Fin 256) :
    View.ld X (Rect.unit (s := S4096x256) (k1_off1 (grid1.coords t)) S256x256.size inb) (ix2 p q)
      = X (ix2 ⟨256 * (t.val % 16) + p.val, by have := t.isLt; have hN : cfg1.N = 256 := N_1; omega⟩ q) := by
  rw [ld_k1_off1]
  congr 2
  apply Fin.ext
  show 256 * ((grid1.coords t) 1).val + p.val = 256 * (t.val % 16) + p.val
  rw [(coords1 t).2]

/-! ## Pipeline 2 -/

/-- The coordinates of the flat point t = 16 · i + k on pipeline 2's grid: i = t / 16, k = t % 16. -/
theorem coords2 : ∀ t : Fin cfg2.N, ((grid2.coords t) 0).val = t.val / 16 ∧ ((grid2.coords t) 1).val = t.val % 16 :=
  (by decide +kernel : ∀ t : Fin grid2.N, _)

/-- Window 0's block index at the flat point t, decided over the grid. -/
theorem idx2_0 : ∀ t : Fin cfg2.N, win2_0.index t (0 : Fin 2) = t.val / 16 ∧ win2_0.index t (1 : Fin 2) = t.val % 16 :=
  (by decide +kernel : ∀ t : Fin grid2.N, _)

/-- Where entry (p, q) of window 0's block at point t sits in the array: row 256 · (t.val / 16) + p, column 256 · (t.val % 16) + q. -/
theorem blk2_0_emb (t : Fin cfg2.N) (p : Fin 256) (q : Fin 256) :
    (((cfg2.win 0).blk t).view.emb (ix2 p q) : S4096x4096.Idx) = ix2 ⟨256 * (t.val / 16) + p.val, by have := t.isLt; have hN : cfg2.N = 256 := N_2; omega⟩ ⟨256 * (t.val % 16) + q.val, by omega⟩ := by
  obtain ⟨e0, e1⟩ := idx2_0 t
  funext a
  apply Fin.ext
  match a with
  | ⟨0, _⟩ => show win2_0.index t (0 : Fin 2) * 256 + 1 * p.val = 256 * (t.val / 16) + p.val; rw [e0]; omega
  | ⟨1, _⟩ => show win2_0.index t (1 : Fin 2) * 256 + 1 * q.val = 256 * (t.val % 16) + q.val; rw [e1]; omega

/-- Window 0's block at point t, read of an array X at (p, q), is X at row 256 · (t.val / 16) + p, column 256 · (t.val % 16) + q. -/
theorem blk2_0_read {Val : EltTy → Type} (t : Fin cfg2.N) (X : S4096x4096.Idx → Val .bf16) (p : Fin 256) (q : Fin 256) :
    ((cfg2.win 0).blk t).view.read Val X (ix2 p q) = X (ix2 ⟨256 * (t.val / 16) + p.val, by have := t.isLt; have hN : cfg2.N = 256 := N_2; omega⟩ ⟨256 * (t.val % 16) + q.val, by omega⟩) := by
  rw [View.read_apply]
  show X _ = X _
  rw [blk2_0_emb]

/-- Window 1's block index at the flat point t is zero on both axes: the block is the whole array, decided over the grid. -/
theorem idx2_1 : ∀ t : Fin cfg2.N, win2_1.index t (0 : Fin 2) = 0 ∧ win2_1.index t (1 : Fin 2) = 0 :=
  (by decide +kernel : ∀ t : Fin grid2.N, _)

/-- Window 1 is resident: its block at any point, read of an array X, is X. -/
theorem blk2_1_read {Val : EltTy → Type} (t : Fin cfg2.N) (X : S4096x256.Idx → Val .bf16) :
    ((cfg2.win 1).blk t).view.read Val X = X := by
  obtain ⟨e0, e1⟩ := idx2_1 t
  funext y
  rw [View.read_apply]
  show X _ = X _
  congr 1
  funext a
  apply Fin.ext
  match a with
  | ⟨0, _⟩ => show win2_1.index t (0 : Fin 2) * 4096 + 1 * (y 0).val = (y 0).val; rw [e0]; omega
  | ⟨1, _⟩ => show win2_1.index t (1 : Fin 2) * 256 + 1 * (y 1).val = (y 1).val; rw [e1]; omega

/-- The same at an index. -/
theorem blk2_1_read_apply {Val : EltTy → Type} (t : Fin cfg2.N) (X : S4096x256.Idx → Val .bf16) (y : S4096x256.Idx) :
    ((cfg2.win 1).blk t).view.read Val X y = X y :=
  congrFun (blk2_1_read t X) y

/-- Window 2's block index at the flat point t is zero on both axes: the block is the whole array, decided over the grid. -/
theorem idx2_2 : ∀ t : Fin cfg2.N, win2_2.index t (0 : Fin 2) = 0 ∧ win2_2.index t (1 : Fin 2) = 0 :=
  (by decide +kernel : ∀ t : Fin grid2.N, _)

/-- Window 2 is resident: its block at any point, read of an array X, is X. -/
theorem blk2_2_read {Val : EltTy → Type} (t : Fin cfg2.N) (X : S1x256.Idx → Val .f32) :
    ((cfg2.win 2).blk t).view.read Val X = X := by
  obtain ⟨e0, e1⟩ := idx2_2 t
  funext y
  rw [View.read_apply]
  show X _ = X _
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 256 + 1 * (y 1).val = (y 1).val; rw [e1]; omega

/-- The same at an index. -/
theorem blk2_2_read_apply {Val : EltTy → Type} (t : Fin cfg2.N) (X : S1x256.Idx → Val .f32) (y : S1x256.Idx) :
    ((cfg2.win 2).blk t).view.read Val X y = X y :=
  congrFun (blk2_2_read t X) y

/-- Window 3's block index at the flat point t is zero on both axes: the block is the whole array, decided over the grid. -/
theorem idx2_3 : ∀ t : Fin cfg2.N, win2_3.index t (0 : Fin 2) = 0 ∧ win2_3.index t (1 : Fin 2) = 0 :=
  (by decide +kernel : ∀ t : Fin grid2.N, _)

/-- Window 3 is resident: its block at any point, read of an array X, is X. -/
theorem blk2_3_read {Val : EltTy → Type} (t : Fin cfg2.N) (X : S256x128.Idx → Val .bf16) :
    ((cfg2.win 3).blk t).view.read Val X = X := by
  obtain ⟨e0, e1⟩ := idx2_3 t
  funext y
  rw [View.read_apply]
  show X _ = X _
  congr 1
  funext a
  apply Fin.ext
  match a with
  | ⟨0, _⟩ => show win2_3.index t (0 : Fin 2) * 256 + 1 * (y 0).val = (y 0).val; rw [e0]; omega
  | ⟨1, _⟩ => show win2_3.index t (1 : Fin 2) * 128 + 1 * (y 1).val = (y 1).val; rw [e1]; omega

/-- The same at an index. -/
theorem blk2_3_read_apply {Val : EltTy → Type} (t : Fin cfg2.N) (X : S256x128.Idx → Val .bf16) (y : S256x128.Idx) :
    ((cfg2.win 3).blk t).view.read Val X y = X y :=
  congrFun (blk2_3_read t X) y

/-- Window 4's block index at the flat point t is zero on both axes: the block is the whole array, decided over the grid. -/
theorem idx2_4 : ∀ t : Fin cfg2.N, win2_4.index t (0 : Fin 2) = 0 ∧ win2_4.index t (1 : Fin 2) = 0 :=
  (by decide +kernel : ∀ t : Fin grid2.N, _)

/-- Window 4 is resident: its block at any point, read of an array X, is X. -/
theorem blk2_4_read {Val : EltTy → Type} (t : Fin cfg2.N) (X : S1x128.Idx → Val .f32) :
    ((cfg2.win 4).blk t).view.read Val X = X := by
  obtain ⟨e0, e1⟩ := idx2_4 t
  funext y
  rw [View.read_apply]
  show X _ = X _
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- The same at an index. -/
theorem blk2_4_read_apply {Val : EltTy → Type} (t : Fin cfg2.N) (X : S1x128.Idx → Val .f32) (y : S1x128.Idx) :
    ((cfg2.win 4).blk t).view.read Val X y = X y :=
  congrFun (blk2_4_read t X) y

/-- Window 5's block index at the flat point t, decided over the grid. -/
theorem idx2_5 : ∀ t : Fin cfg2.N, win2_5.index t (0 : Fin 2) = t.val / 16 ∧ win2_5.index t (1 : Fin 2) = 0 :=
  (by decide +kernel : ∀ t : Fin grid2.N, _)

/-- Where entry (p, q) of window 5's block at point t sits in the array: row 256 · (t.val / 16) + p, column q. -/
theorem blk2_5_emb (t : Fin cfg2.N) (p : Fin 256) (q : Fin 256) :
    (((cfg2.win 5).blk t).view.emb (ix2 p q) : S4096x256.Idx) = ix2 ⟨256 * (t.val / 16) + p.val, by have := t.isLt; have hN : cfg2.N = 256 := N_2; omega⟩ q := by
  obtain ⟨e0, e1⟩ := idx2_5 t
  funext a
  apply Fin.ext
  match a with
  | ⟨0, _⟩ => show win2_5.index t (0 : Fin 2) * 256 + 1 * p.val = 256 * (t.val / 16) + p.val; rw [e0]; omega
  | ⟨1, _⟩ => show win2_5.index t (1 : Fin 2) * 256 + 1 * q.val = q.val; rw [e1]; omega

/-- Window 5's block at point t, read of an array X at (p, q), is X at row 256 · (t.val / 16) + p, column q. -/
theorem blk2_5_read {Val : EltTy → Type} (t : Fin cfg2.N) (X : S4096x256.Idx → Val .bf16) (p : Fin 256) (q : Fin 256) :
    ((cfg2.win 5).blk t).view.read Val X (ix2 p q) = X (ix2 ⟨256 * (t.val / 16) + p.val, by have := t.isLt; have hN : cfg2.N = 256 := N_2; omega⟩ q) := by
  rw [View.read_apply]
  show X _ = X _
  rw [blk2_5_emb]

/-- An index of window 5's array lies in point t's block exactly when its row is in the band of 256 rows numbered t.val / 16. -/
theorem mem_blk2_5 (t : Fin cfg2.N) (i : S4096x256.Idx) :
    i ∈ ((cfg2.win 5).blk t).view.set ↔ (i 0).val / 256 = t.val / 16 := by
  obtain ⟨e0, e1⟩ := idx2_5 t
  have hi1 : (i 1).val < 256 := idx2_lt1 i
  show i ∈ ((View.whole main_call0_v19_0).slice (win2_5.rect t)).set ↔ _
  rw [View.set_slice_whole, Rect.mem_set_unit]
  constructor
  · intro h
    have b0 : win2_5.index t (0 : Fin 2) * 256 ≤ (i 0).val ∧ (i 0).val < win2_5.index t (0 : Fin 2) * 256 + 256 := h 0
    omega
  · intro h a
    match a with
    | ⟨0, _⟩ => show win2_5.index t (0 : Fin 2) * 256 ≤ (i 0).val ∧ (i 0).val < win2_5.index t (0 : Fin 2) * 256 + 256; omega
    | ⟨1, _⟩ => show win2_5.index t (1 : Fin 2) * 256 ≤ (i 1).val ∧ (i 1).val < win2_5.index t (1 : Fin 2) * 256 + 256; omega

/-- The point that writes the row of index i of window 5's array back: the last point of the row band (i 0) / 256. -/
def wbPt2_5 (i : S4096x256.Idx) : Fin cfg2.N :=
  ⟨16 * ((i 0).val / 256) + 15, by have hi0 : (i 0).val < 4096 := idx2_lt0 i; rw [show cfg2.N = 256 from N_2]; omega⟩

/-- Its number. -/
theorem wbPt2_5_val (i : S4096x256.Idx) : (wbPt2_5 i).val = 16 * ((i 0).val / 256) + 15 := rfl

/-- That point writes window 5 back, and its block holds i. -/
theorem cover2_5_at (i : S4096x256.Idx) :
    (cfg2.win 5).flush (wbPt2_5 i) = true ∧ i ∈ ((cfg2.win 5).blk (wbPt2_5 i)).view.set := by
  have hi0 : (i 0).val < 4096 := idx2_lt0 i
  refine ⟨(flush2_5 _).mpr ?_, (mem_blk2_5 _ i).mpr ?_⟩
  · rw [wbPt2_5_val]; omega
  · rw [wbPt2_5_val]; omega

/-- Every index of window 5's array is in the block of some point that writes it back. -/
theorem cover2_5 (i : S4096x256.Idx) :
    ∃ t : Fin cfg2.N, (cfg2.win 5).flush t = true ∧ i ∈ ((cfg2.win 5).blk t).view.set :=
  ⟨_, cover2_5_at i⟩

/-- Window 6's block index at the flat point t, decided over the grid. -/
theorem idx2_6 : ∀ t : Fin cfg2.N, win2_6.index t (0 : Fin 2) = t.val / 16 ∧ win2_6.index t (1 : Fin 2) = 0 :=
  (by decide +kernel : ∀ t : Fin grid2.N, _)

/-- Where entry (p, q) of window 6's block at point t sits in the array: row 256 · (t.val / 16) + p, column q. -/
theorem blk2_6_emb (t : Fin cfg2.N) (p : Fin 256) (q : Fin 128) :
    (((cfg2.win 6).blk t).view.emb (ix2 p q) : S4096x128.Idx) = ix2 ⟨256 * (t.val / 16) + p.val, by have := t.isLt; have hN : cfg2.N = 256 := N_2; omega⟩ q := by
  obtain ⟨e0, e1⟩ := idx2_6 t
  funext a
  apply Fin.ext
  match a with
  | ⟨0, _⟩ => show win2_6.index t (0 : Fin 2) * 256 + 1 * p.val = 256 * (t.val / 16) + p.val; rw [e0]; omega
  | ⟨1, _⟩ => show win2_6.index t (1 : Fin 2) * 128 + 1 * q.val = q.val; rw [e1]; omega

/-- Window 6's block at point t, read of an array X at (p, q), is X at row 256 · (t.val / 16) + p, column q. -/
theorem blk2_6_read {Val : EltTy → Type} (t : Fin cfg2.N) (X : S4096x128.Idx → Val .f32) (p : Fin 256) (q : Fin 128) :
    ((cfg2.win 6).blk t).view.read Val X (ix2 p q) = X (ix2 ⟨256 * (t.val / 16) + p.val, by have := t.isLt; have hN : cfg2.N = 256 := N_2; omega⟩ q) := by
  rw [View.read_apply]
  show X _ = X _
  rw [blk2_6_emb]

/-- An index of window 6's array lies in point t's block exactly when its row is in the band of 256 rows numbered t.val / 16. -/
theorem mem_blk2_6 (t : Fin cfg2.N) (i : S4096x128.Idx) :
    i ∈ ((cfg2.win 6).blk t).view.set ↔ (i 0).val / 256 = t.val / 16 := by
  obtain ⟨e0, e1⟩ := idx2_6 t
  have hi1 : (i 1).val < 128 := idx2_lt1 i
  show i ∈ ((View.whole main_call0_v19_1).slice (win2_6.rect t)).set ↔ _
  rw [View.set_slice_whole, Rect.mem_set_unit]
  constructor
  · intro h
    have b0 : win2_6.index t (0 : Fin 2) * 256 ≤ (i 0).val ∧ (i 0).val < win2_6.index t (0 : Fin 2) * 256 + 256 := h 0
    omega
  · intro h a
    match a with
    | ⟨0, _⟩ => show win2_6.index t (0 : Fin 2) * 256 ≤ (i 0).val ∧ (i 0).val < win2_6.index t (0 : Fin 2) * 256 + 256; omega
    | ⟨1, _⟩ => show win2_6.index t (1 : Fin 2) * 128 ≤ (i 1).val ∧ (i 1).val < win2_6.index t (1 : Fin 2) * 128 + 128; omega

/-- The point that writes the row of index i of window 6's array back: the last point of the row band (i 0) / 256. -/
def wbPt2_6 (i : S4096x128.Idx) : Fin cfg2.N :=
  ⟨16 * ((i 0).val / 256) + 15, by have hi0 : (i 0).val < 4096 := idx2_lt0 i; rw [show cfg2.N = 256 from N_2]; omega⟩

/-- Its number. -/
theorem wbPt2_6_val (i : S4096x128.Idx) : (wbPt2_6 i).val = 16 * ((i 0).val / 256) + 15 := rfl

/-- That point writes window 6 back, and its block holds i. -/
theorem cover2_6_at (i : S4096x128.Idx) :
    (cfg2.win 6).flush (wbPt2_6 i) = true ∧ i ∈ ((cfg2.win 6).blk (wbPt2_6 i)).view.set := by
  have hi0 : (i 0).val < 4096 := idx2_lt0 i
  refine ⟨(flush2_6 _).mpr ?_, (mem_blk2_6 _ i).mpr ?_⟩
  · rw [wbPt2_6_val]; omega
  · rw [wbPt2_6_val]; omega

/-- Every index of window 6's array is in the block of some point that writes it back. -/
theorem cover2_6 (i : S4096x128.Idx) :
    ∃ t : Fin cfg2.N, (cfg2.win 6).flush t = true ∧ i ∈ ((cfg2.win 6).blk t).view.set :=
  ⟨_, cover2_6_at i⟩

/-- The body's load of 256 rows at the offsets k2_off1, of contents X, at (p, q): X at row 256 · (coordinate 1 of the point) + p, column q. -/
theorem ld_k2_off1 {Val : EltTy → Type} {e : EltTy} (i : grid2.Coords) (X : S4096x256.Idx → Val e)
    (inb : ∀ a, (k2_off1 i) a + S256x256.size a ≤ S4096x256.size a) (p q : Fin 256) :
    View.ld X (Rect.unit (s := S4096x256) (k2_off1 i) S256x256.size inb) (ix2 p q)
      = X (ix2 ⟨256 * (i 1).val + p.val, by have h : (i 1).val < 16 := (i 1).isLt; omega⟩ q) := by
  show X _ = X _
  congr 1
  funext a
  apply Fin.ext
  match a with
  | ⟨0, _⟩ => show (k2_off1 i) 0 + 1 * p.val = 256 * (i 1).val + p.val; rw [k2_off1_eq]; show 256 * (i 1).val + 1 * p.val = _; omega
  | ⟨1, _⟩ => show (k2_off1 i) 1 + 1 * q.val = q.val; rw [k2_off1_eq]; show 0 + 1 * q.val = _; omega

/-- The same at the coordinates of the flat point t: row 256 · (t.val % 16) + p. -/
theorem ld_k2_off1_at {Val : EltTy → Type} {e : EltTy} (t : Fin cfg2.N) (X : S4096x256.Idx → Val e)
    (inb : ∀ a, (k2_off1 (grid2.coords t)) a + S256x256.size a ≤ S4096x256.size a) (p q : Fin 256) :
    View.ld X (Rect.unit (s := S4096x256) (k2_off1 (grid2.coords t)) S256x256.size inb) (ix2 p q)
      = X (ix2 ⟨256 * (t.val % 16) + p.val, by have := t.isLt; have hN : cfg2.N = 256 := N_2; omega⟩ q) := by
  rw [ld_k2_off1]
  congr 2
  apply Fin.ext
  show 256 * ((grid2.coords t) 1).val + p.val = 256 * (t.val % 16) + p.val
  rw [(coords2 t).2]

/-! ## Loads and stores through a whole buffer -/

/-- The zero offsets, as the constant function. -/
theorem hz2 : (![0, 0] : Fin 2 → Nat) = fun _ => 0 := funext fun a => match a with | ⟨0, _⟩ => rfl | ⟨1, _⟩ => rfl

/-- A load through the whole 256x256 rectangle reads the contents. -/
theorem ld_whole_S256x256 {Val : EltTy → Type} {e : EltTy} (X : S256x256.Idx → Val e) (inb : ∀ a, (![0, 0] : Fin 2 → Nat) a + S256x256.size a ≤ S256x256.size a) :
    View.ld X (Rect.unit (s := S256x256) ![0, 0] S256x256.size inb) = X :=
  View.ld_unit_zero (S := S256x256) hz2 inb X

/-- One store through the whole 256x256 rectangle leaves its payload. -/
theorem canon_whole_S256x256 {Val : EltTy → Type} [∀ e, Nonempty (Val e)] {e : EltTy} (P : S256x256.Idx → Val e)
    (inb : ∀ a, (![0, 0] : Fin 2 → Nat) a + S256x256.size a ≤ S256x256.size a) :
    View.canon [(⟨Rect.unit (s := S256x256) ![0, 0] S256x256.size inb, P⟩ : View.Piece Val S256x256 e)] = P :=
  View.canon_unit_zero hz2 inb P

/-- A load through the whole 1x256 rectangle reads the contents. -/
theorem ld_whole_S1x256 {Val : EltTy → Type} {e : EltTy} (X : S1x256.Idx → Val e) (inb : ∀ a, (![0, 0] : Fin 2 → Nat) a + S1x256.size a ≤ S1x256.size a) :
    View.ld X (Rect.unit (s := S1x256) ![0, 0] S1x256.size inb) = X :=
  View.ld_unit_zero (S := S1x256) hz2 inb X

/-- One store through the whole 1x256 rectangle leaves its payload. -/
theorem canon_whole_S1x256 {Val : EltTy → Type} [∀ e, Nonempty (Val e)] {e : EltTy} (P : S1x256.Idx → Val e)
    (inb : ∀ a, (![0, 0] : Fin 2 → Nat) a + S1x256.size a ≤ S1x256.size a) :
    View.canon [(⟨Rect.unit (s := S1x256) ![0, 0] S1x256.size inb, P⟩ : View.Piece Val S1x256 e)] = P :=
  View.canon_unit_zero hz2 inb P

/-- A load through the whole 256x128 rectangle reads the contents. -/
theorem ld_whole_S256x128 {Val : EltTy → Type} {e : EltTy} (X : S256x128.Idx → Val e) (inb : ∀ a, (![0, 0] : Fin 2 → Nat) a + S256x128.size a ≤ S256x128.size a) :
    View.ld X (Rect.unit (s := S256x128) ![0, 0] S256x128.size inb) = X :=
  View.ld_unit_zero (S := S256x128) hz2 inb X

/-- One store through the whole 256x128 rectangle leaves its payload. -/
theorem canon_whole_S256x128 {Val : EltTy → Type} [∀ e, Nonempty (Val e)] {e : EltTy} (P : S256x128.Idx → Val e)
    (inb : ∀ a, (![0, 0] : Fin 2 → Nat) a + S256x128.size a ≤ S256x128.size a) :
    View.canon [(⟨Rect.unit (s := S256x128) ![0, 0] S256x128.size inb, P⟩ : View.Piece Val S256x128 e)] = P :=
  View.canon_unit_zero hz2 inb P

/-- A load through the whole 1x128 rectangle reads the contents. -/
theorem ld_whole_S1x128 {Val : EltTy → Type} {e : EltTy} (X : S1x128.Idx → Val e) (inb : ∀ a, (![0, 0] : Fin 2 → Nat) a + S1x128.size a ≤ S1x128.size a) :
    View.ld X (Rect.unit (s := S1x128) ![0, 0] S1x128.size inb) = X :=
  View.ld_unit_zero (S := S1x128) hz2 inb X

/-- One store through the whole 1x128 rectangle leaves its payload. -/
theorem canon_whole_S1x128 {Val : EltTy → Type} [∀ e, Nonempty (Val e)] {e : EltTy} (P : S1x128.Idx → Val e)
    (inb : ∀ a, (![0, 0] : Fin 2 → Nat) a + S1x128.size a ≤ S1x128.size a) :
    View.canon [(⟨Rect.unit (s := S1x128) ![0, 0] S1x128.size inb, P⟩ : View.Piece Val S1x128 e)] = P :=
  View.canon_unit_zero hz2 inb P

end Cert.ReferenceIdeal.At2
-- ==== Proof.Gcn1Value.lean ====
import proofs.«180267_g2000104153886438_pallasbulk_1035_2_alg».proof.Proof.Gcn1Region
import proofs.«180267_g2000104153886438_pallasbulk_1035_2_alg».proof.Proof.MatmulAt
import proofs.«180267_g2000104153886438_pallasbulk_1035_2_alg».proof.Proof.BlockReadsReference
import proofs.«180267_g2000104153886438_pallasbulk_1035_2_alg».proof.Proof.Spec
import proofs.«180267_g2000104153886438_pallasbulk_1035_2_alg».proof.Proof.LibBlockMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.ValueIdx
open Idealize.ShloMosaic.Pipeline (Dat)
open Cert.LibBlockMatmul (mmul accum)

/-! # The value of the first graph-convolution layer of the reference program

At the ideal values a float is an extended real and a change of float format is the identity. -/

/-! ## The payloads at an index -/

/-- The zeroed accumulator reads zero. -/
theorem gcn1_pay1_at (j : S256x256.Idx) : k1_pay1 (F := Ideal) j = 0 := by
  unfold k1_pay1
  simp only [shapeCast_self]
  exact Ideal.ofBits_zero_f32

/-- The update at (p, q): the accumulator plus row p of the adjacency block times column q of the source rows. -/
theorem gcn1_pay2_at (xw : Vec Ideal S256x256 .bf16) (acc : Vec Ideal S256x256 .f32) (xa : Vec Ideal S256x256 .bf16)
    (p q : Fin 256) :
    k1_pay2 xw acc xa (ix2 p q) = acc (ix2 p q) + ∑ k : Fin 256, xa (ix2 p k) * xw (ix2 k q) := by
  unfold k1_pay2
  simp only [shapeCast_self]
  show acc (ix2 p q) + matmul (F := Ideal) dot_S256x256_S256x256_S256x256_1_0_0_1_n_n none xa xw (constant S256x256 .f32 0x00000000#32) (ix2 p q) = _
  rw [At.matmul_sq_apply]

/-- The tail's block at (p, q): the pre-pass result plus row p of the rectified biased accumulator times column q of
    the weight. -/
theorem gcn1_pay3_at (xs : Vec Ideal S256x256 .f32) (xb : Vec Ideal S1x256 .f32) (xp : Vec Ideal S256x256 .f32)
    (xwt : Vec Ideal S256x256 .bf16) (p q : Fin 256) :
    k1_pay3 xs xb xp xwt (ix2 p q)
      = xp (ix2 p q) + ∑ k : Fin 256, Cert.Spec.lrelu (xs (ix2 p k) + xb (ix2 (0 : Fin 1) k)) * xwt (ix2 k q) := by
  unfold k1_pay3
  simp only [shapeCast_self]
  show xp (ix2 p q) + matmul (F := Ideal) dot_S256x256_S256x256_S256x256_1_0_0_1_n_n none _ xwt (constant S256x256 .f32 0x00000000#32) (ix2 p q) = _
  rw [At.matmul_sq_apply]
  congr 1
  refine Finset.sum_congr rfl fun k _ => ?_
  congr 1
  show Cert.Spec.lrelu (xs (ix2 p k) + broadcastTo S256x256 xb broadcasts_S1x256_S256x256 (ix2 p k)) = _
  rw [broadcastTo_1b_ab_apply]

/-! ## The region's arrays as matrices -/

section Region
-- the TensorCore's buffer contents when the region is entered, at the ideal values
variable (V : (c : Dev nD) → (b : Ref sig .tc) → Buf (Elt Ideal) ((c : Thread nD τ).loc b))

/-- The adjacency matrix. -/
abbrev adj1 (c : Dev nD) : Cert.Spec.Mat 4096 4096 := Cert.Spec.ofArr (V c (Pipeline.arrRef spec1 0) : S4096x4096.Idx → EReal)
/-- The transformed features X · W₁ the pre-pass left. -/
abbrev src1 (c : Dev nD) : Cert.Spec.Mat 4096 256 := Cert.Spec.ofArr (V c (Pipeline.arrRef spec1 1) : S4096x256.Idx → EReal)
/-- The bias row. -/
abbrev bias1 (c : Dev nD) : Fin 256 → EReal := Cert.Spec.ofRow (V c (Pipeline.arrRef spec1 2) : S1x256.Idx → EReal)
/-- The pre-pass result for the destination rows. -/
abbrev pre1 (c : Dev nD) : Cert.Spec.Mat 4096 256 := Cert.Spec.ofArr (V c (Pipeline.arrRef spec1 3) : S4096x256.Idx → EReal)
/-- The lower half of the second weight. -/
abbrev wt1 (c : Dev nD) : Cert.Spec.Mat 256 256 := Cert.Spec.ofArr (V c (Pipeline.arrRef spec1 4) : S256x256.Idx → EReal)

/-- The adjacency's staged block at point t is block (t / 16, t % 16) of the matrix. -/
theorem gcn1_blkA (c : Dev nD) (t : Fin cfg1.N) (p q : Fin 256) :
    (iblk1 V c 0 t : S256x256.Idx → EReal) (ix2 p q) = Cert.Spec.blockOf (adj1 V c) (t.val / 16) (t.val % 16) p q := by
  have hN : t.val < 256 := lt_of_lt_of_eq t.isLt N_1
  unfold iblk1
  rw [At2.blk1_0_read]
  show (V c (Pipeline.arrRef spec1 0) : S4096x4096.Idx → EReal) (ix2 _ _) = (V c (Pipeline.arrRef spec1 0) : S4096x4096.Idx → EReal) (ix2 _ _)
  congr 2
  · apply Fin.ext; show 256 * (t.val / 16) + p.val = (256 * (t.val / 16) + p.val) % 4096; omega
  · apply Fin.ext; show 256 * (t.val % 16) + q.val = (256 * (t.val % 16) + q.val) % 4096; omega

/-- The 256 source rows the body loads at point t are rows 256 · (t % 16) … of the transformed features. -/
theorem gcn1_rowsX (c : Dev nD) (t : Fin cfg1.N) (p q : Fin 256) :
    (View.ld (iblk1 V c 1 t) (rX1 (grid1.coords t)) : S256x256.Idx → EReal) (ix2 p q)
      = Cert.Spec.rowsOf (src1 V c) (t.val % 16) p q := by
  rw [At2.ld_k1_off1_at]
  unfold iblk1
  rw [At2.blk1_1_read]
  show (V c (Pipeline.arrRef spec1 1) : S4096x256.Idx → EReal) (ix2 _ _) = (V c (Pipeline.arrRef spec1 1) : S4096x256.Idx → EReal) (ix2 _ _)
  congr 2
  apply Fin.ext; show 256 * (t.val % 16) + p.val = (256 * (t.val % 16) + p.val) % 4096; omega

/-! ## The accumulator is the blocked product's -/

set_option maxHeartbeats 1000000 in
/-- At point 16 · r + k the scratch holds the accumulation of blocks (r, 0) … (r, k) of the adjacency against the rows of
    the transformed features. -/
theorem gcn1_scr_accum (c : Dev nD) (r k : ℕ) (hk : k < 16) : ∀ (t : Fin cfg1.N), t.val = 16 * r + k →
    Cert.Spec.ofArr (scr1 V c t.val t.isLt : S256x256.Idx → EReal)
      = accum (fun k => Cert.Spec.blockOf (adj1 V c) r k) (fun k => Cert.Spec.rowsOf (src1 V c) k) k := by
  induction k with
  | zero =>
    intro t ht
    have h0 : t.val % 16 = 0 := by omega
    have hq : t.val / 16 = r := by omega
    rw [scr1_reset V c t h0]
    funext p q
    show scrUpd1 (grid1.coords t) (iblk1 V c 0 t) (iblk1 V c 1 t) (k1_pay1 (F := Ideal)) (ix2 p q)
      = 0 + mmul (Cert.Spec.blockOf (adj1 V c) r 0) (Cert.Spec.rowsOf (src1 V c) 0) p q
    rw [scrUpd1_eq, gcn1_pay2_at, gcn1_pay1_at]
    congr 1
    unfold mmul
    refine Finset.sum_congr rfl fun j _ => ?_
    rw [gcn1_blkA V c t p j, gcn1_rowsX V c t j q, hq, h0]
  | succ k ih =>
    intro t ht
    have hne : t.val % 16 ≠ 0 := by omega
    have hm : t.val % 16 = k + 1 := by omega
    have hq : t.val / 16 = r := by omega
    have hpred : t.val - 1 < cfg1.N := Nat.lt_of_le_of_lt (Nat.sub_le _ _) t.isLt
    have ih := ih (by omega) ⟨t.val - 1, hpred⟩ (by show t.val - 1 = 16 * r + k; omega)
    rw [scr1_step V c t hne]
    funext p q
    show scrUpd1 (grid1.coords t) (iblk1 V c 0 t) (iblk1 V c 1 t) (View.ld (scr1 V c (t.val - 1) hpred) rS1) (ix2 p q)
      = accum (fun k => Cert.Spec.blockOf (adj1 V c) r k) (fun k => Cert.Spec.rowsOf (src1 V c) k) k p q
        + mmul (Cert.Spec.blockOf (adj1 V c) r (k + 1)) (Cert.Spec.rowsOf (src1 V c) (k + 1)) p q
    rw [scrUpd1_eq, gcn1_pay2_at, View.ld_unit_zero zeroOff1]
    congr 1
    · exact congrFun (congrFun ih p) q
    · unfold mmul
      refine Finset.sum_congr rfl fun j _ => ?_
      rw [gcn1_blkA V c t p j, gcn1_rowsX V c t j q, hq, hm]

/-- At the last point of row band i the scratch holds row-block i of the adjacency times the transformed features. -/
theorem gcn1_scr_last (c : Dev nD) (t : Fin cfg1.N) (h : t.val % 16 = 15) (p k : Fin 256) :
    (scr1 V c t.val t.isLt : S256x256.Idx → EReal) (ix2 p k)
      = Cert.Spec.blockedProd (adj1 V c) (src1 V c) (t.val / 16) p k :=
  congrFun (congrFun (gcn1_scr_accum V c (t.val / 16) 15 (by omega) t (by omega)) p) k

/-! ## What a closing point writes back -/

/-- The specification's array at a row of band m. -/
theorem gcn1_ywR_at (A : Cert.Spec.Mat 4096 4096) (XW P : Cert.Spec.Mat 4096 256) (b : Fin 256 → EReal)
    (W : Cert.Spec.Mat 256 256) (m : ℕ) (p q : Fin 256) (hr : 256 * m + p.val < 4096) :
    Cert.Spec.ywR A XW P b W ⟨256 * m + p.val, hr⟩ q
      = P ⟨256 * m + p.val, hr⟩ q + ∑ k : Fin 256, Cert.Spec.lrelu (Cert.Spec.blockedProd A XW m p k + b k) * W k q := by
  have h1 : Cert.Spec.rowBlock ⟨256 * m + p.val, hr⟩ = m := by
    unfold Cert.Spec.rowBlock; show (256 * m + p.val) / 256 = m; omega
  have h2 : Cert.Spec.rowIn ⟨256 * m + p.val, hr⟩ = p := by
    unfold Cert.Spec.rowIn; apply Fin.ext; show (256 * m + p.val) % 256 = p.val; omega
  unfold Cert.Spec.ywR mmul
  rw [h1, h2]

/-- The output's array after the region, as one function of the region's arrays. -/
def ywArr1 (c : Dev nD) : S4096x256.Idx → EReal :=
  fun i => Cert.Spec.ywR (adj1 V c) (src1 V c) (pre1 V c) (bias1 V c) (wt1 V c) (i 0) (i 1)

/-- What a point that writes the output back writes is its block of that function. -/
theorem gcn1_flushed5 (c : Dev nD) (t : Fin cfg1.N) (hf : (cfg1.win 5).flush t = true) :
    (dat1 V c).flushed 5 t = ((cfg1.win 5).blk t).view.read (Elt Ideal) (ywArr1 V c) := by
  have h15 : t.val % 16 = 15 := (flush1_5 t).mp hf
  have hN : t.val < 256 := lt_of_lt_of_eq t.isLt N_1
  show (cfg1.win 5).cut (grid1.coords t) ((dat1 V c).after 5 t) = _
  rw [after1_5, out1_5_eq]
  funext j
  obtain ⟨p, q, rfl⟩ : ∃ p q : Fin 256, (j : S256x256.Idx) = ix2 p q := ⟨j 0, j 1, eq_ix2 (j : S256x256.Idx)⟩
  refine (gcn1_pay3_at (scr1 V c t.val t.isLt) (iblk1 V c 2 t) (iblk1 V c 3 t) (iblk1 V c 4 t) p q).trans ?_
  rw [View.read_apply]
  show _ = ywArr1 V c (((cfg1.win 5).blk t).view.emb (ix2 p q))
  rw [At2.blk1_5_emb]
  show _ = Cert.Spec.ywR (adj1 V c) (src1 V c) (pre1 V c) (bias1 V c) (wt1 V c) ⟨256 * (t.val / 16) + p.val, _⟩ q
  rw [gcn1_ywR_at]
  congr 1
  · unfold iblk1; rw [At2.blk1_3_read]; rfl
  · refine Finset.sum_congr rfl fun k _ => ?_
    rw [gcn1_scr_last V c t h15 p k]
    unfold iblk1
    rw [At2.blk1_2_read, At2.blk1_4_read]
    rfl

/-! ## The array after the region -/

/-- The output's array after the region is the specification's, from the region's arrays. -/
theorem yw_final (c : Dev nD) :
    Cert.Spec.ofArr ((dat1 V c).arrAt 5 cfg1.N : S4096x256.Idx → EReal)
      = Cert.Spec.ywR (Cert.Spec.ofArr (V c (Pipeline.arrRef spec1 0) : S4096x4096.Idx → EReal))
          (Cert.Spec.ofArr (V c (Pipeline.arrRef spec1 1) : S4096x256.Idx → EReal))
          (Cert.Spec.ofArr (V c (Pipeline.arrRef spec1 3) : S4096x256.Idx → EReal))
          (Cert.Spec.ofRow (V c (Pipeline.arrRef spec1 2) : S1x256.Idx → EReal))
          (Cert.Spec.ofArr (V c (Pipeline.arrRef spec1 4) : S256x256.Idx → EReal)) := by
  rw [(dat1 V c).arrAt_eq_of_cover 5 (ywArr1 V c) (fun t hf => gcn1_flushed5 V c t hf) At2.cover1_5]
  rfl

end Region

end Cert.ReferenceIdeal.Hand

end
-- ==== Proof.Gcn2Value.lean ====
/-
  The values of the reference's second graph-convolution region, at the ideal values.

  On its 16 × 16 grid the region keeps a 256 × 256 accumulator across the 16 points of a row: reset at the row's first
  point, at every point the product of one block of the adjacency matrix with 256 rows of the resident operand is added,
  and at the row's last point the rectified biased accumulator is written to one output block and its product with the
  pooling matrix, plus the pooling bias, to the other. Read as matrices of extended reals: the accumulator at the last
  point of row-block i is the accumulated blocked product of the adjacency matrix and the operand; the first output's array
  ends at the second layer's output and the second at the pooling slab, both functions of the arrays the region finds.
-/
import proofs.«180267_g2000104153886438_pallasbulk_1035_2_alg».proof.Proof.Gcn2Region
import proofs.«180267_g2000104153886438_pallasbulk_1035_2_alg».proof.Proof.MatmulAt
import proofs.«180267_g2000104153886438_pallasbulk_1035_2_alg».proof.Proof.BlockReadsReference
import proofs.«180267_g2000104153886438_pallasbulk_1035_2_alg».proof.Proof.Spec
import proofs.«180267_g2000104153886438_pallasbulk_1035_2_alg».proof.Proof.LibBlockMatmul
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Hand

open Cert.ReferenceIdeal Cert.ReferenceIdeal.Gen
open Idealize.ShloMosaic Idealize.ShloMosaic.TcCoe Idealize.ShloMosaic.ValueIdx
open Idealize.SL.Sem
open Idealize.ShloMosaic.Pipeline (Dat)
open Cert.LibBlockMatmul Cert.Spec

/-! ## The bodies' payloads read at an index -/

/-- The reset stores the zero block. -/
theorem accZero_apply (y : S256x256.Idx) : (accZero (F := Ideal) : S256x256.Idx → EReal) y = 0 := by
  rw [accZero_eq]
  unfold k2_pay1
  rw [shapeCast_self]
  exact Ideal.ofBits_zero_f32

/-- The update adds to the accumulator the product of the adjacency block and the 256 rows the load reads. -/
theorem accStep_apply (i : grid2.Coords) (a : Vec Ideal S256x256 .bf16) (y : Vec Ideal S4096x256 .bf16)
    (s : Vec Ideal S256x256 .f32) (p q : Fin 256) :
    (accStep i a y s : S256x256.Idx → EReal) (ix2 p q)
      = s (ix2 p q) + ∑ k : Fin 256, a (ix2 p k) * View.ld y (rRows i) (ix2 k q) := by
  rw [accStep_eq]
  unfold k2_pay2
  rw [shapeCast_self, shapeCast_self, shapeCast_self]
  show s (ix2 p q) + matmul (F := Ideal) dot_S256x256_S256x256_S256x256_1_0_0_1_n_n none a (View.ld y (rRows i)) (constant S256x256 .f32 0x00000000#32) (ix2 p q) = _
  rw [Cert.ReferenceIdeal.At.matmul_sq_apply]

/-- The rectified biased accumulator at an index. -/
theorem k2_pay3_apply (s : Vec Ideal S256x256 .f32) (b : Vec Ideal S1x256 .f32) (p q : Fin 256) :
    (k2_pay3 s b : S256x256.Idx → EReal) (ix2 p q) = lrelu (s (ix2 p q) + b (ix2 0 q)) := by
  unfold k2_pay3
  rw [shapeCast_self]
  have hb : broadcastTo S256x256 b broadcasts_S1x256_S256x256 (ix2 p q) = b (ix2 0 q) :=
    broadcastTo_apply b broadcasts_S1x256_S256x256 (ix2 p q) (ix2 0 q) (fun a => by
      match a with
      | ⟨0, _⟩ => rfl
      | ⟨1, _⟩ => rfl)
  show lrelu (s (ix2 p q) + broadcastTo S256x256 b broadcasts_S1x256_S256x256 (ix2 p q)) = _
  rw [hb]

/-- The first output block: the change of float format is the identity. -/
theorem k2_pay4_apply (s : Vec Ideal S256x256 .f32) (b : Vec Ideal S1x256 .f32) (p q : Fin 256) :
    (k2_pay4 s b : S256x256.Idx → EReal) (ix2 p q) = lrelu (s (ix2 p q) + b (ix2 0 q)) :=
  k2_pay3_apply s b p q

/-- The second output block: the rectified biased accumulator times the pooling matrix, plus the pooling bias row. -/
theorem k2_pay5_apply (s : Vec Ideal S256x256 .f32) (b : Vec Ideal S1x256 .f32) (w : Vec Ideal S256x128 .bf16)
    (b' : Vec Ideal S1x128 .f32) (p : Fin 256) (q : Fin 128) :
    (k2_pay5 s b w b' : S256x128.Idx → EReal) (ix2 p q)
      = (∑ k : Fin 256, lrelu (s (ix2 p k) + b (ix2 0 k)) * w (ix2 k q)) + b' (ix2 0 q) := by
  unfold k2_pay5
  rw [shapeCast_self, shapeCast_self]
  have hb : broadcastTo S256x128 b' broadcasts_S1x128_S256x128 (ix2 p q) = b' (ix2 0 q) :=
    broadcastTo_apply b' broadcasts_S1x128_S256x128 (ix2 p q) (ix2 0 q) (fun a => by
      match a with
      | ⟨0, _⟩ => rfl
      | ⟨1, _⟩ => rfl)
  show matmul (F := Ideal) dot_S256x256_S256x128_S256x128_1_0_0_1_n_n none (truncf .bf16 (k2_pay3 s b) bitsLt_bf16_f32) w (constant S256x128 .f32 0x00000000#32) (ix2 p q)
      + broadcastTo S256x128 b' broadcasts_S1x128_S256x128 (ix2 p q) = _
  rw [Cert.ReferenceIdeal.At.matmul_pool_apply, hb]
  congr 1
  refine Finset.sum_congr rfl fun k _ => ?_
  congr 1
  exact k2_pay3_apply s b p k

/-! ## The region-entry arrays as matrices -/

variable (V : (c : Dev nD) → (b : Ref sig .tc) → Buf (Elt Ideal) ((c : Thread nD τ).loc b))

/-- A matrix read as a rank-2 array. -/
def toArr {a b : ℕ} (M : Mat a b) : (⟨2, ![a, b]⟩ : Shape).Idx → EReal := fun i => M (i 0) (i 1)

theorem ofArr_toArr {a b : ℕ} (M : Mat a b) : ofArr (toArr M) = M := rfl

/-- The adjacency matrix, the resident operand, the bias row, the pooling matrix and its bias row, as the region finds them. -/
def adjM (c : Dev nD) : Mat 4096 4096 := ofArr (a := 4096) (b := 4096) (V c (Pipeline.arrRef spec2 0))
def ywM (c : Dev nD) : Mat 4096 256 := ofArr (a := 4096) (b := 256) (V c (Pipeline.arrRef spec2 1))
def b2R (c : Dev nD) : Fin 256 → EReal := ofRow (n := 256) (V c (Pipeline.arrRef spec2 2))
def wpM (c : Dev nD) : Mat 256 128 := ofArr (a := 256) (b := 128) (V c (Pipeline.arrRef spec2 3))
def bpR (c : Dev nD) : Fin 128 → EReal := ofRow (n := 128) (V c (Pipeline.arrRef spec2 4))

/-! ## The accumulator's update at a grid point, as matrices -/

/-- The adjacency window's block at point t is block (t / 16, t % 16) of the adjacency matrix. -/
theorem iblk2_0_apply (c : Dev nD) (t : Fin cfg2.N) (i k : ℕ) (hi : t.val / 16 = i) (hk : t.val % 16 = k) (p q : Fin 256) :
    (iblk2 V c 0 t : S256x256.Idx → EReal) (ix2 p q) = blockOf (adjM V c) i k p q := by
  subst hi; subst hk
  have hN : t.val < 256 := lt_of_lt_of_eq t.isLt (show cfg2.N = 256 from N_2)
  unfold iblk2
  rw [Cert.ReferenceIdeal.At2.blk2_0_read]
  show V c (Pipeline.arrRef spec2 0) _ = V c (Pipeline.arrRef spec2 0) _
  congr 1
  funext a
  apply Fin.ext
  match a with
  | ⟨0, _⟩ => show 256 * (t.val / 16) + p.val = (256 * (t.val / 16) + p.val) % 4096; have := p.isLt; omega
  | ⟨1, _⟩ => show 256 * (t.val % 16) + q.val = (256 * (t.val % 16) + q.val) % 4096; have := q.isLt; omega

/-- The body's load of 256 rows of the resident operand at point t reads rows 256 · (t % 16) … of it. -/
theorem ld_iblk2_1_apply (c : Dev nD) (t : Fin cfg2.N) (k : ℕ) (hk : t.val % 16 = k) (p q : Fin 256) :
    (View.ld (iblk2 V c 1 t) (rRows (grid2.coords t)) : S256x256.Idx → EReal) (ix2 p q) = rowsOf (ywM V c) k p q := by
  subst hk
  have hN : t.val < 256 := lt_of_lt_of_eq t.isLt (show cfg2.N = 256 from N_2)
  rw [Cert.ReferenceIdeal.At2.ld_k2_off1_at]
  unfold iblk2
  rw [Cert.ReferenceIdeal.At2.blk2_1_read]
  show V c (Pipeline.arrRef spec2 1) _ = V c (Pipeline.arrRef spec2 1) _
  congr 1
  funext a
  apply Fin.ext
  match a with
  | ⟨0, _⟩ => show 256 * (t.val % 16) + p.val = (256 * (t.val % 16) + p.val) % 4096; have := p.isLt; omega
  | ⟨1, _⟩ => rfl

/-- The update at point t = 16 · i + k adds block (i, k) of the adjacency matrix times rows 256 · k … of the operand. -/
theorem accStep_at (c : Dev nD) (t : Fin cfg2.N) (i k : ℕ) (hi : t.val / 16 = i) (hk : t.val % 16 = k)
    (s : Vec Ideal S256x256 .f32) (p q : Fin 256) :
    (accStep (grid2.coords t) (iblk2 V c 0 t) (iblk2 V c 1 t) s : S256x256.Idx → EReal) (ix2 p q)
      = s (ix2 p q) + mmul (blockOf (adjM V c) i k) (rowsOf (ywM V c) k) p q := by
  rw [accStep_apply]
  congr 1
  refine Finset.sum_congr rfl fun j _ => ?_
  rw [iblk2_0_apply V c t i k hi hk, ld_iblk2_1_apply V c t k hk]

/-! ## The accumulator across a row of the grid -/

/-- The accumulator's contents depend on the point's number only. -/
theorem scr2_congr (c : Dev nD) (n m : ℕ) (hn : n < cfg2.N) (hm : m < cfg2.N) (e : n = m) :
    scr2 V c n hn = scr2 V c m hm := by
  subst e; rfl

/-- After the body at point 16 · r + k (k < 16) the accumulator holds, as a matrix, the accumulated product of the
    blocks (r, 0 … k) of the adjacency matrix with the corresponding blocks of rows of the operand. -/
theorem scr2_eq_accum (c : Dev nD) (r : ℕ) :
    ∀ (k : ℕ) (hk : k < 16) (h : 16 * r + k < cfg2.N),
      ofArr (a := 256) (b := 256) (scr2 V c (16 * r + k) h)
        = accum (fun k => blockOf (adjM V c) r k) (fun k => rowsOf (ywM V c) k) k
  | 0, hk, h => by
    have hN : 16 * r + 0 < 256 := lt_of_lt_of_eq h (show cfg2.N = 256 from N_2)
    funext p q
    show (scr2 V c (16 * r + 0) h : S256x256.Idx → EReal) (ix2 p q) = 0 + mmul (blockOf (adjM V c) r 0) (rowsOf (ywM V c) 0) p q
    rw [scr2_reset V c ⟨16 * r + 0, h⟩ (by show (16 * r + 0) % 16 = 0; omega),
      accStep_at V c ⟨16 * r + 0, h⟩ r 0 (by show (16 * r + 0) / 16 = r; omega) (by show (16 * r + 0) % 16 = 0; omega),
      accZero_apply]
  | k + 1, hk, h => by
    have hN : 16 * r + (k + 1) < 256 := lt_of_lt_of_eq h (show cfg2.N = 256 from N_2)
    have ih := scr2_eq_accum c r k (Nat.lt_of_succ_lt hk) (Nat.lt_of_succ_lt h)
    funext p q
    show (scr2 V c (16 * r + (k + 1)) h : S256x256.Idx → EReal) (ix2 p q)
      = accum (fun k => blockOf (adjM V c) r k) (fun k => rowsOf (ywM V c) k) k p q
        + mmul (blockOf (adjM V c) r (k + 1)) (rowsOf (ywM V c) (k + 1)) p q
    rw [scr2_step V c ⟨16 * r + (k + 1), h⟩ (by show (16 * r + (k + 1)) % 16 ≠ 0; omega),
      accStep_at V c ⟨16 * r + (k + 1), h⟩ r (k + 1) (by show (16 * r + (k + 1)) / 16 = r; omega)
        (by show (16 * r + (k + 1)) % 16 = k + 1; omega), ← ih]
    rfl

/-- At a row's last point the accumulator holds the row-block of the product of the adjacency matrix and the operand. -/
theorem scr2_last (c : Dev nD) (t : Fin cfg2.N) (h15 : t.val % 16 = 15) :
    ofArr (a := 256) (b := 256) (scr2 V c t.val t.isLt) = blockedProd (adjM V c) (ywM V c) (t.val / 16) := by
  have hN : t.val < 256 := lt_of_lt_of_eq t.isLt (show cfg2.N = 256 from N_2)
  have e : t.val = 16 * (t.val / 16) + 15 := by omega
  have h' : 16 * (t.val / 16) + 15 < cfg2.N := lt_of_eq_of_lt e.symm t.isLt
  rw [scr2_congr V c t.val _ t.isLt h' e]
  exact scr2_eq_accum V c (t.val / 16) 15 (by omega) h'

/-! ## What the two output windows write back, and the arrays after the run -/

/-- The bias row's window is resident: its block is the row. -/
theorem iblk2_2_apply (c : Dev nD) (t : Fin cfg2.N) (q : Fin 256) :
    (iblk2 V c 2 t : S1x256.Idx → EReal) (ix2 0 q) = b2R V c q := by
  unfold iblk2
  rw [Cert.ReferenceIdeal.At2.blk2_2_read]
  rfl

/-- The pooling matrix's window is resident. -/
theorem iblk2_3_apply (c : Dev nD) (t : Fin cfg2.N) (k : Fin 256) (q : Fin 128) :
    (iblk2 V c 3 t : S256x128.Idx → EReal) (ix2 k q) = wpM V c k q := by
  unfold iblk2
  rw [Cert.ReferenceIdeal.At2.blk2_3_read]
  rfl

/-- The pooling bias row's window is resident. -/
theorem iblk2_4_apply (c : Dev nD) (t : Fin cfg2.N) (q : Fin 128) :
    (iblk2 V c 4 t : S1x128.Idx → EReal) (ix2 0 q) = bpR V c q := by
  unfold iblk2
  rw [Cert.ReferenceIdeal.At2.blk2_4_read]
  rfl

/-- Row 256 · i + p (p < 256) is row p of the block of rows i. -/
theorem rowBlock_mk (i : ℕ) (p : Fin 256) (h : 256 * i + p.val < 4096) : rowBlock ⟨256 * i + p.val, h⟩ = i := by
  show (256 * i + p.val) / 256 = i
  have := p.isLt; omega
theorem rowIn_mk (i : ℕ) (p : Fin 256) (h : 256 * i + p.val < 4096) : rowIn ⟨256 * i + p.val, h⟩ = p := by
  apply Fin.ext
  show (256 * i + p.val) % 256 = p.val
  have := p.isLt; omega

/-- What the first output's array ends holding: the second layer's output. -/
def G5 (c : Dev nD) : S4096x256.Idx → EReal := toArr (zOf (adjM V c) (ywM V c) (b2R V c))

/-- What the second output's array ends holding: the pooling slab. -/
def G6 (c : Dev nD) : S4096x128.Idx → EReal := toArr (poolOf (adjM V c) (ywM V c) (b2R V c) (wpM V c) (bpR V c))

/-- A point that writes the first output back writes its block of the second layer's output. -/
theorem flushed2_5_eq (c : Dev nD) (t : Fin cfg2.N) (hf : (cfg2.win 5).flush t = true) :
    (dat2 V c).flushed 5 t = ((cfg2.win 5).blk t).view.read (Elt Ideal) (G5 V c) := by
  have h15 : t.val % 16 = 15 := (flush2_5 t).mp hf
  have hN : t.val < 256 := lt_of_lt_of_eq t.isLt (show cfg2.N = 256 from N_2)
  show (cfg2.win 5).cut (grid2.coords t) ((dat2 V c).after 5 t) = _
  rw [after2_5, out2_5_eq]
  funext y
  obtain ⟨p, q, rfl⟩ : ∃ (p q : Fin 256), y = ix2 p q := ⟨y 0, y 1, eq_ix2 y⟩
  rw [Cert.ReferenceIdeal.At2.blk2_5_read]
  show (k2_pay4 (scr2 V c t.val t.isLt) (iblk2 V c 2 t) : S256x256.Idx → EReal) (ix2 p q)
    = lrelu (blockedProd (adjM V c) (ywM V c) (rowBlock ⟨256 * (t.val / 16) + p.val, _⟩) (rowIn ⟨256 * (t.val / 16) + p.val, _⟩) q + b2R V c q)
  rw [k2_pay4_apply, iblk2_2_apply, rowBlock_mk, rowIn_mk, ← scr2_last V c t h15]
  rfl

/-- A point that writes the second output back writes its block of the pooling slab. -/
theorem flushed2_6_eq (c : Dev nD) (t : Fin cfg2.N) (hf : (cfg2.win 6).flush t = true) :
    (dat2 V c).flushed 6 t = ((cfg2.win 6).blk t).view.read (Elt Ideal) (G6 V c) := by
  have h15 : t.val % 16 = 15 := (flush2_6 t).mp hf
  have hN : t.val < 256 := lt_of_lt_of_eq t.isLt (show cfg2.N = 256 from N_2)
  show (cfg2.win 6).cut (grid2.coords t) ((dat2 V c).after 6 t) = _
  rw [after2_6, out2_6_eq]
  funext y
  obtain ⟨p, q, rfl⟩ : ∃ (p : Fin 256) (q : Fin 128), y = ix2 p q := ⟨y 0, y 1, eq_ix2 y⟩
  rw [Cert.ReferenceIdeal.At2.blk2_6_read]
  show (k2_pay5 (scr2 V c t.val t.isLt) (iblk2 V c 2 t) (iblk2 V c 3 t) (iblk2 V c 4 t) : S256x128.Idx → EReal) (ix2 p q)
    = (∑ k : Fin 256, lrelu (blockedProd (adjM V c) (ywM V c) (rowBlock ⟨256 * (t.val / 16) + p.val, _⟩) (rowIn ⟨256 * (t.val / 16) + p.val, _⟩) k + b2R V c k) * wpM V c k q)
      + bpR V c q
  rw [k2_pay5_apply, iblk2_4_apply, rowBlock_mk, rowIn_mk, ← scr2_last V c t h15]
  congr 1
  refine Finset.sum_congr rfl fun k _ => ?_
  rw [iblk2_2_apply, iblk2_3_apply]
  rfl

/-- The first output's array after the run. -/
theorem final2_5 (c : Dev nD) : (dat2 V c).arrAt 5 cfg2.N = G5 V c :=
  (dat2 V c).arrAt_eq_of_cover 5 (G5 V c) (flushed2_5_eq V c) Cert.ReferenceIdeal.At2.cover2_5

/-- The second output's array after the run. -/
theorem final2_6 (c : Dev nD) : (dat2 V c).arrAt 6 cfg2.N = G6 V c :=
  (dat2 V c).arrAt_eq_of_cover 6 (G6 V c) (flushed2_6_eq V c) Cert.ReferenceIdeal.At2.cover2_6

/-- The first output's array after the run, as a matrix, is the second layer's output of the arrays the region finds. -/
theorem z_final (c : Dev nD) :
    ofArr (a := 4096) (b := 256) ((dat2 V c).arrAt 5 cfg2.N)
      = zOf (ofArr (a := 4096) (b := 4096) (V c (Pipeline.arrRef spec2 0))) (ofArr (a := 4096) (b := 256) (V c (Pipeline.arrRef spec2 1)))
          (ofRow (n := 256) (V c (Pipeline.arrRef spec2 2))) := by
  rw [final2_5]
  rfl

/-- The second output's array after the run, as a matrix, is the pooling slab of the arrays the region finds. -/
theorem pool_final (c : Dev nD) :
    ofArr (a := 4096) (b := 128) ((dat2 V c).arrAt 6 cfg2.N)
      = poolOf (ofArr (a := 4096) (b := 4096) (V c (Pipeline.arrRef spec2 0))) (ofArr (a := 4096) (b := 256) (V c (Pipeline.arrRef spec2 1)))
          (ofRow (n := 256) (V c (Pipeline.arrRef spec2 2))) (ofArr (a := 256) (b := 128) (V c (Pipeline.arrRef spec2 3)))
          (ofRow (n := 128) (V c (Pipeline.arrRef spec2 4))) := by
  rw [final2_6]
  rfl

end Cert.ReferenceIdeal.Hand

end
-- ==== Proof.ResultsReference.lean ====
import proofs.«180267_g2000104153886438_pallasbulk_1035_2_alg».proof.Proof.AssembleReference
import proofs.«180267_g2000104153886438_pallasbulk_1035_2_alg».proof.Proof.HostTermsReference
import proofs.«180267_g2000104153886438_pallasbulk_1035_2_alg».proof.Proof.PrepassValue
import proofs.«180267_g2000104153886438_pallasbulk_1035_2_alg».proof.Proof.Gcn1Value
import proofs.«180267_g2000104153886438_pallasbulk_1035_2_alg».proof.Proof.Gcn2Value
import proofs.«180267_g2000104153886438_pallasbulk_1035_2_alg».proof.Proof.Spec
import Idealize.ShloMosaic.Lib.Pipeline.FrameSuffix

set_option maxRecDepth 16384

noncomputable section

namespace Cert.ReferenceIdeal.Hand

open Cert.ReferenceIdeal Cert.ReferenceIdeal.Gen
open Idealize.ShloMosaic Idealize.ShloMosaic.TcCoe
open Idealize.SL.Sem
open Idealize.ShloMosaic.Pipeline (Dat)

/-! # The reference program's results as functions of its arguments

At the ideal values each region's output arrays are functions of the arrays the region finds; what a region finds is
either an operand the first host stretch prepared from the arguments or an array an earlier region wrote. Reading the
three regions in order gives each result of @main as a specification function of the arguments alone. -/

section Results

open Cert.Spec

variable (m : (ℓ : Loc nD τ sig) → Buf (Elt Ideal) ℓ) (c : Dev nD)

/-! ## The arguments as matrices and rows -/

/-- The adjacency matrix. -/
abbrev argA : Mat 4096 4096 := ofArr (a := 4096) (b := 4096) (m ((c.tc : Thread nD τ).loc main_arg0))
/-- The features. -/
abbrev argX : Mat 4096 256 := ofArr (a := 4096) (b := 256) (m ((c.tc : Thread nD τ).loc main_arg1))
/-- The first layer's weights and bias. -/
abbrev argW1 : Mat 256 256 := ofArr (a := 256) (b := 256) (m ((c.tc : Thread nD τ).loc main_arg2))
abbrev argB1 : Fin 256 → EReal := ofRow (n := 256) (m ((c.tc : Thread nD τ).loc main_arg3))
/-- The upper and lower halves of the second layer's weights, and its bias. -/
abbrev argW2t : Mat 256 256 := ofArr (a := 256) (b := 256)
  (extractStridedSlice S256x256 ![0, 0] (m ((c.tc : Thread nD τ).loc main_arg4) : S512x256.Idx → EReal) slices_S512x256_S256x256_0_0)
abbrev argW2b : Mat 256 256 := ofArr (a := 256) (b := 256)
  (extractStridedSlice S256x256 ![256, 0] (m ((c.tc : Thread nD τ).loc main_arg4) : S512x256.Idx → EReal) slices_S512x256_S256x256_256_0)
abbrev argB2 : Fin 256 → EReal := ofRow (n := 256) (m ((c.tc : Thread nD τ).loc main_arg5))
/-- The pooling matrix and bias, padded on the right to 128 columns. -/
abbrev argWp : Mat 256 128 := ofArr (a := 256) (b := 128)
  (pad S256x128 ![0, 0] ![0, 125] ![0, 0] (m ((c.tc : Thread nD τ).loc main_arg6) : S256x3.Idx → EReal)
    (sitofp (F := Ideal) .f32 (constantI S_ 32 0#32)) pads_S256x3_S256x128_000_01250 h_S_)
abbrev argBp : Fin 128 → EReal := ofRow (n := 128)
  (pad S1x128 ![0, 0] ![0, 125] ![0, 0] (m ((c.tc : Thread nD τ).loc main_arg7) : S1x3.Idx → EReal)
    (sitofp (F := Ideal) .f32 (constantI S_ 32 0#32)) pads_S1x3_S1x128_000_01250 h_S_)

/-- The array the second region leaves, as the specification writes it. -/
abbrev ywSpec : Mat 4096 256 :=
  ywR (argA m c) (xw (argX m c) (argW1 m c)) (xw2t (argX m c) (argW2t m c)) (argB1 m c) (argW2b m c)

/-! ## What the pre-pass finds and leaves -/

theorem in0_x : (in0 m c (Pipeline.arrRef spec0 0) : S4096x256.Idx → EReal) = m ((c.tc : Thread nD τ).loc main_arg1) :=
  V1_x m c
theorem in0_w1 : (in0 m c (Pipeline.arrRef spec0 1) : S256x256.Idx → EReal) = m ((c.tc : Thread nD τ).loc main_arg2) :=
  V1_w1 m c
theorem in0_w2t : (in0 m c (Pipeline.arrRef spec0 2) : S256x256.Idx → EReal)
    = extractStridedSlice S256x256 ![0, 0] (m ((c.tc : Thread nD τ).loc main_arg4) : S512x256.Idx → EReal) slices_S512x256_S256x256_0_0 :=
  V1_w2t m c

/-- The pre-pass leaves X · W₁ in its first output -/
theorem xw_val : ofArr (a := 4096) (b := 256) ((dat0 (in0 m) c).arrAt 3 cfg0.N) = xw (argX m c) (argW1 m c) :=
  (xw_final (in0 m) c).trans
    (congrArg₂ xw (congrArg (ofArr (a := 4096) (b := 256)) (in0_x m c)) (congrArg (ofArr (a := 256) (b := 256)) (in0_w1 m c)))

/-- and the rectified X times the upper half of W₂ in its second. -/
theorem xw2t_val : ofArr (a := 4096) (b := 256) ((dat0 (in0 m) c).arrAt 4 cfg0.N) = xw2t (argX m c) (argW2t m c) :=
  (xw2t_final (in0 m) c).trans
    (congrArg₂ xw2t (congrArg (ofArr (a := 4096) (b := 256)) (in0_x m c)) (congrArg (ofArr (a := 256) (b := 256)) (in0_w2t m c)))

/-! ## What the first propagation finds and leaves -/

theorem in1_a : (in1 m c (Pipeline.arrRef spec1 0) : S4096x4096.Idx → EReal) = m ((c.tc : Thread nD τ).loc main_arg0) :=
  (V2_of m (outs m) c main_call0_v1 (by decide)).trans (V1_a m c)
theorem in1_xw : in1 m c (Pipeline.arrRef spec1 1) = (dat0 (in0 m) c).arrAt 3 cfg0.N :=
  (hF0 m c 3).symm
theorem in1_b1 : (in1 m c (Pipeline.arrRef spec1 2) : S1x256.Idx → EReal) = m ((c.tc : Thread nD τ).loc main_arg3) :=
  (V2_of m (outs m) c main_call0_v14 (by decide)).trans (V1_b1 m c)
theorem in1_xw2t : in1 m c (Pipeline.arrRef spec1 3) = (dat0 (in0 m) c).arrAt 4 cfg0.N :=
  (hF0 m c 4).symm
theorem in1_w2b : (in1 m c (Pipeline.arrRef spec1 4) : S256x256.Idx → EReal)
    = extractStridedSlice S256x256 ![256, 0] (m ((c.tc : Thread nD τ).loc main_arg4) : S512x256.Idx → EReal) slices_S512x256_S256x256_256_0 :=
  (V2_of m (outs m) c main_call0_v11 (by decide)).trans (V1_w2b m c)

/-- The first propagation leaves the specification's array. -/
theorem yw_val : ofArr (a := 4096) (b := 256) ((dat1 (in1 m) c).arrAt 5 cfg1.N) = ywSpec m c := by
  have e0 : ofArr (a := 4096) (b := 4096) (in1 m c (Pipeline.arrRef spec1 0)) = argA m c := congrArg _ (in1_a m c)
  have e1 : ofArr (a := 4096) (b := 256) (in1 m c (Pipeline.arrRef spec1 1)) = xw (argX m c) (argW1 m c) :=
    (congrArg (ofArr (a := 4096) (b := 256)) (in1_xw m c)).trans (xw_val m c)
  have e2 : ofRow (n := 256) (in1 m c (Pipeline.arrRef spec1 2)) = argB1 m c := congrArg _ (in1_b1 m c)
  have e3 : ofArr (a := 4096) (b := 256) (in1 m c (Pipeline.arrRef spec1 3)) = xw2t (argX m c) (argW2t m c) :=
    (congrArg (ofArr (a := 4096) (b := 256)) (in1_xw2t m c)).trans (xw2t_val m c)
  have e4 : ofArr (a := 256) (b := 256) (in1 m c (Pipeline.arrRef spec1 4)) = argW2b m c := congrArg _ (in1_w2b m c)
  refine (yw_final (in1 m) c).trans ?_
  rw [e0, e1, e2, e3, e4]

/-! ## What the second propagation finds and leaves -/

theorem in2_a : (in2 m c (Pipeline.arrRef spec2 0) : S4096x4096.Idx → EReal) = m ((c.tc : Thread nD τ).loc main_arg0) :=
  (V3_of m (outs m) c main_call0_v1 (by decide)).trans ((V2_of m (outs m) c main_call0_v1 (by decide)).trans (V1_a m c))
theorem in2_yw : in2 m c (Pipeline.arrRef spec2 1) = (dat1 (in1 m) c).arrAt 5 cfg1.N :=
  (hF1 m c 5).symm
theorem in2_b2 : (in2 m c (Pipeline.arrRef spec2 2) : S1x256.Idx → EReal) = m ((c.tc : Thread nD τ).loc main_arg5) :=
  (V3_of m (outs m) c main_call0_v15 (by decide)).trans ((V2_of m (outs m) c main_call0_v15 (by decide)).trans (V1_b2 m c))
theorem in2_wp : (in2 m c (Pipeline.arrRef spec2 3) : S256x128.Idx → EReal)
    = pad S256x128 ![0, 0] ![0, 125] ![0, 0] (m ((c.tc : Thread nD τ).loc main_arg6) : S256x3.Idx → EReal)
        (sitofp (F := Ideal) .f32 (constantI S_ 32 0#32)) pads_S256x3_S256x128_000_01250 h_S_ :=
  (V3_of m (outs m) c main_call0_v13 (by decide)).trans ((V2_of m (outs m) c main_call0_v13 (by decide)).trans (V1_wp m c))
theorem in2_bp : (in2 m c (Pipeline.arrRef spec2 4) : S1x128.Idx → EReal)
    = pad S1x128 ![0, 0] ![0, 125] ![0, 0] (m ((c.tc : Thread nD τ).loc main_arg7) : S1x3.Idx → EReal)
        (sitofp (F := Ideal) .f32 (constantI S_ 32 0#32)) pads_S1x3_S1x128_000_01250 h_S_ :=
  (V3_of m (outs m) c main_call0_v16 (by decide)).trans ((V2_of m (outs m) c main_call0_v16 (by decide)).trans (V1_bp m c))

/-- The second propagation leaves the second layer's output in its first output -/
theorem z_val : ofArr (a := 4096) (b := 256) ((dat2 (in2 m) c).arrAt 5 cfg2.N) = zOf (argA m c) (ywSpec m c) (argB2 m c) := by
  have e0 : ofArr (a := 4096) (b := 4096) (in2 m c (Pipeline.arrRef spec2 0)) = argA m c := congrArg _ (in2_a m c)
  have e1 : ofArr (a := 4096) (b := 256) (in2 m c (Pipeline.arrRef spec2 1)) = ywSpec m c :=
    (congrArg (ofArr (a := 4096) (b := 256)) (in2_yw m c)).trans (yw_val m c)
  have e2 : ofRow (n := 256) (in2 m c (Pipeline.arrRef spec2 2)) = argB2 m c := congrArg _ (in2_b2 m c)
  refine (z_final (in2 m) c).trans ?_
  rw [e0, e1, e2]

/-- and the pooling slab in its second. -/
theorem pool_val : ofArr (a := 4096) (b := 128) ((dat2 (in2 m) c).arrAt 6 cfg2.N)
    = poolOf (argA m c) (ywSpec m c) (argB2 m c) (argWp m c) (argBp m c) := by
  have e0 : ofArr (a := 4096) (b := 4096) (in2 m c (Pipeline.arrRef spec2 0)) = argA m c := congrArg _ (in2_a m c)
  have e1 : ofArr (a := 4096) (b := 256) (in2 m c (Pipeline.arrRef spec2 1)) = ywSpec m c :=
    (congrArg (ofArr (a := 4096) (b := 256)) (in2_yw m c)).trans (yw_val m c)
  have e2 : ofRow (n := 256) (in2 m c (Pipeline.arrRef spec2 2)) = argB2 m c := congrArg _ (in2_b2 m c)
  have e3 : ofArr (a := 256) (b := 128) (in2 m c (Pipeline.arrRef spec2 3)) = argWp m c := congrArg _ (in2_wp m c)
  have e4 : ofRow (n := 128) (in2 m c (Pipeline.arrRef spec2 4)) = argBp m c := congrArg _ (in2_bp m c)
  refine (pool_final (in2 m) c).trans ?_
  rw [e0, e1, e2, e3, e4]

/-! ## The results of @main -/

/-- What the last region leaves in its two outputs is what the pipeline computes. -/
theorem outs_z : outs m 4 main_call0_v19_0 c = (dat2 (in2 m) c).arrAt 5 cfg2.N := by
  show left2 m c main_call0_v19_0 = _
  unfold left2
  exact Pipeline.withArrays_arr spec2 launch2.win.arr_inj c _ _ 5
theorem outs_pool : outs m 4 main_call0_v19_1 c = (dat2 (in2 m) c).arrAt 6 cfg2.N := by
  show left2 m c main_call0_v19_1 = _
  unfold left2
  exact Pipeline.withArrays_arr spec2 launch2.win.arr_inj c _ _ 6

/-- Result 0 of @main, as a matrix: the second layer's output. -/
theorem z_result : ofArr (a := 4096) (b := 256) (V5 m (outs m) c main_v0_0 : S4096x256.Idx → EReal)
    = zOf (argA m c) (ywR (argA m c) (xw (argX m c) (argW1 m c)) (xw2t (argX m c) (argW2t m c)) (argB1 m c) (argW2b m c)) (argB2 m c) :=
  (congrArg (ofArr (a := 4096) (b := 256)) ((V5_z m c (outs m)).trans (outs_z m c))).trans (z_val m c)

/-- The pooling slab the last region leaves, as a matrix. -/
theorem pool_result : ofArr (a := 4096) (b := 128) (outs m 4 main_call0_v19_1 c : S4096x128.Idx → EReal)
    = poolOf (argA m c) (ywR (argA m c) (xw (argX m c) (argW1 m c)) (xw2t (argX m c) (argW2t m c)) (argB1 m c) (argW2b m c)) (argB2 m c)
        (argWp m c) (argBp m c) :=
  (congrArg (ofArr (a := 4096) (b := 128)) (outs_pool m c)).trans (pool_val m c)

/-- Results 1, 2, 3 of @main: columns 0, 1, 2 of the pooling slab, as vectors. -/
theorem col_result0 : (V5 m (outs m) c main_v0_1 : S4096.Idx → EReal)
    = shapeCast S4096 (extractStridedSlice S4096x1 ![0, 0]
        (extractStridedSlice S4096x3 ![0, 0] (outs m 4 main_call0_v19_1 c : S4096x128.Idx → EReal) slices_S4096x128_S4096x3_0_0)
        slices_S4096x3_S4096x1_0_0) shapeCasts_S4096x1_S4096 :=
  V5_col0 m c (outs m)
theorem col_result1 : (V5 m (outs m) c main_v0_2 : S4096.Idx → EReal)
    = shapeCast S4096 (extractStridedSlice S4096x1 ![0, 1]
        (extractStridedSlice S4096x3 ![0, 0] (outs m 4 main_call0_v19_1 c : S4096x128.Idx → EReal) slices_S4096x128_S4096x3_0_0)
        slices_S4096x3_S4096x1_0_1) shapeCasts_S4096x1_S4096 :=
  V5_col1 m c (outs m)
theorem col_result2 : (V5 m (outs m) c main_v0_3 : S4096.Idx → EReal)
    = shapeCast S4096 (extractStridedSlice S4096x1 ![0, 2]
        (extractStridedSlice S4096x3 ![0, 0] (outs m 4 main_call0_v19_1 c : S4096x128.Idx → EReal) slices_S4096x128_S4096x3_0_0)
        slices_S4096x3_S4096x1_0_2) shapeCasts_S4096x1_S4096 :=
  V5_col2 m c (outs m)

end Results

end Cert.ReferenceIdeal.Hand

end
-- ==== Proof.LibFinite.lean ====
/-
  A finiteness precondition, read at an entry.

  `jnp.all(jnp.abs(a) < inf)` is printed as the reduction by `and` (into a result of one index) of the comparison of
  `|a|` with the broadcast word `0x7F800000` of `+∞`. On the extended reals `|a i| < ⊤` says exactly that `a i` is a
  real number: `|⊤| = |⊥| = ⊤`.
-/
import Idealize.ShloMosaic.PureOps.Ideal
import Idealize.ShloMosaic.PureOps.Ideal.Laws
import Idealize.ShloMosaic.Lib.ReduceAll
import Idealize.ShloMosaic.Lib.ValueIdx

noncomputable section

namespace Cert.LibFinite

open Idealize.ShloMosaic

instance : Subsingleton (⟨0, ![]⟩ : Shape).Idx := ⟨fun a b => funext fun d => d.elim0⟩

/-- An extended real whose absolute value compares below the word of `+∞` is a real number. -/
theorem real_of_abs_lt_inf (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  induction x using EReal.rec with
  | bot =>
    exfalso
    have h' : Ideal.cmp .olt (max (⊥ : EReal) (-⊥)) (Ideal.ofBits .f32 0x7F800000#32) = 1#1 := h
    revert h'; simp [Ideal.cmp, Ideal.ofBits, Ideal.ieee]
  | coe r => exact ⟨r, rfl⟩
  | top =>
    exfalso
    have h' : Ideal.cmp .olt (max (⊤ : EReal) (-⊤)) (Ideal.ofBits .f32 0x7F800000#32) = 1#1 := h
    revert h'; simp [Ideal.cmp, Ideal.ofBits, Ideal.ieee]

/-- `jnp.all(|a| < inf)`, as printed, gives a real number at every entry of `a`. -/
theorem real_of_all {S : Shape} {axes : List (Fin S.rank)} (a : FVec Ideal S .f32)
    (hb : (⟨0, ![]⟩ : Shape).BroadcastsInDim S (![] : Fin 0 → Fin S.rank))
    (hr : S.ReducesTo axes (⟨0, ![]⟩ : Shape)) (hu : 0 < (⟨0, ![]⟩ : Shape).numel)
    (init : (⟨0, ![]⟩ : Shape).Idx → BitVec 1)
    (e : Host.reduce IntOp.andi
        (cmpf .olt (Host.absf a) (broadcastInDim S ![] hb (constant (F := Ideal) (⟨0, ![]⟩ : Shape) .f32 0x7F800000#32)))
        init hr hu ValueIdx.ix0 = 1#1)
    (i : S.Idx) : ∃ r : ℝ, a i = (r : EReal) :=
  real_of_abs_lt_inf (a i) (Host.reduce_andi_all _ init hr hu ValueIdx.ix0 e i)

end Cert.LibFinite

end
-- ==== Proof.FiniteArgs.lean ====
/-
  The finiteness precondition, read at the entries of the first three arguments.

  The precondition is the conjunction (by `and` on one-bit words) of eight statements `all (|a| < +∞)`, one for
  each argument array. A conjunction that is 1 has both sides 1, so each of the eight holds; and `all (|a| < +∞)`
  on the extended reals says that every entry of `a` is a real number. Stated here for arguments 0, 1 and 2.
-/
import proofs.«180267_g2000104153886438_pallasbulk_1035_2_alg».proof.Defs
import proofs.«180267_g2000104153886438_pallasbulk_1035_2_alg».proof.Proof.Gen.Pre_finite_inputs
import proofs.«180267_g2000104153886438_pallasbulk_1035_2_alg».proof.Proof.LibFinite
import Idealize.ShloMosaic.PureOps.Ideal
import Idealize.ShloMosaic.Lib.Affine
import Idealize.ShloMosaic.Lib.ValueIdx

noncomputable section

namespace Cert.FiniteArgs

open Idealize.ShloMosaic Idealize.SL.Sem

/-- Under the precondition every entry of each of the first three argument arrays is a real number. -/
theorem real_args [hK : Cert.KernelIdeal.Facts] [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0) : Cert.KernelIdeal.S4096x4096.Idx → EReal) i = (r : EReal))
    ∧ (∀ i, ∃ r : ℝ, (m ((c.tc : Thread Cert.KernelIdeal.nD Cert.KernelIdeal.τ).loc Cert.KernelIdeal.main_arg1) : Cert.KernelIdeal.S4096x256.Idx → EReal) i = (r : EReal))
    ∧ (∀ i, ∃ r : ℝ, (m ((c.tc : Thread Cert.KernelIdeal.nD Cert.KernelIdeal.τ).loc Cert.KernelIdeal.main_arg2) : Cert.KernelIdeal.S256x256.Idx → EReal) i = (r : EReal)) := by
  -- the precondition's one result word is 1
  have h0 := congrFun (h c) ValueIdx.ix0
  dsimp only [Cert.Pre_finite_inputs.fn, Cert.Pre_finite_inputs.fn_part1, Cert.Pre_finite_inputs.fn_part2] at h0
  -- the conjunction is nested to the left: peel the conjuncts of arguments 7, 6, 5, 4, 3 off, then split the rest
  obtain ⟨h33, -⟩ := IntOp.andi_eq_one.1 h0
  obtain ⟨h28, -⟩ := IntOp.andi_eq_one.1 h33
  obtain ⟨h23, -⟩ := IntOp.andi_eq_one.1 h28
  obtain ⟨h18, -⟩ := IntOp.andi_eq_one.1 h23
  obtain ⟨h13, -⟩ := IntOp.andi_eq_one.1 h18
  obtain ⟨h8, h12⟩ := IntOp.andi_eq_one.1 h13
  obtain ⟨h3, h7⟩ := IntOp.andi_eq_one.1 h8
  exact ⟨fun i => Cert.LibFinite.real_of_all _ _ _ _ _ h3 i, fun i => Cert.LibFinite.real_of_all _ _ _ _ _ h7 i,
    fun i => Cert.LibFinite.real_of_all _ _ _ _ _ h12 i⟩

end Cert.FiniteArgs

end
-- ==== Proof.SpecLaw.lean ====
/-
  The first layer's output is the same matrix whether the product is formed as (A · X) · W₁, block by block, or as
  A · (X · W₁) from a pre-pass: on real entries, multiplying the accumulated blocked product by W₁ on the right is
  accumulating the blocks of X · W₁.
-/
import proofs.«180267_g2000104153886438_pallasbulk_1035_2_alg».proof.Proof.Spec
import proofs.«180267_g2000104153886438_pallasbulk_1035_2_alg».proof.Proof.LibBlockMatmul

namespace Cert.Spec

open Cert.LibBlockMatmul

/-- a block of rows of a matrix with real entries has real entries -/
theorem isReal_rowsOf {n : ℕ} {Y : Mat 4096 n} (hY : IsReal Y) (k : ℕ) : IsReal (rowsOf Y k) :=
  fun _ q => hY _ q

/-- a block of a matrix with real entries has real entries -/
theorem isReal_blockOf {A : Mat 4096 4096} (hA : IsReal A) (i k : ℕ) : IsReal (blockOf A i k) :=
  fun _ _ => hA _ _

/-- a block of rows of X times W is the same block of rows of X · W -/
theorem mmul_rowsOf (X : Mat 4096 256) (W : Mat 256 256) (k : ℕ) :
    mmul (rowsOf X k) W = rowsOf (xw X W) k := rfl

/-- row-block i of A · X, times W, is row-block i of A · (X · W), on real entries -/
theorem mmul_blockedProd {A : Mat 4096 4096} {X : Mat 4096 256} {W : Mat 256 256}
    (hA : IsReal A) (hX : IsReal X) (hW : IsReal W) (i : ℕ) :
    mmul (blockedProd A X i) W = blockedProd A (xw X W) i := by
  unfold blockedProd
  rw [mmul_accum (fun k => isReal_blockOf hA i k) (fun k => isReal_rowsOf hX k) hW 15]
  congr 1

/-- the row r of a matrix is row (r mod 256) of its block of rows number r / 256 -/
theorem rowsOf_rowBlock_rowIn {n : ℕ} (Y : Mat 4096 n) (r : Fin 4096) :
    rowsOf Y (rowBlock r) (rowIn r) = Y r := by
  have hr : (⟨(256 * rowBlock r + (rowIn r).val) % 4096, Nat.mod_lt _ (by norm_num)⟩ : Fin 4096)
      = r := by
    apply Fin.ext
    show (256 * (r.val / 256) + r.val % 256) % 4096 = r.val
    rw [Nat.div_add_mod, Nat.mod_eq_of_lt r.isLt]
  funext q
  show Y ⟨(256 * rowBlock r + (rowIn r).val) % 4096, _⟩ q = Y r q
  rw [hr]

/-- the hidden activation formed from (A · X)ᵢ · W₁ is the one formed from (A · (X · W₁))ᵢ -/
theorem hiddenK_eq {A : Mat 4096 4096} {X : Mat 4096 256} {W1 : Mat 256 256}
    (hA : IsReal A) (hX : IsReal X) (hW : IsReal W1) (b1 : Fin 256 → EReal) (i : ℕ) :
    hiddenK A X W1 b1 i = fun p j => lrelu (blockedProd A (xw X W1) i p j + b1 j) := by
  funext p j
  show lrelu (mmul (blockedProd A X i) W1 p j + b1 j) = _
  rw [mmul_blockedProd hA hX hW]

/-- the first layer's output formed as (A · X) · W₁ block by block equals the one formed as A · (X · W₁) from the
    pre-pass arrays, when A, X and W₁ have real entries -/
theorem ywK_eq_ywR {A : Mat 4096 4096} {X : Mat 4096 256} {W1 : Mat 256 256}
    (hA : IsReal A) (hX : IsReal X) (hW : IsReal W1) (b1 : Fin 256 → EReal) (W2t W2b : Mat 256 256) :
    ywK A X W1 b1 W2t W2b = ywR A (xw X W1) (xw2t X W2t) b1 W2b := by
  funext r q
  have h1 : mmul (fun p j => lrelu (rowsOf X (rowBlock r) p j)) W2t (rowIn r) q = xw2t X W2t r q := by
    show (∑ j : Fin 256, lrelu (rowsOf X (rowBlock r) (rowIn r) j) * W2t j q)
      = ∑ j : Fin 256, lrelu (X r j) * W2t j q
    rw [rowsOf_rowBlock_rowIn]
  show mmul (fun p j => lrelu (rowsOf X (rowBlock r) p j)) W2t (rowIn r) q
      + mmul (hiddenK A X W1 b1 (rowBlock r)) W2b (rowIn r) q
    = xw2t X W2t r q
      + mmul (fun p j => lrelu (blockedProd A (xw X W1) (rowBlock r) p j + b1 j)) W2b (rowIn r) q
  rw [h1, hiddenK_eq hA hX hW]

end Cert.Spec
-- ==== Proof.Bridge.lean ====
/-
  The two programs' results are the same arrays.

  Each program's results are functions of matrices read off its arguments: the second propagation and the pooling of the
  first layer's output, which the kernel program forms as (A · X) · W₁ block by block and the reference as A · (X · W₁)
  from a pre-pass. On memories that agree on the arguments the matrices are the same; on finite arguments the two
  forms of the first layer's output are the same matrix; and an array is determined by the matrix it is read as.
-/
import proofs.«180267_g2000104153886438_pallasbulk_1035_2_alg».proof.Proof.ResultsKernel
import proofs.«180267_g2000104153886438_pallasbulk_1035_2_alg».proof.Proof.ResultsReference
import proofs.«180267_g2000104153886438_pallasbulk_1035_2_alg».proof.Proof.FiniteArgs
import proofs.«180267_g2000104153886438_pallasbulk_1035_2_alg».proof.Proof.SpecLaw
import Idealize.ShloMosaic.Lib.ValueIdx
import Idealize.ShloMosaic.PureOps.Ideal

noncomputable section

namespace Cert.Bridge

open Idealize.ShloMosaic Idealize.ShloMosaic.TcCoe Idealize.SL.Sem Cert.Spec

/-- A rank-2 array is determined by the matrix it is read as. -/
theorem ofArr_injective {a b : ℕ} {f g : (⟨2, ![a, b]⟩ : Shape).Idx → EReal} (h : ofArr f = ofArr g) : f = g := by
  funext i
  rw [ValueIdx.eq_ix2 i]
  exact congrFun (congrFun h (i 0)) (i 1)

/-- An array whose every entry is a real number is read as a matrix with real entries. -/
theorem isReal_ofArr {a b : ℕ} {f : (⟨2, ![a, b]⟩ : Shape).Idx → EReal} (h : ∀ i, ∃ r : ℝ, f i = (r : EReal)) :
    Cert.LibBlockMatmul.IsReal (ofArr f) := fun r q => h (ValueIdx.ix2 r q)

/-- The two programs' results agree: on memories that agree on the arguments, the arguments finite, the reference's four
    results are the kernel program's. The first layer's output is the same matrix either way (the blocked product is
    associative on real entries); the second propagation and the pooling are the same functions of it. -/
theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (c : Dev Cert.KernelIdeal.nD) :
    ((Cert.ReferenceIdeal.Gen.V5 m' (Cert.ReferenceIdeal.Hand.outs m') c Cert.ReferenceIdeal.main_v0_0 : Cert.KernelIdeal.S4096x256.Idx → EReal)
        = (Cert.KernelIdeal.Gen.V4 m (Cert.KernelIdeal.Hand.outs m) c Cert.KernelIdeal.main_v0_0 : Cert.KernelIdeal.S4096x256.Idx → EReal))
    ∧ ((Cert.ReferenceIdeal.Gen.V5 m' (Cert.ReferenceIdeal.Hand.outs m') c Cert.ReferenceIdeal.main_v0_1 : Cert.KernelIdeal.S4096.Idx → EReal)
        = (Cert.KernelIdeal.Gen.V4 m (Cert.KernelIdeal.Hand.outs m) c Cert.KernelIdeal.main_v0_1 : Cert.KernelIdeal.S4096.Idx → EReal))
    ∧ ((Cert.ReferenceIdeal.Gen.V5 m' (Cert.ReferenceIdeal.Hand.outs m') c Cert.ReferenceIdeal.main_v0_2 : Cert.KernelIdeal.S4096.Idx → EReal)
        = (Cert.KernelIdeal.Gen.V4 m (Cert.KernelIdeal.Hand.outs m) c Cert.KernelIdeal.main_v0_2 : Cert.KernelIdeal.S4096.Idx → EReal))
    ∧ ((Cert.ReferenceIdeal.Gen.V5 m' (Cert.ReferenceIdeal.Hand.outs m') c Cert.ReferenceIdeal.main_v0_3 : Cert.KernelIdeal.S4096.Idx → EReal)
        = (Cert.KernelIdeal.Gen.V4 m (Cert.KernelIdeal.Hand.outs m) c Cert.KernelIdeal.main_v0_3 : Cert.KernelIdeal.S4096.Idx → EReal)) := by
  obtain ⟨h0, h1, h2, h3, h4, h5, h6, h7⟩ := hagree c
  -- the reference's matrices are the kernel program's
  have eA : Cert.ReferenceIdeal.Hand.argA m' c = Cert.KernelIdeal.Hand.argA m c := congrArg (ofArr (a := 4096) (b := 4096)) h0
  have eX : Cert.ReferenceIdeal.Hand.argX m' c = Cert.KernelIdeal.Hand.argX m c := congrArg (ofArr (a := 4096) (b := 256)) h1
  have eW1 : Cert.ReferenceIdeal.Hand.argW1 m' c = Cert.KernelIdeal.Hand.argW1 m c := congrArg (ofArr (a := 256) (b := 256)) h2
  have eb1 : Cert.ReferenceIdeal.Hand.argB1 m' c = Cert.KernelIdeal.Hand.argB1 m c := congrArg (ofRow (n := 256)) h3
  have eW2t : Cert.ReferenceIdeal.Hand.argW2t m' c = Cert.KernelIdeal.Hand.argW2t m c :=
    congrArg (fun f => ofArr (extractStridedSlice Cert.KernelIdeal.S256x256 ![0, 0] f Cert.KernelIdeal.Gen.slices_S512x256_S256x256_0_0)) h4
  have eW2b : Cert.ReferenceIdeal.Hand.argW2b m' c = Cert.KernelIdeal.Hand.argW2b m c :=
    congrArg (fun f => ofArr (extractStridedSlice Cert.KernelIdeal.S256x256 ![256, 0] f Cert.KernelIdeal.Gen.slices_S512x256_S256x256_256_0)) h4
  have eb2 : Cert.ReferenceIdeal.Hand.argB2 m' c = Cert.KernelIdeal.Hand.argB2 m c := congrArg (ofRow (n := 256)) h5
  have eWp : Cert.ReferenceIdeal.Hand.argWp m' c = Cert.KernelIdeal.Hand.argWp m c :=
    congrArg (fun f => ofArr (pad Cert.KernelIdeal.S256x128 ![0, 0] ![0, 125] ![0, 0] f
      (sitofp (F := Ideal) .f32 (constantI Cert.KernelIdeal.S_ 32 0#32)) Cert.KernelIdeal.Gen.pads_S256x3_S256x128_000_01250 Cert.KernelIdeal.Gen.h_S_)) h6
  have ebp : Cert.ReferenceIdeal.Hand.argBp m' c = Cert.KernelIdeal.Hand.argBp m c :=
    congrArg (fun f => ofRow (pad Cert.KernelIdeal.S1x128 ![0, 0] ![0, 125] ![0, 0] f
      (sitofp (F := Ideal) .f32 (constantI Cert.KernelIdeal.S_ 32 0#32)) Cert.KernelIdeal.Gen.pads_S1x3_S1x128_000_01250 Cert.KernelIdeal.Gen.h_S_)) h7
  -- the arguments A, X, W₁ have real entries
  obtain ⟨r0, r1, r2⟩ := Cert.FiniteArgs.real_args m hpre c
  have hA : Cert.LibBlockMatmul.IsReal (Cert.KernelIdeal.Hand.argA m c) := isReal_ofArr r0
  have hX : Cert.LibBlockMatmul.IsReal (Cert.KernelIdeal.Hand.argX m c) := isReal_ofArr r1
  have hW : Cert.LibBlockMatmul.IsReal (Cert.KernelIdeal.Hand.argW1 m c) := isReal_ofArr r2
  -- the first layer's output, the reference's way, is the kernel program's
  have eyw : ywR (Cert.ReferenceIdeal.Hand.argA m' c) (xw (Cert.ReferenceIdeal.Hand.argX m' c) (Cert.ReferenceIdeal.Hand.argW1 m' c)) (xw2t (Cert.ReferenceIdeal.Hand.argX m' c) (Cert.ReferenceIdeal.Hand.argW2t m' c)) (Cert.ReferenceIdeal.Hand.argB1 m' c) (Cert.ReferenceIdeal.Hand.argW2b m' c)
      = ywK (Cert.KernelIdeal.Hand.argA m c) (Cert.KernelIdeal.Hand.argX m c) (Cert.KernelIdeal.Hand.argW1 m c) (Cert.KernelIdeal.Hand.argB1 m c) (Cert.KernelIdeal.Hand.argW2t m c) (Cert.KernelIdeal.Hand.argW2b m c) := by
    rw [eA, eX, eW1, eb1, eW2t, eW2b]
    exact (ywK_eq_ywR hA hX hW _ _ _).symm
  -- result 0
  have ez : (Cert.ReferenceIdeal.Gen.V5 m' (Cert.ReferenceIdeal.Hand.outs m') c Cert.ReferenceIdeal.main_v0_0 : Cert.KernelIdeal.S4096x256.Idx → EReal)
      = (Cert.KernelIdeal.Gen.V4 m (Cert.KernelIdeal.Hand.outs m) c Cert.KernelIdeal.main_v0_0 : Cert.KernelIdeal.S4096x256.Idx → EReal) := by
    apply ofArr_injective
    rw [Cert.ReferenceIdeal.Hand.z_result m' c, Cert.KernelIdeal.Hand.z_result m c, eyw, eA, eb2]
  -- the pooling slabs are the same array
  have eslab : (Cert.ReferenceIdeal.Hand.outs m' 4 Cert.ReferenceIdeal.main_call0_v19_1 c : Cert.KernelIdeal.S4096x128.Idx → EReal)
      = (Cert.KernelIdeal.Hand.outs m 3 Cert.KernelIdeal.main_call0_v16_1 c : Cert.KernelIdeal.S4096x128.Idx → EReal) := by
    apply ofArr_injective
    rw [Cert.ReferenceIdeal.Hand.pool_result m' c, Cert.KernelIdeal.Hand.pool_result m c, eyw, eA, eb2, eWp, ebp]
  refine ⟨ez, ?_, ?_, ?_⟩
  · rw [Cert.ReferenceIdeal.Hand.col_result0 m' c, Cert.KernelIdeal.Hand.col_result0 m c]
    exact congrArg (fun f => shapeCast Cert.KernelIdeal.S4096 (extractStridedSlice Cert.KernelIdeal.S4096x1 ![0, 0]
        (extractStridedSlice Cert.KernelIdeal.S4096x3 ![0, 0] (f : Cert.KernelIdeal.S4096x128.Idx → EReal) Cert.KernelIdeal.Gen.slices_S4096x128_S4096x3_0_0)
        Cert.KernelIdeal.Gen.slices_S4096x3_S4096x1_0_0) Cert.KernelIdeal.Gen.shapeCasts_S4096x1_S4096) eslab
  · rw [Cert.ReferenceIdeal.Hand.col_result1 m' c, Cert.KernelIdeal.Hand.col_result1 m c]
    exact congrArg (fun f => shapeCast Cert.KernelIdeal.S4096 (extractStridedSlice Cert.KernelIdeal.S4096x1 ![0, 1]
        (extractStridedSlice Cert.KernelIdeal.S4096x3 ![0, 0] (f : Cert.KernelIdeal.S4096x128.Idx → EReal) Cert.KernelIdeal.Gen.slices_S4096x128_S4096x3_0_0)
        Cert.KernelIdeal.Gen.slices_S4096x3_S4096x1_0_1) Cert.KernelIdeal.Gen.shapeCasts_S4096x1_S4096) eslab
  · rw [Cert.ReferenceIdeal.Hand.col_result2 m' c, Cert.KernelIdeal.Hand.col_result2 m c]
    exact congrArg (fun f => shapeCast Cert.KernelIdeal.S4096 (extractStridedSlice Cert.KernelIdeal.S4096x1 ![0, 2]
        (extractStridedSlice Cert.KernelIdeal.S4096x3 ![0, 0] (f : Cert.KernelIdeal.S4096x128.Idx → EReal) Cert.KernelIdeal.Gen.slices_S4096x128_S4096x3_0_0)
        Cert.KernelIdeal.Gen.slices_S4096x3_S4096x1_0_2) Cert.KernelIdeal.Gen.shapeCasts_S4096x1_S4096) eslab

end Cert.Bridge

end
-- ==== Proof.lean ====
/-
  The certificate's claim, assembled.

  The kernel program fuses two graph-convolution layers and a pooling head in two pallas_calls; the reference does the
  same in three, with a pre-pass. Both accumulate the product with the 4096 × 4096 adjacency matrix block by block over a
  16 × 16 grid. The one place where they differ is the first layer: the kernel forms (A · X) · W₁, the reference
  A · (X · W₁). On the extended reals the two agree when every entry of A, X and W₁ is a real number — associativity and
  distributivity of the block products, which fail at infinities —, and that is what the precondition gives. Every other
  step (bias, leaky rectifier, the second weight matrix in its two halves, the second propagation, the pooling matrix,
  the final slices) is the same function on both sides.

  The three frames are the programs' runs read at the argument arrays; the idealization rewrote nothing, so its ledger
  is empty; the algebraic claim pairs the two runs' results through the specification (Spec.lean) and the law
  (SpecLaw.lean), the agreement of the results being Bridge.lean's.
-/
import proofs.«180267_g2000104153886438_pallasbulk_1035_2_alg».proof.Defs
import proofs.«180267_g2000104153886438_pallasbulk_1035_2_alg».proof.Proof.Gen.Kernel
import proofs.«180267_g2000104153886438_pallasbulk_1035_2_alg».proof.Proof.Gen.KernelIdeal
import proofs.«180267_g2000104153886438_pallasbulk_1035_2_alg».proof.Proof.Gen.ReferenceIdeal
import proofs.«180267_g2000104153886438_pallasbulk_1035_2_alg».proof.Proof.Gen.Pre_finite_inputs
import proofs.«180267_g2000104153886438_pallasbulk_1035_2_alg».proof.Proof.AssembleKernelBits
import proofs.«180267_g2000104153886438_pallasbulk_1035_2_alg».proof.Proof.Bridge

noncomputable section

namespace Cert.Proof

open Idealize.ShloMosaic Idealize.ShloMosaic.TcCoe Idealize.SL.Sem

theorem claim : Cert.Claim := by
  refine ⟨Cert.Kernel.Gen.facts, Cert.KernelIdeal.Gen.facts, Cert.ReferenceIdeal.Gen.facts, Cert.Pre_finite_inputs.Gen.facts, ?_, ?_, ?_, trivial, ?_⟩
  · -- the word-level kernel program runs and keeps its arguments
    intro m ρ _
    exact (θ_run (Cert.Kernel.defs (F := Bits)) _ _).mono
      (fun r h c => Cert.Kernel.Hand.args_of_post m (Cert.Kernel.Hand.outs m) r.2.mem h c)
      (Cert.Kernel.Hand.run_main (F := Bits) m ρ)
  · -- so does the idealized kernel program
    intro m ρ _
    exact (θ_run (Cert.KernelIdeal.defs (F := Ideal)) _ _).mono
      (fun r h c => Cert.KernelIdeal.Hand.args_of_post m (Cert.KernelIdeal.Hand.outs m) r.2.mem h c)
      (Cert.KernelIdeal.Hand.run_main (F := Ideal) m ρ)
  · -- and the idealized reference
    intro m ρ _
    exact (θ_run (Cert.ReferenceIdeal.defs (F := Ideal)) _ _).mono
      (fun r h c => Cert.ReferenceIdeal.Hand.args_of_post m (Cert.ReferenceIdeal.Hand.outs m) r.2.mem h c)
      (Cert.ReferenceIdeal.Hand.run_main (F := Ideal) m ρ)
  · -- both idealized programs end with the same four results
    intro m ρ m' ρ' hpre hagree
    refine ⟨fun c => Cert.KernelIdeal.Gen.V4 m (Cert.KernelIdeal.Hand.outs m) c Cert.KernelIdeal.main_v0_0,
      fun c => Cert.KernelIdeal.Gen.V4 m (Cert.KernelIdeal.Hand.outs m) c Cert.KernelIdeal.main_v0_1,
      fun c => Cert.KernelIdeal.Gen.V4 m (Cert.KernelIdeal.Hand.outs m) c Cert.KernelIdeal.main_v0_2,
      fun c => Cert.KernelIdeal.Gen.V4 m (Cert.KernelIdeal.Hand.outs m) c Cert.KernelIdeal.main_v0_3, ?_, ?_⟩
    · exact (θ_run (Cert.KernelIdeal.defs (F := Ideal)) _ _).mono
        (fun r h c => ⟨h c _ (Cert.KernelIdeal.Hand.mem_ucRef Cert.KernelIdeal.main_v0_0 (by decide)),
          h c _ (Cert.KernelIdeal.Hand.mem_ucRef Cert.KernelIdeal.main_v0_1 (by decide)),
          h c _ (Cert.KernelIdeal.Hand.mem_ucRef Cert.KernelIdeal.main_v0_2 (by decide)),
          h c _ (Cert.KernelIdeal.Hand.mem_ucRef Cert.KernelIdeal.main_v0_3 (by decide)),
          Cert.KernelIdeal.Hand.args_of_post m (Cert.KernelIdeal.Hand.outs m) r.2.mem h c⟩)
        (Cert.KernelIdeal.Hand.run_main (F := Ideal) m ρ)
    · exact (θ_run (Cert.ReferenceIdeal.defs (F := Ideal)) _ _).mono
        (fun r h c =>
          have hb := Cert.Bridge.results_agree m m' hpre hagree c
          ⟨(h c _ (Cert.ReferenceIdeal.Hand.mem_ucRef Cert.ReferenceIdeal.main_v0_0 (by decide))).trans hb.1,
            (h c _ (Cert.ReferenceIdeal.Hand.mem_ucRef Cert.ReferenceIdeal.main_v0_1 (by decide))).trans hb.2.1,
            (h c _ (Cert.ReferenceIdeal.Hand.mem_ucRef Cert.ReferenceIdeal.main_v0_2 (by decide))).trans hb.2.2.1,
            (h c _ (Cert.ReferenceIdeal.Hand.mem_ucRef Cert.ReferenceIdeal.main_v0_3 (by decide))).trans hb.2.2.2,
            Cert.ReferenceIdeal.Hand.args_of_post m' (Cert.ReferenceIdeal.Hand.outs m') r.2.mem h c⟩)
        (Cert.ReferenceIdeal.Hand.run_main (F := Ideal) m' ρ')

end Cert.Proof

end
